-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v143)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v143) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S32768 : Shape := ⟨1, ![32768]⟩
abbrev S4x1024x512 : Shape := ⟨3, ![4, 1024, 512]⟩
abbrev S4x512 : Shape := ⟨2, ![4, 512]⟩
abbrev S4x512x128 : Shape := ⟨3, ![4, 512, 128]⟩
abbrev S4x128 : Shape := ⟨2, ![4, 128]⟩
abbrev S4x128x512 : Shape := ⟨3, ![4, 128, 512]⟩
abbrev S4x512x1024 : Shape := ⟨3, ![4, 512, 1024]⟩
abbrev S4x1024 : Shape := ⟨2, ![4, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S4x1024x512 : S_.BroadcastsInDim S4x1024x512 (![] : Fin 0 → Fin S4x1024x512.rank)
  reducesTo_S4x1024x512_S_d0_1_2 : S4x1024x512.ReducesTo [0, 1, 2] S_
  bcast_S_S4x512 : S_.BroadcastsInDim S4x512 (![] : Fin 0 → Fin S4x512.rank)
  reducesTo_S4x512_S_d0_1 : S4x512.ReducesTo [0, 1] S_
  bcast_S_S4x512x128 : S_.BroadcastsInDim S4x512x128 (![] : Fin 0 → Fin S4x512x128.rank)
  reducesTo_S4x512x128_S_d0_1_2 : S4x512x128.ReducesTo [0, 1, 2] S_
  bcast_S_S4x128 : S_.BroadcastsInDim S4x128 (![] : Fin 0 → Fin S4x128.rank)
  reducesTo_S4x128_S_d0_1 : S4x128.ReducesTo [0, 1] S_
  bcast_S_S4x128x512 : S_.BroadcastsInDim S4x128x512 (![] : Fin 0 → Fin S4x128x512.rank)
  reducesTo_S4x128x512_S_d0_1_2 : S4x128x512.ReducesTo [0, 1, 2] S_
  bcast_S_S4x512x1024 : S_.BroadcastsInDim S4x512x1024 (![] : Fin 0 → Fin S4x512x1024.rank)
  reducesTo_S4x512x1024_S_d0_1_2 : S4x512x1024.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S32768 : S_.BroadcastsInDim S32768 (![] : Fin 0 → Fin S32768.rank)
  reducesTo_S32768_S_d0 : S32768.ReducesTo [0] S_

variable [Facts]

def fn_part2 {F : FTy → Type} [FloatOps F] (main_arg1 : IVec S32768 32) (main_arg8 : FVec F S4x512x1024 .f32) (main_arg9 : FVec F S4x1024 .f32) (main_v33 : IVec S_ 1) : IVec S_ 1 :=
  let main_v34 : FVec F S4x512x1024 .f32 := Host.absf main_arg8
  let main_cst_12 : FVec F S_ .f32 := constant S_ .f32 0x7F800000#32
  let main_v35 : FVec F S4x512x1024 .f32 := broadcastInDim S4x512x1024 ![] bcast_S_S4x512x1024 main_cst_12
  let main_v36 : IVec S4x512x1024 1 := cmpf .olt main_v34 main_v35
  let main_c_13 : IVec S_ 1 := constantI S_ 1 1#1
  let main_v37 : IVec S_ 1 := (fun x v => Host.reduce IntOp.andi x v reducesTo_S4x512x1024_S_d0_1_2 h_S_) main_v36 main_c_13
  let main_v38 : IVec S_ 1 := andi main_v33 main_v37
  let main_v39 : FVec F S4x1024 .f32 := Host.absf main_arg9
  let main_cst_14 : FVec F S_ .f32 := constant S_ .f32 0x7F800000#32
  let main_v40 : FVec F S4x1024 .f32 := broadcastInDim S4x1024 ![] bcast_S_S4x1024 main_cst_14
  let main_v41 : IVec S4x1024 1 := cmpf .olt main_v39 main_v40
  let main_c_15 : IVec S_ 1 := constantI S_ 1 1#1
  let main_v42 : IVec S_ 1 := (fun x v => Host.reduce IntOp.andi x v reducesTo_S4x1024_S_d0_1 h_S_) main_v41 main_c_15
  let main_v43 : IVec S_ 1 := andi main_v38 main_v42
  let main_c_16 : IVec S_ 32 := constantI S_ 32 0#32
  let main_v44 : IVec S32768 32 := broadcastInDim S32768 ![] bcast_S_S32768 main_c_16
  let main_v45 : IVec S32768 1 := cmpi .sge main_arg1 main_v44
  let main_c_17 : IVec S_ 32 := constantI S_ 32 4#32
  let main_v46 : IVec S32768 32 := broadcastInDim S32768 ![] bcast_S_S32768 main_c_17
  let main_v47 : IVec S32768 1 := cmpi .slt main_arg1 main_v46
  let main_v48 : IVec S32768 1 := andi main_v45 main_v47
  let main_c_18 : IVec S_ 1 := constantI S_ 1 1#1
  let main_v49 : IVec S_ 1 := (fun x v => Host.reduce IntOp.andi x v reducesTo_S32768_S_d0 h_S_) main_v48 main_c_18
  let main_v50 : IVec S_ 1 := andi main_v43 main_v49
  main_v50

def fn_part1 {F : FTy → Type} [FloatOps F] (main_arg1 : IVec S32768 32) (main_arg5 : FVec F S4x128 .f32) (main_arg6 : FVec F S4x128x512 .f32) (main_arg7 : FVec F S4x512 .f32) (main_arg8 : FVec F S4x512x1024 .f32) (main_arg9 : FVec F S4x1024 .f32) (main_v13 : IVec S_ 1) (main_v16 : IVec S4x512x128 1) : IVec S_ 1 :=
  let main_c_5 : IVec S_ 1 := constantI S_ 1 1#1
  let main_v17 : IVec S_ 1 := (fun x v => Host.reduce IntOp.andi x v reducesTo_S4x512x128_S_d0_1_2 h_S_) main_v16 main_c_5
  let main_v18 : IVec S_ 1 := andi main_v13 main_v17
  let main_v19 : FVec F S4x128 .f32 := Host.absf main_arg5
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128x512 .f32 := Host.absf main_arg6
  let main_cst_8 : FVec F S_ .f32 := constant S_ .f32 0x7F800000#32
  let main_v25 : FVec F S4x128x512 .f32 := broadcastInDim S4x128x512 ![] bcast_S_S4x128x512 main_cst_8
  let main_v26 : IVec S4x128x512 1 := cmpf .olt main_v24 main_v25
  let main_c_9 : IVec S_ 1 := constantI S_ 1 1#1
  let main_v27 : IVec S_ 1 := (fun x v => Host.reduce IntOp.andi x v reducesTo_S4x128x512_S_d0_1_2 h_S_) main_v26 main_c_9
  let main_v28 : IVec S_ 1 := andi main_v23 main_v27
  let main_v29 : FVec F S4x512 .f32 := Host.absf main_arg7
  let main_cst_10 : FVec F S_ .f32 := constant S_ .f32 0x7F800000#32
  let main_v30 : FVec F S4x512 .f32 := broadcastInDim S4x512 ![] bcast_S_S4x512 main_cst_10
  let main_v31 : IVec S4x512 1 := cmpf .olt main_v29 main_v30
  let main_c_11 : IVec S_ 1 := constantI S_ 1 1#1
  let main_v32 : IVec S_ 1 := (fun x v => Host.reduce IntOp.andi x v reducesTo_S4x512_S_d0_1 h_S_) main_v31 main_c_11
  let main_v33 : IVec S_ 1 := andi main_v28 main_v32
  fn_part2 (F := F) main_arg1 main_arg8 main_arg9 main_v33

def fn {F : FTy → Type} [FloatOps F] (main_arg0 : FVec F S32768x1024 .f32) (main_arg1 : IVec S32768 32) (main_arg2 : FVec F S4x1024x512 .f32) (main_arg3 : FVec F S4x512 .f32) (main_arg4 : FVec F S4x512x128 .f32) (main_arg5 : FVec F S4x128 .f32) (main_arg6 : FVec F S4x128x512 .f32) (main_arg7 : FVec F S4x512 .f32) (main_arg8 : FVec F S4x512x1024 .f32) (main_arg9 : FVec F S4x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S4x1024x512 .f32 := Host.absf main_arg2
  let main_cst_0 : FVec F S_ .f32 := constant S_ .f32 0x7F800000#32
  let main_v5 : FVec F S4x1024x512 .f32 := broadcastInDim S4x1024x512 ![] bcast_S_S4x1024x512 main_cst_0
  let main_v6 : IVec S4x1024x512 1 := cmpf .olt main_v4 main_v5
  let main_c_1 : IVec S_ 1 := constantI S_ 1 1#1
  let main_v7 : IVec S_ 1 := (fun x v => Host.reduce IntOp.andi x v reducesTo_S4x1024x512_S_d0_1_2 h_S_) main_v6 main_c_1
  let main_v8 : IVec S_ 1 := andi main_v3 main_v7
  let main_v9 : FVec F S4x512 .f32 := Host.absf main_arg3
  let main_cst_2 : FVec F S_ .f32 := constant S_ .f32 0x7F800000#32
  let main_v10 : FVec F S4x512 .f32 := broadcastInDim S4x512 ![] bcast_S_S4x512 main_cst_2
  let main_v11 : IVec S4x512 1 := cmpf .olt main_v9 main_v10
  let main_c_3 : IVec S_ 1 := constantI S_ 1 1#1
  let main_v12 : IVec S_ 1 := (fun x v => Host.reduce IntOp.andi x v reducesTo_S4x512_S_d0_1 h_S_) main_v11 main_c_3
  let main_v13 : IVec S_ 1 := andi main_v8 main_v12
  let main_v14 : FVec F S4x512x128 .f32 := Host.absf main_arg4
  let main_cst_4 : FVec F S_ .f32 := constant S_ .f32 0x7F800000#32
  let main_v15 : FVec F S4x512x128 .f32 := broadcastInDim S4x512x128 ![] bcast_S_S4x512x128 main_cst_4
  let main_v16 : IVec S4x512x128 1 := cmpf .olt main_v14 main_v15
  fn_part1 (F := F) main_arg1 main_arg5 main_arg6 main_arg7 main_arg8 main_arg9 main_v13 main_v16
-- ==== Kernel.lean ====
abbrev S32768x1024 : Shape := ⟨2, ![32768, 1024]⟩
abbrev S32768 : Shape := ⟨1, ![32768]⟩
abbrev S4x1024x512 : Shape := ⟨3, ![4, 1024, 512]⟩
abbrev S4x512 : Shape := ⟨2, ![4, 512]⟩
abbrev S4x512x128 : Shape := ⟨3, ![4, 512, 128]⟩
abbrev S4x128 : Shape := ⟨2, ![4, 128]⟩
abbrev S4x128x512 : Shape := ⟨3, ![4, 128, 512]⟩
abbrev S4x512x1024 : Shape := ⟨3, ![4, 512, 1024]⟩
abbrev S4x1024 : Shape := ⟨2, ![4, 1024]⟩
abbrev S_ : Shape := ⟨0, ![]⟩
abbrev S32768x1 : Shape := ⟨2, ![32768, 1]⟩
abbrev S4 : Shape := ⟨1, ![4]⟩
abbrev S1x32768 : Shape := ⟨2, ![1, 32768]⟩
abbrev S4x1 : Shape := ⟨2, ![4, 1]⟩
abbrev S4x32768 : Shape := ⟨2, ![4, 32768]⟩
abbrev S1 : Shape := ⟨1, ![1]⟩
abbrev S3 : Shape := ⟨1, ![3]⟩
abbrev S36864 : Shape := ⟨1, ![36864]⟩
abbrev S36864x1 : Shape := ⟨2, ![36864, 1]⟩
abbrev S36864x1024 : Shape := ⟨2, ![36864, 1024]⟩
abbrev S36 : Shape := ⟨1, ![36]⟩
abbrev S1024x1024 : Shape := ⟨2, ![1024, 1024]⟩
abbrev S1x1024x512 : Shape := ⟨3, ![1, 1024, 512]⟩
abbrev S1024x512 : Shape := ⟨2, ![1024, 512]⟩
abbrev S1x512 : Shape := ⟨2, ![1, 512]⟩
abbrev S512 : Shape := ⟨1, ![512]⟩
abbrev S1x512x128 : Shape := ⟨3, ![1, 512, 128]⟩
abbrev S512x128 : Shape := ⟨2, ![512, 128]⟩
abbrev S1024x128 : Shape := ⟨2, ![1024, 128]⟩
abbrev S1x128 : Shape := ⟨2, ![1, 128]⟩
abbrev S128 : Shape := ⟨1, ![128]⟩
abbrev S1x128x512 : Shape := ⟨3, ![1, 128, 512]⟩
abbrev S128x512 : Shape := ⟨2, ![128, 512]⟩
abbrev S1x512x1024 : Shape := ⟨3, ![1, 512, 1024]⟩
abbrev S512x1024 : Shape := ⟨2, ![512, 1024]⟩
abbrev S1x1024 : Shape := ⟨2, ![1, 1024]⟩
abbrev S1024 : Shape := ⟨1, ![1024]⟩

abbrev nBuf : Space → Nat
  | .hbm => 219
  | .vmem => 12
  | .smem => 1
  | _ => 0

abbrev hbmTy0_0 (i : Nat) : BufTy := match i % 128 with
  | 0 => ⟨S32768x1024, .f32⟩
  | 1 => ⟨S32768, .i32⟩
  | 2 => ⟨S4x1024x512, .f32⟩
  | 3 => ⟨S4x512, .f32⟩
  | 4 => ⟨S4x512x128, .f32⟩
  | 5 => ⟨S4x128, .f32⟩
  | 6 => ⟨S4x128x512, .f32⟩
  | 7 => ⟨S4x512, .f32⟩
  | 8 => ⟨S4x512x1024, .f32⟩
  | 9 => ⟨S4x1024, .f32⟩
  | 10 => ⟨S_, .i32⟩
  | 11 => ⟨S_, .i32⟩
  | 12 => ⟨S_, .i32⟩
  | 13 => ⟨S32768, .i32⟩
  | 14 => ⟨S32768, .i32⟩
  | 15 => ⟨S_, .i32⟩
  | 16 => ⟨S32768, .i32⟩
  | 17 => ⟨S32768, .i32⟩
  | 18 => ⟨S32768, .i32⟩
  | 19 => ⟨S32768, .i32⟩
  | 20 => ⟨S32768, .i32⟩
  | 21 => ⟨S_, .i32⟩
  | 22 => ⟨S32768, .i32⟩
  | 23 => ⟨S32768, .i1⟩
  | 24 => ⟨S_, .i32⟩
  | 25 => ⟨S32768, .i32⟩
  | 26 => ⟨S32768, .i32⟩
  | 27 => ⟨S32768, .i32⟩
  | 28 => ⟨S32768x1, .i32⟩
  | 29 => ⟨S32768, .i32⟩
  | 30 => ⟨S4, .i32⟩
  | 31 => ⟨S1x32768, .i32⟩
  | 32 => ⟨S4x1, .i32⟩
  | 33 => ⟨S4x32768, .i32⟩
  | 34 => ⟨S4x32768, .i32⟩
  | 35 => ⟨S4x32768, .i1⟩
  | 36 => ⟨S4x32768, .i32⟩
  | 37 => ⟨S_, .i32⟩
  | 38 => ⟨S4, .i32⟩
  | 39 => ⟨S_, .i32⟩
  | 40 => ⟨S1, .i32⟩
  | 41 => ⟨S_, .i32⟩
  | 42 => ⟨S_, .i32⟩
  | 43 => ⟨S4, .i32⟩
  | 44 => ⟨S3, .i32⟩
  | 45 => ⟨S4, .i32⟩
  | 46 => ⟨S_, .i32⟩
  | 47 => ⟨S4, .i32⟩
  | 48 => ⟨S4, .i32⟩
  | 49 => ⟨S_, .i32⟩
  | 50 => ⟨S4, .i32⟩
  | 51 => ⟨S4, .i32⟩
  | 52 => ⟨S_, .i32⟩
  | 53 => ⟨S_, .i32⟩
  | 54 => ⟨S4, .i32⟩
  | 55 => ⟨S4, .i32⟩
  | 56 => ⟨S4, .i32⟩
  | 57 => ⟨S_, .i32⟩
  | 58 => ⟨S4, .i32⟩
  | 59 => ⟨S4, .i1⟩
  | 60 => ⟨S4, .i32⟩
  | 61 => ⟨S4, .i32⟩
  | 62 => ⟨S_, .i32⟩
  | 63 => ⟨S4, .i32⟩
  | 64 => ⟨S4, .i1⟩
  | 65 => ⟨S4, .i1⟩
  | 66 => ⟨S_, .i32⟩
  | 67 => ⟨S4, .i32⟩
  | 68 => ⟨S4, .i32⟩
  | 69 => ⟨S4, .i32⟩
  | 70 => ⟨S_, .i32⟩
  | 71 => ⟨S4, .i32⟩
  | 72 => ⟨S4, .i32⟩
  | 73 => ⟨S_, .i32⟩
  | 74 => ⟨S1, .i32⟩
  | 75 => ⟨S_, .i32⟩
  | 76 => ⟨S_, .i32⟩
  | 77 => ⟨S4, .i32⟩
  | 78 => ⟨S3, .i32⟩
  | 79 => ⟨S4, .i32⟩
  | 80 => ⟨S32768, .i32⟩
  | 81 => ⟨S_, .i32⟩
  | 82 => ⟨S32768, .i32⟩
  | 83 => ⟨S32768, .i1⟩
  | 84 => ⟨S_, .i32⟩
  | 85 => ⟨S32768, .i32⟩
  | 86 => ⟨S32768, .i32⟩
  | 87 => ⟨S32768, .i32⟩
  | 88 => ⟨S32768x1, .i32⟩
  | 89 => ⟨S32768, .i32⟩
  | 90 => ⟨S_, .i32⟩
  | 91 => ⟨S32768, .i32⟩
  | 92 => ⟨S32768, .i1⟩
  | 93 => ⟨S_, .i32⟩
  | 94 => ⟨S32768, .i32⟩
  | 95 => ⟨S32768, .i32⟩
  | 96 => ⟨S32768, .i32⟩
  | 97 => ⟨S32768x1, .i32⟩
  | 98 => ⟨S32768, .i32⟩
  | 99 => ⟨S32768, .i32⟩
  | 100 => ⟨S32768, .i32⟩
  | 101 => ⟨S_, .i32⟩
  | 102 => ⟨S36864, .i32⟩
  | 103 => ⟨S_, .i32⟩
  | 104 => ⟨S32768, .i32⟩
  | 105 => ⟨S32768, .i1⟩
  | 106 => ⟨S_, .i32⟩
  | 107 => ⟨S32768, .i32⟩
  | 108 => ⟨S32768, .i32⟩
  | 109 => ⟨S32768, .i32⟩
  | 110 => ⟨S32768x1, .i32⟩
  | 111 => ⟨S36864, .i32⟩
  | 112 => ⟨S_, .i32⟩
  | 113 => ⟨S36864, .i32⟩
  | 114 => ⟨S36864, .i1⟩
  | 115 => ⟨S_, .i32⟩
  | 116 => ⟨S_, .i32⟩
  | 117 => ⟨S36864, .i32⟩
  | 118 => ⟨S36864, .i32⟩
  | 119 => ⟨S_, .i32⟩
  | 120 => ⟨S36864, .i32⟩
  | 121 => ⟨S36864, .i1⟩
  | 122 => ⟨S_, .i32⟩
  | 123 => ⟨S36864, .i32⟩
  | 124 => ⟨S36864, .i32⟩
  | 125 => ⟨S36864, .i32⟩
  | 126 => ⟨S36864x1, .i32⟩
  | 127 => ⟨S36864x1024, .f32⟩
  | _ => ⟨S32768x1024, .f32⟩

abbrev hbmTy0_1 (i : Nat) : BufTy := match i % 128 with
  | 0 => ⟨S36864x1024, .bf16⟩
  | 1 => ⟨S_, .i32⟩
  | 2 => ⟨S32768, .i32⟩
  | 3 => ⟨S_, .i32⟩
  | 4 => ⟨S32768, .i32⟩
  | 5 => ⟨S32768, .i1⟩
  | 6 => ⟨S_, .i32⟩
  | 7 => ⟨S32768, .i32⟩
  | 8 => ⟨S32768, .i32⟩
  | 9 => ⟨S32768, .i32⟩
  | 10 => ⟨S32768x1, .i32⟩
  | 11 => ⟨S32768, .i32⟩
  | 12 => ⟨S36, .i32⟩
  | 13 => ⟨S_, .i32⟩
  | 14 => ⟨S36, .i32⟩
  | 15 => ⟨S36, .i32⟩
  | 16 => ⟨S_, .i32⟩
  | 17 => ⟨S36, .i32⟩
  | 18 => ⟨S1, .i32⟩
  | 19 => ⟨S_, .i32⟩
  | 20 => ⟨S36, .i32⟩
  | 21 => ⟨S36, .i1⟩
  | 22 => ⟨S1, .i32⟩
  | 23 => ⟨S_, .i32⟩
  | 24 => ⟨S1, .i32⟩
  | 25 => ⟨S_, .i32⟩
  | 26 => ⟨S_, .i32⟩
  | 27 => ⟨S36, .i32⟩
  | 28 => ⟨S36, .i1⟩
  | 29 => ⟨S36, .i1⟩
  | 30 => ⟨S_, .i32⟩
  | 31 => ⟨S36, .i32⟩
  | 32 => ⟨S36, .i32⟩
  | 33 => ⟨S1, .i32⟩
  | 34 => ⟨S_, .i32⟩
  | 35 => ⟨S36, .i32⟩
  | 36 => ⟨S36, .i1⟩
  | 37 => ⟨S1, .i32⟩
  | 38 => ⟨S_, .i32⟩
  | 39 => ⟨S1, .i32⟩
  | 40 => ⟨S_, .i32⟩
  | 41 => ⟨S_, .i32⟩
  | 42 => ⟨S36, .i32⟩
  | 43 => ⟨S36, .i1⟩
  | 44 => ⟨S36, .i1⟩
  | 45 => ⟨S_, .i32⟩
  | 46 => ⟨S36, .i32⟩
  | 47 => ⟨S36, .i32⟩
  | 48 => ⟨S1, .i32⟩
  | 49 => ⟨S_, .i32⟩
  | 50 => ⟨S36, .i32⟩
  | 51 => ⟨S36, .i1⟩
  | 52 => ⟨S1, .i32⟩
  | 53 => ⟨S_, .i32⟩
  | 54 => ⟨S1, .i32⟩
  | 55 => ⟨S_, .i32⟩
  | 56 => ⟨S_, .i32⟩
  | 57 => ⟨S36, .i32⟩
  | 58 => ⟨S36, .i1⟩
  | 59 => ⟨S36, .i1⟩
  | 60 => ⟨S_, .i32⟩
  | 61 => ⟨S36, .i32⟩
  | 62 => ⟨S36, .i32⟩
  | 63 => ⟨S1, .i32⟩
  | 64 => ⟨S_, .i32⟩
  | 65 => ⟨S36, .i32⟩
  | 66 => ⟨S36, .i1⟩
  | 67 => ⟨S1, .i32⟩
  | 68 => ⟨S_, .i32⟩
  | 69 => ⟨S1, .i32⟩
  | 70 => ⟨S_, .i32⟩
  | 71 => ⟨S_, .i32⟩
  | 72 => ⟨S36, .i32⟩
  | 73 => ⟨S36, .i1⟩
  | 74 => ⟨S36, .i1⟩
  | 75 => ⟨S_, .i32⟩
  | 76 => ⟨S36, .i32⟩
  | 77 => ⟨S4x1024x512, .bf16⟩
  | 78 => ⟨S4x512x128, .bf16⟩
  | 79 => ⟨S4x128x512, .bf16⟩
  | 80 => ⟨S4x512x1024, .bf16⟩
  | 81 => ⟨S36864x1024, .f32⟩
  | 82 => ⟨S_, .i32⟩
  | 83 => ⟨S32768, .i32⟩
  | 84 => ⟨S32768, .i1⟩
  | 85 => ⟨S_, .i32⟩
  | 86 => ⟨S32768, .i32⟩
  | 87 => ⟨S32768, .i32⟩
  | 88 => ⟨S32768, .i32⟩
  | 89 => ⟨S32768x1, .i32⟩
  | 90 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S1024x1024, .bf16⟩
  | .local _ .vmem, ⟨1, _⟩ => ⟨S1024x1024, .bf16⟩
  | .local _ .vmem, ⟨2, _⟩ => ⟨S4x1024x512, .bf16⟩
  | .local _ .vmem, ⟨3, _⟩ => ⟨S4x512, .f32⟩
  | .local _ .vmem, ⟨4, _⟩ => ⟨S4x512x128, .bf16⟩
  | .local _ .vmem, ⟨5, _⟩ => ⟨S4x128, .f32⟩
  | .local _ .vmem, ⟨6, _⟩ => ⟨S4x128x512, .bf16⟩
  | .local _ .vmem, ⟨7, _⟩ => ⟨S4x512, .f32⟩
  | .local _ .vmem, ⟨8, _⟩ => ⟨S4x512x1024, .bf16⟩
  | .local _ .vmem, ⟨9, _⟩ => ⟨S4x1024, .f32⟩
  | .local _ .vmem, ⟨10, _⟩ => ⟨S1024x1024, .f32⟩
  | .local _ .vmem, ⟨11, _⟩ => ⟨S1024x1024, .f32⟩
  | .local _ .smem, ⟨0, _⟩ => ⟨S36, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v0 : Ref sig .tc := ⟨.hbm, 17, rfl⟩
abbrev main_call1_v0 : Ref sig .tc := ⟨.hbm, 18, rfl⟩
abbrev main_call1_v1_0 : Ref sig .tc := ⟨.hbm, 19, rfl⟩
abbrev main_v1 : Ref sig .tc := ⟨.hbm, 20, rfl⟩
abbrev main_c_1 : Ref sig .tc := ⟨.hbm, 21, rfl⟩
abbrev main_v2 : Ref sig .tc := ⟨.hbm, 22, rfl⟩
abbrev main_v3 : Ref sig .tc := ⟨.hbm, 23, rfl⟩
abbrev main_c_2 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_3 : Ref sig .tc := ⟨.hbm, 37, rfl⟩
abbrev main_v16 : Ref sig .tc := ⟨.hbm, 38, rfl⟩
abbrev main_c_4 : Ref sig .tc := ⟨.hbm, 39, rfl⟩
abbrev main_v17 : Ref sig .tc := ⟨.hbm, 40, rfl⟩
abbrev main_call2_call0_c : Ref sig .tc := ⟨.hbm, 41, rfl⟩
abbrev main_call2_call0_v0 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_5 : Ref sig .tc := ⟨.hbm, 46, rfl⟩
abbrev main_v21 : Ref sig .tc := ⟨.hbm, 47, rfl⟩
abbrev main_v22 : Ref sig .tc := ⟨.hbm, 48, rfl⟩
abbrev main_c_6 : Ref sig .tc := ⟨.hbm, 49, rfl⟩
abbrev main_v23 : Ref sig .tc := ⟨.hbm, 50, rfl⟩
abbrev main_v24 : Ref sig .tc := ⟨.hbm, 51, rfl⟩
abbrev main_c_7 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_call3_v5 : Ref sig .tc := ⟨.hbm, 58, rfl⟩
abbrev main_call3_v6 : Ref sig .tc := ⟨.hbm, 59, rfl⟩
abbrev main_call3_v7 : Ref sig .tc := ⟨.hbm, 60, rfl⟩
abbrev main_call3_v8 : Ref sig .tc := ⟨.hbm, 61, rfl⟩
abbrev main_call3_c : Ref sig .tc := ⟨.hbm, 62, rfl⟩
abbrev main_call3_v9 : Ref sig .tc := ⟨.hbm, 63, rfl⟩
abbrev main_call3_v10 : Ref sig .tc := ⟨.hbm, 64, rfl⟩
abbrev main_call3_v11 : Ref sig .tc := ⟨.hbm, 65, rfl⟩
abbrev main_call3_c_0 : Ref sig .tc := ⟨.hbm, 66, rfl⟩
abbrev main_call3_v12 : Ref sig .tc := ⟨.hbm, 67, rfl⟩
abbrev main_call3_v13 : Ref sig .tc := ⟨.hbm, 68, rfl⟩
abbrev main_v25 : Ref sig .tc := ⟨.hbm, 69, rfl⟩
abbrev main_c_8 : Ref sig .tc := ⟨.hbm, 70, rfl⟩
abbrev main_v26 : Ref sig .tc := ⟨.hbm, 71, rfl⟩
abbrev main_v27 : Ref sig .tc := ⟨.hbm, 72, rfl⟩
abbrev main_c_9 : Ref sig .tc := ⟨.hbm, 73, rfl⟩
abbrev main_v28 : Ref sig .tc := ⟨.hbm, 74, rfl⟩
abbrev main_call4_call0_c : Ref sig .tc := ⟨.hbm, 75, rfl⟩
abbrev main_call4_call0_v0 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_c_10 : Ref sig .tc := ⟨.hbm, 81, rfl⟩
abbrev main_v33 : Ref sig .tc := ⟨.hbm, 82, rfl⟩
abbrev main_v34 : Ref sig .tc := ⟨.hbm, 83, rfl⟩
abbrev main_c_11 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_c_12 : Ref sig .tc := ⟨.hbm, 90, rfl⟩
abbrev main_v40 : Ref sig .tc := ⟨.hbm, 91, rfl⟩
abbrev main_v41 : Ref sig .tc := ⟨.hbm, 92, rfl⟩
abbrev main_c_13 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_c_14 : Ref sig .tc := ⟨.hbm, 101, rfl⟩
abbrev main_v49 : Ref sig .tc := ⟨.hbm, 102, rfl⟩
abbrev main_c_15 : Ref sig .tc := ⟨.hbm, 103, rfl⟩
abbrev main_v50 : Ref sig .tc := ⟨.hbm, 104, rfl⟩
abbrev main_v51 : Ref sig .tc := ⟨.hbm, 105, rfl⟩
abbrev main_c_16 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_c_17 : Ref sig .tc := ⟨.hbm, 112, rfl⟩
abbrev main_v57 : Ref sig .tc := ⟨.hbm, 113, rfl⟩
abbrev main_v58 : Ref sig .tc := ⟨.hbm, 114, rfl⟩
abbrev main_c_18 : Ref sig .tc := ⟨.hbm, 115, rfl⟩
abbrev main_call5_v0 : Ref sig .tc := ⟨.hbm, 116, rfl⟩
abbrev main_call5_v1 : Ref sig .tc := ⟨.hbm, 117, rfl⟩
abbrev main_v59 : Ref sig .tc := ⟨.hbm, 118, rfl⟩
abbrev main_c_19 : Ref sig .tc := ⟨.hbm, 119, rfl⟩
abbrev main_v60 : Ref sig .tc := ⟨.hbm, 120, rfl⟩
abbrev main_v61 : Ref sig .tc := ⟨.hbm, 121, rfl⟩
abbrev main_c_20 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_c_21 : Ref sig .tc := ⟨.hbm, 129, rfl⟩
abbrev main_v68 : Ref sig .tc := ⟨.hbm, 130, rfl⟩
abbrev main_c_22 : Ref sig .tc := ⟨.hbm, 131, rfl⟩
abbrev main_v69 : Ref sig .tc := ⟨.hbm, 132, rfl⟩
abbrev main_v70 : Ref sig .tc := ⟨.hbm, 133, rfl⟩
abbrev main_c_23 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_c_24 : Ref sig .tc := ⟨.hbm, 141, rfl⟩
abbrev main_v77 : Ref sig .tc := ⟨.hbm, 142, rfl⟩
abbrev main_v78 : Ref sig .tc := ⟨.hbm, 143, rfl⟩
abbrev main_c_25 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_c_26 : Ref sig .tc := ⟨.hbm, 158, rfl⟩
abbrev main_call6_v0 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_c_27 : Ref sig .tc := ⟨.hbm, 173, rfl⟩
abbrev main_call7_v0 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_c_28 : Ref sig .tc := ⟨.hbm, 188, rfl⟩
abbrev main_call8_v0 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_c_29 : Ref sig .tc := ⟨.hbm, 203, rfl⟩
abbrev main_call9_v0 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_c_30 : Ref sig .tc := ⟨.hbm, 210, rfl⟩
abbrev main_v137 : Ref sig .tc := ⟨.hbm, 211, rfl⟩
abbrev main_v138 : Ref sig .tc := ⟨.hbm, 212, rfl⟩
abbrev main_c_31 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v131 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![36], ![false]⟩

abbrev pre0 : Pipeline.Prefetch sig := ⟨1, ![main_v131.idx], fun | 0 => main_v131.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 3 → Nat :=
  let v4 : Index := Scalar.indexCast v1
  let c0_1 : Index := 0#32
  let c0_2 : Index := 0#32
  ![v4.toNat, 0, 0]

def k0_off3 (v1 : BitVec 32) : Fin 2 → Nat :=
  let v8 : Index := Scalar.indexCast v1
  let c0_3 : Index := 0#32
  ![v8.toNat, 0]
def k0_off4 (v1 : BitVec 32) : Fin 3 → Nat :=
  let v17 : Index := Scalar.indexCast v1
  let c0_5 : Index := 0#32
  let c0_6 : Index := 0#32
  ![v17.toNat, 0, 0]
def k0_off5 (v1 : BitVec 32) : Fin 2 → Nat :=
  let v21 : Index := Scalar.indexCast v1
  let c0_8 : Index := 0#32
  ![v21.toNat, 0]
def k0_off6 (v1 : BitVec 32) : Fin 3 → Nat :=
  let v30 : Index := Scalar.indexCast v1
  let c0_10 : Index := 0#32
  let c0_11 : Index := 0#32
  ![v30.toNat, 0, 0]
def k0_off7 (v1 : BitVec 32) : Fin 3 → Nat :=
  let v43 : Index := Scalar.indexCast v1
  let c0_15 : Index := 0#32
  let c0_16 : Index := 0#32
  ![v43.toNat, 0, 0]
def k0_off8 (v1 : BitVec 32) : Fin 2 → Nat :=
  let v47 : Index := Scalar.indexCast v1
  let c0_18 : Index := 0#32
  ![v47.toNat, 0]

def k0_chk1 (v1 : BitVec 32) : Prop :=
  (∀ a, (k0_off2 v1) a + S1x1024x512.size a ≤ S4x1024x512.size a) ∧
  (∀ a, (k0_off3 v1) a + S1x512.size a ≤ S4x512.size a) ∧
  (∀ a, (k0_off4 v1) a + S1x512x128.size a ≤ S4x512x128.size a) ∧
  (∀ a, (k0_off5 v1) a + S1x128.size a ≤ S4x128.size a) ∧
  (∀ a, (k0_off6 v1) a + S1x128x512.size a ≤ S4x128x512.size a) ∧
  (∀ a, (k0_off7 v1) a + S1x512x1024.size a ≤ S4x512x1024.size a) ∧
  (∀ a, (k0_off8 v1) a + S1x1024.size a ≤ S4x1024.size a)
instance k0_chk1.dec : ∀ (v1 : BitVec 32), Decidable (k0_chk1 v1) := fun v1 => decidable_of_iff' _ (Iff.of_eq (k0_chk1.eq_1 v1))
theorem k0_off2_inb : ∀ (v1 : BitVec 32) (k0_hw1 : k0_chk1 v1), ∀ a, (k0_off2 v1) a + S1x1024x512.size a ≤ S4x1024x512.size a := fun v1 k0_hw1 => k0_hw1.1
theorem k0_off3_inb : ∀ (v1 : BitVec 32) (k0_hw1 : k0_chk1 v1), ∀ a, (k0_off3 v1) a + S1x512.size a ≤ S4x512.size a := fun v1 k0_hw1 => k0_hw1.2.1
theorem k0_off4_inb : ∀ (v1 : BitVec 32) (k0_hw1 : k0_chk1 v1), ∀ a, (k0_off4 v1) a + S1x512x128.size a ≤ S4x512x128.size a := fun v1 k0_hw1 => k0_hw1.2.2.1
theorem k0_off5_inb : ∀ (v1 : BitVec 32) (k0_hw1 : k0_chk1 v1), ∀ a, (k0_off5 v1) a + S1x128.size a ≤ S4x128.size a := fun v1 k0_hw1 => k0_hw1.2.2.2.1
theorem k0_off6_inb : ∀ (v1 : BitVec 32) (k0_hw1 : k0_chk1 v1), ∀ a, (k0_off6 v1) a + S1x128x512.size a ≤ S4x128x512.size a := fun v1 k0_hw1 => k0_hw1.2.2.2.2.1
theorem k0_off7_inb : ∀ (v1 : BitVec 32) (k0_hw1 : k0_chk1 v1), ∀ a, (k0_off7 v1) a + S1x512x1024.size a ≤ S4x512x1024.size a := fun v1 k0_hw1 => k0_hw1.2.2.2.2.2.1
theorem k0_off8_inb : ∀ (v1 : BitVec 32) (k0_hw1 : k0_chk1 v1), ∀ a, (k0_off8 v1) a + S1x1024.size a ≤ S4x1024.size a := fun v1 k0_hw1 => k0_hw1.2.2.2.2.2.2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  bcast_S32768_S1x32768_1 : S32768.BroadcastsInDim S1x32768 (![1] : Fin 1 → Fin S1x32768.rank)
  bcast_S4_S4x1_0 : S4.BroadcastsInDim S4x1 (![0] : Fin 1 → Fin S4x1.rank)
  bcast_S1x32768_S4x32768_0_1 : S1x32768.BroadcastsInDim S4x32768 (![0, 1] : Fin 2 → Fin S4x32768.rank)
  bcast_S4x1_S4x32768_0_1 : S4x1.BroadcastsInDim S4x32768 (![0, 1] : Fin 2 → Fin S4x32768.rank)
  natLt_1_32 : 1 < 32
  reducesTo_S4x32768_S4_d1 : S4x32768.ReducesTo [1] S4
  h_S_ : 0 < S_.numel
  bcast_S_S1 : S_.BroadcastsInDim S1 (![] : Fin 0 → Fin S1.rank)
  bcast_S_S_ : S_.BroadcastsInDim S_ (![] : Fin 0 → Fin S_.rank)
  reduceWindows_S4_S4_w4s1p3_0 : S4.ReduceWindows (![4] : Fin 1 → Nat) ![1] ![3] ![0] S4
  slices_S4_S3_0 : S4.Slices ![0] S3
  concatenates_S1_S3_S4_d0 : Shape.Concatenates [S1, S3] S4 0
  bcast_S_S4 : S_.BroadcastsInDim S4 (![] : Fin 0 → Fin S4.rank)
  bcast_S_S36864 : S_.BroadcastsInDim S36864 (![] : Fin 0 → Fin S36864.rank)
  bcast_S36864_S36864x1_0 : S36864.BroadcastsInDim S36864x1 (![0] : Fin 1 → Fin S36864x1.rank)
  bitsLt_bf16_f32 : FTy.bits .bf16 < FTy.bits .f32
  bcast_S_S36 : S_.BroadcastsInDim S36 (![] : Fin 0 → Fin S36.rank)
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  numel1_S1 : S1.numel = 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  h_S1x1024x512 : 0 < S1x1024x512.numel
  shapeCasts_S1x1024x512_S1024x512 : S1x1024x512.ShapeCasts S1024x512
  h_S1x512 : 0 < S1x512.numel
  shapeCasts_S1x512_S512 : S1x512.ShapeCasts S512
  shapeCasts_S512_S1x512 : S512.ShapeCasts S1x512
  broadcasts_S1x512_S1024x512 : S1x512.Broadcasts S1024x512
  h_S1x512x128 : 0 < S1x512x128.numel
  shapeCasts_S1x512x128_S512x128 : S1x512x128.ShapeCasts S512x128
  h_S1x128 : 0 < S1x128.numel
  shapeCasts_S1x128_S128 : S1x128.ShapeCasts S128
  shapeCasts_S128_S1x128 : S128.ShapeCasts S1x128
  broadcasts_S1x128_S1024x128 : S1x128.Broadcasts S1024x128
  h_S1x128x512 : 0 < S1x128x512.numel
  shapeCasts_S1x128x512_S128x512 : S1x128x512.ShapeCasts S128x512
  h_S1x512x1024 : 0 < S1x512x1024.numel
  shapeCasts_S1x512x1024_S512x1024 : S1x512x1024.ShapeCasts S512x1024
  h_S1x1024 : 0 < S1x1024.numel
  shapeCasts_S1x1024_S1024 : S1x1024.ShapeCasts S1024
  shapeCasts_S1024_S1x1024 : S1024.ShapeCasts S1x1024
  broadcasts_S1x1024_S1024x1024 : S1x1024.Broadcasts S1024x1024
  gather_S32768_S32768x1_S32768_n_0_n_n_0_1_1_wf : GatherDims.WF S32768 S32768x1 S32768 [] [0] [] [0] [] 1 ![1]
  gather_S4_S32768x1_S32768_n_0_n_n_0_1_1_wf : GatherDims.WF S4 S32768x1 S32768 [] [0] [] [0] [] 1 ![1]
  scatter_S36864_S32768x1_S32768_n_0_0_1_wf : ScatterDims.WF S36864 S32768x1 S32768 [] [0] [0] 1
  gather_S32768x1024_S36864x1_S36864x1024_1_0_n_n_0_1_11024_wf : GatherDims.WF S32768x1024 S36864x1 S36864x1024 [1] [0] [] [0] [] 1 ![1, 1024]
  scatter_S32768_S32768x1_S32768_n_0_0_1_wf : ScatterDims.WF S32768 S32768x1 S32768 [] [0] [0] 1
  dot_S1024x1024_S1024x512_S1024x512_1_0_0_1_n_n_wf : DotDims.WF S1024x1024 S1024x512 S1024x512 [1] [0] [0] [1] [] []
  dot_S1024x512_S512x128_S1024x128_1_0_0_1_n_n_wf : DotDims.WF S1024x512 S512x128 S1024x128 [1] [0] [0] [1] [] []
  dot_S1024x128_S128x512_S1024x512_1_0_0_1_n_n_wf : DotDims.WF S1024x128 S128x512 S1024x512 [1] [0] [0] [1] [] []
  dot_S1024x512_S512x1024_S1024x1024_1_0_0_1_n_n_wf : DotDims.WF S1024x512 S512x1024 S1024x1024 [1] [0] [0] [1] [] []
  gather_S36864x1024_S32768x1_S32768x1024_1_0_n_n_0_1_11024_wf : GatherDims.WF S36864x1024 S32768x1 S32768x1024 [1] [0] [] [0] [] 1 ![1, 1024]
  hrank0 : 0 < grid0.rank
  k0_off1_inb : ∀ i : grid0.Coords, ∀ a, (k0_off1 i) a + S1.size a ≤ S36.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S36864x1024.size a
  hwx0_0 : ∀ i : grid0.Coords, EltTy.bits .bf16 = 32 ∨ (Rect.block (s := S36864x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x1024x512.size a ≤ S4x1024x512.size a
  hwx0_1 : ∀ i : grid0.Coords, EltTy.bits .bf16 = 32 ∨ (Rect.block (s := S4x1024x512) S4x1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x512.size a
  hwx0_2 : ∀ i : grid0.Coords, EltTy.bits .f32 = 32 ∨ (Rect.block (s := S4x512) S4x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x512x128.size a ≤ S4x512x128.size a
  hwx0_3 : ∀ i : grid0.Coords, EltTy.bits .bf16 = 32 ∨ (Rect.block (s := S4x512x128) S4x512x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x128.size a ≤ S4x128.size a
  hwx0_4 : ∀ i : grid0.Coords, EltTy.bits .f32 = 32 ∨ (Rect.block (s := S4x128) S4x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x128x512.size a ≤ S4x128x512.size a
  hwx0_5 : ∀ i : grid0.Coords, EltTy.bits .bf16 = 32 ∨ (Rect.block (s := S4x128x512) S4x128x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x512.size a ≤ S4x512.size a
  hwx0_6 : ∀ i : grid0.Coords, EltTy.bits .f32 = 32 ∨ (Rect.block (s := S4x512) S4x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x512x1024.size a ≤ S4x512x1024.size a
  hwx0_7 : ∀ i : grid0.Coords, EltTy.bits .bf16 = 32 ∨ (Rect.block (s := S4x512x1024) S4x512x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x1024.size a ≤ S4x1024.size a
  hwx0_8 : ∀ i : grid0.Coords, EltTy.bits .f32 = 32 ∨ (Rect.block (s := S4x1024) S4x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S36864x1024.size a
  hwx0_9 : ∀ i : grid0.Coords, EltTy.bits .f32 = 32 ∨ (Rect.block (s := S36864x1024) S1024x1024.size (cc0_transform_9 i) (hinb0_9 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S32768_S32768x1_S32768_n_0_n_n_0_1_1 : GatherDims S32768 S32768x1 S32768 where
  offsetDims := []
  collapsedSliceDims := [0]
  operandBatchingDims := []
  startIndicesBatchingDims := []
  startIndexMap := [0]
  indexVectorDim := 1
  sliceSizes := ![1]
  wf := gather_S32768_S32768x1_S32768_n_0_n_n_0_1_1_wf
def gather_S4_S32768x1_S32768_n_0_n_n_0_1_1 : GatherDims S4 S32768x1 S32768 where
  offsetDims := []
  collapsedSliceDims := [0]
  operandBatchingDims := []
  startIndicesBatchingDims := []
  startIndexMap := [0]
  indexVectorDim := 1
  sliceSizes := ![1]
  wf := gather_S4_S32768x1_S32768_n_0_n_n_0_1_1_wf
def scatter_S36864_S32768x1_S32768_n_0_0_1 : ScatterDims S36864 S32768x1 S32768 where
  updateWindowDims := []
  insertedWindowDims := [0]
  scatterDimsToOperandDims := [0]
  indexVectorDim := 1
  wf := scatter_S36864_S32768x1_S32768_n_0_0_1_wf
def gather_S32768x1024_S36864x1_S36864x1024_1_0_n_n_0_1_11024 : GatherDims S32768x1024 S36864x1 S36864x1024 where
  offsetDims := [1]
  collapsedSliceDims := [0]
  operandBatchingDims := []
  startIndicesBatchingDims := []
  startIndexMap := [0]
  indexVectorDim := 1
  sliceSizes := ![1, 1024]
  wf := gather_S32768x1024_S36864x1_S36864x1024_1_0_n_n_0_1_11024_wf
def scatter_S32768_S32768x1_S32768_n_0_0_1 : ScatterDims S32768 S32768x1 S32768 where
  updateWindowDims := []
  insertedWindowDims := [0]
  scatterDimsToOperandDims := [0]
  indexVectorDim := 1
  wf := scatter_S32768_S32768x1_S32768_n_0_0_1_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def gather_S36864x1024_S32768x1_S32768x1024_1_0_n_n_0_1_11024 : GatherDims S36864x1024 S32768x1 S32768x1024 where
  offsetDims := [1]
  collapsedSliceDims := [0]
  operandBatchingDims := []
  startIndicesBatchingDims := []
  startIndexMap := [0]
  indexVectorDim := 1
  sliceSizes := ![1, 1024]
  wf := gather_S36864x1024_S32768x1_S32768x1024_1_0_n_n_0_1_11024_wf

abbrev spec0_0 : Pipeline.WinSpec sig grid0.rank :=
  Pipeline.WinSpec.ofSpec (Memref.whole main_v67) S1024x1024.size reads0_0 false false 2 stage0_0 sem0_0 nbuf0_0 hstage0_0

abbrev spec0_1 : Pipeline.WinSpec sig grid0.rank :=
  Pipeline.WinSpec.ofSpec (Memref.whole main_v132) S4x1024x512.size reads0_1 false true 1 stage0_1 sem0_1 nbuf0_1 hstage0_1

abbrev spec0_2 : Pipeline.WinSpec sig grid0.rank :=
  Pipeline.WinSpec.ofSpec (Memref.whole main_arg3) S4x512.size reads0_2 false true 1 stage0_2 sem0_2 nbuf0_2 hstage0_2

abbrev spec0_3 : Pipeline.WinSpec sig grid0.rank :=
  Pipeline.WinSpec.ofSpec (Memref.whole main_v133) S4x512x128.size reads0_3 false true 1 stage0_3 sem0_3 nbuf0_3 hstage0_3

abbrev spec0_4 : Pipeline.WinSpec sig grid0.rank :=
  Pipeline.WinSpec.ofSpec (Memref.whole main_arg5) S4x128.size reads0_4 false true 1 stage0_4 sem0_4 nbuf0_4 hstage0_4

abbrev spec0_5 : Pipeline.WinSpec sig grid0.rank :=
  Pipeline.WinSpec.ofSpec (Memref.whole main_v134) S4x128x512.size reads0_5 false true 1 stage0_5 sem0_5 nbuf0_5 hstage0_5

abbrev spec0_6 : Pipeline.WinSpec sig grid0.rank :=
  Pipeline.WinSpec.ofSpec (Memref.whole main_arg7) S4x512.size reads0_6 false true 1 stage0_6 sem0_6 nbuf0_6 hstage0_6

abbrev spec0_7 : Pipeline.WinSpec sig grid0.rank :=
  Pipeline.WinSpec.ofSpec (Memref.whole main_v135) S4x512x1024.size reads0_7 false true 1 stage0_7 sem0_7 nbuf0_7 hstage0_7

abbrev spec0_8 : Pipeline.WinSpec sig grid0.rank :=
  Pipeline.WinSpec.ofSpec (Memref.whole main_arg9) S4x1024.size reads0_8 false true 1 stage0_8 sem0_8 nbuf0_8 hstage0_8

abbrev spec0_9 : Pipeline.WinSpec sig grid0.rank :=
  Pipeline.WinSpec.ofSpec (Memref.whole main_v136) S1024x1024.size reads0_9 true false 2 stage0_9 sem0_9 nbuf0_9 hstage0_9

abbrev spec0 : Fin 10 → Pipeline.WinSpec sig grid0.rank := fun | 0 => spec0_0 | 1 => spec0_1 | 2 => spec0_2 | 3 => spec0_3 | 4 => spec0_4 | 5 => spec0_5 | 6 => spec0_6 | 7 => spec0_7 | 8 => spec0_8 | 9 => spec0_9 | ⟨_ + 10, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | 9 => nbuf0_9 | ⟨_ + 10, h⟩ => absurd h (Nat.not_lt.2 (Nat.le_add_left _ _))
abbrev ix0 (pf : pre0.Contents (Elt F)) : (w : Fin 10) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | 7 => cc0_transform_7 | 8 => cc0_transform_8 | 9 => cc0_transform_9 | ⟨_ + 10, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | 8 => hreads0_8 | 9 => hreads0_9 | ⟨_ + 10, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | 8 => hinb0_8 | 9 => hinb0_9 | ⟨_ + 10, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | 8 => hwx0_8 | 9 => hwx0_9 | ⟨_ + 10, h⟩ => absurd h (Nat.not_lt.2 (Nat.le_add_left _ _))

class Facts : Prop extends Facts₀ where
  harr0 : ∀ w, (spec0 w).arr.IsWhole

variable [Facts]
-- ==== ReferenceIdeal.lean ====
abbrev S32768x1024 : Shape := ⟨2, ![32768, 1024]⟩
abbrev S32768 : Shape := ⟨1, ![32768]⟩
abbrev S4x1024x512 : Shape := ⟨3, ![4, 1024, 512]⟩
abbrev S4x512 : Shape := ⟨2, ![4, 512]⟩
abbrev S4x512x128 : Shape := ⟨3, ![4, 512, 128]⟩
abbrev S4x128 : Shape := ⟨2, ![4, 128]⟩
abbrev S4x128x512 : Shape := ⟨3, ![4, 128, 512]⟩
abbrev S4x512x1024 : Shape := ⟨3, ![4, 512, 1024]⟩
abbrev S4x1024 : Shape := ⟨2, ![4, 1024]⟩
abbrev S1x1024x512 : Shape := ⟨3, ![1, 1024, 512]⟩
abbrev S1024x512 : Shape := ⟨2, ![1024, 512]⟩
abbrev S32768x512 : Shape := ⟨2, ![32768, 512]⟩
abbrev S1x512 : Shape := ⟨2, ![1, 512]⟩
abbrev S512 : Shape := ⟨1, ![512]⟩
abbrev S_ : Shape := ⟨0, ![]⟩
abbrev S1x512x128 : Shape := ⟨3, ![1, 512, 128]⟩
abbrev S512x128 : Shape := ⟨2, ![512, 128]⟩
abbrev S32768x128 : Shape := ⟨2, ![32768, 128]⟩
abbrev S1x128 : Shape := ⟨2, ![1, 128]⟩
abbrev S128 : Shape := ⟨1, ![128]⟩
abbrev S1x128x512 : Shape := ⟨3, ![1, 128, 512]⟩
abbrev S128x512 : Shape := ⟨2, ![128, 512]⟩
abbrev S1x512x1024 : Shape := ⟨3, ![1, 512, 1024]⟩
abbrev S512x1024 : Shape := ⟨2, ![512, 1024]⟩
abbrev S1x1024 : Shape := ⟨2, ![1, 1024]⟩
abbrev S1024 : Shape := ⟨1, ![1024]⟩
abbrev S1x32768x1024 : Shape := ⟨3, ![1, 32768, 1024]⟩
abbrev S4x32768x1024 : Shape := ⟨3, ![4, 32768, 1024]⟩
abbrev S1x32768x1 : Shape := ⟨3, ![1, 32768, 1]⟩
abbrev S1 : Shape := ⟨1, ![1]⟩
abbrev S1x1x1 : Shape := ⟨3, ![1, 1, 1]⟩
abbrev S1x32768 : Shape := ⟨2, ![1, 32768]⟩

abbrev nBuf : Space → Nat
  | .hbm => 203
  | .vmem => 0
  | .smem => 0
  | _ => 0

abbrev hbmTy0_0 (i : Nat) : BufTy := match i % 128 with
  | 0 => ⟨S32768x1024, .f32⟩
  | 1 => ⟨S32768, .i32⟩
  | 2 => ⟨S4x1024x512, .f32⟩
  | 3 => ⟨S4x512, .f32⟩
  | 4 => ⟨S4x512x128, .f32⟩
  | 5 => ⟨S4x128, .f32⟩
  | 6 => ⟨S4x128x512, .f32⟩
  | 7 => ⟨S4x512, .f32⟩
  | 8 => ⟨S4x512x1024, .f32⟩
  | 9 => ⟨S4x1024, .f32⟩
  | 10 => ⟨S1x1024x512, .f32⟩
  | 11 => ⟨S1024x512, .f32⟩
  | 12 => ⟨S32768x512, .f32⟩
  | 13 => ⟨S1x512, .f32⟩
  | 14 => ⟨S512, .f32⟩
  | 15 => ⟨S1x512, .f32⟩
  | 16 => ⟨S32768x512, .f32⟩
  | 17 => ⟨S32768x512, .f32⟩
  | 18 => ⟨S_, .f32⟩
  | 19 => ⟨S32768x512, .f32⟩
  | 20 => ⟨S32768x512, .f32⟩
  | 21 => ⟨S1x512x128, .f32⟩
  | 22 => ⟨S512x128, .f32⟩
  | 23 => ⟨S32768x128, .f32⟩
  | 24 => ⟨S1x128, .f32⟩
  | 25 => ⟨S128, .f32⟩
  | 26 => ⟨S1x128, .f32⟩
  | 27 => ⟨S32768x128, .f32⟩
  | 28 => ⟨S32768x128, .f32⟩
  | 29 => ⟨S_, .f32⟩
  | 30 => ⟨S32768x128, .f32⟩
  | 31 => ⟨S32768x128, .f32⟩
  | 32 => ⟨S1x128x512, .f32⟩
  | 33 => ⟨S128x512, .f32⟩
  | 34 => ⟨S32768x512, .f32⟩
  | 35 => ⟨S1x512, .f32⟩
  | 36 => ⟨S512, .f32⟩
  | 37 => ⟨S1x512, .f32⟩
  | 38 => ⟨S32768x512, .f32⟩
  | 39 => ⟨S32768x512, .f32⟩
  | 40 => ⟨S_, .f32⟩
  | 41 => ⟨S32768x512, .f32⟩
  | 42 => ⟨S32768x512, .f32⟩
  | 43 => ⟨S1x512x1024, .f32⟩
  | 44 => ⟨S512x1024, .f32⟩
  | 45 => ⟨S32768x1024, .f32⟩
  | 46 => ⟨S1x1024, .f32⟩
  | 47 => ⟨S1024, .f32⟩
  | 48 => ⟨S1x1024, .f32⟩
  | 49 => ⟨S32768x1024, .f32⟩
  | 50 => ⟨S32768x1024, .f32⟩
  | 51 => ⟨S1x1024x512, .f32⟩
  | 52 => ⟨S1024x512, .f32⟩
  | 53 => ⟨S32768x512, .f32⟩
  | 54 => ⟨S1x512, .f32⟩
  | 55 => ⟨S512, .f32⟩
  | 56 => ⟨S1x512, .f32⟩
  | 57 => ⟨S32768x512, .f32⟩
  | 58 => ⟨S32768x512, .f32⟩
  | 59 => ⟨S_, .f32⟩
  | 60 => ⟨S32768x512, .f32⟩
  | 61 => ⟨S32768x512, .f32⟩
  | 62 => ⟨S1x512x128, .f32⟩
  | 63 => ⟨S512x128, .f32⟩
  | 64 => ⟨S32768x128, .f32⟩
  | 65 => ⟨S1x128, .f32⟩
  | 66 => ⟨S128, .f32⟩
  | 67 => ⟨S1x128, .f32⟩
  | 68 => ⟨S32768x128, .f32⟩
  | 69 => ⟨S32768x128, .f32⟩
  | 70 => ⟨S_, .f32⟩
  | 71 => ⟨S32768x128, .f32⟩
  | 72 => ⟨S32768x128, .f32⟩
  | 73 => ⟨S1x128x512, .f32⟩
  | 74 => ⟨S128x512, .f32⟩
  | 75 => ⟨S32768x512, .f32⟩
  | 76 => ⟨S1x512, .f32⟩
  | 77 => ⟨S512, .f32⟩
  | 78 => ⟨S1x512, .f32⟩
  | 79 => ⟨S32768x512, .f32⟩
  | 80 => ⟨S32768x512, .f32⟩
  | 81 => ⟨S_, .f32⟩
  | 82 => ⟨S32768x512, .f32⟩
  | 83 => ⟨S32768x512, .f32⟩
  | 84 => ⟨S1x512x1024, .f32⟩
  | 85 => ⟨S512x1024, .f32⟩
  | 86 => ⟨S32768x1024, .f32⟩
  | 87 => ⟨S1x1024, .f32⟩
  | 88 => ⟨S1024, .f32⟩
  | 89 => ⟨S1x1024, .f32⟩
  | 90 => ⟨S32768x1024, .f32⟩
  | 91 => ⟨S32768x1024, .f32⟩
  | 92 => ⟨S1x1024x512, .f32⟩
  | 93 => ⟨S1024x512, .f32⟩
  | 94 => ⟨S32768x512, .f32⟩
  | 95 => ⟨S1x512, .f32⟩
  | 96 => ⟨S512, .f32⟩
  | 97 => ⟨S1x512, .f32⟩
  | 98 => ⟨S32768x512, .f32⟩
  | 99 => ⟨S32768x512, .f32⟩
  | 100 => ⟨S_, .f32⟩
  | 101 => ⟨S32768x512, .f32⟩
  | 102 => ⟨S32768x512, .f32⟩
  | 103 => ⟨S1x512x128, .f32⟩
  | 104 => ⟨S512x128, .f32⟩
  | 105 => ⟨S32768x128, .f32⟩
  | 106 => ⟨S1x128, .f32⟩
  | 107 => ⟨S128, .f32⟩
  | 108 => ⟨S1x128, .f32⟩
  | 109 => ⟨S32768x128, .f32⟩
  | 110 => ⟨S32768x128, .f32⟩
  | 111 => ⟨S_, .f32⟩
  | 112 => ⟨S32768x128, .f32⟩
  | 113 => ⟨S32768x128, .f32⟩
  | 114 => ⟨S1x128x512, .f32⟩
  | 115 => ⟨S128x512, .f32⟩
  | 116 => ⟨S32768x512, .f32⟩
  | 117 => ⟨S1x512, .f32⟩
  | 118 => ⟨S512, .f32⟩
  | 119 => ⟨S1x512, .f32⟩
  | 120 => ⟨S32768x512, .f32⟩
  | 121 => ⟨S32768x512, .f32⟩
  | 122 => ⟨S_, .f32⟩
  | 123 => ⟨S32768x512, .f32⟩
  | 124 => ⟨S32768x512, .f32⟩
  | 125 => ⟨S1x512x1024, .f32⟩
  | 126 => ⟨S512x1024, .f32⟩
  | 127 => ⟨S32768x1024, .f32⟩
  | _ => ⟨S32768x1024, .f32⟩

abbrev hbmTy0_1 (i : Nat) : BufTy := match i % 128 with
  | 0 => ⟨S1x1024, .f32⟩
  | 1 => ⟨S1024, .f32⟩
  | 2 => ⟨S1x1024, .f32⟩
  | 3 => ⟨S32768x1024, .f32⟩
  | 4 => ⟨S32768x1024, .f32⟩
  | 5 => ⟨S1x1024x512, .f32⟩
  | 6 => ⟨S1024x512, .f32⟩
  | 7 => ⟨S32768x512, .f32⟩
  | 8 => ⟨S1x512, .f32⟩
  | 9 => ⟨S512, .f32⟩
  | 10 => ⟨S1x512, .f32⟩
  | 11 => ⟨S32768x512, .f32⟩
  | 12 => ⟨S32768x512, .f32⟩
  | 13 => ⟨S_, .f32⟩
  | 14 => ⟨S32768x512, .f32⟩
  | 15 => ⟨S32768x512, .f32⟩
  | 16 => ⟨S1x512x128, .f32⟩
  | 17 => ⟨S512x128, .f32⟩
  | 18 => ⟨S32768x128, .f32⟩
  | 19 => ⟨S1x128, .f32⟩
  | 20 => ⟨S128, .f32⟩
  | 21 => ⟨S1x128, .f32⟩
  | 22 => ⟨S32768x128, .f32⟩
  | 23 => ⟨S32768x128, .f32⟩
  | 24 => ⟨S_, .f32⟩
  | 25 => ⟨S32768x128, .f32⟩
  | 26 => ⟨S32768x128, .f32⟩
  | 27 => ⟨S1x128x512, .f32⟩
  | 28 => ⟨S128x512, .f32⟩
  | 29 => ⟨S32768x512, .f32⟩
  | 30 => ⟨S1x512, .f32⟩
  | 31 => ⟨S512, .f32⟩
  | 32 => ⟨S1x512, .f32⟩
  | 33 => ⟨S32768x512, .f32⟩
  | 34 => ⟨S32768x512, .f32⟩
  | 35 => ⟨S_, .f32⟩
  | 36 => ⟨S32768x512, .f32⟩
  | 37 => ⟨S32768x512, .f32⟩
  | 38 => ⟨S1x512x1024, .f32⟩
  | 39 => ⟨S512x1024, .f32⟩
  | 40 => ⟨S32768x1024, .f32⟩
  | 41 => ⟨S1x1024, .f32⟩
  | 42 => ⟨S1024, .f32⟩
  | 43 => ⟨S1x1024, .f32⟩
  | 44 => ⟨S32768x1024, .f32⟩
  | 45 => ⟨S32768x1024, .f32⟩
  | 46 => ⟨S1x32768x1024, .f32⟩
  | 47 => ⟨S1x32768x1024, .f32⟩
  | 48 => ⟨S1x32768x1024, .f32⟩
  | 49 => ⟨S1x32768x1024, .f32⟩
  | 50 => ⟨S4x32768x1024, .f32⟩
  | 51 => ⟨S1x32768x1, .i32⟩
  | 52 => ⟨S_, .i32⟩
  | 53 => ⟨S1x32768x1, .i32⟩
  | 54 => ⟨S1x32768x1, .i1⟩
  | 55 => ⟨S_, .i32⟩
  | 56 => ⟨S1x32768x1, .i32⟩
  | 57 => ⟨S1x32768x1, .i32⟩
  | 58 => ⟨S1x32768x1, .i32⟩
  | 59 => ⟨S1, .i32⟩
  | 60 => ⟨S_, .i32⟩
  | 61 => ⟨S1x32768x1, .i32⟩
  | 62 => ⟨S1x32768x1, .i1⟩
  | 63 => ⟨S1x1x1, .i32⟩
  | 64 => ⟨S1x32768x1, .i32⟩
  | 65 => ⟨S1x32768x1, .i1⟩
  | 66 => ⟨S1x32768x1, .i1⟩
  | 67 => ⟨S_, .i1⟩
  | 68 => ⟨S1x32768, .i1⟩
  | 69 => ⟨S1x32768x1024, .f32⟩
  | 70 => ⟨S1x32768x1024, .i1⟩
  | 71 => ⟨S_, .f32⟩
  | 72 => ⟨S1x32768x1024, .f32⟩
  | 73 => ⟨S1x32768x1024, .f32⟩
  | 74 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_cst : Ref sig .tc := ⟨.hbm, 18, rfl⟩
abbrev main_call0_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_cst : Ref sig .tc := ⟨.hbm, 29, rfl⟩
abbrev main_call1_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call2_cst : Ref sig .tc := ⟨.hbm, 40, rfl⟩
abbrev main_call2_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call3_cst : Ref sig .tc := ⟨.hbm, 59, rfl⟩
abbrev main_call3_v0 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_call4_cst : Ref sig .tc := ⟨.hbm, 70, rfl⟩
abbrev main_call4_v0 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call5_cst : Ref sig .tc := ⟨.hbm, 81, rfl⟩
abbrev main_call5_v0 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_call6_cst : Ref sig .tc := ⟨.hbm, 100, rfl⟩
abbrev main_call6_v0 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_call7_cst : Ref sig .tc := ⟨.hbm, 111, rfl⟩
abbrev main_call7_v0 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_call8_cst : Ref sig .tc := ⟨.hbm, 122, rfl⟩
abbrev main_call8_v0 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_call9_cst : Ref sig .tc := ⟨.hbm, 141, rfl⟩
abbrev main_call9_v0 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_call10_cst : Ref sig .tc := ⟨.hbm, 152, rfl⟩
abbrev main_call10_v0 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_call11_cst : Ref sig .tc := ⟨.hbm, 163, rfl⟩
abbrev main_call11_v0 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_call12_c : Ref sig .tc := ⟨.hbm, 180, rfl⟩
abbrev main_call12_v0 : Ref sig .tc := ⟨.hbm, 181, rfl⟩
abbrev main_call12_v1 : Ref sig .tc := ⟨.hbm, 182, rfl⟩
abbrev main_call12_c_0 : Ref sig .tc := ⟨.hbm, 183, rfl⟩
abbrev main_call12_v2 : Ref sig .tc := ⟨.hbm, 184, rfl⟩
abbrev main_call12_v3 : Ref sig .tc := ⟨.hbm, 185, rfl⟩
abbrev main_call12_v4 : Ref sig .tc := ⟨.hbm, 186, rfl⟩
abbrev main_call12_c_1 : Ref sig .tc := ⟨.hbm, 187, rfl⟩
abbrev main_call12_c_2 : Ref sig .tc := ⟨.hbm, 188, rfl⟩
abbrev main_call12_v5 : Ref sig .tc := ⟨.hbm, 189, rfl⟩
abbrev main_call12_v6 : Ref sig .tc := ⟨.hbm, 190, rfl⟩
abbrev main_call12_v7 : Ref sig .tc := ⟨.hbm, 191, rfl⟩
abbrev main_call12_v8 : Ref sig .tc := ⟨.hbm, 192, rfl⟩
abbrev main_call12_v9 : Ref sig .tc := ⟨.hbm, 193, rfl⟩
abbrev main_call12_v10 : Ref sig .tc := ⟨.hbm, 194, rfl⟩
abbrev main_call12_c_3 : Ref sig .tc := ⟨.hbm, 195, rfl⟩
abbrev main_call12_v11 : Ref sig .tc := ⟨.hbm, 196, rfl⟩
abbrev main_call12_v12 : Ref sig .tc := ⟨.hbm, 197, rfl⟩
abbrev main_call12_v13 : Ref sig .tc := ⟨.hbm, 198, rfl⟩
abbrev main_call12_cst : Ref sig .tc := ⟨.hbm, 199, rfl⟩
abbrev main_call12_v14 : Ref sig .tc := ⟨.hbm, 200, rfl⟩
abbrev main_v146 : Ref sig .tc := ⟨.hbm, 201, rfl⟩
abbrev main_v147 : Ref sig .tc := ⟨.hbm, 202, rfl⟩

abbrev nD : Nat := 1
abbrev τ : Topo := Topo.v7x

variable {F : FTy → Type} [FloatOps F]

class Facts₀ : Prop where
  slices_S4x1024x512_S1x1024x512_0_0_0 : S4x1024x512.Slices ![0, 0, 0] S1x1024x512
  shapeCasts_S1x1024x512_S1024x512 : S1x1024x512.ShapeCasts S1024x512
  slices_S4x512_S1x512_0_0 : S4x512.Slices ![0, 0] S1x512
  shapeCasts_S1x512_S512 : S1x512.ShapeCasts S512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  slices_S4x512x128_S1x512x128_0_0_0 : S4x512x128.Slices ![0, 0, 0] S1x512x128
  shapeCasts_S1x512x128_S512x128 : S1x512x128.ShapeCasts S512x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  slices_S4x128x512_S1x128x512_0_0_0 : S4x128x512.Slices ![0, 0, 0] S1x128x512
  shapeCasts_S1x128x512_S128x512 : S1x128x512.ShapeCasts S128x512
  slices_S4x512x1024_S1x512x1024_0_0_0 : S4x512x1024.Slices ![0, 0, 0] S1x512x1024
  shapeCasts_S1x512x1024_S512x1024 : S1x512x1024.ShapeCasts S512x1024
  slices_S4x1024_S1x1024_0_0 : S4x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  slices_S4x1024x512_S1x1024x512_1_0_0 : S4x1024x512.Slices ![1, 0, 0] S1x1024x512
  slices_S4x512_S1x512_1_0 : S4x512.Slices ![1, 0] S1x512
  slices_S4x512x128_S1x512x128_1_0_0 : S4x512x128.Slices ![1, 0, 0] S1x512x128
  slices_S4x128_S1x128_1_0 : S4x128.Slices ![1, 0] S1x128
  slices_S4x128x512_S1x128x512_1_0_0 : S4x128x512.Slices ![1, 0, 0] S1x128x512
  slices_S4x512x1024_S1x512x1024_1_0_0 : S4x512x1024.Slices ![1, 0, 0] S1x512x1024
  slices_S4x1024_S1x1024_1_0 : S4x1024.Slices ![1, 0] S1x1024
  slices_S4x1024x512_S1x1024x512_2_0_0 : S4x1024x512.Slices ![2, 0, 0] S1x1024x512
  slices_S4x512_S1x512_2_0 : S4x512.Slices ![2, 0] S1x512
  slices_S4x512x128_S1x512x128_2_0_0 : S4x512x128.Slices ![2, 0, 0] S1x512x128
  slices_S4x128_S1x128_2_0 : S4x128.Slices ![2, 0] S1x128
  slices_S4x128x512_S1x128x512_2_0_0 : S4x128x512.Slices ![2, 0, 0] S1x128x512
  slices_S4x512x1024_S1x512x1024_2_0_0 : S4x512x1024.Slices ![2, 0, 0] S1x512x1024
  slices_S4x1024_S1x1024_2_0 : S4x1024.Slices ![2, 0] S1x1024
  slices_S4x1024x512_S1x1024x512_3_0_0 : S4x1024x512.Slices ![3, 0, 0] S1x1024x512
  slices_S4x512_S1x512_3_0 : S4x512.Slices ![3, 0] S1x512
  slices_S4x512x128_S1x512x128_3_0_0 : S4x512x128.Slices ![3, 0, 0] S1x512x128
  slices_S4x128_S1x128_3_0 : S4x128.Slices ![3, 0] S1x128
  slices_S4x128x512_S1x128x512_3_0_0 : S4x128x512.Slices ![3, 0, 0] S1x128x512
  slices_S4x512x1024_S1x512x1024_3_0_0 : S4x512x1024.Slices ![3, 0, 0] S1x512x1024
  slices_S4x1024_S1x1024_3_0 : S4x1024.Slices ![3, 0] S1x1024
  bcast_S32768x1024_S1x32768x1024_1_2 : S32768x1024.BroadcastsInDim S1x32768x1024 (![1, 2] : Fin 2 → Fin S1x32768x1024.rank)
  concatenates_S1x32768x1024_S1x32768x1024_S1x32768x1024_S1x32768x1024_S4x32768x1024_d0 : Shape.Concatenates [S1x32768x1024, S1x32768x1024, S1x32768x1024, S1x32768x1024] S4x32768x1024 0
  bcast_S32768_S1x32768x1_1 : S32768.BroadcastsInDim S1x32768x1 (![1] : Fin 1 → Fin S1x32768x1.rank)
  bcast_S_S1x32768x1 : S_.BroadcastsInDim S1x32768x1 (![] : Fin 0 → Fin S1x32768x1.rank)
  bcast_S1_S1x1x1_2 : S1.BroadcastsInDim S1x1x1 (![2] : Fin 1 → Fin S1x1x1.rank)
  bcast_S1x1x1_S1x32768x1_0_1_2 : S1x1x1.BroadcastsInDim S1x32768x1 (![0, 1, 2] : Fin 3 → Fin S1x32768x1.rank)
  reducesTo_S1x32768x1_S1x32768_d2 : S1x32768x1.ReducesTo [2] S1x32768
  h_S_ : 0 < S_.numel
  bcast_S1x32768_S1x32768x1024_0_1 : S1x32768.BroadcastsInDim S1x32768x1024 (![0, 1] : Fin 2 → Fin S1x32768x1024.rank)
  bcast_S_S1x32768x1024 : S_.BroadcastsInDim S1x32768x1024 (![] : Fin 0 → Fin S1x32768x1024.rank)
  shapeCasts_S1x32768x1024_S32768x1024 : S1x32768x1024.ShapeCasts S32768x1024
  dot_S32768x1024_S1024x512_S32768x512_1_0_0_1_n_n_wf : DotDims.WF S32768x1024 S1024x512 S32768x512 [1] [0] [0] [1] [] []
  dot_S32768x512_S512x128_S32768x128_1_0_0_1_n_n_wf : DotDims.WF S32768x512 S512x128 S32768x128 [1] [0] [0] [1] [] []
  dot_S32768x128_S128x512_S32768x512_1_0_0_1_n_n_wf : DotDims.WF S32768x128 S128x512 S32768x512 [1] [0] [0] [1] [] []
  dot_S32768x512_S512x1024_S32768x1024_1_0_0_1_n_n_wf : DotDims.WF S32768x512 S512x1024 S32768x1024 [1] [0] [0] [1] [] []
  gather_S4x32768x1024_S1x32768x1_S1x32768x1024_2_0_1_1_0_2_111024_wf : GatherDims.WF S4x32768x1024 S1x32768x1 S1x32768x1024 [2] [0] [1] [0] [1] 2 ![1, 1, 1024]

variable [Facts₀]

def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf
def dot_S32768x512_S512x128_S32768x128_1_0_0_1_n_n : DotDims S32768x512 S512x128 S32768x128 where
  lhsContracting := [1]
  rhsContracting := [0]
  lhsNonContracting := [0]
  rhsNonContracting := [1]
  lhsBatch := []
  rhsBatch := []
  wf := dot_S32768x512_S512x128_S32768x128_1_0_0_1_n_n_wf
def dot_S32768x128_S128x512_S32768x512_1_0_0_1_n_n : DotDims S32768x128 S128x512 S32768x512 where
  lhsContracting := [1]
  rhsContracting := [0]
  lhsNonContracting := [0]
  rhsNonContracting := [1]
  lhsBatch := []
  rhsBatch := []
  wf := dot_S32768x128_S128x512_S32768x512_1_0_0_1_n_n_wf
def dot_S32768x512_S512x1024_S32768x1024_1_0_0_1_n_n : DotDims S32768x512 S512x1024 S32768x1024 where
  lhsContracting := [1]
  rhsContracting := [0]
  lhsNonContracting := [0]
  rhsNonContracting := [1]
  lhsBatch := []
  rhsBatch := []
  wf := dot_S32768x512_S512x1024_S32768x1024_1_0_0_1_n_n_wf
def gather_S4x32768x1024_S1x32768x1_S1x32768x1024_2_0_1_1_0_2_111024 : GatherDims S4x32768x1024 S1x32768x1 S1x32768x1024 where
  offsetDims := [2]
  collapsedSliceDims := [0]
  operandBatchingDims := [1]
  startIndicesBatchingDims := [1]
  startIndexMap := [0]
  indexVectorDim := 2
  sliceSizes := ![1, 1, 1024]
  wf := gather_S4x32768x1024_S1x32768x1_S1x32768x1024_2_0_1_1_0_2_111024_wf

class Facts : Prop extends Facts₀ where

variable [Facts]
-- ==== Proof.Spec.lean ====
/-
  The function both programs compute, as mathematics over the extended reals.

  An atom's feature row `x` (1024 entries) goes through a four-layer perceptron
  1024 → 512 → 128 → 512 → 1024: three affine layers each followed by `max · 0`, and a last affine
  layer.  There are four such perceptrons (the experts), their weights stacked along a leading axis of
  extent 4; atom `n` uses the expert its symbol id names.  Each affine layer is a finite sum
  `∑ k, x k * w k j` plus a bias: no law of arithmetic beyond the sum itself is used anywhere, so
  nothing here needs the entries to be finite.
-/
import Idealize.ShloMosaic.PureOps.Ideal
import Idealize.ShloMosaic.Lib.ValueIdx

noncomputable section

namespace Cert.Moe

open Idealize.ShloMosaic Idealize.ShloMosaic.ValueIdx

/-- One affine layer on a row: column `j` of `x · w + b`. -/
def lin {K N : Nat} (w : Fin K → Fin N → EReal) (b : Fin N → EReal) (x : Fin K → EReal) (j : Fin N) : EReal :=
  (∑ k : Fin K, x k * w k j) + b j

/-- The rectifier `max a 0`. -/
def relu (a : EReal) : EReal := max a 0

/-- The four-layer perceptron on one row. -/
def mlp (w1 : Fin 1024 → Fin 512 → EReal) (b1 : Fin 512 → EReal) (w2 : Fin 512 → Fin 128 → EReal) (b2 : Fin 128 → EReal)
    (w3 : Fin 128 → Fin 512 → EReal) (b3 : Fin 512 → EReal) (w4 : Fin 512 → Fin 1024 → EReal) (b4 : Fin 1024 → EReal)
    (x : Fin 1024 → EReal) : Fin 1024 → EReal :=
  lin w4 b4 fun k3 => relu (lin w3 b3 (fun k2 => relu (lin w2 b2 (fun k1 => relu (lin w1 b1 x k1)) k2)) k3)

/-- Expert `e` of the stacked weights, on one row. -/
def expert (We1 : (⟨3, ![4, 1024, 512]⟩ : Shape).Idx → EReal) (be1 : (⟨2, ![4, 512]⟩ : Shape).Idx → EReal)
    (We2 : (⟨3, ![4, 512, 128]⟩ : Shape).Idx → EReal) (be2 : (⟨2, ![4, 128]⟩ : Shape).Idx → EReal)
    (Wd1 : (⟨3, ![4, 128, 512]⟩ : Shape).Idx → EReal) (bd1 : (⟨2, ![4, 512]⟩ : Shape).Idx → EReal)
    (Wd2 : (⟨3, ![4, 512, 1024]⟩ : Shape).Idx → EReal) (bd2 : (⟨2, ![4, 1024]⟩ : Shape).Idx → EReal)
    (e : Fin 4) (x : Fin 1024 → EReal) : Fin 1024 → EReal :=
  mlp (fun i k => We1 (ix3 e i k)) (fun k => be1 (ix2 e k)) (fun i k => We2 (ix3 e i k)) (fun k => be2 (ix2 e k))
    (fun i k => Wd1 (ix3 e i k)) (fun k => bd1 (ix2 e k)) (fun i k => Wd2 (ix3 e i k)) (fun k => bd2 (ix2 e k)) x

/-- A symbol word read as an expert number (total: the word's value modulo 4; under the
    precondition the word is already below 4). -/
def eidOf (w : BitVec 32) : Fin 4 := ⟨w.toNat % 4, Nat.mod_lt _ (by decide)⟩

theorem eidOf_val_of_lt {w : BitVec 32} (h : w.toNat < 4) : (eidOf w).val = w.toNat := Nat.mod_eq_of_lt h

/-- The result array: row `n` is the expert named by atom `n`'s symbol applied to row `n` of `X`. -/
def G (X : (⟨2, ![32768, 1024]⟩ : Shape).Idx → EReal) (sym : (⟨1, ![32768]⟩ : Shape).Idx → BitVec 32)
    (We1 : (⟨3, ![4, 1024, 512]⟩ : Shape).Idx → EReal) (be1 : (⟨2, ![4, 512]⟩ : Shape).Idx → EReal)
    (We2 : (⟨3, ![4, 512, 128]⟩ : Shape).Idx → EReal) (be2 : (⟨2, ![4, 128]⟩ : Shape).Idx → EReal)
    (Wd1 : (⟨3, ![4, 128, 512]⟩ : Shape).Idx → EReal) (bd1 : (⟨2, ![4, 512]⟩ : Shape).Idx → EReal)
    (Wd2 : (⟨3, ![4, 512, 1024]⟩ : Shape).Idx → EReal) (bd2 : (⟨2, ![4, 1024]⟩ : Shape).Idx → EReal) :
    (⟨2, ![32768, 1024]⟩ : Shape).Idx → EReal :=
  fun j => expert We1 be1 We2 be2 Wd1 bd1 Wd2 bd2 (eidOf (sym (ix1 (j 0)))) (fun i => X (ix2 (j 0) i)) (j 1)

end Cert.Moe

end
-- ==== Proof.Body.lean ====
/-
  The kernel body's arithmetic at one element.  The body takes a block of 1024 feature rows and one
  expert's weights (each a leading slice of extent 1 of the stacked weights) and computes, row by
  row, the four-layer perceptron: three matrix products into a zero accumulator, each with a bias
  row added and `max · 0` applied, and a last product plus bias.  At exact values the changes of
  float format are the identity and each product is the plain sum over the contracted axis.
-/
import proofs.«407739_j36696200577712_3_alg».proof.Proof.Gen.KernelIdeal.Skeleton
import proofs.«407739_j36696200577712_3_alg».proof.Proof.Spec
import Idealize.ShloMosaic.PureOps.Ideal.Laws
import Idealize.ShloMosaic.Lib.Pipeline.Value
import Idealize.ShloMosaic.Lib.ValueLayout

noncomputable section

namespace Cert.KernelIdeal.Gen

open Idealize.ShloMosaic Idealize.ShloMosaic.TcCoe Idealize.SL.Sem Idealize.ShloMosaic.StableHlo Idealize.ShloMosaic.ValueIdx

/-! ### Product 1: a S1024x1024 by S1024x512 product contracting axis 1 of the left with axis 0 of the right -/

private theorem lhs1_0 (i : S1024x512.Idx) (c : dot_S1024x1024_S1024x512_S1024x512_1_0_0_1_n_n.contr.Idx) :
    (dot_S1024x1024_S1024x512_S1024x512_1_0_0_1_n_n.lhsIdx i c 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
private theorem lhs1_1 (i : S1024x512.Idx) (c : dot_S1024x1024_S1024x512_S1024x512_1_0_0_1_n_n.contr.Idx) :
    (dot_S1024x1024_S1024x512_S1024x512_1_0_0_1_n_n.lhsIdx i c 1).val = (c ⟨0, by decide⟩).val :=
  dot_S1024x1024_S1024x512_S1024x512_1_0_0_1_n_n.lhsIdx_val_of_single rfl i c
private theorem rhs1_0 (i : S1024x512.Idx) (c : dot_S1024x1024_S1024x512_S1024x512_1_0_0_1_n_n.contr.Idx) :
    (dot_S1024x1024_S1024x512_S1024x512_1_0_0_1_n_n.rhsIdx i c 0).val = (c ⟨0, by decide⟩).val :=
  dot_S1024x1024_S1024x512_S1024x512_1_0_0_1_n_n.rhsIdx_val_of_single rfl i c
private theorem rhs1_1 (i : S1024x512.Idx) (c : dot_S1024x1024_S1024x512_S1024x512_1_0_0_1_n_n.contr.Idx) :
    (dot_S1024x1024_S1024x512_S1024x512_1_0_0_1_n_n.rhsIdx i c 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The product into a zero accumulator, at row `p` and column `q`, is the sum over the contracted axis. -/
private theorem mm1 (l : FVec Ideal S1024x1024 .bf16) (r : FVec Ideal S1024x512 .bf16) (p : Fin 1024) (q : Fin 512) :
    matmul (F := Ideal) dot_S1024x1024_S1024x512_S1024x512_1_0_0_1_n_n none l r (constant (F := Ideal) S1024x512 .f32 0x00000000#32) (ix2 p q)
      = ∑ k : Fin 1024, l (ix2 p k) * r (ix2 k q) := by
  refine (Ideal.matmul_constant_zero_apply dot_S1024x1024_S1024x512_S1024x512_1_0_0_1_n_n none l r (ix2 p q)).trans ?_
  rw [← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 p q) ((contrEquiv1 dot_S1024x1024_S1024x512_S1024x512_1_0_0_1_n_n 1024 rfl rfl).symm k) = ix2 p k := funext fun a => Fin.ext (by
    match a with
    | ⟨0, _⟩ => exact lhs1_0 _ _
    | ⟨1, _⟩ => exact (lhs1_1 _ _).trans hk)
  have er : dot_S1024x1024_S1024x512_S1024x512_1_0_0_1_n_n.rhsIdx (ix2 p q) ((contrEquiv1 dot_S1024x1024_S1024x512_S1024x512_1_0_0_1_n_n 1024 rfl rfl).symm k) = ix2 k q := funext fun a => Fin.ext (by
    match a with
    | ⟨0, _⟩ => exact (rhs1_0 _ _).trans hk
    | ⟨1, _⟩ => exact rhs1_1 _ _)
  rw [el, er]

/-- Layer 1's affine part at row `p` and column `q`: the product with the weight slice viewed as a matrix, plus the
    bias row repeated over the rows. -/
private theorem aff1 (x : FVec Ideal S1024x1024 .bf16) (w : Vec Ideal S1x1024x512 .bf16) (b : Vec Ideal S1x512 .f32) (p : Fin 1024) (q : Fin 512) :
    addf (matmul (F := Ideal) dot_S1024x1024_S1024x512_S1024x512_1_0_0_1_n_n none x (shapeCast S1024x512 w shapeCasts_S1x1024x512_S1024x512 : FVec Ideal S1024x512 .bf16) (constant (F := Ideal) S1024x512 .f32 0x00000000#32))
        (broadcastTo S1024x512 (shapeCast S1x512 (shapeCast S512 b shapeCasts_S1x512_S512 : FVec Ideal S512 .f32) shapeCasts_S512_S1x512 : FVec Ideal S1x512 .f32) broadcasts_S1x512_S1024x512 : FVec Ideal S1024x512 .f32) (ix2 p q)
      = Cert.Moe.lin (fun i k => w (ix3 0 i k)) (fun k => b (ix2 0 k)) (fun i => x (ix2 p i)) q := by
  rw [addf_apply, mm1, broadcastTo_1b_ab_apply, shapeCast_a_1a_apply, shapeCast_1a_a_apply]
  unfold Cert.Moe.lin
  congr 1
  refine Finset.sum_congr rfl fun k _ => ?_
  rw [shapeCast_1ab_ab_apply]

/-! ### Product 2: a S1024x512 by S512x128 product contracting axis 1 of the left with axis 0 of the right -/

private theorem lhs2_0 (i : S1024x128.Idx) (c : dot_S1024x512_S512x128_S1024x128_1_0_0_1_n_n.contr.Idx) :
    (dot_S1024x512_S512x128_S1024x128_1_0_0_1_n_n.lhsIdx i c 0).val = (i 0).val := by
  unfold DotDims.lhsIdx
  rw [dif_neg (show ¬(0 : Fin S1024x512.rank) ∈ dot_S1024x512_S512x128_S1024x128_1_0_0_1_n_n.lhsBatch by decide), dif_pos (show (0 : Fin S1024x512.rank) ∈ dot_S1024x512_S512x128_S1024x128_1_0_0_1_n_n.lhsNonContracting by decide)]
  rfl
private theorem lhs2_1 (i : S1024x128.Idx) (c : dot_S1024x512_S512x128_S1024x128_1_0_0_1_n_n.contr.Idx) :
    (dot_S1024x512_S512x128_S1024x128_1_0_0_1_n_n.lhsIdx i c 1).val = (c ⟨0, by decide⟩).val :=
  dot_S1024x512_S512x128_S1024x128_1_0_0_1_n_n.lhsIdx_val_of_single rfl i c
private theorem rhs2_0 (i : S1024x128.Idx) (c : dot_S1024x512_S512x128_S1024x128_1_0_0_1_n_n.contr.Idx) :
    (dot_S1024x512_S512x128_S1024x128_1_0_0_1_n_n.rhsIdx i c 0).val = (c ⟨0, by decide⟩).val :=
  dot_S1024x512_S512x128_S1024x128_1_0_0_1_n_n.rhsIdx_val_of_single rfl i c
private theorem rhs2_1 (i : S1024x128.Idx) (c : dot_S1024x512_S512x128_S1024x128_1_0_0_1_n_n.contr.Idx) :
    (dot_S1024x512_S512x128_S1024x128_1_0_0_1_n_n.rhsIdx i c 1).val = (i 1).val := by
  unfold DotDims.rhsIdx
  rw [dif_neg (show ¬(1 : Fin S512x128.rank) ∈ dot_S1024x512_S512x128_S1024x128_1_0_0_1_n_n.rhsBatch by decide), dif_pos (show (1 : Fin S512x128.rank) ∈ dot_S1024x512_S512x128_S1024x128_1_0_0_1_n_n.rhsNonContracting by decide)]
  rfl

/-- The product into a zero accumulator, at row `p` and column `q`, is the sum over the contracted axis. -/
private theorem mm2 (l : FVec Ideal S1024x512 .bf16) (r : FVec Ideal S512x128 .bf16) (p : Fin 1024) (q : Fin 128) :
    matmul (F := Ideal) dot_S1024x512_S512x128_S1024x128_1_0_0_1_n_n none l r (constant (F := Ideal) S1024x128 .f32 0x00000000#32) (ix2 p q)
      = ∑ k : Fin 512, l (ix2 p k) * r (ix2 k q) := by
  refine (Ideal.matmul_constant_zero_apply dot_S1024x512_S512x128_S1024x128_1_0_0_1_n_n none l r (ix2 p q)).trans ?_
  rw [← Equiv.sum_comp (contrEquiv1 dot_S1024x512_S512x128_S1024x128_1_0_0_1_n_n 512 rfl rfl).symm]
  refine Finset.sum_congr rfl fun k _ => ?_
  have hk := contrEquiv1_symm_val dot_S1024x512_S512x128_S1024x128_1_0_0_1_n_n 512 rfl rfl k
  have el : dot_S1024x512_S512x128_S1024x128_1_0_0_1_n_n.lhsIdx (ix2 p q) ((contrEquiv1 dot_S1024x512_S512x128_S1024x128_1_0_0_1_n_n 512 rfl rfl).symm k) = ix2 p k := funext fun a => Fin.ext (by
    match a with
    | ⟨0, _⟩ => exact lhs2_0 _ _
    | ⟨1, _⟩ => exact (lhs2_1 _ _).trans hk)
  have er : dot_S1024x512_S512x128_S1024x128_1_0_0_1_n_n.rhsIdx (ix2 p q) ((contrEquiv1 dot_S1024x512_S512x128_S1024x128_1_0_0_1_n_n 512 rfl rfl).symm k) = ix2 k q := funext fun a => Fin.ext (by
    match a with
    | ⟨0, _⟩ => exact (rhs2_0 _ _).trans hk
    | ⟨1, _⟩ => exact rhs2_1 _ _)
  rw [el, er]

/-- Layer 2's affine part at row `p` and column `q`: the product with the weight slice viewed as a matrix, plus the
    bias row repeated over the rows. -/
private theorem aff2 (x : FVec Ideal S1024x512 .bf16) (w : Vec Ideal S1x512x128 .bf16) (b : Vec Ideal S1x128 .f32) (p : Fin 1024) (q : Fin 128) :
    addf (matmul (F := Ideal) dot_S1024x512_S512x128_S1024x128_1_0_0_1_n_n none x (shapeCast S512x128 w shapeCasts_S1x512x128_S512x128 : FVec Ideal S512x128 .bf16) (constant (F := Ideal) S1024x128 .f32 0x00000000#32))
        (broadcastTo S1024x128 (shapeCast S1x128 (shapeCast S128 b shapeCasts_S1x128_S128 : FVec Ideal S128 .f32) shapeCasts_S128_S1x128 : FVec Ideal S1x128 .f32) broadcasts_S1x128_S1024x128 : FVec Ideal S1024x128 .f32) (ix2 p q)
      = Cert.Moe.lin (fun i k => w (ix3 0 i k)) (fun k => b (ix2 0 k)) (fun i => x (ix2 p i)) q := by
  rw [addf_apply, mm2, broadcastTo_1b_ab_apply, shapeCast_a_1a_apply, shapeCast_1a_a_apply]
  unfold Cert.Moe.lin
  congr 1
  refine Finset.sum_congr rfl fun k _ => ?_
  rw [shapeCast_1ab_ab_apply]

/-! ### Product 3: a S1024x128 by S128x512 product contracting axis 1 of the left with axis 0 of the right -/

private theorem lhs3_0 (i : S1024x512.Idx) (c : dot_S1024x128_S128x512_S1024x512_1_0_0_1_n_n.contr.Idx) :
    (dot_S1024x128_S128x512_S1024x512_1_0_0_1_n_n.lhsIdx i c 0).val = (i 0).val := by
  unfold DotDims.lhsIdx
  rw [dif_neg (show ¬(0 : Fin S1024x128.rank) ∈ dot_S1024x128_S128x512_S1024x512_1_0_0_1_n_n.lhsBatch by decide), dif_pos (show (0 : Fin S1024x128.rank) ∈ dot_S1024x128_S128x512_S1024x512_1_0_0_1_n_n.lhsNonContracting by decide)]
  rfl
private theorem lhs3_1 (i : S1024x512.Idx) (c : dot_S1024x128_S128x512_S1024x512_1_0_0_1_n_n.contr.Idx) :
    (dot_S1024x128_S128x512_S1024x512_1_0_0_1_n_n.lhsIdx i c 1).val = (c ⟨0, by decide⟩).val :=
  dot_S1024x128_S128x512_S1024x512_1_0_0_1_n_n.lhsIdx_val_of_single rfl i c
private theorem rhs3_0 (i : S1024x512.Idx) (c : dot_S1024x128_S128x512_S1024x512_1_0_0_1_n_n.contr.Idx) :
    (dot_S1024x128_S128x512_S1024x512_1_0_0_1_n_n.rhsIdx i c 0).val = (c ⟨0, by decide⟩).val :=
  dot_S1024x128_S128x512_S1024x512_1_0_0_1_n_n.rhsIdx_val_of_single rfl i c
private theorem rhs3_1 (i : S1024x512.Idx) (c : dot_S1024x128_S128x512_S1024x512_1_0_0_1_n_n.contr.Idx) :
    (dot_S1024x128_S128x512_S1024x512_1_0_0_1_n_n.rhsIdx i c 1).val = (i 1).val := by
  unfold DotDims.rhsIdx
  rw [dif_neg (show ¬(1 : Fin S128x512.rank) ∈ dot_S1024x128_S128x512_S1024x512_1_0_0_1_n_n.rhsBatch by decide), dif_pos (show (1 : Fin S128x512.rank) ∈ dot_S1024x128_S128x512_S1024x512_1_0_0_1_n_n.rhsNonContracting by decide)]
  rfl

/-- The product into a zero accumulator, at row `p` and column `q`, is the sum over the contracted axis. -/
private theorem mm3 (l : FVec Ideal S1024x128 .bf16) (r : FVec Ideal S128x512 .bf16) (p : Fin 1024) (q : Fin 512) :
    matmul (F := Ideal) dot_S1024x128_S128x512_S1024x512_1_0_0_1_n_n none l r (constant (F := Ideal) S1024x512 .f32 0x00000000#32) (ix2 p q)
      = ∑ k : Fin 128, l (ix2 p k) * r (ix2 k q) := by
  refine (Ideal.matmul_constant_zero_apply dot_S1024x128_S128x512_S1024x512_1_0_0_1_n_n none l r (ix2 p q)).trans ?_
  rw [← Equiv.sum_comp (contrEquiv1 dot_S1024x128_S128x512_S1024x512_1_0_0_1_n_n 128 rfl rfl).symm]
  refine Finset.sum_congr rfl fun k _ => ?_
  have hk := contrEquiv1_symm_val dot_S1024x128_S128x512_S1024x512_1_0_0_1_n_n 128 rfl rfl k
  have el : dot_S1024x128_S128x512_S1024x512_1_0_0_1_n_n.lhsIdx (ix2 p q) ((contrEquiv1 dot_S1024x128_S128x512_S1024x512_1_0_0_1_n_n 128 rfl rfl).symm k) = ix2 p k := funext fun a => Fin.ext (by
    match a with
    | ⟨0, _⟩ => exact lhs3_0 _ _
    | ⟨1, _⟩ => exact (lhs3_1 _ _).trans hk)
  have er : dot_S1024x128_S128x512_S1024x512_1_0_0_1_n_n.rhsIdx (ix2 p q) ((contrEquiv1 dot_S1024x128_S128x512_S1024x512_1_0_0_1_n_n 128 rfl rfl).symm k) = ix2 k q := funext fun a => Fin.ext (by
    match a with
    | ⟨0, _⟩ => exact (rhs3_0 _ _).trans hk
    | ⟨1, _⟩ => exact rhs3_1 _ _)
  rw [el, er]

/-- Layer 3's affine part at row `p` and column `q`: the product with the weight slice viewed as a matrix, plus the
    bias row repeated over the rows. -/
private theorem aff3 (x : FVec Ideal S1024x128 .bf16) (w : Vec Ideal S1x128x512 .bf16) (b : Vec Ideal S1x512 .f32) (p : Fin 1024) (q : Fin 512) :
    addf (matmul (F := Ideal) dot_S1024x128_S128x512_S1024x512_1_0_0_1_n_n none x (shapeCast S128x512 w shapeCasts_S1x128x512_S128x512 : FVec Ideal S128x512 .bf16) (constant (F := Ideal) S1024x512 .f32 0x00000000#32))
        (broadcastTo S1024x512 (shapeCast S1x512 (shapeCast S512 b shapeCasts_S1x512_S512 : FVec Ideal S512 .f32) shapeCasts_S512_S1x512 : FVec Ideal S1x512 .f32) broadcasts_S1x512_S1024x512 : FVec Ideal S1024x512 .f32) (ix2 p q)
      = Cert.Moe.lin (fun i k => w (ix3 0 i k)) (fun k => b (ix2 0 k)) (fun i => x (ix2 p i)) q := by
  rw [addf_apply, mm3, broadcastTo_1b_ab_apply, shapeCast_a_1a_apply, shapeCast_1a_a_apply]
  unfold Cert.Moe.lin
  congr 1
  refine Finset.sum_congr rfl fun k _ => ?_
  rw [shapeCast_1ab_ab_apply]

/-! ### Product 4: a S1024x512 by S512x1024 product contracting axis 1 of the left with axis 0 of the right -/

private theorem lhs4_0 (i : S1024x1024.Idx) (c : dot_S1024x512_S512x1024_S1024x1024_1_0_0_1_n_n.contr.Idx) :
    (dot_S1024x512_S512x1024_S1024x1024_1_0_0_1_n_n.lhsIdx i c 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
private theorem lhs4_1 (i : S1024x1024.Idx) (c : dot_S1024x512_S512x1024_S1024x1024_1_0_0_1_n_n.contr.Idx) :
    (dot_S1024x512_S512x1024_S1024x1024_1_0_0_1_n_n.lhsIdx i c 1).val = (c ⟨0, by decide⟩).val :=
  dot_S1024x512_S512x1024_S1024x1024_1_0_0_1_n_n.lhsIdx_val_of_single rfl i c
private theorem rhs4_0 (i : S1024x1024.Idx) (c : dot_S1024x512_S512x1024_S1024x1024_1_0_0_1_n_n.contr.Idx) :
    (dot_S1024x512_S512x1024_S1024x1024_1_0_0_1_n_n.rhsIdx i c 0).val = (c ⟨0, by decide⟩).val :=
  dot_S1024x512_S512x1024_S1024x1024_1_0_0_1_n_n.rhsIdx_val_of_single rfl i c
private theorem rhs4_1 (i : S1024x1024.Idx) (c : dot_S1024x512_S512x1024_S1024x1024_1_0_0_1_n_n.contr.Idx) :
    (dot_S1024x512_S512x1024_S1024x1024_1_0_0_1_n_n.rhsIdx i c 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The product into a zero accumulator, at row `p` and column `q`, is the sum over the contracted axis. -/
private theorem mm4 (l : FVec Ideal S1024x512 .bf16) (r : FVec Ideal S512x1024 .bf16) (p : Fin 1024) (q : Fin 1024) :
    matmul (F := Ideal) dot_S1024x512_S512x1024_S1024x1024_1_0_0_1_n_n none l r (constant (F := Ideal) S1024x1024 .f32 0x00000000#32) (ix2 p q)
      = ∑ k : Fin 512, l (ix2 p k) * r (ix2 k q) := by
  refine (Ideal.matmul_constant_zero_apply dot_S1024x512_S512x1024_S1024x1024_1_0_0_1_n_n none l r (ix2 p q)).trans ?_
  rw [← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun a => Fin.ext (by
    match a with
    | ⟨0, _⟩ => exact lhs4_0 _ _
    | ⟨1, _⟩ => exact (lhs4_1 _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun a => Fin.ext (by
    match a with
    | ⟨0, _⟩ => exact (rhs4_0 _ _).trans hk
    | ⟨1, _⟩ => exact rhs4_1 _ _)
  rw [el, er]

/-- Layer 4's affine part at row `p` and column `q`: the product with the weight slice viewed as a matrix, plus the
    bias row repeated over the rows. -/
private theorem aff4 (x : FVec Ideal S1024x512 .bf16) (w : Vec Ideal S1x512x1024 .bf16) (b : Vec Ideal S1x1024 .f32) (p : Fin 1024) (q : Fin 1024) :
    addf (matmul (F := Ideal) dot_S1024x512_S512x1024_S1024x1024_1_0_0_1_n_n none x (shapeCast S512x1024 w shapeCasts_S1x512x1024_S512x1024 : FVec Ideal S512x1024 .bf16) (constant (F := Ideal) S1024x1024 .f32 0x00000000#32))
        (broadcastTo S1024x1024 (shapeCast S1x1024 (shapeCast S1024 b shapeCasts_S1x1024_S1024 : FVec Ideal S1024 .f32) shapeCasts_S1024_S1x1024 : FVec Ideal S1x1024 .f32) broadcasts_S1x1024_S1024x1024 : FVec Ideal S1024x1024 .f32) (ix2 p q)
      = Cert.Moe.lin (fun i k => w (ix3 0 i k)) (fun k => b (ix2 0 k)) (fun i => x (ix2 p i)) q := by
  rw [addf_apply, mm4, broadcastTo_1b_ab_apply, shapeCast_a_1a_apply, shapeCast_1a_a_apply]
  unfold Cert.Moe.lin
  congr 1
  refine Finset.sum_congr rfl fun k _ => ?_
  rw [shapeCast_1ab_ab_apply]

/-- `max · 0` followed by the change of format, at an index. -/
private theorem relu_apply {s : Shape} (y : FVec Ideal s .f32) (i : s.Idx) :
    (truncf .bf16 (maximumf y (broadcast s (Scalar.ofBits (F := Ideal) .f32 0x00000000#32))) bitsLt_bf16_f32 : FVec Ideal s .bf16) i
      = Cert.Moe.relu (y i) := by
  rw [truncf_apply, maximumf_apply, broadcast_apply]
  show max (y i) (Ideal.ofBits .f32 0x00000000#32) = max (y i) 0
  rw [Ideal.ofBits_zero_f32]

/-- The body's result at row `p` and column `q` is the four-layer perceptron of row `p` of the feature block, with the
    weights and biases the four slices hold: each layer's affine part by the lemmas above, innermost layer last. -/
theorem pay_apply (v2 : Vec Ideal S1024x1024 .bf16) (v5 : Vec Ideal S1x1024x512 .bf16) (v9 : Vec Ideal S1x512 .f32)
    (v18 : Vec Ideal S1x512x128 .bf16) (v22 : Vec Ideal S1x128 .f32) (v31 : Vec Ideal S1x128x512 .bf16) (v35 : Vec Ideal S1x512 .f32)
    (v44 : Vec Ideal S1x512x1024 .bf16) (v48 : Vec Ideal S1x1024 .f32) (p q : Fin 1024) :
    k0_pay1 (F := Ideal) (k0_pay2 v2 v5 v9 v18 v22 v31 v35) k0_pay3 v44 v48 (ix2 p q)
      = Cert.Moe.mlp (fun i k => v5 (ix3 0 i k)) (fun k => v9 (ix2 0 k)) (fun i k => v18 (ix3 0 i k)) (fun k => v22 (ix2 0 k))
          (fun i k => v31 (ix3 0 i k)) (fun k => v35 (ix2 0 k)) (fun i k => v44 (ix3 0 i k)) (fun k => v48 (ix2 0 k))
          (fun i => v2 (ix2 p i)) q := by
  unfold k0_pay1 k0_pay2 k0_pay3
  simp only [aff4, aff3, aff2, aff1, relu_apply, shapeCast_self]
  rfl

end Cert.KernelIdeal.Gen

end
-- ==== Proof.KBlock.lean ====
/-
  What the kernel leaves in its output array.  Grid point `t` reads block `t` (1024 rows) of the
  padded features and the whole of each stacked weight array, looks up the block's expert in the
  table, and writes block `t` of the output: the expert's perceptron applied to each row.  The 36
  blocks tile the 36864 padded rows, so padded row `s` of the output is the perceptron of expert
  `table[s / 1024]` on padded feature row `s`.
-/
import proofs.«407739_j36696200577712_3_alg».proof.Proof.Gen.KernelIdeal.Frame
import proofs.«407739_j36696200577712_3_alg».proof.Proof.Body
import Idealize.ShloMosaic.Lib.Pipeline.Value
import Idealize.ShloMosaic.Lib.Tactic

noncomputable section

namespace Cert.KernelIdeal.Gen

open Idealize.ShloMosaic Idealize.ShloMosaic.TcCoe Idealize.SL.Sem Idealize.ShloMosaic.StableHlo Idealize.ShloMosaic.ValueIdx

/-! ## What one grid point leaves in its output block -/

section point

variable {F : FTy → Type} [FloatOps F]

private theorem hz2 : (![0, 0] : Fin 2 → Nat) = fun _ => 0 := funext fun a => by fin_cases a <;> rfl

/-- What one grid point leaves in the output block: the body's arithmetic on the feature block and
    on the slices of extent 1 of the eight stacked arrays taken at the table word. -/
private theorem out_A_eq (c : Dev nD) (i : grid0.Coords) (arg2 : Memref sig .tc .vmem S1024x1024 .bf16) (harg2 : arg2.IsWhole) (arg3 : Memref sig .tc .vmem S4x1024x512 .bf16) (harg3 : arg3.IsWhole) (arg4 : Memref sig .tc .vmem S4x512 .f32) (harg4 : arg4.IsWhole) (arg5 : Memref sig .tc .vmem S4x512x128 .bf16) (harg5 : arg5.IsWhole) (arg6 : Memref sig .tc .vmem S4x128 .f32) (harg6 : arg6.IsWhole) (arg7 : Memref sig .tc .vmem S4x128x512 .bf16) (harg7 : arg7.IsWhole) (arg8 : Memref sig .tc .vmem S4x512 .f32) (harg8 : arg8.IsWhole) (arg9 : Memref sig .tc .vmem S4x512x1024 .bf16) (harg9 : arg9.IsWhole) (arg10 : Memref sig .tc .vmem S4x1024 .f32) (harg10 : arg10.IsWhole) (arg11 : Memref sig .tc .vmem S1024x1024 .f32) (harg11 : arg11.IsWhole)
    (x0 : Vec F S1024x1024 .bf16) (x1 : Vec F S4x1024x512 .bf16) (x2 : Vec F S4x512 .f32) (x3 : Vec F S4x512x128 .bf16) (x4 : Vec F S4x128 .f32) (x5 : Vec F S4x128x512 .bf16) (x6 : Vec F S4x512 .f32) (x7 : Vec F S4x512x1024 .bf16) (x8 : Vec F S4x1024 .f32) (xt0 : TbBuf0 (F := F) c tbM0_0) (k0_hw1 : k0_chk1 (tbM0_0.view.readAt (Elt F) (Rect.unit (s := S36) (k0_off1 i) S1.size (k0_off1_inb i)).toLoadRect xt0 (Shape.Idx.first (numel1_S1.symm ▸ Nat.one_pos)))) :
    out0_A_9 c i arg2 harg2 arg3 harg3 arg4 harg4 arg5 harg5 arg6 harg6 arg7 harg7 arg8 harg8 arg9 harg9 arg10 harg10 arg11 harg11 x0 x1 x2 x3 x4 x5 x6 x7 x8 xt0 k0_hw1
      = k0_pay1 (k0_pay2 x0
          (View.ld x1 (Rect.unit (s := S4x1024x512) (k0_off2 (tbM0_0.view.readAt (Elt F) (Rect.unit (s := S36) (k0_off1 i) S1.size (k0_off1_inb i)).toLoadRect xt0 (Shape.Idx.first (numel1_S1.symm ▸ Nat.one_pos)))) S1x1024x512.size (k0_off2_inb _ k0_hw1)))
          (View.ld x2 (Rect.unit (s := S4x512) (k0_off3 (tbM0_0.view.readAt (Elt F) (Rect.unit (s := S36) (k0_off1 i) S1.size (k0_off1_inb i)).toLoadRect xt0 (Shape.Idx.first (numel1_S1.symm ▸ Nat.one_pos)))) S1x512.size (k0_off3_inb _ k0_hw1)))
          (View.ld x3 (Rect.unit (s := S4x512x128) (k0_off4 (tbM0_0.view.readAt (Elt F) (Rect.unit (s := S36) (k0_off1 i) S1.size (k0_off1_inb i)).toLoadRect xt0 (Shape.Idx.first (numel1_S1.symm ▸ Nat.one_pos)))) S1x512x128.size (k0_off4_inb _ k0_hw1)))
          (View.ld x4 (Rect.unit (s := S4x128) (k0_off5 (tbM0_0.view.readAt (Elt F) (Rect.unit (s := S36) (k0_off1 i) S1.size (k0_off1_inb i)).toLoadRect xt0 (Shape.Idx.first (numel1_S1.symm ▸ Nat.one_pos)))) S1x128.size (k0_off5_inb _ k0_hw1)))
          (View.ld x5 (Rect.unit (s := S4x128x512) (k0_off6 (tbM0_0.view.readAt (Elt F) (Rect.unit (s := S36) (k0_off1 i) S1.size (k0_off1_inb i)).toLoadRect xt0 (Shape.Idx.first (numel1_S1.symm ▸ Nat.one_pos)))) S1x128x512.size (k0_off6_inb _ k0_hw1)))
          (View.ld x6 (Rect.unit (s := S4x512) (k0_off3 (tbM0_0.view.readAt (Elt F) (Rect.unit (s := S36) (k0_off1 i) S1.size (k0_off1_inb i)).toLoadRect xt0 (Shape.Idx.first (numel1_S1.symm ▸ Nat.one_pos)))) S1x512.size (k0_off3_inb _ k0_hw1))))
          k0_pay3
          (View.ld x7 (Rect.unit (s := S4x512x1024) (k0_off7 (tbM0_0.view.readAt (Elt F) (Rect.unit (s := S36) (k0_off1 i) S1.size (k0_off1_inb i)).toLoadRect xt0 (Shape.Idx.first (numel1_S1.symm ▸ Nat.one_pos)))) S1x512x1024.size (k0_off7_inb _ k0_hw1)))
          (View.ld x8 (Rect.unit (s := S4x1024) (k0_off8 (tbM0_0.view.readAt (Elt F) (Rect.unit (s := S36) (k0_off1 i) S1.size (k0_off1_inb i)).toLoadRect xt0 (Shape.Idx.first (numel1_S1.symm ▸ Nat.one_pos)))) S1x1024.size (k0_off8_inb _ k0_hw1))) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 x0 x1 x2 x3 x4 x5 x6 x7 x8 xt0 k0_hw1)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S1024x1024) hz2]

/-- Element (0, i, k) of the slice of extent 1 taken at offset (e, 0, 0) of a stacked array of
    four matrices is the array's (e, i, k). -/
private theorem slab3_apply {Val : EltTy → Type} {e' : EltTy} {d1 d2 : Nat} (x : (⟨3, ![4, d1, d2]⟩ : Shape).Idx → Val e')
    (off : Fin 3 → Nat) (inb : ∀ a, off a + (![1, d1, d2] : Fin 3 → Nat) a ≤ (⟨3, ![4, d1, d2]⟩ : Shape).size a)
    (e : Fin 4) (h0 : off 0 = e.val) (h1 : off 1 = 0) (h2 : off 2 = 0) (i : Fin d1) (k : Fin d2) :
    View.ld x (Rect.unit off ![1, d1, d2] inb) (ix3 0 i k) = x (ix3 e i k) := by
  show x _ = x _
  congr 1
  funext a
  apply Fin.ext
  match a with
  | ⟨0, _⟩ => show off 0 + 1 * (0 : Nat) = e.val; omega
  | ⟨1, _⟩ => show off 1 + 1 * i.val = i.val; omega
  | ⟨2, _⟩ => show off 2 + 1 * k.val = k.val; omega

/-- Element (0, k) of the slice of extent 1 taken at offset (e, 0) of a stacked array of four rows
    is the array's (e, k). -/
private theorem slab2_apply {Val : EltTy → Type} {e' : EltTy} {d1 : Nat} (x : (⟨2, ![4, d1]⟩ : Shape).Idx → Val e')
    (off : Fin 2 → Nat) (inb : ∀ a, off a + (![1, d1] : Fin 2 → Nat) a ≤ (⟨2, ![4, d1]⟩ : Shape).size a)
    (e : Fin 4) (h0 : off 0 = e.val) (h1 : off 1 = 0) (k : Fin d1) :
    View.ld x (Rect.unit off ![1, d1] inb) (ix2 0 k) = x (ix2 e k) := by
  show x _ = x _
  congr 1
  funext a
  apply Fin.ext
  match a with
  | ⟨0, _⟩ => show off 0 + 1 * (0 : Nat) = e.val; omega
  | ⟨1, _⟩ => show off 1 + 1 * k.val = k.val; omega

/-- The same at one element, over the extended reals: row `p` of the block goes through the
    perceptron of the expert the table word names. -/
private theorem out_A_apply (c : Dev nD) (i : grid0.Coords) (arg2 : Memref sig .tc .vmem S1024x1024 .bf16) (harg2 : arg2.IsWhole) (arg3 : Memref sig .tc .vmem S4x1024x512 .bf16) (harg3 : arg3.IsWhole) (arg4 : Memref sig .tc .vmem S4x512 .f32) (harg4 : arg4.IsWhole) (arg5 : Memref sig .tc .vmem S4x512x128 .bf16) (harg5 : arg5.IsWhole) (arg6 : Memref sig .tc .vmem S4x128 .f32) (harg6 : arg6.IsWhole) (arg7 : Memref sig .tc .vmem S4x128x512 .bf16) (harg7 : arg7.IsWhole) (arg8 : Memref sig .tc .vmem S4x512 .f32) (harg8 : arg8.IsWhole) (arg9 : Memref sig .tc .vmem S4x512x1024 .bf16) (harg9 : arg9.IsWhole) (arg10 : Memref sig .tc .vmem S4x1024 .f32) (harg10 : arg10.IsWhole) (arg11 : Memref sig .tc .vmem S1024x1024 .f32) (harg11 : arg11.IsWhole)
    (x0 : Vec Ideal S1024x1024 .bf16) (x1 : Vec Ideal S4x1024x512 .bf16) (x2 : Vec Ideal S4x512 .f32) (x3 : Vec Ideal S4x512x128 .bf16) (x4 : Vec Ideal S4x128 .f32) (x5 : Vec Ideal S4x128x512 .bf16) (x6 : Vec Ideal S4x512 .f32) (x7 : Vec Ideal S4x512x1024 .bf16) (x8 : Vec Ideal S4x1024 .f32) (xt0 : TbBuf0 (F := Ideal) c tbM0_0) (k0_hw1 : k0_chk1 (tbM0_0.view.readAt (Elt Ideal) (Rect.unit (s := S36) (k0_off1 i) S1.size (k0_off1_inb i)).toLoadRect xt0 (Shape.Idx.first (numel1_S1.symm ▸ Nat.one_pos))))
    (e : Fin 4) (he : ((tbM0_0.view.readAt (Elt Ideal) (Rect.unit (s := S36) (k0_off1 i) S1.size (k0_off1_inb i)).toLoadRect xt0 (Shape.Idx.first (numel1_S1.symm ▸ Nat.one_pos))) : BitVec 32).toNat = e.val) (p q : Fin 1024) :
    out0_A_9 (F := Ideal) c i arg2 harg2 arg3 harg3 arg4 harg4 arg5 harg5 arg6 harg6 arg7 harg7 arg8 harg8 arg9 harg9 arg10 harg10 arg11 harg11 x0 x1 x2 x3 x4 x5 x6 x7 x8 xt0 k0_hw1 (ix2 p q)
      = Cert.Moe.expert x1 x2 x3 x4 x5 x6 x7 x8 e (fun i => x0 (ix2 p i)) q := by
  refine (congrFun (out_A_eq (F := Ideal) c i arg2 harg2 arg3 harg3 arg4 harg4 arg5 harg5 arg6 harg6 arg7 harg7 arg8 harg8 arg9 harg9 arg10 harg10 arg11 harg11 x0 x1 x2 x3 x4 x5 x6 x7 x8 xt0 k0_hw1) (ix2 p q)).trans ?_
  refine (pay_apply _ _ _ _ _ _ _ _ _ p q).trans ?_
  have e1 : (fun (r : Fin 1024) (k : Fin 512) => View.ld x1 (Rect.unit (s := S4x1024x512) (k0_off2 (tbM0_0.view.readAt (Elt Ideal) (Rect.unit (s := S36) (k0_off1 i) S1.size (k0_off1_inb i)).toLoadRect xt0 (Shape.Idx.first (numel1_S1.symm ▸ Nat.one_pos)))) S1x1024x512.size (k0_off2_inb _ k0_hw1)) (ix3 0 r k)) = fun r k => x1 (ix3 e r k) :=
    funext fun r => funext fun k => slab3_apply x1 _ _ e he rfl rfl r k
  have e2 : (fun (k : Fin 512) => View.ld x2 (Rect.unit (s := S4x512) (k0_off3 (tbM0_0.view.readAt (Elt Ideal) (Rect.unit (s := S36) (k0_off1 i) S1.size (k0_off1_inb i)).toLoadRect xt0 (Shape.Idx.first (numel1_S1.symm ▸ Nat.one_pos)))) S1x512.size (k0_off3_inb _ k0_hw1)) (ix2 0 k)) = fun k => x2 (ix2 e k) :=
    funext fun k => slab2_apply x2 _ _ e he rfl k
  have e3 : (fun (r : Fin 512) (k : Fin 128) => View.ld x3 (Rect.unit (s := S4x512x128) (k0_off4 (tbM0_0.view.readAt (Elt Ideal) (Rect.unit (s := S36) (k0_off1 i) S1.size (k0_off1_inb i)).toLoadRect xt0 (Shape.Idx.first (numel1_S1.symm ▸ Nat.one_pos)))) S1x512x128.size (k0_off4_inb _ k0_hw1)) (ix3 0 r k)) = fun r k => x3 (ix3 e r k) :=
    funext fun r => funext fun k => slab3_apply x3 _ _ e he rfl rfl r k
  have e4 : (fun (k : Fin 128) => View.ld x4 (Rect.unit (s := S4x128) (k0_off5 (tbM0_0.view.readAt (Elt Ideal) (Rect.unit (s := S36) (k0_off1 i) S1.size (k0_off1_inb i)).toLoadRect xt0 (Shape.Idx.first (numel1_S1.symm ▸ Nat.one_pos)))) S1x128.size (k0_off5_inb _ k0_hw1)) (ix2 0 k)) = fun k => x4 (ix2 e k) :=
    funext fun k => slab2_apply x4 _ _ e he rfl k
  have e5 : (fun (r : Fin 128) (k : Fin 512) => View.ld x5 (Rect.unit (s := S4x128x512) (k0_off6 (tbM0_0.view.readAt (Elt Ideal) (Rect.unit (s := S36) (k0_off1 i) S1.size (k0_off1_inb i)).toLoadRect xt0 (Shape.Idx.first (numel1_S1.symm ▸ Nat.one_pos)))) S1x128x512.size (k0_off6_inb _ k0_hw1)) (ix3 0 r k)) = fun r k => x5 (ix3 e r k) :=
    funext fun r => funext fun k => slab3_apply x5 _ _ e he rfl rfl r k
  have e6 : (fun (k : Fin 512) => View.ld x6 (Rect.unit (s := S4x512) (k0_off3 (tbM0_0.view.readAt (Elt Ideal) (Rect.unit (s := S36) (k0_off1 i) S1.size (k0_off1_inb i)).toLoadRect xt0 (Shape.Idx.first (numel1_S1.symm ▸ Nat.one_pos)))) S1x512.size (k0_off3_inb _ k0_hw1)) (ix2 0 k)) = fun k => x6 (ix2 e k) :=
    funext fun k => slab2_apply x6 _ _ e he rfl k
  have e7 : (fun (r : Fin 512) (k : Fin 1024) => View.ld x7 (Rect.unit (s := S4x512x1024) (k0_off7 (tbM0_0.view.readAt (Elt Ideal) (Rect.unit (s := S36) (k0_off1 i) S1.size (k0_off1_inb i)).toLoadRect xt0 (Shape.Idx.first (numel1_S1.symm ▸ Nat.one_pos)))) S1x512x1024.size (k0_off7_inb _ k0_hw1)) (ix3 0 r k)) = fun r k => x7 (ix3 e r k) :=
    funext fun r => funext fun k => slab3_apply x7 _ _ e he rfl rfl r k
  have e8 : (fun (k : Fin 1024) => View.ld x8 (Rect.unit (s := S4x1024) (k0_off8 (tbM0_0.view.readAt (Elt Ideal) (Rect.unit (s := S36) (k0_off1 i) S1.size (k0_off1_inb i)).toLoadRect xt0 (Shape.Idx.first (numel1_S1.symm ▸ Nat.one_pos)))) S1x1024.size (k0_off8_inb _ k0_hw1)) (ix2 0 k)) = fun k => x8 (ix2 e k) :=
    funext fun k => slab2_apply x8 _ _ e he rfl k
  rw [e1, e2, e3, e4, e5, e6, e7, e8]
  rfl

end point

/-! ## The blocks the grid points read -/

section blocks

variable (m : (ℓ : Loc nD τ sig) → Buf (Elt Ideal) ℓ)

/-- The index maps over the grid: the feature window and the output window sit at block
    row `t`, column 0; the table is read at word `t`. -/
private theorem idx_facts (a : (pcfg0 (F := Ideal)).Adm) : ∀ t : Fin (cfg0 a).N,
    ((cfg0 a).win 0).index t (0 : Fin 2) = t.val ∧ ((cfg0 a).win 0).index t (1 : Fin 2) = 0
    ∧ ((cfg0 a).win 9).index t (0 : Fin 2) = t.val ∧ ((cfg0 a).win 9).index t (1 : Fin 2) = 0
    ∧ k0_off1 (grid0.coords t) 0 = t.val ∧ t.val < 36 :=
  (by decide +kernel : ∀ t : Fin grid0.N,
    cc0_transform_0 (grid0.coords t) (0 : Fin 2) = t.val ∧ cc0_transform_0 (grid0.coords t) (1 : Fin 2) = 0
    ∧ cc0_transform_9 (grid0.coords t) (0 : Fin 2) = t.val ∧ cc0_transform_9 (grid0.coords t) (1 : Fin 2) = 0
    ∧ k0_off1 (grid0.coords t) 0 = t.val ∧ t.val < 36)

/-- Each stacked weight array is one block: the grid points read it whole. -/
private theorem blk1_eq (hO : Ok m) (c : Dev nD) (t : Fin (cfgM m hO).N) :
    (iblk m hO c 1 t : Vec Ideal S4x1024x512 .bf16) = (V m c main_v132 : Vec Ideal S4x1024x512 .bf16) := by
  refine funext fun (j : S4x1024x512.Idx) => ?_
  unfold iblk
  show V m c main_v132 _ = V m c main_v132 j
  congr 1
  funext a
  apply Fin.ext
  match a with
  | ⟨0, _⟩ => show 0 * 4 + 1 * (j 0).val = (j 0).val; omega
  | ⟨1, _⟩ => show 0 * 1024 + 1 * (j 1).val = (j 1).val; omega
  | ⟨2, _⟩ => show 0 * 512 + 1 * (j 2).val = (j 2).val; omega

private theorem blk2_eq (hO : Ok m) (c : Dev nD) (t : Fin (cfgM m hO).N) :
    (iblk m hO c 2 t : Vec Ideal S4x512 .f32) = (V m c main_arg3 : Vec Ideal S4x512 .f32) := by
  refine funext fun (j : S4x512.Idx) => ?_
  unfold iblk
  show V m c main_arg3 _ = V m c main_arg3 j
  congr 1
  funext a
  apply Fin.ext
  match a with
  | ⟨0, _⟩ => show 0 * 4 + 1 * (j 0).val = (j 0).val; omega
  | ⟨1, _⟩ => show 0 * 512 + 1 * (j 1).val = (j 1).val; omega

private theorem blk3_eq (hO : Ok m) (c : Dev nD) (t : Fin (cfgM m hO).N) :
    (iblk m hO c 3 t : Vec Ideal S4x512x128 .bf16) = (V m c main_v133 : Vec Ideal S4x512x128 .bf16) := by
  refine funext fun (j : S4x512x128.Idx) => ?_
  unfold iblk
  show V m c main_v133 _ = V m c main_v133 j
  congr 1
  funext a
  apply Fin.ext
  match a with
  | ⟨0, _⟩ => show 0 * 4 + 1 * (j 0).val = (j 0).val; omega
  | ⟨1, _⟩ => show 0 * 512 + 1 * (j 1).val = (j 1).val; omega
  | ⟨2, _⟩ => show 0 * 128 + 1 * (j 2).val = (j 2).val; omega

private theorem blk4_eq (hO : Ok m) (c : Dev nD) (t : Fin (cfgM m hO).N) :
    (iblk m hO c 4 t : Vec Ideal S4x128 .f32) = (V m c main_arg5 : Vec Ideal S4x128 .f32) := by
  refine funext fun (j : S4x128.Idx) => ?_
  unfold iblk
  show V m c main_arg5 _ = V m c main_arg5 j
  congr 1
  funext a
  apply Fin.ext
  match a with
  | ⟨0, _⟩ => show 0 * 4 + 1 * (j 0).val = (j 0).val; omega
  | ⟨1, _⟩ => show 0 * 128 + 1 * (j 1).val = (j 1).val; omega

private theorem blk5_eq (hO : Ok m) (c : Dev nD) (t : Fin (cfgM m hO).N) :
    (iblk m hO c 5 t : Vec Ideal S4x128x512 .bf16) = (V m c main_v134 : Vec Ideal S4x128x512 .bf16) := by
  refine funext fun (j : S4x128x512.Idx) => ?_
  unfold iblk
  show V m c main_v134 _ = V m c main_v134 j
  congr 1
  funext a
  apply Fin.ext
  match a with
  | ⟨0, _⟩ => show 0 * 4 + 1 * (j 0).val = (j 0).val; omega
  | ⟨1, _⟩ => show 0 * 128 + 1 * (j 1).val = (j 1).val; omega
  | ⟨2, _⟩ => show 0 * 512 + 1 * (j 2).val = (j 2).val; omega

private theorem blk6_eq (hO : Ok m) (c : Dev nD) (t : Fin (cfgM m hO).N) :
    (iblk m hO c 6 t : Vec Ideal S4x512 .f32) = (V m c main_arg7 : Vec Ideal S4x512 .f32) := by
  refine funext fun (j : S4x512.Idx) => ?_
  unfold iblk
  show V m c main_arg7 _ = V m c main_arg7 j
  congr 1
  funext a
  apply Fin.ext
  match a with
  | ⟨0, _⟩ => show 0 * 4 + 1 * (j 0).val = (j 0).val; omega
  | ⟨1, _⟩ => show 0 * 512 + 1 * (j 1).val = (j 1).val; omega

private theorem blk7_eq (hO : Ok m) (c : Dev nD) (t : Fin (cfgM m hO).N) :
    (iblk m hO c 7 t : Vec Ideal S4x512x1024 .bf16) = (V m c main_v135 : Vec Ideal S4x512x1024 .bf16) := by
  refine funext fun (j : S4x512x1024.Idx) => ?_
  unfold iblk
  show V m c main_v135 _ = V m c main_v135 j
  congr 1
  funext a
  apply Fin.ext
  match a with
  | ⟨0, _⟩ => show 0 * 4 + 1 * (j 0).val = (j 0).val; omega
  | ⟨1, _⟩ => show 0 * 512 + 1 * (j 1).val = (j 1).val; omega
  | ⟨2, _⟩ => show 0 * 1024 + 1 * (j 2).val = (j 2).val; omega

private theorem blk8_eq (hO : Ok m) (c : Dev nD) (t : Fin (cfgM m hO).N) :
    (iblk m hO c 8 t : Vec Ideal S4x1024 .f32) = (V m c main_arg9 : Vec Ideal S4x1024 .f32) := by
  refine funext fun (j : S4x1024.Idx) => ?_
  unfold iblk
  show V m c main_arg9 _ = V m c main_arg9 j
  congr 1
  funext a
  apply Fin.ext
  match a with
  | ⟨0, _⟩ => show 0 * 4 + 1 * (j 0).val = (j 0).val; omega
  | ⟨1, _⟩ => show 0 * 1024 + 1 * (j 1).val = (j 1).val; omega

/-- Row `p` of feature block `t` is padded row `1024 t + p`. -/
private theorem blk0_apply (hO : Ok m) (c : Dev nD) (t : Fin (cfgM m hO).N) (p q : Fin 1024) (hp : t.val * 1024 + p.val < 36864) :
    (iblk m hO c 0 t : Vec Ideal S1024x1024 .bf16) (ix2 p q)
      = (V m c main_v67 : Vec Ideal S36864x1024 .bf16) (ix2 ⟨t.val * 1024 + p.val, hp⟩ q) := by
  obtain ⟨e0, e1, -⟩ := idx_facts (adm m hO) t
  unfold iblk
  show V m c main_v67 _ = V m c main_v67 _
  congr 1
  funext a
  apply Fin.ext
  match a with
  | ⟨0, _⟩ => show ((cfgM m hO).win 0).index t (0 : Fin 2) * 1024 + 1 * p.val = t.val * 1024 + p.val; rw [e0]; omega
  | ⟨1, _⟩ => show ((cfgM m hO).win 0).index t (1 : Fin 2) * 1024 + 1 * q.val = q.val; rw [e1]; omega

/-- The table word grid point `t` reads is entry `t` of the table. -/
private theorem word_eq (hO : Ok m) (c : Dev nD) (t : Fin (cfgM m hO).N) (ht : t.val < 36) :
    (tbM0_0.view.readAt (Elt Ideal) (Rect.unit (s := S36) (k0_off1 (grid0.coords t)) S1.size (k0_off1_inb (grid0.coords t))).toLoadRect (tbl m 0) (Shape.Idx.first (numel1_S1.symm ▸ Nat.one_pos)) : BitVec 32)
      = (V m c main_v131 : S36.Idx → BitVec 32) (ix1 ⟨t.val, ht⟩) := by
  obtain ⟨-, -, -, -, e4, -⟩ := idx_facts (adm m hO) t
  obtain rfl : c = 0 := Subsingleton.elim _ _
  show (V m 0 main_v131 : S36.Idx → BitVec 32) _ = _
  congr 1
  funext a
  apply Fin.ext
  match a with
  | ⟨0, _⟩ => show k0_off1 (grid0.coords t) 0 + 1 * 0 = t.val; rw [e4]; omega

end blocks

variable (m : (ℓ : Loc nD τ sig) → Buf (Elt Ideal) ℓ)

/-- The output array after the region, as the frame run states it. -/
abbrev Opad (hO : Ok m) (hH : Hyps m hO) (c : Dev nD) : S36864x1024.Idx → EReal :=
  (dats m hO hH 0 c).arrAt 9 (cfgM m hO).N

/-! ## From the blocks to the array -/

section array

/-- The block a padded row lies in. -/
private def blockOf (s : Fin 36864) : Fin 36 := ⟨s.val / 1024, by have := s.isLt; omega⟩

/-- The whole output array: padded row `s` goes through the perceptron of the expert the table
    names for block `s / 1024`. -/
private def Gpad (c : Dev nD) : S36864x1024.Idx → EReal := fun j =>
  Cert.Moe.expert (V m c main_v132) (V m c main_arg3) (V m c main_v133) (V m c main_arg5)
          (V m c main_v134) (V m c main_arg7) (V m c main_v135) (V m c main_arg9)
    (Cert.Moe.eidOf ((V m c main_v131 : S36.Idx → BitVec 32) (ix1 (blockOf (j 0)))))
    (fun i => (V m c main_v67 : S36864x1024.Idx → EReal) (ix2 (j 0) i)) (j 1)

/-- What grid point `t` leaves in the output block, at row `p`: the perceptron of expert
    `table[t]` on padded feature row `1024 t + p`. -/
private theorem outsAt_apply (hO : Ok m) (hH : Hyps m hO) (c : Dev nD) (t : Fin (cfgM m hO).N) (p q : Fin 1024)
    (ht : t.val < 36) (hp : t.val * 1024 + p.val < 36864) :
    (outsAt0 m hO hH c t : Vec Ideal S1024x1024 .f32) (ix2 p q)
      = Cert.Moe.expert (V m c main_v132) (V m c main_arg3) (V m c main_v133) (V m c main_arg5)
          (V m c main_v134) (V m c main_arg7) (V m c main_v135) (V m c main_arg9)
          (Cert.Moe.eidOf ((V m c main_v131 : S36.Idx → BitVec 32) (ix1 ⟨t.val, ht⟩)))
          (fun i => (V m c main_v67 : S36864x1024.Idx → EReal) (ix2 ⟨t.val * 1024 + p.val, hp⟩ i)) q := by
  have hw := word_eq m hO c t ht
  have h4 : (tbM0_0.view.readAt (Elt Ideal) (Rect.unit (s := S36) (k0_off1 (grid0.coords t)) S1.size (k0_off1_inb (grid0.coords t))).toLoadRect (tbl m 0) (Shape.Idx.first (numel1_S1.symm ▸ Nat.one_pos)) : BitVec 32).toNat + 1 ≤ 4 :=
    (Hyps.c0 hH c t).1 0
  have he : (tbM0_0.view.readAt (Elt Ideal) (Rect.unit (s := S36) (k0_off1 (grid0.coords t)) S1.size (k0_off1_inb (grid0.coords t))).toLoadRect (tbl m 0) (Shape.Idx.first (numel1_S1.symm ▸ Nat.one_pos)) : BitVec 32).toNat
      = (Cert.Moe.eidOf ((V m c main_v131 : S36.Idx → BitVec 32) (ix1 ⟨t.val, ht⟩))).val := by
    rw [← hw]; exact (Cert.Moe.eidOf_val_of_lt (by omega)).symm
  unfold outsAt0
  refine (out_A_apply c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (Hyps.c0 hH c t)
    (Cert.Moe.eidOf ((V m c main_v131 : S36.Idx → BitVec 32) (ix1 ⟨t.val, ht⟩))) he p q).trans ?_
  rw [blk1_eq m hO c t, blk2_eq m hO c t, blk3_eq m hO c t, blk4_eq m hO c t, blk5_eq m hO c t, blk6_eq m hO c t, blk7_eq m hO c t, blk8_eq m hO c t]
  have hx : (fun i : Fin 1024 => (iblk m hO c 0 t : Vec Ideal S1024x1024 .bf16) (ix2 p i))
      = fun i => (V m c main_v67 : S36864x1024.Idx → EReal) (ix2 ⟨t.val * 1024 + p.val, hp⟩ i) :=
    funext fun i => blk0_apply m hO c t p i hp
  rw [hx]

/-- An index of the output array is in point `t`'s block iff each coordinate is in the block's
    range on its axis. -/
private theorem mem_blk (hO : Ok m) (t : Fin (cfgM m hO).N) (i : S36864x1024.Idx) :
    i ∈ (((cfgM m hO).win 9).blk t).view.set
      ↔ ∀ a : Fin 2, ((cfgM m hO).win 9).index t a * S1024x1024.size a ≤ (i a).val
          ∧ (i a).val < ((cfgM m hO).win 9).index t a * S1024x1024.size a + S1024x1024.size a := by
  show i ∈ ((View.whole main_v136).slice (((cfgM m hO).win 9).rect t)).set ↔ _
  refine (Eq.to_iff (congrArg (fun S => i ∈ S) (View.set_slice_whole main_v136 (((cfgM m hO).win 9).rect t)))).trans ?_
  exact Rect.mem_set_unit

/-- What grid point `t` writes back is block `t` of the whole-array function. -/
private theorem flushed_eq (hO : Ok m) (hH : Hyps m hO) (c : Dev nD) (t : Fin (cfgM m hO).N) :
    (dats m hO hH 0 c).flushed 9 t = (((cfgM m hO).win 9).blk t).view.read (Elt Ideal) (Gpad m c) := by
  obtain ⟨-, -, e2, e3, -, ht⟩ := idx_facts (adm m hO) t
  show ((cfgM m hO).win 9).cut ((cfgM m hO).grid.coords t) ((dats m hO hH 0 c).after 9 t) = _
  rw [after0_9]
  refine funext fun (j : S1024x1024.Idx) => ?_
  obtain ⟨p, q, rfl⟩ : ∃ (p q : Fin 1024), j = ix2 p q := ⟨j 0, j 1, eq_ix2 j⟩
  have hp : t.val * 1024 + p.val < 36864 := by have := p.isLt; omega
  have hj : (((cfgM m hO).win 9).blk t).view.emb (ix2 p q) = (ix2 ⟨t.val * 1024 + p.val, hp⟩ q : S36864x1024.Idx) := by
    funext a
    apply Fin.ext
    match a with
    | ⟨0, _⟩ => show ((cfgM m hO).win 9).index t (0 : Fin 2) * 1024 + 1 * p.val = t.val * 1024 + p.val; rw [e2]; omega
    | ⟨1, _⟩ => show ((cfgM m hO).win 9).index t (1 : Fin 2) * 1024 + 1 * q.val = q.val; rw [e3]; omega
  show (outsAt0 m hO hH c t : Vec Ideal S1024x1024 .f32) (ix2 p q) = Gpad m c ((((cfgM m hO).win 9).blk t).view.emb (ix2 p q))
  rw [hj, outsAt_apply m hO hH c t p q ht hp]
  have hb : blockOf ⟨t.val * 1024 + p.val, hp⟩ = ⟨t.val, ht⟩ :=
    Fin.ext (by show (t.val * 1024 + p.val) / 1024 = t.val; have := p.isLt; omega)
  show _ = Cert.Moe.expert (V m c main_v132) (V m c main_arg3) (V m c main_v133) (V m c main_arg5)
          (V m c main_v134) (V m c main_arg7) (V m c main_v135) (V m c main_arg9)
    (Cert.Moe.eidOf ((V m c main_v131 : S36.Idx → BitVec 32) (ix1 (blockOf ⟨t.val * 1024 + p.val, hp⟩))))
    (fun i => (V m c main_v67 : S36864x1024.Idx → EReal) (ix2 ⟨t.val * 1024 + p.val, hp⟩ i)) q
  rw [hb]

/-- The 36 blocks tile the padded rows, so the output array ends holding the whole-array function. -/
private theorem Opad_eq (hO : Ok m) (hH : Hyps m hO) (c : Dev nD) : Opad m hO hH c = Gpad m c :=
  (dats m hO hH 0 c).arrAt_eq_of_cover 9 (Gpad m c) (fun t _ => flushed_eq m hO hH c t) fun (i : S36864x1024.Idx) =>
    ⟨⟨(i 0).val / 1024, by rw [show (cfgM m hO).N = 36 from N_0]; have := idx2_lt0 i; omega⟩, flush0_9 (adm m hO) _, by
      refine (mem_blk m hO ⟨(i 0).val / 1024, by rw [show (cfgM m hO).N = 36 from N_0]; have := idx2_lt0 i; omega⟩ i).mpr ?_
      obtain ⟨-, -, e2, e3, -, -⟩ := idx_facts (adm m hO) ⟨(i 0).val / 1024, by rw [show (cfgM m hO).N = 36 from N_0]; have := idx2_lt0 i; omega⟩
      have h0 := idx2_lt0 i
      have h1 := idx2_lt1 i
      intro a
      match a with
      | ⟨0, _⟩ =>
        show ((cfgM m hO).win 9).index _ (0 : Fin 2) * 1024 ≤ (i 0).val ∧ (i 0).val < ((cfgM m hO).win 9).index _ (0 : Fin 2) * 1024 + 1024
        rw [e2]; dsimp only; omega
      | ⟨1, _⟩ =>
        show ((cfgM m hO).win 9).index _ (1 : Fin 2) * 1024 ≤ (i 1).val ∧ (i 1).val < ((cfgM m hO).win 9).index _ (1 : Fin 2) * 1024 + 1024
        rw [e3]; omega⟩

end array

theorem Opad_apply (hO : Ok m) (hH : Hyps m hO) (c : Dev nD) (s : Fin 36864) (q : Fin 1024) :
    Opad m hO hH c (ix2 s q)
      = Cert.Moe.expert (V m c main_v132) (V m c main_arg3) (V m c main_v133) (V m c main_arg5)
          (V m c main_v134) (V m c main_arg7) (V m c main_v135) (V m c main_arg9)
          (Cert.Moe.eidOf ((V m c main_v131 : S36.Idx → BitVec 32) (ix1 ⟨s.val / 1024, by omega⟩)))
          (fun i => (V m c main_v67 : S36864x1024.Idx → EReal) (ix2 s i)) q := by
  rw [Opad_eq m hO hH c]
  rfl

end Cert.KernelIdeal.Gen

end
-- ==== Proof.Route.lean ====
/-
  Grouping atoms by symbol and padding each group to whole blocks: the counting facts.

  `sym n` is atom `n`'s symbol (one of four).  `σ` lists the atoms in nondecreasing order of symbol.
  Group `e` holds `cnt e` atoms; in the sorted order it starts at `off e` (the atoms of smaller
  symbols).  Its padded size `pcnt e` is `cnt e` rounded up to a multiple of 1024, and in the padded
  layout it starts at `poff e`.  The sorted row `r` goes to padded slot
  `target r = poff e + (r - off e)`, `e` its symbol.  A block of 1024 padded slots belongs to the one
  group whose padded range contains its first slot (`owner`).
-/
import Mathlib.Algebra.BigOperators.Fin
import Mathlib.Algebra.Order.BigOperators.Group.Finset
import Mathlib.Data.Fintype.Card
import Mathlib.Data.Fintype.BigOperators
import Mathlib.Order.Interval.Finset.Fin
import Mathlib.Tactic.Linarith
import Mathlib.Tactic.Ring
import Mathlib.Tactic.FinCases

namespace Cert.Moe.Route

variable (sym : Fin 32768 → Fin 4)

/-- How many atoms carry symbol `e`. -/
def cnt (e : Fin 4) : ℕ := (Finset.univ.filter fun n => sym n = e).card
/-- How many atoms carry a smaller symbol. -/
def off (e : Fin 4) : ℕ := ∑ e' ∈ Finset.univ.filter (fun e' : Fin 4 => e' < e), cnt sym e'
/-- The group's size rounded up to whole blocks of 1024. -/
def pcnt (e : Fin 4) : ℕ := (cnt sym e + 1023) / 1024 * 1024
/-- Where the group starts in the padded layout. -/
def poff (e : Fin 4) : ℕ := ∑ e' ∈ Finset.univ.filter (fun e' : Fin 4 => e' < e), pcnt sym e'
/-- The padded slot of sorted row `r`. -/
def target (σ : Fin 32768 → Fin 32768) (r : Fin 32768) : ℕ :=
  poff sym (sym (σ r)) + (r.val - off sym (sym (σ r)))
/-- Block `b` starts inside group `e`'s padded range. -/
def inGroup (e : Fin 4) (b : ℕ) : Prop := poff sym e ≤ b * 1024 ∧ b * 1024 < poff sym e + pcnt sym e
instance (e : Fin 4) (b : ℕ) : Decidable (inGroup sym e b) := by unfold inGroup; infer_instance
/-- The group a block belongs to: the last of the four tests that holds wins, none gives 0. -/
def owner (b : ℕ) : ℕ := if inGroup sym 3 b then 3 else if inGroup sym 2 b then 2 else if inGroup sym 1 b then 1 else 0

/-- The symbols below a literal, listed. -/
private theorem lt_zero_filter : (Finset.univ.filter fun e' : Fin 4 => e' < 0) = ∅ := by decide
private theorem lt_one_filter : (Finset.univ.filter fun e' : Fin 4 => e' < 1) = {0} := by decide
private theorem lt_two_filter : (Finset.univ.filter fun e' : Fin 4 => e' < 2) = {0, 1} := by decide
private theorem lt_three_filter : (Finset.univ.filter fun e' : Fin 4 => e' < 3) = {0, 1, 2} := by decide

theorem off_zero : off sym 0 = 0 := by
  unfold off; rw [lt_zero_filter]; rfl
theorem off_one : off sym 1 = cnt sym 0 := by
  unfold off; rw [lt_one_filter]; simp
theorem off_two : off sym 2 = cnt sym 0 + cnt sym 1 := by
  unfold off; rw [lt_two_filter]; rw [Finset.sum_pair (by decide)]
theorem off_three : off sym 3 = cnt sym 0 + cnt sym 1 + cnt sym 2 := by
  unfold off; rw [lt_three_filter]
  rw [Finset.sum_insert (by decide), Finset.sum_pair (by decide)]; ring
theorem poff_zero : poff sym 0 = 0 := by
  unfold poff; rw [lt_zero_filter]; rfl
theorem poff_one : poff sym 1 = pcnt sym 0 := by
  unfold poff; rw [lt_one_filter]; simp
theorem poff_two : poff sym 2 = pcnt sym 0 + pcnt sym 1 := by
  unfold poff; rw [lt_two_filter]; rw [Finset.sum_pair (by decide)]
theorem poff_three : poff sym 3 = pcnt sym 0 + pcnt sym 1 + pcnt sym 2 := by
  unfold poff; rw [lt_three_filter]
  rw [Finset.sum_insert (by decide), Finset.sum_pair (by decide)]; ring

/-- Every atom has exactly one symbol, so the group sizes add up to the number of atoms. -/
private theorem sum_cnt : cnt sym 0 + cnt sym 1 + cnt sym 2 + cnt sym 3 = 32768 := by
  have h := Finset.card_eq_sum_card_fiberwise (f := sym) (s := Finset.univ) (t := Finset.univ)
    (fun x _ => Finset.mem_univ _)
  rw [Finset.card_univ, Fintype.card_fin, Fin.sum_univ_four] at h
  unfold cnt; omega

theorem cnt_le (e : Fin 4) : cnt sym e ≤ 32768 := by
  have h := Finset.card_filter_le (Finset.univ : Finset (Fin 32768)) (fun n => sym n = e)
  rw [Finset.card_univ, Fintype.card_fin] at h
  exact h
theorem off_add_cnt_le (e : Fin 4) : off sym e + cnt sym e ≤ 32768 := by
  have hs := sum_cnt sym
  have h0 := off_zero sym; have h1 := off_one sym; have h2 := off_two sym; have h3 := off_three sym
  match e with
  | 0 => omega
  | 1 => omega
  | 2 => omega
  | 3 => omega
theorem pcnt_le (e : Fin 4) : pcnt sym e ≤ 32768 := by
  have h := cnt_le sym e
  unfold pcnt; omega
theorem cnt_le_pcnt (e : Fin 4) : cnt sym e ≤ pcnt sym e := by
  unfold pcnt; omega
theorem pcnt_dvd (e : Fin 4) : 1024 ∣ pcnt sym e := by
  unfold pcnt; exact dvd_mul_left 1024 _
theorem poff_dvd (e : Fin 4) : 1024 ∣ poff sym e := by
  unfold poff; exact Finset.dvd_sum fun e' _ => pcnt_dvd sym e'
/-- The padded groups fit in 35 blocks. -/
theorem poff_add_pcnt_le (e : Fin 4) : poff sym e + pcnt sym e ≤ 35 * 1024 := by
  have hs := sum_cnt sym
  have h0 := poff_zero sym; have h1 := poff_one sym; have h2 := poff_two sym; have h3 := poff_three sym
  have e0 : pcnt sym 0 = (cnt sym 0 + 1023) / 1024 * 1024 := rfl
  have e1 : pcnt sym 1 = (cnt sym 1 + 1023) / 1024 * 1024 := rfl
  have e2 : pcnt sym 2 = (cnt sym 2 + 1023) / 1024 * 1024 := rfl
  have e3 : pcnt sym 3 = (cnt sym 3 + 1023) / 1024 * 1024 := rfl
  match e with
  | 0 => omega
  | 1 => omega
  | 2 => omega
  | 3 => omega
theorem owner_lt (b : ℕ) : owner sym b < 4 := by
  unfold owner; split_ifs <;> omega

/-- The padded ranges are laid out one after the other in symbol order. -/
private theorem poff_step (e e' : Fin 4) (h : e < e') : poff sym e + pcnt sym e ≤ poff sym e' := by
  have h0 := poff_zero sym; have h1 := poff_one sym; have h2 := poff_two sym; have h3 := poff_three sym
  match e, e', h with
  | 0, 0, h => exact absurd h (by decide)
  | 0, 1, _ => omega
  | 0, 2, _ => omega
  | 0, 3, _ => omega
  | 1, 0, h => exact absurd h (by decide)
  | 1, 1, h => exact absurd h (by decide)
  | 1, 2, _ => omega
  | 1, 3, _ => omega
  | 2, 0, h => exact absurd h (by decide)
  | 2, 1, h => exact absurd h (by decide)
  | 2, 2, h => exact absurd h (by decide)
  | 2, 3, _ => omega
  | 3, 0, h => exact absurd h (by decide)
  | 3, 1, h => exact absurd h (by decide)
  | 3, 2, h => exact absurd h (by decide)
  | 3, 3, h => exact absurd h (by decide)

/-- A slot inside group `e`'s padded range lies in a block that starts inside that range. -/
private theorem inGroup_of_mem (e : Fin 4) (t : ℕ) (h1 : poff sym e ≤ t)
    (h2 : t < poff sym e + pcnt sym e) : inGroup sym e (t / 1024) := by
  obtain ⟨k, hk⟩ := poff_dvd sym e
  obtain ⟨m, hm⟩ := pcnt_dvd sym e
  unfold inGroup
  constructor <;> omega

/-- A block starts inside at most one group's padded range. -/
private theorem not_inGroup_of_ne (e e' : Fin 4) (b : ℕ) (h : inGroup sym e b) (hne : e' ≠ e) :
    ¬ inGroup sym e' b := by
  unfold inGroup at h ⊢
  rcases lt_or_gt_of_ne hne with hlt | hgt
  · have := poff_step sym e' e hlt; omega
  · have := poff_step sym e e' hgt; omega

/-- A block that starts inside group `e`'s padded range is owned by `e`. -/
private theorem owner_of_inGroup (e : Fin 4) (b : ℕ) (h : inGroup sym e b) : owner sym b = e.val := by
  unfold owner
  match e, h with
  | 0, h =>
    rw [if_neg (not_inGroup_of_ne sym 0 3 b h (by decide)),
      if_neg (not_inGroup_of_ne sym 0 2 b h (by decide)),
      if_neg (not_inGroup_of_ne sym 0 1 b h (by decide))]; rfl
  | 1, h =>
    rw [if_neg (not_inGroup_of_ne sym 1 3 b h (by decide)),
      if_neg (not_inGroup_of_ne sym 1 2 b h (by decide)), if_pos h]; rfl
  | 2, h =>
    rw [if_neg (not_inGroup_of_ne sym 2 3 b h (by decide)), if_pos h]; rfl
  | 3, h => rw [if_pos h]; rfl

section Sorted
variable (σ : Fin 32768 → Fin 32768) (hσ : Function.Bijective σ) (hmono : ∀ i j : Fin 32768, i ≤ j → sym (σ i) ≤ sym (σ j))

/-- Counting rows by the symbol of their atom is counting atoms by symbol. -/
private theorem card_rows_eq (hσ : Function.Bijective σ) (e : Fin 4) :
    (Finset.univ.filter fun r : Fin 32768 => sym (σ r) = e).card = cnt sym e := by
  unfold cnt
  exact Finset.card_bijective σ hσ (fun i => by simp)

/-- The rows whose symbol is below `e` number `off e`. -/
private theorem card_rows_lt (hσ : Function.Bijective σ) (e : Fin 4) :
    (Finset.univ.filter fun r : Fin 32768 => sym (σ r) < e).card = off sym e := by
  unfold off
  rw [Finset.card_eq_sum_card_fiberwise (f := fun r => sym (σ r))
    (s := Finset.univ.filter fun r : Fin 32768 => sym (σ r) < e)
    (t := Finset.univ.filter fun e' : Fin 4 => e' < e)
    (fun x hx => by simpa using hx)]
  refine Finset.sum_congr rfl fun b hb => ?_
  rw [← card_rows_eq sym σ hσ b, Finset.filter_filter]
  refine congrArg Finset.card ?_
  refine Finset.filter_congr fun x _ => ?_
  have hb' : b < e := by simpa using hb
  constructor
  · exact fun h => h.2
  · intro h; exact ⟨h ▸ hb', h⟩

include hσ hmono

/-- In the sorted order group `e` occupies the rows `off e ≤ r < off e + cnt e`. -/
theorem off_le (r : Fin 32768) : off sym (sym (σ r)) ≤ r.val := by
  -- every row with a smaller symbol lies strictly before `r`
  rw [← card_rows_lt sym σ hσ, ← Fin.card_Iio r]
  refine Finset.card_le_card fun s hs => ?_
  rw [Finset.mem_filter] at hs
  rw [Finset.mem_Iio]
  by_contra hns
  exact absurd (hmono r s (not_lt.mp hns)) (not_le.mpr hs.2)
theorem lt_off_add_cnt (r : Fin 32768) : r.val < off sym (sym (σ r)) + cnt sym (sym (σ r)) := by
  -- every row up to `r` has a symbol below or equal to that of `r`
  have hsub : Finset.Iic r ⊆ (Finset.univ.filter fun s : Fin 32768 => sym (σ s) < sym (σ r)) ∪
      (Finset.univ.filter fun s : Fin 32768 => sym (σ s) = sym (σ r)) := by
    intro s hs
    rw [Finset.mem_Iic] at hs
    rw [Finset.mem_union, Finset.mem_filter, Finset.mem_filter]
    rcases lt_or_eq_of_le (hmono s r hs) with h | h
    · exact Or.inl ⟨Finset.mem_univ _, h⟩
    · exact Or.inr ⟨Finset.mem_univ _, h⟩
  have h1 := Finset.card_le_card hsub
  have h2 := Finset.card_union_le (Finset.univ.filter fun s : Fin 32768 => sym (σ s) < sym (σ r))
      (Finset.univ.filter fun s : Fin 32768 => sym (σ s) = sym (σ r))
  rw [Fin.card_Iic] at h1
  rw [card_rows_lt sym σ hσ, card_rows_eq sym σ hσ] at h2
  omega
theorem target_lt (r : Fin 32768) : target sym σ r < 36864 := by
  have h1 := off_le sym σ hσ hmono r
  have h2 := lt_off_add_cnt sym σ hσ hmono r
  have h3 := cnt_le_pcnt sym (sym (σ r))
  have h4 := poff_add_pcnt_le sym (sym (σ r))
  unfold target; omega
theorem target_injective : Function.Injective (target sym σ) := by
  intro r r' h
  have a1 := off_le sym σ hσ hmono r
  have a2 := lt_off_add_cnt sym σ hσ hmono r
  have a3 := cnt_le_pcnt sym (sym (σ r))
  have b1 := off_le sym σ hσ hmono r'
  have b2 := lt_off_add_cnt sym σ hσ hmono r'
  have b3 := cnt_le_pcnt sym (sym (σ r'))
  unfold target at h
  apply Fin.ext
  rcases lt_trichotomy (sym (σ r)) (sym (σ r')) with hlt | heq | hgt
  · have := poff_step sym _ _ hlt; omega
  · rw [heq] at h a1; omega
  · have := poff_step sym _ _ hgt; omega
/-- The block of a row's padded slot belongs to the row's group. -/
theorem owner_target (r : Fin 32768) : owner sym (target sym σ r / 1024) = (sym (σ r)).val := by
  have a1 := off_le sym σ hσ hmono r
  have a2 := lt_off_add_cnt sym σ hσ hmono r
  have a3 := cnt_le_pcnt sym (sym (σ r))
  apply owner_of_inGroup
  apply inGroup_of_mem
  · unfold target; omega
  · unfold target; omega
end Sorted

end Cert.Moe.Route
-- ==== Proof.LibSort.lean ====
/-
  A stable sort of a vector of 32-bit words by signed `<`, carrying a second vector (an argsort):
  both outputs are the inputs read through one permutation of the positions, and the keys come
  out in nondecreasing signed order.
-/
import Idealize.ShloMosaic.Lib.SortFacts
import Idealize.ShloMosaic.Lib.ValueIdx

namespace Cert.Moe

open Idealize.ShloMosaic Idealize.ShloMosaic.ValueIdx

/-- The position whose key a stable sort by signed `<` puts at place `i`. -/
def argsort {n : Nat} (key : Fin n → BitVec 32) : Fin n → Fin n :=
  sortedFrom fun k k' => IntOp.cmpi .slt (key k) (key k') == 1#1

theorem argsort_bijective {n : Nat} (key : Fin n → BitVec 32) : Function.Bijective (argsort key) :=
  ⟨sortedFrom_injective _, sortedFrom_surjective _⟩

/-- The comparison word of signed `<` is `1` exactly when the integers compare so. -/
private theorem slt_beq_one (a b : BitVec 32) :
    (IntOp.cmpi .slt a b == 1#1) = decide (a.toInt < b.toInt) := by
  unfold IntOp.cmpi
  by_cases h : a.toInt < b.toInt
  · have hs : a.slt b = true := BitVec.slt_iff_toInt_lt.mpr h
    simp only [hs, h, decide_true]
    decide
  · have hs : a.slt b = false := by
      cases hb : a.slt b
      · rfl
      · exact absurd (BitVec.slt_iff_toInt_lt.mp hb) h
    simp only [hs, h, decide_false]
    decide

/-- The sorted keys are nondecreasing as signed integers. -/
theorem argsort_mono {n : Nat} (key : Fin n → BitVec 32) {i j : Fin n} (h : i ≤ j) :
    (key (argsort key i)).toInt ≤ (key (argsort key j)).toInt := by
  rcases lt_or_eq_of_le h with hlt | rfl
  · -- a stable sort by a strict weak order leaves no later key strictly below an earlier one
    have hB : (IntOp.cmpi .slt (key (argsort key j)) (key (argsort key i)) == 1#1) = false := sortedFrom_noInversion
      (fun k k' => IntOp.cmpi .slt (key k) (key k') == 1#1)
      (fun k k' => IntOp.cmpi .slt (key k) (key k') == 1#1)
      (fun a b hab => by
        simp only [slt_beq_one, decide_eq_true_eq, decide_eq_false_iff_not] at hab ⊢
        omega)
      (fun _ _ hab => hab)
      (fun a b c hab hbc => by
        simp only [slt_beq_one, decide_eq_false_iff_not] at hab hbc ⊢
        omega)
      i j hlt
    rw [slt_beq_one, decide_eq_false_iff_not] at hB
    omega
  · exact le_refl _

/-- At rank one, moving an index along its only axis gives the index of the new coordinate. -/
private theorem along_ix1 {n : Nat} (j : (⟨1, ![n]⟩ : Shape).Idx)
    (h : 0 < (⟨1, ![n]⟩ : Shape).rank) (k : Fin ((⟨1, ![n]⟩ : Shape).size ⟨0, h⟩)) :
    j.along ⟨0, h⟩ k = ix1 (n := n) k := by
  funext a
  match a with
  | ⟨0, _⟩ =>
    unfold Shape.Idx.along
    exact Function.update_self ..

/-- The sorted keys. -/
theorem sort2_fst_apply {n : Nat} (cmp : BitVec 32 × BitVec 32 → BitVec 32 × BitVec 32 → BitVec 1)
    (hcmp : ∀ l r, cmp l r = IntOp.cmpi .slt l.1 r.1)
    (x y : (⟨1, ![n]⟩ : Shape).Idx → BitVec 32) (i : Fin n) :
    (Host.sort2 ⟨1, ![n]⟩ 0 cmp x y).1 (ix1 i) = x (ix1 (argsort (fun k => x (ix1 k)) i)) := by
  unfold Host.sort2
  rw [dif_pos (Nat.zero_lt_one : 0 < (⟨1, ![n]⟩ : Shape).rank)]
  simp only [hcmp, along_ix1]
  rfl

/-- The carried vector, permuted alike. -/
theorem sort2_snd_apply {n : Nat} (cmp : BitVec 32 × BitVec 32 → BitVec 32 × BitVec 32 → BitVec 1)
    (hcmp : ∀ l r, cmp l r = IntOp.cmpi .slt l.1 r.1)
    (x y : (⟨1, ![n]⟩ : Shape).Idx → BitVec 32) (i : Fin n) :
    (Host.sort2 ⟨1, ![n]⟩ 0 cmp x y).2 (ix1 i) = y (ix1 (argsort (fun k => x (ix1 k)) i)) := by
  unfold Host.sort2
  rw [dif_pos (Nat.zero_lt_one : 0 < (⟨1, ![n]⟩ : Shape).rank)]
  simp only [hcmp, along_ix1]
  rfl

end Cert.Moe
-- ==== Proof.KSteps.lean ====
/-
  Reading the routing program that runs before the kernel, one operation at a time.

  `V m c b` is what buffer `b` holds when the kernel region is entered.  The tactic `vstep` proves an
  equation `V m c y = f (V m c a) (V m c b)` for the operation that writes `y` from `a` and `b`:
  both sides are the same composite of the program's operations applied to the launch memory.
  Also here: the names the routing facts are stated with — the symbol words, each atom's expert
  number, the sorting permutation — and the precondition's range fact as a proposition.
-/
import proofs.«407739_j36696200577712_3_alg».proof.Proof.Gen.KernelIdeal.Frame.Runs
import proofs.«407739_j36696200577712_3_alg».proof.Proof.Spec
import proofs.«407739_j36696200577712_3_alg».proof.Proof.Route
import proofs.«407739_j36696200577712_3_alg».proof.Proof.LibSort
import Idealize.ShloMosaic.Lib.StableHlo.Run

noncomputable section

namespace Cert.KernelIdeal.Gen

open Idealize.ShloMosaic Idealize.ShloMosaic.TcCoe Idealize.SL.Sem Idealize.ShloMosaic.StableHlo Idealize.ShloMosaic.ValueIdx

/-- One operation of the routing program: the buffer it writes holds its function of the buffers it reads. -/
macro "vstep" : tactic => `(tactic| (
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results_simp
  try simp only [TRef.ofBuf, TRef.toBuf, cast_eq]
  try rfl))

variable {F : FTy → Type} [FloatOps F]
variable (m : (ℓ : Loc nD τ sig) → Buf (Elt F) ℓ) (c : Dev nD)

/-- The symbol words of the launch memory. -/
abbrev symW : S32768.Idx → BitVec 32 := m ((c : Thread nD τ).loc main_arg1)
/-- Atom `n`'s expert number. -/
def symF (n : Fin 32768) : Fin 4 := Cert.Moe.eidOf (symW m c (ix1 n))
/-- The atoms in nondecreasing order of symbol (a stable sort). -/
def perm : Fin 32768 → Fin 32768 := Cert.Moe.argsort fun k => symW m c (ix1 k)
/-- Every symbol word is one of 0, 1, 2, 3. -/
def SymOk : Prop := ∀ n : Fin 32768, (symW m c (ix1 n)).toNat < 4

end Cert.KernelIdeal.Gen

end
-- ==== Proof.GlueSort.lean ====
/-
  The first operations of the routing program: clipping the symbols into range (the identity on
  symbols already in range), sorting the atoms by symbol, and the sorted symbols.
-/
import proofs.«407739_j36696200577712_3_alg».proof.Proof.KSteps
import Idealize.ShloMosaic.Lib.StableHlo.Predicate

noncomputable section

namespace Cert.KernelIdeal.Gen

open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ) (c : Dev nD)

set_option maxHeartbeats 2000000 in
/-- The clipped symbols, as the program computes them from the launch memory. -/
private theorem V_v0_eq : V m c main_v0 = minsi (broadcastInDim S32768 ![] bcast_S_S32768 (constantI S_ 32 3#32)) (maxsi (broadcastInDim S32768 ![] bcast_S_S32768 (constantI S_ 32 0#32)) (symW m c)) := by vstep

set_option maxHeartbeats 2000000 in
/-- The sorted positions: the second output of the stable sort of the clipped symbols carrying the positions. -/
private theorem V_v1_eq : V m c main_v1 = (Host.sort2 S32768 0 comparator_i32_i32_d0 (V m c main_v0) (iotaInDim S32768 32 0)).2 := by vstep

set_option maxHeartbeats 2000000 in
/-- The sorted symbols: the clipped symbols taken at the sorted positions, negative positions wrapped first. -/
private theorem V_v8_eq : V m c main_v8 = Host.gather gather_S32768_S32768x1_S32768_n_0_n_n_0_1_1 (V m c main_v0)
    (broadcastInDim S32768x1 ![0] bcast_S32768_S32768x1_0
      (select (cmpi .slt (V m c main_v1) (broadcastInDim S32768 ![] bcast_S_S32768 (constantI S_ 32 0#32)))
        (addi (V m c main_v1) (broadcastInDim S32768 ![] bcast_S_S32768 (constantI S_ 32 32768#32)))
        (V m c main_v1))) := by vstep

/-- Clipping a word that is already one of 0, 1, 2, 3 to [0, 3] leaves it. -/
private theorem clip_word (w : BitVec 32) (hw : w.toNat < 4) : IntOp.minsi 3#32 (IntOp.maxsi 0#32 w) = w := by
  have hi : w.toInt = (w.toNat : Int) := Predicate.toInt_eq_toNat_of_lt (by omega)
  have h1 : w.slt 0#32 = false := by
    cases hb : w.slt 0#32
    · rfl
    · have := BitVec.slt_iff_toInt_lt.mp hb
      rw [hi] at this
      have h0 : (0#32 : BitVec 32).toInt = 0 := by decide
      omega
  have h2 : (3#32 : BitVec 32).slt w = false := by
    cases hb : (3#32 : BitVec 32).slt w
    · rfl
    · have := BitVec.slt_iff_toInt_lt.mp hb
      rw [hi] at this
      have h3 : (3#32 : BitVec 32).toInt = 3 := by decide
      omega
  unfold IntOp.minsi IntOp.maxsi
  rw [h1]
  simp only [Bool.false_eq_true, if_false]
  rw [h2]
  simp only [Bool.false_eq_true, if_false]

/-- The two spellings of a rank-one index agree. -/
private theorem ix1_eq_ofFin {n : Nat} (p : Fin n) : (ix1 p : (⟨1, ![n]⟩ : Shape).Idx) = Shape.Idx.ofFin p := by
  funext a
  match a with
  | ⟨0, _⟩ => rfl

/-- Clipping to [0, 3] leaves symbols that are in range as they are. -/
theorem v0_apply (h : SymOk m c) (n : Fin 32768) : V m c main_v0 (ix1 n) = symW m c (ix1 n) := by
  rw [V_v0_eq]
  show IntOp.minsi 3#32 (IntOp.maxsi 0#32 (symW m c (ix1 n))) = symW m c (ix1 n)
  exact clip_word _ (h n)

/-- The argsort: place `r` of the sorted order holds atom `perm r`. -/
theorem v1_apply (h : SymOk m c) (r : Fin 32768) : V m c main_v1 (ix1 r) = BitVec.ofNat 32 (perm m c r).val := by
  have hkey : (fun k : Fin 32768 => V m c main_v0 (ix1 k)) = fun k => symW m c (ix1 k) :=
    funext fun k => v0_apply m c h k
  rw [V_v1_eq, Cert.Moe.sort2_snd_apply comparator_i32_i32_d0 (fun _ _ => rfl), hkey]
  rfl

/-- The sorted symbols. -/
theorem v8_apply (h : SymOk m c) (r : Fin 32768) : V m c main_v8 (ix1 r) = symW m c (ix1 (perm m c r)) := by
  have hp := (perm m c r).isLt
  have h1 : V m c main_v1 (Shape.Idx.ofFin r) = BitVec.ofNat 32 (perm m c r).val := by
    rw [← ix1_eq_ofFin]; exact v1_apply m c h r
  -- a position is not negative: the index normalisation leaves it
  have hneg : ¬ (IntOp.cmpi .slt (BitVec.ofNat 32 (perm m c r).val) 0#32 = (1 : BitVec 1)) := by
    intro e
    have := (Predicate.slt_iff_toNat (by rw [BitVec.toNat_ofNat]; omega) (by decide)).mp e
    simp at this
  rw [V_v8_eq, ix1_eq_ofFin, Predicate.gather_take _ rfl rfl rfl rfl _ _ r (by decide), ← v0_apply m c h (perm m c r), ix1_eq_ofFin]
  refine congrArg (fun k => V m c main_v0 (Shape.Idx.ofFin k)) (Fin.ext ?_)
  show min (_ : BitVec 32).toInt.toNat (32768 - 1) = (perm m c r).val
  rw [Predicate.bcast_col1]
  show min (Scalar.select (IntOp.cmpi .slt (V m c main_v1 (Shape.Idx.ofFin r)) 0#32) (IntOp.addi (V m c main_v1 (Shape.Idx.ofFin r)) 32768#32) (V m c main_v1 (Shape.Idx.ofFin r))).toInt.toNat (32768 - 1) = (perm m c r).val
  rw [h1]
  unfold Scalar.select
  rw [if_neg hneg, Predicate.toInt_ofNat_small _ (by omega)]
  simp only [Int.toNat_natCast]
  omega

theorem perm_bijective : Function.Bijective (perm m c) := Cert.Moe.argsort_bijective _

theorem perm_mono (h : SymOk m c) (i j : Fin 32768) (hij : i ≤ j) : symF m c (perm m c i) ≤ symF m c (perm m c j) := by
  have hm : (symW m c (ix1 (perm m c i))).toInt ≤ (symW m c (ix1 (perm m c j))).toInt :=
    Cert.Moe.argsort_mono (fun k => symW m c (ix1 k)) hij
  have hi := h (perm m c i)
  have hj := h (perm m c j)
  rw [Predicate.toInt_eq_toNat_of_lt (by omega), Predicate.toInt_eq_toNat_of_lt (by omega)] at hm
  rw [Fin.le_def]
  unfold symF
  rw [Cert.Moe.eidOf_val_of_lt hi, Cert.Moe.eidOf_val_of_lt hj]
  omega

end Cert.KernelIdeal.Gen

end
-- ==== Proof.GlueCount.lean ====
/-
  Counting the atoms of each symbol, and the running sums that place the groups in the sorted
  order: group `e` starts after the atoms of all smaller symbols.
-/
import proofs.«407739_j36696200577712_3_alg».proof.Proof.GlueSort
import Idealize.ShloMosaic.Lib.Pipeline.Value

noncomputable section

namespace Cert.KernelIdeal.Gen

open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ) (c : Dev nD)

/-- A rank-1 index from its coordinate, in its two spellings. -/
private theorem ix1_eq_ofFin {n : Nat} (p : Fin n) : (ix1 p : (⟨1, ![n]⟩ : Shape).Idx) = Shape.Idx.ofFin p :=
  Shape.Idx.eq_ofFin (ix1 p)

/-- A symbol word in range is the word of symbol `e` exactly when its symbol is `e`. -/
private theorem word_eq_iff (w : BitVec 32) (hw : w.toNat < 4) (e : Fin 4) :
    w = BitVec.ofNat 32 e.val ↔ Cert.Moe.eidOf w = e := by
  have he := e.isLt
  constructor
  · intro h
    apply Fin.ext
    rw [Cert.Moe.eidOf_val_of_lt hw, h, BitVec.toNat_ofNat]
    omega
  · intro h
    apply BitVec.eq_of_toNat_eq
    rw [BitVec.toNat_ofNat, ← h, Cert.Moe.eidOf_val_of_lt hw]
    omega

/-- Comparing every word with every symbol and summing the matches along the words counts,
    for each symbol, the words equal to it. -/
private theorem count_eq (x0 : S32768.Idx → BitVec 32) (e : Fin 4) :
    (Host.reduce IntOp.addi (extui 32 (cmpi .eq (broadcastInDim S4x32768 ![0, 1] bcast_S1x32768_S4x32768_0_1 (broadcastInDim S1x32768 ![1] bcast_S32768_S1x32768_1 x0)) (broadcastInDim S4x32768 ![0, 1] bcast_S4x1_S4x32768_0_1 (broadcastInDim S4x1 ![0] bcast_S4_S4x1_0 (iotaInDim S4 32 0)))) natLt_1_32) (constantI S_ 32 0#32) reducesTo_S4x32768_S4_d1 h_S_ (ix1 e)).toNat
      = (Finset.univ.filter fun q : Fin 32768 => x0 (ix1 q) = BitVec.ofNat 32 e.val).card := by
  rw [Predicate.toNat_reduce_count_cols (by norm_num)]
  refine congrArg Finset.card (Finset.filter_congr fun q _ => ?_)
  show IntOp.cmpi .eq _ _ = 1#1 ↔ _
  rw [Predicate.cmpi_eq_iff, Predicate.bcast_cols, Predicate.bcast_rows, Predicate.iota_apply, ← ix1_eq_ofFin]

set_option maxHeartbeats 2000000 in
/-- The counts, as the program computes them from the clipped symbols. -/
private theorem V_v16_eq : V m c main_v16 = Host.reduce IntOp.addi (extui 32 (cmpi .eq (broadcastInDim S4x32768 ![0, 1] bcast_S1x32768_S4x32768_0_1 (broadcastInDim S1x32768 ![1] bcast_S32768_S1x32768_1 (V m c main_v0))) (broadcastInDim S4x32768 ![0, 1] bcast_S4x1_S4x32768_0_1 (broadcastInDim S4x1 ![0] bcast_S4_S4x1_0 (iotaInDim S4 32 0)))) natLt_1_32) (constantI S_ 32 0#32) reducesTo_S4x32768_S4_d1 h_S_ := by
  vstep

open Cert.Moe.Route in
theorem v16_apply (h : SymOk m c) (e : Fin 4) : V m c main_v16 (ix1 e) = BitVec.ofNat 32 (cnt (symF m c) e) := by
  have hv0 : ∀ n : Fin 32768, V m c main_v0 (ix1 n) = symW m c (ix1 n) := fun n => v0_apply m c h n
  have hcount : (V m c main_v16 (ix1 e)).toNat = cnt (symF m c) e := by
    rw [V_v16_eq]
    generalize V m c main_v0 = x0 at hv0 ⊢
    rw [count_eq]
    unfold cnt
    refine congrArg Finset.card (Finset.filter_congr fun q _ => ?_)
    rw [hv0 q]
    exact word_eq_iff _ (h q) e
  have hle := cnt_le (symF m c) e
  apply BitVec.eq_of_toNat_eq
  rw [hcount, BitVec.toNat_ofNat]
  omega

/-- At rank one, the index at a row-major position has that position as its coordinate. -/
private theorem rowMajor_symm_one {d : Fin 1 → Nat} (n : Fin (⟨1, d⟩ : Shape).numel) (a : Fin 1) :
    (((⟨1, d⟩ : Shape).rowMajor.symm n) a).val = n.val := by
  have ha : a = 0 := Subsingleton.elim _ _
  subst ha
  rw [← Shape.rowMajor_val_one, Equiv.apply_symm_apply]

/-- Running sums of four words (a window of four, three zeros in front): entry `k` is
    `x 0 + … + x k`. -/
private theorem cumsum4 (x : S4.Idx → BitVec 32) (v : S_.Idx → BitVec 32) (hv : v (Shape.Idx.first h_S_) = 0#32) :
    Host.reduceWindow IntOp.addi ![4] ![1] ![3] ![0] x v reduceWindows_S4_S4_w4s1p3_0 h_S_ (ix1 0) = x (ix1 0)
    ∧ Host.reduceWindow IntOp.addi ![4] ![1] ![3] ![0] x v reduceWindows_S4_S4_w4s1p3_0 h_S_ (ix1 1) = x (ix1 0) + x (ix1 1)
    ∧ Host.reduceWindow IntOp.addi ![4] ![1] ![3] ![0] x v reduceWindows_S4_S4_w4s1p3_0 h_S_ (ix1 2) = x (ix1 0) + x (ix1 1) + x (ix1 2) := by
  obtain ⟨X, rfl⟩ : ∃ X : Fin 4 → BitVec 32, x = fun i => X (i 0) :=
    ⟨fun k => x (ix1 k), funext fun i => congrArg x (eq_ix1 i)⟩
  have hl : List.finRange (⟨1, ![4]⟩ : Shape).numel = [⟨0, by decide⟩, ⟨1, by decide⟩, ⟨2, by decide⟩, ⟨3, by decide⟩] := by decide
  unfold Host.reduceWindow
  dsimp only
  rw [hl]
  simp (config := {decide := true}) only [List.foldl_cons, List.foldl_nil, rowMajor_symm_one, Fin.forall_fin_one, hv, dite_true, dite_false, IntOp.addi, BitVec.zero_add, BitVec.add_zero]
  exact ⟨rfl, rfl, rfl⟩

/-- The group starts, as the program computes them from the counts `x`: a zero in front of the
    first three running sums. -/
private def offsOf (x : S4.Idx → BitVec 32) : S4.Idx → BitVec 32 :=
  concatenate S4 0 [⟨S1, broadcastInDim S1 ![] bcast_S_S1 (constantI S_ 32 0#32)⟩, ⟨S3, extractStridedSlice S3 ![0] (Host.reduceWindow IntOp.addi ![4] ![1] ![3] ![0] x (broadcastInDim S_ ![] bcast_S_S_ (constantI S_ 32 0#32)) reduceWindows_S4_S4_w4s1p3_0 h_S_) slices_S4_S3_0⟩] concatenates_S1_S3_S4_d0

/-- Entry `k + 1` of the group starts is running sum `k`. -/
private theorem offsOf_succ (x : S4.Idx → BitVec 32) (k : Fin 3) :
    offsOf x (ix1 ⟨k.val + 1, by omega⟩)
      = Host.reduceWindow IntOp.addi ![4] ![1] ![3] ![0] x (broadcastInDim S_ ![] bcast_S_S_ (constantI S_ 32 0#32)) reduceWindows_S4_S4_w4s1p3_0 h_S_ (ix1 ⟨k.val, by omega⟩) := by
  unfold offsOf
  refine (concatenate_pair_apply_right (0 : Fin S4.rank) _ _ concatenates_S1_S3_S4_d0 (ix1 ⟨k.val + 1, by omega⟩) rfl rfl (ix1 k)
    (fun b hb => absurd (Subsingleton.elim _ _) hb) rfl).trans ?_
  exact extractStridedSlice_apply _ _ slices_S4_S3_0 (ix1 k) (ix1 ⟨k.val, by omega⟩)
    (fun a => match a with | ⟨0, _⟩ => (Nat.zero_add _).symm)

private theorem offsOf_read (x : S4.Idx → BitVec 32) :
    offsOf x (ix1 0) = 0#32 ∧ offsOf x (ix1 1) = x (ix1 0) ∧ offsOf x (ix1 2) = x (ix1 0) + x (ix1 1)
    ∧ offsOf x (ix1 3) = x (ix1 0) + x (ix1 1) + x (ix1 2) := by
  obtain ⟨c0, c1, c2⟩ := cumsum4 x (broadcastInDim S_ ![] bcast_S_S_ (constantI S_ 32 0#32)) rfl
  refine ⟨?_, ?_, ?_, ?_⟩
  · unfold offsOf
    exact concatenate_pair_apply_left (0 : Fin S4.rank) _ _ concatenates_S1_S3_S4_d0 (ix1 0) rfl (ix1 0)
      (fun b => match b with | ⟨0, _⟩ => rfl)
  · exact (offsOf_succ x 0).trans c0
  · exact (offsOf_succ x 1).trans c1
  · exact (offsOf_succ x 2).trans c2

set_option maxHeartbeats 2000000 in
/-- The group starts, as the program computes them from the counts. -/
private theorem V_v20_eq : V m c main_v20 = concatenate S4 0 [⟨S1, broadcastInDim S1 ![] bcast_S_S1 (constantI S_ 32 0#32)⟩, ⟨S3, extractStridedSlice S3 ![0] (Host.reduceWindow IntOp.addi ![4] ![1] ![3] ![0] (V m c main_v16) (broadcastInDim S_ ![] bcast_S_S_ (constantI S_ 32 0#32)) reduceWindows_S4_S4_w4s1p3_0 h_S_) slices_S4_S3_0⟩] concatenates_S1_S3_S4_d0 := by
  vstep

open Cert.Moe.Route in
theorem v20_apply (h : SymOk m c) (e : Fin 4) : V m c main_v20 (ix1 e) = BitVec.ofNat 32 (off (symF m c) e) := by
  have h0 := v16_apply m c h 0
  have h1 := v16_apply m c h 1
  have h2 := v16_apply m c h 2
  rw [V_v20_eq]
  show offsOf (V m c main_v16) (ix1 e) = _
  generalize V m c main_v16 = x at h0 h1 h2 ⊢
  obtain ⟨r0, r1, r2, r3⟩ := offsOf_read x
  match e with
  | 0 => rw [r0, off_zero]
  | 1 => rw [r1, off_one, h0]
  | 2 => rw [r2, off_two, h0, h1, BitVec.ofNat_add]
  | 3 => rw [r3, off_three, h0, h1, h2, BitVec.ofNat_add, BitVec.ofNat_add]

end Cert.KernelIdeal.Gen

end
-- ==== Proof.GluePCount.lean ====
/-
  The group sizes rounded up to whole blocks of 1024 (add 1023, divide by 1024 rounding down,
  multiply by 1024), and the running sums that place the padded groups.
-/
import proofs.«407739_j36696200577712_3_alg».proof.Proof.GlueCount
import Idealize.ShloMosaic.Lib.StableHlo.Predicate
import Idealize.ShloMosaic.Lib.Pipeline.Value

noncomputable section

namespace Cert.KernelIdeal.Gen

open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ) (c : Dev nD)

/-- The sign of a positive word below 2^31 is one. -/
private theorem sign_pos (x : BitVec 32) (n : ℕ) (hn0 : 0 < n) (hn : n < 2 ^ 31) (hx : x = BitVec.ofNat 32 n) :
    (if x = 0 then (0 : BitVec 32) else if x.msb then -1 else 1) = 1#32 := by
  have hne : x ≠ 0 := by
    intro h0
    have := congrArg BitVec.toNat h0
    rw [hx, BitVec.toNat_ofNat] at this
    simp only [BitVec.toNat_zero, BitVec.ofNat_eq_ofNat] at this
    have h2 : n % 2 ^ 32 = n := Nat.mod_eq_of_lt (by omega)
    omega
  have hm : x.msb = false := BitVec.msb_eq_false_iff_two_mul_lt.mpr (by
    rw [hx, BitVec.toNat_ofNat, Nat.mod_eq_of_lt (by omega)]; omega)
  rw [if_neg hne, hm]; rfl

/-- Signed division of a word below 2^31 by 1024 is the division of naturals. -/
private theorem divsi_1024 (x : BitVec 32) (n : ℕ) (hn : n < 2 ^ 31) (hx : x = BitVec.ofNat 32 n) :
    IntOp.divsi .host x 1024#32 = BitVec.ofNat 32 (n / 1024) := by
  have hcorner : ¬ IntOp.SDivCorner x 1024#32 := by
    intro hc; rcases hc with hc | ⟨_, hc⟩ <;> exact absurd hc (by decide)
  have hxn : x.toNat = n := by rw [hx, BitVec.toNat_ofNat, Nat.mod_eq_of_lt (by omega)]
  have hm : x.msb = false := BitVec.msb_eq_false_iff_two_mul_lt.mpr (by omega)
  apply BitVec.eq_of_toNat_eq
  simp only [IntOp.divsi, if_neg hcorner, BitVec.sdiv_eq, hm, show (1024#32 : BitVec 32).msb = false from by decide, BitVec.udiv_eq,
    BitVec.toNat_udiv, BitVec.toNat_ofNat, hxn]
  have h1 : (1024 : ℕ) % 2 ^ 32 = 1024 := by norm_num
  rw [h1]
  have : n / 1024 < 2 ^ 32 := by omega
  omega

/-- One group size rounded up to whole blocks, on words. -/
private theorem pad_word (x16 : BitVec 32) (k : ℕ) (hk : k ≤ 32768) (hx : x16 = BitVec.ofNat 32 k) (r : BitVec 1) (a : BitVec 32) :
    IntOp.muli (Scalar.select (IntOp.andi (IntOp.cmpi .ne
        (if IntOp.subi (IntOp.addi x16 1024#32) 1#32 = 0 then (0 : BitVec 32) else if (IntOp.subi (IntOp.addi x16 1024#32) 1#32).msb then -1 else 1)
        (if (1024#32 : BitVec 32) = 0 then (0 : BitVec 32) else if (1024#32 : BitVec 32).msb then -1 else 1)) r) a
        (IntOp.divsi .host (IntOp.subi (IntOp.addi x16 1024#32) 1#32) 1024#32)) 1024#32
      = BitVec.ofNat 32 ((k + 1023) / 1024 * 1024) := by
  have h24 : IntOp.subi (IntOp.addi x16 1024#32) 1#32 = BitVec.ofNat 32 (k + 1023) := by
    rw [hx]; apply BitVec.eq_of_toNat_eq
    simp only [IntOp.subi, IntOp.addi, BitVec.toNat_sub, BitVec.toNat_add, BitVec.toNat_ofNat]; omega
  rw [sign_pos _ (k + 1023) (by omega) (by omega) h24, sign_pos (1024#32) 1024 (by omega) (by omega) rfl,
    divsi_1024 _ (k + 1023) (by omega) h24]
  have hc : IntOp.andi (IntOp.cmpi .ne (1#32) (1#32)) r = 0#1 := by
    have : IntOp.cmpi .ne (1#32) (1#32) = 0#1 := by decide
    rw [this]; simp only [IntOp.andi, BitVec.zero_and]
  rw [hc]
  simp only [Scalar.select, show ¬ ((0#1 : BitVec 1) = 1) from by decide, if_false, IntOp.muli]
  apply BitVec.eq_of_toNat_eq
  simp only [BitVec.toNat_mul, BitVec.toNat_ofNat]
  omega

/-! ### One group size rounded up to whole blocks, on the vectors -/

private theorem pad_vec (x16 : S4.Idx → BitVec 32) (e : Fin 4) (k : ℕ) (hk : k ≤ 32768) (hx : x16 (ix1 e) = BitVec.ofNat 32 k)
    (hb : S_.BroadcastsInDim S4 (![] : Fin 0 → Fin S4.rank)) :
    muli (select
      (andi
        (cmpi .ne (signi (subi (addi x16 (broadcastInDim S4 ![] hb (constantI S_ 32 1024#32))) (broadcastInDim S4 ![] hb (constantI S_ 32 1#32))))
          (broadcastInDim S4 ![] hb (signi (id (constantI S_ 32 1024#32)))))
        (cmpi .ne (Host.remsi (subi (addi x16 (broadcastInDim S4 ![] hb (constantI S_ 32 1024#32))) (broadcastInDim S4 ![] hb (constantI S_ 32 1#32)))
            (broadcastInDim S4 ![] hb (id (constantI S_ 32 1024#32))))
          (broadcastInDim S4 ![] hb (constantI S_ 32 0#32))))
      (subi (Host.divsi (subi (addi x16 (broadcastInDim S4 ![] hb (constantI S_ 32 1024#32))) (broadcastInDim S4 ![] hb (constantI S_ 32 1#32)))
          (broadcastInDim S4 ![] hb (id (constantI S_ 32 1024#32))))
        (broadcastInDim S4 ![] hb (constantI S_ 32 1#32)))
      (Host.divsi (subi (addi x16 (broadcastInDim S4 ![] hb (constantI S_ 32 1024#32))) (broadcastInDim S4 ![] hb (constantI S_ 32 1#32)))
        (broadcastInDim S4 ![] hb (id (constantI S_ 32 1024#32)))))
      (broadcastInDim S4 ![] hb (constantI S_ 32 1024#32)) (ix1 e)
      = BitVec.ofNat 32 ((k + 1023) / 1024 * 1024) := by
  simp only [muli, select, andi, cmpi, signi, Host.remsi, Host.divsi, subi, addi, broadcastInDim, constantI, id]
  exact pad_word _ k hk hx _ _

/-! ### The running sum of four words -/

private theorem idx_eq4 (i : S4.Idx) (k : Fin 4) (h : (i 0).val = k.val) : i = ix1 k := by
  rw [eq_ix1 i]; exact congrArg ix1 (Fin.ext h)

/-- A position of a rank-one shape, from its row-major number. -/
private theorem rowMajor_symm_one {d : Fin 1 → Nat} (n : Fin (⟨1, d⟩ : Shape).numel) :
    (((⟨1, d⟩ : Shape).rowMajor.symm n) 0).val = n.val := by
  have := Shape.rowMajor_val_one ((⟨1, d⟩ : Shape).rowMajor.symm n)
  rw [Equiv.apply_symm_apply] at this
  exact this.symm

/-- The word a window of four, padded three in front, meets at its position `n` when it ends at entry `j`. -/
private def wElt (x : S4.Idx → BitVec 32) (w : BitVec 32) (j : Fin 4) (n : Fin (⟨1, ![4]⟩ : Shape).numel) : BitVec 32 :=
  if hin : ∀ a : Fin 1, (![3] : Fin 1 → ℕ) a ≤ (ix1 j a).val * (![1] : Fin 1 → ℕ) a + (((⟨1, ![4]⟩ : Shape).rowMajor.symm n) a).val ∧
      (ix1 j a).val * (![1] : Fin 1 → ℕ) a + (((⟨1, ![4]⟩ : Shape).rowMajor.symm n) a).val - (![3] : Fin 1 → ℕ) a < S4.size a
  then x (fun a => ⟨(ix1 j a).val * (![1] : Fin 1 → ℕ) a + (((⟨1, ![4]⟩ : Shape).rowMajor.symm n) a).val - (![3] : Fin 1 → ℕ) a, (hin a).2⟩)
  else w

private theorem wElt_pos (j : Fin 4) (n : Fin (⟨1, ![4]⟩ : Shape).numel) (a : Fin 1) :
    (ix1 j a).val * (![1] : Fin 1 → ℕ) a + (((⟨1, ![4]⟩ : Shape).rowMajor.symm n) a).val = j.val + n.val := by
  match a with
  | ⟨0, _⟩ =>
    show j.val * 1 + (((⟨1, ![4]⟩ : Shape).rowMajor.symm n) 0).val = j.val + n.val
    rw [rowMajor_symm_one]; omega

private theorem wElt_out (x : S4.Idx → BitVec 32) (w : BitVec 32) (j : Fin 4) (n : Fin (⟨1, ![4]⟩ : Shape).numel)
    (h : j.val + n.val < 3) : wElt x w j n = w := by
  unfold wElt
  refine dif_neg fun hin => ?_
  have h0 := (hin 0).1
  rw [wElt_pos] at h0
  have : (![3] : Fin 1 → ℕ) 0 = 3 := rfl
  omega

private theorem wElt_in (x : S4.Idx → BitVec 32) (w : BitVec 32) (j : Fin 4) (n : Fin (⟨1, ![4]⟩ : Shape).numel) (k : Fin 4)
    (h : j.val + n.val = k.val + 3) : wElt x w j n = x (ix1 k) := by
  unfold wElt
  have h3 : ∀ a : Fin 1, (![3] : Fin 1 → ℕ) a = 3 := fun a => match a with | ⟨0, _⟩ => rfl
  have h4 : ∀ a : Fin 1, S4.size a = 4 := fun a => match a with | ⟨0, _⟩ => rfl
  have hk := k.isLt
  rw [dif_pos (fun a => by rw [wElt_pos, h3, h4]; omega)]
  refine congrArg x (idx_eq4 _ k ?_)
  show (ix1 j 0).val * (![1] : Fin 1 → ℕ) 0 + (((⟨1, ![4]⟩ : Shape).rowMajor.symm n) 0).val - (![3] : Fin 1 → ℕ) 0 = k.val
  rw [wElt_pos, h3]; omega

/-- The windowed sum at entry `j`, spelt as its four additions. -/
private theorem cumsum_fold (x : S4.Idx → BitVec 32) (v : S_.Idx → BitVec 32)
    (h : S4.ReduceWindows (![4] : Fin 1 → Nat) ![1] ![3] ![0] S4) (hu : 0 < S_.numel) (j : Fin 4) :
    Host.reduceWindow IntOp.addi ![4] ![1] ![3] ![0] x v h hu (ix1 j) =
      IntOp.addi (IntOp.addi (IntOp.addi (IntOp.addi (v (Shape.Idx.first hu))
        (wElt x (v (Shape.Idx.first hu)) j ⟨0, by decide⟩)) (wElt x (v (Shape.Idx.first hu)) j ⟨1, by decide⟩))
        (wElt x (v (Shape.Idx.first hu)) j ⟨2, by decide⟩)) (wElt x (v (Shape.Idx.first hu)) j ⟨3, by decide⟩) := by
  have hl : List.finRange (Shape.numel ⟨S4.rank, ![4]⟩) = [⟨0, by decide⟩, ⟨1, by decide⟩, ⟨2, by decide⟩, ⟨3, by decide⟩] := by decide
  simp only [Host.reduceWindow]
  rw [hl]
  rfl

/-- The running sums of four words, from a zero start: entry `e` is the sum of the entries up to `e`. -/
private theorem cumsum4 (x : S4.Idx → BitVec 32) (v : S_.Idx → BitVec 32) (hv : ∀ i, v i = 0#32)
    (h : S4.ReduceWindows (![4] : Fin 1 → Nat) ![1] ![3] ![0] S4) (hu : 0 < S_.numel) :
    Host.reduceWindow IntOp.addi ![4] ![1] ![3] ![0] x v h hu (ix1 0) = x (ix1 0) ∧
    Host.reduceWindow IntOp.addi ![4] ![1] ![3] ![0] x v h hu (ix1 1) = x (ix1 0) + x (ix1 1) ∧
    Host.reduceWindow IntOp.addi ![4] ![1] ![3] ![0] x v h hu (ix1 2) = x (ix1 0) + x (ix1 1) + x (ix1 2) := by
  refine ⟨?_, ?_, ?_⟩
  · rw [cumsum_fold, wElt_out x _ 0 ⟨0, by decide⟩ (by decide), wElt_out x _ 0 ⟨1, by decide⟩ (by decide),
      wElt_out x _ 0 ⟨2, by decide⟩ (by decide), wElt_in x _ 0 ⟨3, by decide⟩ 0 (by decide), hv]
    simp only [IntOp.addi, BitVec.add_zero, BitVec.zero_add]
  · rw [cumsum_fold, wElt_out x _ 1 ⟨0, by decide⟩ (by decide), wElt_out x _ 1 ⟨1, by decide⟩ (by decide),
      wElt_in x _ 1 ⟨2, by decide⟩ 0 (by decide), wElt_in x _ 1 ⟨3, by decide⟩ 1 (by decide), hv]
    simp only [IntOp.addi, BitVec.add_zero, BitVec.zero_add]
  · rw [cumsum_fold, wElt_out x _ 2 ⟨0, by decide⟩ (by decide), wElt_in x _ 2 ⟨1, by decide⟩ 0 (by decide),
      wElt_in x _ 2 ⟨2, by decide⟩ 1 (by decide), wElt_in x _ 2 ⟨3, by decide⟩ 2 (by decide), hv]
    simp only [IntOp.addi, BitVec.add_zero, BitVec.zero_add]

/-! ### The padded groups' starts: a zero in front of the running sums' first three -/

private theorem starts4 (x : S4.Idx → BitVec 32) (z v : S_.Idx → BitVec 32) (hz : ∀ i, z i = 0#32) (hv : ∀ i, v i = 0#32)
    (hb : S_.BroadcastsInDim S1 (![] : Fin 0 → Fin S1.rank))
    (hw : S4.ReduceWindows (![4] : Fin 1 → Nat) ![1] ![3] ![0] S4) (hu : 0 < S_.numel)
    (hs : S4.Slices ![0] S3) (hc : Shape.Concatenates [S1, S3] S4 0) :
    concatenate S4 0 [⟨S1, broadcastInDim S1 ![] hb z⟩,
        ⟨S3, extractStridedSlice S3 ![0] (Host.reduceWindow IntOp.addi ![4] ![1] ![3] ![0] x v hw hu) hs⟩] hc (ix1 0) = 0#32 ∧
    concatenate S4 0 [⟨S1, broadcastInDim S1 ![] hb z⟩,
        ⟨S3, extractStridedSlice S3 ![0] (Host.reduceWindow IntOp.addi ![4] ![1] ![3] ![0] x v hw hu) hs⟩] hc (ix1 1) = x (ix1 0) ∧
    concatenate S4 0 [⟨S1, broadcastInDim S1 ![] hb z⟩,
        ⟨S3, extractStridedSlice S3 ![0] (Host.reduceWindow IntOp.addi ![4] ![1] ![3] ![0] x v hw hu) hs⟩] hc (ix1 2) = x (ix1 0) + x (ix1 1) ∧
    concatenate S4 0 [⟨S1, broadcastInDim S1 ![] hb z⟩,
        ⟨S3, extractStridedSlice S3 ![0] (Host.reduceWindow IntOp.addi ![4] ![1] ![3] ![0] x v hw hu) hs⟩] hc (ix1 3) = x (ix1 0) + x (ix1 1) + x (ix1 2) := by
  obtain ⟨c0, c1, c2⟩ := cumsum4 x v hv hw hu
  refine ⟨?_, ?_, ?_, ?_⟩
  · rw [concatenate_pair_apply_left 0 _ _ hc (ix1 0) rfl (ix1 0) (fun b => match b with | ⟨0, _⟩ => rfl)]
    simp only [broadcastInDim, hz]
  · rw [concatenate_pair_apply_right 0 _ _ hc (ix1 1) rfl rfl (ix1 0) (fun b hb' => match b, hb' with | ⟨0, _⟩, hb' => absurd rfl hb') rfl,
      extractStridedSlice_apply _ _ hs (ix1 0) (ix1 0) (fun a => match a with | ⟨0, _⟩ => rfl), c0]
  · rw [concatenate_pair_apply_right 0 _ _ hc (ix1 2) rfl rfl (ix1 1) (fun b hb' => match b, hb' with | ⟨0, _⟩, hb' => absurd rfl hb') rfl,
      extractStridedSlice_apply _ _ hs (ix1 1) (ix1 1) (fun a => match a with | ⟨0, _⟩ => rfl), c1]
  · rw [concatenate_pair_apply_right 0 _ _ hc (ix1 3) rfl rfl (ix1 2) (fun b hb' => match b, hb' with | ⟨0, _⟩, hb' => absurd rfl hb') rfl,
      extractStridedSlice_apply _ _ hs (ix1 2) (ix1 2) (fun a => match a with | ⟨0, _⟩ => rfl), c2]

/-! ### The two stretches of the program, each as one function of the buffer it starts from -/

set_option maxHeartbeats 4000000 in
private theorem V_v27 : V m c main_v27 =
    muli (select
      (andi
        (cmpi .ne (signi (subi (addi (V m c main_v16) (broadcastInDim S4 ![] bcast_S_S4 (constantI S_ 32 1024#32))) (broadcastInDim S4 ![] bcast_S_S4 (constantI S_ 32 1#32))))
          (broadcastInDim S4 ![] bcast_S_S4 (signi (id (constantI S_ 32 1024#32)))))
        (cmpi .ne (Host.remsi (subi (addi (V m c main_v16) (broadcastInDim S4 ![] bcast_S_S4 (constantI S_ 32 1024#32))) (broadcastInDim S4 ![] bcast_S_S4 (constantI S_ 32 1#32)))
            (broadcastInDim S4 ![] bcast_S_S4 (id (constantI S_ 32 1024#32))))
          (broadcastInDim S4 ![] bcast_S_S4 (constantI S_ 32 0#32))))
      (subi (Host.divsi (subi (addi (V m c main_v16) (broadcastInDim S4 ![] bcast_S_S4 (constantI S_ 32 1024#32))) (broadcastInDim S4 ![] bcast_S_S4 (constantI S_ 32 1#32)))
          (broadcastInDim S4 ![] bcast_S_S4 (id (constantI S_ 32 1024#32))))
        (broadcastInDim S4 ![] bcast_S_S4 (constantI S_ 32 1#32)))
      (Host.divsi (subi (addi (V m c main_v16) (broadcastInDim S4 ![] bcast_S_S4 (constantI S_ 32 1024#32))) (broadcastInDim S4 ![] bcast_S_S4 (constantI S_ 32 1#32)))
        (broadcastInDim S4 ![] bcast_S_S4 (id (constantI S_ 32 1024#32)))))
      (broadcastInDim S4 ![] bcast_S_S4 (constantI S_ 32 1024#32)) := by vstep

set_option maxHeartbeats 4000000 in
private theorem V_v31 : V m c main_v31 =
    concatenate S4 0 [⟨S1, broadcastInDim S1 ![] bcast_S_S1 (constantI S_ 32 0#32)⟩,
      ⟨S3, extractStridedSlice S3 ![0] (Host.reduceWindow IntOp.addi ![4] ![1] ![3] ![0] (V m c main_v27)
        (broadcastInDim S_ ![] bcast_S_S_ (constantI S_ 32 0#32)) reduceWindows_S4_S4_w4s1p3_0 h_S_) slices_S4_S3_0⟩]
      concatenates_S1_S3_S4_d0 := by vstep

/-! ### The padded group sizes and their starts -/

open Cert.Moe.Route in
theorem v27_apply (h : SymOk m c) (e : Fin 4) : V m c main_v27 (ix1 e) = BitVec.ofNat 32 (pcnt (symF m c) e) := by
  rw [V_v27]
  exact pad_vec (V m c main_v16) e (cnt (symF m c) e) (cnt_le (symF m c) e) (v16_apply m c h e) bcast_S_S4
open Cert.Moe.Route in
theorem v31_apply (h : SymOk m c) (e : Fin 4) : V m c main_v31 (ix1 e) = BitVec.ofNat 32 (poff (symF m c) e) := by
  have p0 := v27_apply m c h 0
  have p1 := v27_apply m c h 1
  have p2 := v27_apply m c h 2
  have l0 := pcnt_le (symF m c) 0
  have l1 := pcnt_le (symF m c) 1
  have l2 := pcnt_le (symF m c) 2
  have q0 := poff_zero (symF m c)
  have q1 := poff_one (symF m c)
  have q2 := poff_two (symF m c)
  have q3 := poff_three (symF m c)
  obtain ⟨s0, s1, s2, s3⟩ := starts4 (V m c main_v27) (constantI S_ 32 0#32)
    (broadcastInDim S_ ![] bcast_S_S_ (constantI S_ 32 0#32)) (fun _ => rfl) (fun _ => rfl)
    bcast_S_S1 reduceWindows_S4_S4_w4s1p3_0 h_S_ slices_S4_S3_0 concatenates_S1_S3_S4_d0
  rw [V_v31]
  generalize pcnt (symF m c) 0 = a0 at *
  generalize pcnt (symF m c) 1 = a1 at *
  generalize pcnt (symF m c) 2 = a2 at *
  fin_cases e
  · show _ = BitVec.ofNat 32 (poff (symF m c) 0)
    rw [q0]; exact s0
  · show _ = BitVec.ofNat 32 (poff (symF m c) 1)
    rw [q1]; exact s1.trans p0
  · show _ = BitVec.ofNat 32 (poff (symF m c) 2)
    rw [q2]; refine s2.trans ?_
    rw [p0, p1]; apply BitVec.eq_of_toNat_eq
    simp only [BitVec.toNat_add, BitVec.toNat_ofNat]; omega
  · show _ = BitVec.ofNat 32 (poff (symF m c) 3)
    rw [q3]; refine s3.trans ?_
    rw [p0, p1, p2]; apply BitVec.eq_of_toNat_eq
    simp only [BitVec.toNat_add, BitVec.toNat_ofNat]; omega

end Cert.KernelIdeal.Gen

end
-- ==== Proof.LibScatter.lean ====
/-
  Two index operations on arrays read at an element.

  * A scatter that SETS entries of a vector at positions given by a column of indices
    (`x.at[idx].set(upd)`): when the positions are in range and pairwise distinct, entry `pos k`
    holds update `k` and every entry no position names keeps its old value.
  * A gather of whole rows of a matrix (`x[idx]`): row `p` of the result is the row of `x` named by
    index `p`, read signed and clamped into range.
-/
import Idealize.ShloMosaic.Lib.StableHlo.Predicate
import Idealize.ShloMosaic.Lib.ValueIdx

namespace Cert.Moe

open Idealize.ShloMosaic Idealize.ShloMosaic.ValueIdx Idealize.ShloMosaic.StableHlo.Predicate

/-- A left fold of "set entry `tgt n` to `v n`" leaves alone every entry no step names. -/
private theorem foldl_set_miss {ι β α : Type} [DecidableEq β] (tgt : ι → β) (v : ι → α) (l : List ι) (x : β → α) (i : β)
    (hi : ∀ k ∈ l, tgt k ≠ i) :
    l.foldl (fun r n => fun i' => if i' = tgt n then v n else r i') x i = x i := by
  induction l generalizing x with
  | nil => rfl
  | cons a l ih =>
    rw [List.foldl_cons, ih _ (fun k hk => hi k (List.mem_cons_of_mem _ hk))]
    exact if_neg (fun h => hi a List.mem_cons_self h.symm)

/-- A left fold of "set entry `tgt n` to `v n`" over steps with pairwise distinct targets holds `v k` at `tgt k`. -/
private theorem foldl_set_hit {ι β α : Type} [DecidableEq β] (tgt : ι → β) (v : ι → α) (l : List ι) (x : β → α)
    (hnd : l.Nodup) (hinj : ∀ a ∈ l, ∀ b ∈ l, tgt a = tgt b → a = b) (k : ι) (hk : k ∈ l) :
    l.foldl (fun r n => fun i' => if i' = tgt n then v n else r i') x (tgt k) = v k := by
  induction l generalizing x with
  | nil => exact absurd hk List.not_mem_nil
  | cons a l ih =>
    rw [List.foldl_cons]
    rcases List.mem_cons.1 hk with rfl | hk'
    · rw [foldl_set_miss tgt v l _ (tgt k)]
      · exact if_pos rfl
      · intro k' hk' h
        have := hinj k' (List.mem_cons_of_mem _ hk') k List.mem_cons_self h
        subst this
        exact (List.nodup_cons.1 hnd).1 hk'
    · exact ih _ (List.nodup_cons.1 hnd).2
        (fun a' ha' b' hb' => hinj a' (List.mem_cons_of_mem _ ha') b' (List.mem_cons_of_mem _ hb')) hk'

section Scatter
variable {α : Type} {N n : Nat} (d : ScatterDims ⟨1, ![N]⟩ ⟨2, ![n, 1]⟩ ⟨1, ![n]⟩)
  (huw : d.updateWindowDims = []) (hiw : d.insertedWindowDims = [0])
  (hsd : d.scatterDimsToOperandDims = [0]) (hivd : d.indexVectorDim = 1)
  (x : (⟨1, ![N]⟩ : Shape).Idx → α) (idx : IVec ⟨2, ![n, 1]⟩ 32) (upd : (⟨1, ![n]⟩ : Shape).Idx → α)
  (pos : Fin n → Fin N) (hpos : ∀ k, (idx (ixP k)).toInt = ((pos k).val : ℤ)) (hinj : Function.Injective pos)

include huw hiw hsd hivd in
private theorem start_eq (k : Fin n) : d.start (ix1 k) idx 0 = (idx (ixP k)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have e : ∀ X : Fin 1, ((ix1 k : (⟨1, ![n]⟩ : Shape).Idx) X).val = k.val := fun X => by
      have hX : X = 0 := Subsingleton.elim _ _
      subst hX; rfl
    exact e _
  | ⟨1, _⟩ =>
    unfold ScatterDims.siIdx
    rw [dif_pos (by rw [hivd])]
    apply Fin.ext
    show List.idxOf (0 : Fin 1) d.scatterDimsToOperandDims = 0
    rw [hsd]; simp

include hiw in
private theorem window_eq (k : Fin n) : d.window (ix1 k) 0 = 0 := by
  unfold ScatterDims.window
  rw [dif_neg]
  rw [ScatterDims.sKept, hiw]
  simp [Shape.kept]

include huw hiw hsd hivd hpos in
private theorem resultIdx_eq (k : Fin n) : d.resultIdx? (ix1 k) idx = some (ix1 (pos k)) := by
  have hs := start_eq d huw hiw hsd hivd idx k
  have hw := window_eq d hiw k
  have hp := hpos k
  have hlt := (pos k).isLt
  have hall : ∀ a, 0 ≤ d.start (ix1 k) idx a + d.window (ix1 k) a ∧
      d.start (ix1 k) idx a + d.window (ix1 k) a < ((⟨1, ![N]⟩ : Shape).size a : ℤ) := by
    intro a
    have ha : a = 0 := Subsingleton.elim _ _
    subst ha
    rw [hs, hw, hp]
    refine ⟨by omega, ?_⟩
    show ((pos k).val : ℤ) + ((0 : ℕ) : ℤ) < (N : ℤ)
    omega
  unfold ScatterDims.resultIdx?
  rw [dif_pos hall]
  congr 1
  funext a
  have ha : a = 0 := Subsingleton.elim _ _
  subst ha
  apply Fin.ext
  show (d.start (ix1 k) idx 0 + d.window (ix1 k) 0).toNat = (pos k).val
  rw [hs, hw, hp]
  omega

include huw hiw hsd hivd hpos in
/-- The scatter is the left fold, over the update positions in order, of "set entry `pos k` to update `k`". -/
private theorem scatter_eq_foldl :
    Host.scatter d (fun _ b => b) x idx upd =
      (List.finRange (⟨1, ![n]⟩ : Shape).numel).foldl
        (fun r m => fun i' => if i' = ix1 (pos (((⟨1, ![n]⟩ : Shape).rowMajor.symm m) 0)) then
          upd ((⟨1, ![n]⟩ : Shape).rowMajor.symm m) else r i') x := by
  unfold Host.scatter
  congr 1
  funext r m
  obtain ⟨k, hk⟩ : ∃ k, (⟨1, ![n]⟩ : Shape).rowMajor.symm m = ix1 k := ⟨_, eq_ix1 _⟩
  rw [hk, resultIdx_eq d huw hiw hsd hivd idx pos hpos k]
  rfl

include huw hiw hsd hivd hpos hinj

theorem scatter_set_hit (k : Fin n) :
    Host.scatter d (fun _ b => b) x idx upd (ix1 (pos k)) = upd (ix1 k) := by
  rw [scatter_eq_foldl d huw hiw hsd hivd x idx upd pos hpos]
  have h := foldl_set_hit (fun m => ix1 (pos (((⟨1, ![n]⟩ : Shape).rowMajor.symm m) 0)))
    (fun m => upd ((⟨1, ![n]⟩ : Shape).rowMajor.symm m)) (List.finRange (⟨1, ![n]⟩ : Shape).numel) x
    (List.nodup_finRange _)
    (fun a _ b _ hab => by
      have h1 : pos (((⟨1, ![n]⟩ : Shape).rowMajor.symm a) 0) = pos (((⟨1, ![n]⟩ : Shape).rowMajor.symm b) 0) :=
        congrFun hab 0
      have h2 := hinj h1
      have h3 : (⟨1, ![n]⟩ : Shape).rowMajor.symm a = (⟨1, ![n]⟩ : Shape).rowMajor.symm b := by
        rw [eq_ix1 ((⟨1, ![n]⟩ : Shape).rowMajor.symm a), eq_ix1 ((⟨1, ![n]⟩ : Shape).rowMajor.symm b), h2]
      exact (⟨1, ![n]⟩ : Shape).rowMajor.symm.injective h3)
    ((⟨1, ![n]⟩ : Shape).rowMajor (ix1 k)) (List.mem_finRange _)
  simp only [Equiv.symm_apply_apply] at h
  exact h

theorem scatter_set_miss (i : Fin N) (hi : ∀ k, pos k ≠ i) :
    Host.scatter d (fun _ b => b) x idx upd (ix1 i) = x (ix1 i) := by
  rw [scatter_eq_foldl d huw hiw hsd hivd x idx upd pos hpos]
  apply foldl_set_miss
  intro m _ h
  exact hi _ (congrFun h 0)
end Scatter

/-- An entry of the one-element list `[c]` is `c`. -/
private theorem getElem_of_eq_singleton {β : Type} (l : List β) (c : β) (hl : l = [c]) (i : Nat) (h : i < l.length) :
    l[i] = c := by
  subst hl
  have : i = 0 := by simpa using h
  subst this
  rfl

/-- A gather of rows: `x[idx]` over a matrix. -/
theorem gather_rows {α : Type} {N n M : Nat} (d : GatherDims ⟨2, ![N, M]⟩ ⟨2, ![n, 1]⟩ ⟨2, ![n, M]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, M]⟩ : Shape).Idx → α) (idx : IVec ⟨2, ![n, 1]⟩ 32) (p : Fin n) (q : Fin M) (hN : 0 < N) :
    Host.gather d x idx (ix2 p q) = x (ix2 ⟨min (idx (ixP p)).toInt.toNat (N - 1), by omega⟩ q) := by
  unfold Host.gather
  congr 1
  funext a
  apply Fin.ext
  have hb : ∀ a : Fin 2, a ∉ d.operandBatchingDims := fun a => by rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = min (idx (ixP p)).toInt.toNat (N - 1)
    rw [GatherDims.batchCoord_eq_zero _ _ _ (hb 0), GatherDims.offCoord_eq_zero _ _ _ hk, Nat.add_zero]
    try rw [Nat.add_zero]
    unfold GatherDims.start
    rw [dif_pos hm]
    show min (idx _).toInt.toNat (N - d.sliceSizes 0) = min (idx (ixP p)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        rw [GatherDims.batchDims, hoff]; rfl
      have e : ∀ (i : Nat) (h : i < d.batchDims.length),
          ((ix2 p q : (⟨2, ![n, M]⟩ : Shape).Idx) (d.batchDims[i])).val = p.val := fun i h =>
        congrArg (fun X => ((ix2 p q : (⟨2, ![n, M]⟩ : Shape).Idx) X).val) (getElem_of_eq_singleton d.batchDims 0 hbd i h)
      exact e _ _
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hb 1), Nat.add_zero]
    unfold GatherDims.start GatherDims.offCoord
    rw [dif_neg hm, dif_pos hk, Nat.zero_add]
    have e : ∀ (i : Nat) (h : i < d.offsetDims.length),
        ((ix2 p q : (⟨2, ![n, M]⟩ : Shape).Idx) (d.offsetDims[i])).val = q.val := fun i h =>
      congrArg (fun X => ((ix2 p q : (⟨2, ![n, M]⟩ : Shape).Idx) X).val) (getElem_of_eq_singleton d.offsetDims 1 hoff i h)
    exact e _ _

end Cert.Moe
-- ==== Proof.GlueSlot.lean ====
/-
  The padded slot of each sorted row, and the inverse table: for each atom, the padded slot that
  holds it.
-/
import proofs.«407739_j36696200577712_3_alg».proof.Proof.GluePCount
import proofs.«407739_j36696200577712_3_alg».proof.Proof.LibScatter

noncomputable section

namespace Cert.KernelIdeal.Gen

open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ) (c : Dev nD)

/-- An index word normalised the way an array read does it (a negative index counts from the end), as a column. -/
private abbrev normCol (w : IVec S32768 32) (k : BitVec 32) : IVec S32768x1 32 :=
  broadcastInDim S32768x1 ![0] bcast_S32768_S32768x1_0
    (select (cmpi .slt w (broadcastInDim S32768 ![] bcast_S_S32768 (constantI S_ 32 0#32)))
      (addi w (broadcastInDim S32768 ![] bcast_S_S32768 (constantI S_ 32 k))) w)

set_option maxHeartbeats 2000000 in
private theorem V_v48 : V m c main_v48 =
    addi (Host.gather gather_S4_S32768x1_S32768_n_0_n_n_0_1_1 (V m c main_v31) (normCol (V m c main_v8) 4#32))
      (subi (iotaInDim S32768 32 0)
        (Host.gather gather_S4_S32768x1_S32768_n_0_n_n_0_1_1 (V m c main_v20) (normCol (V m c main_v8) 4#32))) := by vstep

set_option maxHeartbeats 2000000 in
private theorem V_v75 : V m c main_v75 =
    Host.scatter scatter_S32768_S32768x1_S32768_n_0_0_1 (fun _ b => b)
      (broadcastInDim S32768 ![] bcast_S_S32768 (constantI S_ 32 0#32))
      (normCol (V m c main_v1) 32768#32) (V m c main_v48) := by vstep

/-- The two spellings of a rank-1 index agree. -/
private theorem ix1_eq_ofFin {n : Nat} (p : Fin n) : (ix1 p : (⟨1, ![n]⟩ : Shape).Idx) = Shape.Idx.ofFin p := by
  funext a; match a with | ⟨0, _⟩ => rfl

/-- A word below 2³¹ is not negative: normalising it as an index leaves it alone. -/
private theorem norm_word (a k : BitVec 32) (ha : a.toNat < 2 ^ 31) :
    Scalar.select (IntOp.cmpi .slt a 0#32) (IntOp.addi a k) a = a := by
  have h : IntOp.cmpi .slt a 0#32 ≠ 1#1 := by
    rw [Ne, Predicate.slt_iff_toNat ha (by decide)]; simp
  exact if_neg h

/-- The normalised index column, read at row `p`, is the index word when that is below 2³¹. -/
private theorem normCol_apply (w : IVec S32768 32) (k : BitVec 32) (p : Fin 32768) (hw : (w (ix1 p)).toNat < 2 ^ 31) :
    normCol w k (Predicate.ixP p) = w (ix1 p) := by
  unfold normCol
  rw [Predicate.bcast_col1, ← ix1_eq_ofFin]
  exact norm_word _ _ hw

/-- A table of four entries read through a normalised index column whose word at row `p` is `e`: entry `e`. -/
private theorem take4_apply (x : IVec S4 32) (w : IVec S32768 32) (p : Fin 32768) (e : Fin 4)
    (hw : w (ix1 p) = BitVec.ofNat 32 e.val) :
    Host.gather gather_S4_S32768x1_S32768_n_0_n_n_0_1_1 x (normCol w 4#32) (ix1 p) = x (ix1 e) := by
  have he := e.isLt
  have hlt : (w (ix1 p)).toNat < 2 ^ 31 := by rw [hw, BitVec.toNat_ofNat]; omega
  rw [ix1_eq_ofFin, Predicate.gather_take _ rfl rfl rfl rfl _ _ p (by decide), ix1_eq_ofFin]
  congr 2
  apply Fin.ext
  show min (normCol w 4#32 (Predicate.ixP p)).toInt.toNat (4 - 1) = e.val
  rw [normCol_apply w _ p hlt, hw, Predicate.toInt_ofNat_small _ (by omega)]
  omega

open Cert.Moe.Route in
/-- Sorted row `r` goes to padded slot `target r`. -/
theorem v48_apply (h : SymOk m c) (r : Fin 32768) :
    V m c main_v48 (ix1 r) = BitVec.ofNat 32 (target (symF m c) (perm m c) r) := by
  -- the sorted symbol at row `r` is the expert number of the atom there
  have hw : V m c main_v8 (ix1 r) = BitVec.ofNat 32 (symF m c (perm m c r)).val := by
    rw [v8_apply m c h r]
    have hlt := h (perm m c r)
    unfold symF
    rw [Cert.Moe.eidOf_val_of_lt hlt]
    apply BitVec.eq_of_toNat_eq
    rw [BitVec.toNat_ofNat]
    omega
  rw [V_v48 m c]
  show IntOp.addi (Host.gather gather_S4_S32768x1_S32768_n_0_n_n_0_1_1 (V m c main_v31) (normCol (V m c main_v8) 4#32) (ix1 r))
      (IntOp.subi (iotaInDim S32768 32 0 (ix1 r))
        (Host.gather gather_S4_S32768x1_S32768_n_0_n_n_0_1_1 (V m c main_v20) (normCol (V m c main_v8) 4#32) (ix1 r))) = _
  rw [take4_apply _ _ r _ hw, take4_apply _ _ r _ hw, v31_apply m c h, v20_apply m c h]
  -- the group of row `r` starts at or before `r`, so the subtraction does not wrap
  have hoff := off_le (symF m c) (perm m c) (perm_bijective m c) (perm_mono m c h) r
  have hb := off_add_cnt_le (symF m c) (symF m c (perm m c r))
  show BitVec.ofNat 32 (poff (symF m c) (symF m c (perm m c r))) +
      (BitVec.ofNat 32 r.val - BitVec.ofNat 32 (off (symF m c) (symF m c (perm m c r)))) = _
  rw [BitVec.ofNat_sub_ofNat_of_le _ _ (by omega) hoff, ← BitVec.ofNat_add]
  rfl

open Cert.Moe.Route in
/-- The atom at sorted row `r` is held by padded slot `target r`. -/
theorem v75_apply (h : SymOk m c) (r : Fin 32768) :
    V m c main_v75 (ix1 (perm m c r)) = BitVec.ofNat 32 (target (symF m c) (perm m c) r) := by
  rw [V_v75 m c]
  -- the scatter's index word for update `k` is the atom at sorted row `k`
  have hpos : ∀ k, (normCol (V m c main_v1) 32768#32 (Predicate.ixP k)).toInt = ((perm m c k).val : ℤ) := by
    intro k
    have hv := v1_apply m c h k
    have hk := (perm m c k).isLt
    have hlt : (V m c main_v1 (ix1 k)).toNat < 2 ^ 31 := by rw [hv, BitVec.toNat_ofNat]; omega
    rw [normCol_apply _ _ k hlt, hv, Predicate.toInt_ofNat_small _ (by omega)]
  rw [Cert.Moe.scatter_set_hit scatter_S32768_S32768x1_S32768_n_0_0_1 rfl rfl rfl rfl _ _ _ (perm m c) hpos
    (perm_bijective m c).1 r]
  exact v48_apply m c h r

end Cert.KernelIdeal.Gen

end
-- ==== Proof.TailRead.lean ====
/-
  After the kernel: the result is the padded output read back through the inverse table — row `n`
  of the result is the padded row that holds atom `n` (a gather of rows by the table of slots).
-/
import proofs.«407739_j36696200577712_3_alg».proof.Proof.KBlock
import proofs.«407739_j36696200577712_3_alg».proof.Proof.GlueSlot

noncomputable section

namespace Cert.KernelIdeal.Gen

open Idealize.ShloMosaic Idealize.ShloMosaic.TcCoe Idealize.SL.Sem Idealize.ShloMosaic.StableHlo Idealize.ShloMosaic.ValueIdx

variable (m : (ℓ : Loc nD τ sig) → Buf (Elt Ideal) ℓ)

/-- The program's result buffer after the lines that follow the region, as the frame run states it. -/
abbrev KOut (hO : Ok m) (hH : Hyps m hO) (c : Dev nD) : S32768x1024.Idx → EReal :=
  Pipeline.afterTail pcfgs (fun _ => adm m hO) (dats m hO hH) 0 (V0 m) [hostOps1] c main_v143

/-- The lines after the region, composed: the result is the gather of rows of the kernel's output array by the
    table of slots, each slot word normalised (a negative word moved up by the row count) and kept as a column. -/
private theorem KOut_eq (hO : Ok m) (hH : Hyps m hO) (c : Dev nD) :
    KOut m hO hH c
      = Host.gather gather_S36864x1024_S32768x1_S32768x1024_1_0_n_n_0_1_11024 (Opad m hO hH c)
          (broadcastInDim S32768x1 ![0] bcast_S32768_S32768x1_0
            (select (cmpi .slt (V m c main_v75) (broadcastInDim S32768 ![] bcast_S_S32768 (constantI S_ 32 0#32)))
              (addi (V m c main_v75) (broadcastInDim S32768 ![] bcast_S_S32768 (constantI S_ 32 36864#32)))
              (V m c main_v75))) := by
  have h136 : Pipeline.withArrays (Pipeline.pin pcfgs (fun _ => adm m hO) 0).spec c (V0 m c)
        (fun w => (dats m hO hH 0 c).arrAt w (Pipeline.pin pcfgs (fun _ => adm m hO) 0).N) (Proc.devRef .tc main_v136)
      = Opad m hO hH c :=
    Pipeline.withArrays_arr spec0 winFacts0.arr_inj c _ _ 9
  have h75 : Pipeline.withArrays (Pipeline.pin pcfgs (fun _ => adm m hO) 0).spec c (V0 m c)
        (fun w => (dats m hO hH 0 c).arrAt w (Pipeline.pin pcfgs (fun _ => adm m hO) 0).N) (Proc.devRef .tc main_v75)
      = V m c main_v75 :=
    Pipeline.withArrays_of_ne _ c (V0 m c) _ main_v75 (by exact (by decide : ∀ w, Pipeline.arrRef spec0 w ≠ main_v75))
  unfold KOut Pipeline.afterTail
  simp only [List.flatten_cons, List.flatten_nil, List.append_nil]
  simp only [hostOps1]
  after_results
  rw [h136, h75]

open Cert.Moe.Route Idealize.ShloMosaic.StableHlo.Predicate in
/-- The index word the gather reads for result row `perm r`: the slot word of that atom, which is below the
    row count and so not negative read signed, hence kept by the normalisation. -/
private theorem slot_word (c : Dev nD) (h : SymOk m c) (r : Fin 32768) (s : Fin 36864)
    (hs : s.val = target (symF m c) (perm m c) r) :
    (broadcastInDim S32768x1 ![0] bcast_S32768_S32768x1_0
        (select (cmpi .slt (V m c main_v75) (broadcastInDim S32768 ![] bcast_S_S32768 (constantI S_ 32 0#32)))
          (addi (V m c main_v75) (broadcastInDim S32768 ![] bcast_S_S32768 (constantI S_ 32 36864#32)))
          (V m c main_v75))) (ixP (perm m c r)) = BitVec.ofNat 32 s.val := by
  have hw : (V m c main_v75 : S32768.Idx → BitVec 32) (ix1 (perm m c r)) = BitVec.ofNat 32 s.val := by
    rw [v75_apply m c h r, hs]
  have e : (Shape.Idx.ofFin (perm m c r) : S32768.Idx) = ix1 (perm m c r) := (Shape.Idx.eq_ofFin (ix1 (perm m c r))).symm
  have hlt : (BitVec.ofNat 32 s.val).toNat < 2 ^ 31 := by
    rw [BitVec.toNat_ofNat]; have := s.isLt; omega
  have hc : ¬ IntOp.cmpi .slt (BitVec.ofNat 32 s.val) 0#32 = 1#1 := fun hc =>
    absurd ((slt_iff_toNat hlt (by decide)).mp hc) (by simp)
  rw [bcast_col1, e, select_apply]
  show Scalar.select (IntOp.cmpi .slt ((V m c main_v75 : S32768.Idx → BitVec 32) (ix1 (perm m c r)))
      (broadcastInDim S32768 ![] bcast_S_S32768 (constantI S_ 32 0#32) (ix1 (perm m c r)))) _
      ((V m c main_v75 : S32768.Idx → BitVec 32) (ix1 (perm m c r))) = _
  rw [hw, bcast_scalar bcast_S_S32768 (by decide), constantI_apply]
  exact if_neg hc

open Cert.Moe.Route in
/-- The final gather: result row `perm r` is padded output row `target r`. -/
theorem tail_apply (hO : Ok m) (hH : Hyps m hO) (c : Dev nD) (h : SymOk m c) (r : Fin 32768) (q : Fin 1024)
    (s : Fin 36864) (hs : s.val = target (symF m c) (perm m c) r) :
    KOut m hO hH c (ix2 (perm m c r) q) = Opad m hO hH c (ix2 s q) := by
  rw [KOut_eq]
  refine (Cert.Moe.gather_rows gather_S36864x1024_S32768x1_S32768x1024_1_0_n_n_0_1_11024 rfl rfl rfl rfl rfl rfl
    (Opad m hO hH c) _ (perm m c r) q (Nat.succ_pos 36863)).trans ?_
  refine congrArg (fun a => Opad m hO hH c (ix2 a q)) (Fin.ext ?_)
  have hword := slot_word m c h r s hs
  show min (_ : BitVec 32).toInt.toNat (36864 - 1) = s.val
  rw [hword, Idealize.ShloMosaic.StableHlo.Predicate.toInt_ofNat_small s.val (by have := s.isLt; omega), Int.toNat_natCast]
  have := s.isLt
  omega

end Cert.KernelIdeal.Gen

end
-- ==== Proof.GluePad.lean ====
/-
  The padded copy of the feature rows: padded slot `target r` holds the feature row of the atom at
  sorted row `r`.  (The copy's change of float format, and the weights', is the identity on exact
  values.)
-/
import proofs.«407739_j36696200577712_3_alg».proof.Proof.GlueSlot

noncomputable section

namespace Cert.KernelIdeal.Gen

open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

set_option Elab.async false

/-- The weight copy `main_v132` is the change of float format of argument 2. -/
private theorem V_v132 : V m c main_v132 = ((truncf (F := Ideal) .bf16 · bitsLt_bf16_f32) : (⟨S4x1024x512, .f32⟩ : BufTy).Contents (Elt Ideal) → (⟨S4x1024x512, .bf16⟩ : BufTy).Contents (Elt Ideal)) (V m c main_arg2) := by vstep

/-- The weight copy `main_v133` is the change of float format of argument 4. -/
private theorem V_v133 : V m c main_v133 = ((truncf (F := Ideal) .bf16 · bitsLt_bf16_f32) : (⟨S4x512x128, .f32⟩ : BufTy).Contents (Elt Ideal) → (⟨S4x512x128, .bf16⟩ : BufTy).Contents (Elt Ideal)) (V m c main_arg4) := by vstep

/-- The weight copy `main_v134` is the change of float format of argument 6. -/
private theorem V_v134 : V m c main_v134 = ((truncf (F := Ideal) .bf16 · bitsLt_bf16_f32) : (⟨S4x128x512, .f32⟩ : BufTy).Contents (Elt Ideal) → (⟨S4x128x512, .bf16⟩ : BufTy).Contents (Elt Ideal)) (V m c main_arg6) := by vstep

/-- The weight copy `main_v135` is the change of float format of argument 8. -/
private theorem V_v135 : V m c main_v135 = ((truncf (F := Ideal) .bf16 · bitsLt_bf16_f32) : (⟨S4x512x1024, .f32⟩ : BufTy).Contents (Elt Ideal) → (⟨S4x512x1024, .bf16⟩ : BufTy).Contents (Elt Ideal)) (V m c main_arg8) := by vstep

set_option maxHeartbeats 2000000 in
/-- The slot indices, normalised: a negative index would have the table's length added. -/
private theorem V_v54 :
    V m c main_v54 = (select : (⟨S32768, .i1⟩ : BufTy).Contents (Elt Ideal) → (⟨S32768, .i32⟩ : BufTy).Contents (Elt Ideal) → (⟨S32768, .i32⟩ : BufTy).Contents (Elt Ideal) → (⟨S32768, .i32⟩ : BufTy).Contents (Elt Ideal))
      ((cmpi .slt : (⟨S32768, .i32⟩ : BufTy).Contents (Elt Ideal) → (⟨S32768, .i32⟩ : BufTy).Contents (Elt Ideal) → (⟨S32768, .i1⟩ : BufTy).Contents (Elt Ideal)) (V m c main_v48) ((broadcastInDim S32768 ![] bcast_S_S32768 : (⟨S_, .i32⟩ : BufTy).Contents (Elt Ideal) → (⟨S32768, .i32⟩ : BufTy).Contents (Elt Ideal)) (constantI S_ 32 0#32)))
      ((addi : (⟨S32768, .i32⟩ : BufTy).Contents (Elt Ideal) → (⟨S32768, .i32⟩ : BufTy).Contents (Elt Ideal) → (⟨S32768, .i32⟩ : BufTy).Contents (Elt Ideal)) (V m c main_v48) ((broadcastInDim S32768 ![] bcast_S_S32768 : (⟨S_, .i32⟩ : BufTy).Contents (Elt Ideal) → (⟨S32768, .i32⟩ : BufTy).Contents (Elt Ideal)) (constantI S_ 32 36864#32)))
      (V m c main_v48) := by vstep

set_option maxHeartbeats 2000000 in
/-- The padded table of atoms: all −1, then the atom of each sorted row written at the row's slot. -/
private theorem V_v56 :
    V m c main_v56 = Host.scatter scatter_S36864_S32768x1_S32768_n_0_0_1 (fun _ b => b)
      ((broadcastInDim S36864 ![] bcast_S_S36864 : (⟨S_, .i32⟩ : BufTy).Contents (Elt Ideal) → (⟨S36864, .i32⟩ : BufTy).Contents (Elt Ideal)) (constantI S_ 32 4294967295#32))
      ((broadcastInDim S32768x1 ![0] bcast_S32768_S32768x1_0 : (⟨S32768, .i32⟩ : BufTy).Contents (Elt Ideal) → (⟨S32768x1, .i32⟩ : BufTy).Contents (Elt Ideal)) (V m c main_v54))
      (V m c main_v1) := by vstep

set_option maxHeartbeats 2000000 in
/-- Which entries of the padded table are not negative. -/
private theorem V_v58 :
    V m c main_v58 = (cmpi .sge : (⟨S36864, .i32⟩ : BufTy).Contents (Elt Ideal) → (⟨S36864, .i32⟩ : BufTy).Contents (Elt Ideal) → (⟨S36864, .i1⟩ : BufTy).Contents (Elt Ideal)) (V m c main_v56) ((broadcastInDim S36864 ![] bcast_S_S36864 : (⟨S_, .i32⟩ : BufTy).Contents (Elt Ideal) → (⟨S36864, .i32⟩ : BufTy).Contents (Elt Ideal)) (constantI S_ 32 0#32)) := by vstep

/-- Contents at a buffer's own type and at the type its value is declared with are the same contents. -/
private theorem ofBuf_v58 (x : (main_v58 : Ref sig .tc).ty.Contents (Elt Ideal)) :
    (.of main_v58 : StableHlo.TRef sig ⟨S36864, .i1⟩).ofBuf x = x := rfl
private theorem ofBuf_v56 (x : (main_v56 : Ref sig .tc).ty.Contents (Elt Ideal)) :
    (.of main_v56 : StableHlo.TRef sig ⟨S36864, .i32⟩).ofBuf x = x := rfl
private theorem ofBuf_call5_v1 (x : (main_call5_v1 : Ref sig .tc).ty.Contents (Elt Ideal)) :
    (.of main_call5_v1 : StableHlo.TRef sig ⟨S36864, .i32⟩).ofBuf x = x := rfl
private theorem toBuf_v59 (x : (⟨S36864, .i32⟩ : BufTy).Contents (Elt Ideal)) :
    (.of main_v59 : StableHlo.TRef sig ⟨S36864, .i32⟩).toBuf x = x := rfl

set_option maxHeartbeats 2000000 in
/-- The gather indices: the entries of the padded table that are not negative, and another vector's elsewhere. -/
private theorem V_v59 :
    V m c main_v59 = (select : (⟨S36864, .i1⟩ : BufTy).Contents (Elt Ideal) → (⟨S36864, .i32⟩ : BufTy).Contents (Elt Ideal) → (⟨S36864, .i32⟩ : BufTy).Contents (Elt Ideal) → (⟨S36864, .i32⟩ : BufTy).Contents (Elt Ideal))
      (V m c main_v58) (V m c main_v56) (V m c main_call5_v1) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results_simp
  simp only [ofBuf_v58, ofBuf_v56, ofBuf_call5_v1, toBuf_v59]

set_option maxHeartbeats 2000000 in
/-- The gather indices, normalised. -/
private theorem V_v64 :
    V m c main_v64 = (select : (⟨S36864, .i1⟩ : BufTy).Contents (Elt Ideal) → (⟨S36864, .i32⟩ : BufTy).Contents (Elt Ideal) → (⟨S36864, .i32⟩ : BufTy).Contents (Elt Ideal) → (⟨S36864, .i32⟩ : BufTy).Contents (Elt Ideal))
      ((cmpi .slt : (⟨S36864, .i32⟩ : BufTy).Contents (Elt Ideal) → (⟨S36864, .i32⟩ : BufTy).Contents (Elt Ideal) → (⟨S36864, .i1⟩ : BufTy).Contents (Elt Ideal)) (V m c main_v59) ((broadcastInDim S36864 ![] bcast_S_S36864 : (⟨S_, .i32⟩ : BufTy).Contents (Elt Ideal) → (⟨S36864, .i32⟩ : BufTy).Contents (Elt Ideal)) (constantI S_ 32 0#32)))
      ((addi : (⟨S36864, .i32⟩ : BufTy).Contents (Elt Ideal) → (⟨S36864, .i32⟩ : BufTy).Contents (Elt Ideal) → (⟨S36864, .i32⟩ : BufTy).Contents (Elt Ideal)) (V m c main_v59) ((broadcastInDim S36864 ![] bcast_S_S36864 : (⟨S_, .i32⟩ : BufTy).Contents (Elt Ideal) → (⟨S36864, .i32⟩ : BufTy).Contents (Elt Ideal)) (constantI S_ 32 32768#32)))
      (V m c main_v59) := by vstep

set_option maxHeartbeats 2000000 in
/-- The padded feature rows: the rows of the features named by the gather indices, in the narrower float format. -/
private theorem V_v67 :
    V m c main_v67 = ((truncf (F := Ideal) .bf16 · bitsLt_bf16_f32) : (⟨S36864x1024, .f32⟩ : BufTy).Contents (Elt Ideal) → (⟨S36864x1024, .bf16⟩ : BufTy).Contents (Elt Ideal))
      (Host.gather gather_S32768x1024_S36864x1_S36864x1024_1_0_n_n_0_1_11024 (V m c main_arg0)
        ((broadcastInDim S36864x1 ![0] bcast_S36864_S36864x1_0 : (⟨S36864, .i32⟩ : BufTy).Contents (Elt Ideal) → (⟨S36864x1, .i32⟩ : BufTy).Contents (Elt Ideal)) (V m c main_v64))) := by vstep

open Idealize.ShloMosaic.StableHlo.Predicate Cert.Moe Cert.Moe.Route

/-- The rank-1 index at a coordinate, in its two spellings. -/
private theorem ix1_eq_ofFin {n : Nat} (p : Fin n) : (ix1 p : (⟨1, ![n]⟩ : Shape).Idx) = Shape.Idx.ofFin p := by
  funext d
  have hd : d = 0 := Subsingleton.elim _ _
  subst hd
  exact Fin.ext rfl

private theorem toNat_ofNat_small (n : ℕ) (hn : n < 2 ^ 31) : (BitVec.ofNat 32 n).toNat = n := by
  rw [BitVec.toNat_ofNat]; omega

/-- Normalising an index that is not negative leaves it as it is. -/
private theorem select_slt_zero {s : Shape} (x z a : IVec s 32) (i : s.Idx) (n : ℕ) (hn : n < 2 ^ 31)
    (hx : x i = BitVec.ofNat 32 n) (hz : z i = 0#32) :
    select (cmpi .slt x z) a x i = BitVec.ofNat 32 n := by
  show Scalar.select (IntOp.cmpi .slt (x i) (z i)) (a i) (x i) = _
  rw [hx, hz]
  unfold Scalar.select
  rw [if_neg]
  intro hc
  have h1 := (slt_iff_toNat (by rw [toNat_ofNat_small n hn]; exact hn) (by decide)).1 hc
  simp at h1

/-- Keeping the entries that are not negative keeps an entry that is not negative. -/
private theorem select_sge_zero {s : Shape} (x z a : IVec s 32) (i : s.Idx) (n : ℕ) (hn : n < 2 ^ 31)
    (hx : x i = BitVec.ofNat 32 n) (hz : z i = 0#32) :
    select (cmpi .sge x z) x a i = BitVec.ofNat 32 n := by
  show Scalar.select (IntOp.cmpi .sge (x i) (z i)) (x i) (a i) = _
  rw [hx, hz]
  unfold Scalar.select
  rw [if_pos]
  exact (sge_iff_toNat (by rw [toNat_ofNat_small n hn]; exact hn) (by decide)).2 (by simp)

/-- A vector as a column, read at a row as a signed number, when the entry there is a small natural number. -/
private theorem col_toInt {n : Nat} (h₁ : (⟨1, ![n]⟩ : Shape).BroadcastsInDim ⟨2, ![n, 1]⟩ ![0])
    (v : IVec ⟨1, ![n]⟩ 32) (p : Fin n) (a : ℕ) (ha : a < 2 ^ 31) (hv : v (ix1 p) = BitVec.ofNat 32 a) :
    (broadcastInDim ⟨2, ![n, 1]⟩ ![0] h₁ v (ixP p)).toInt = (a : ℤ) := by
  rw [bcast_col1 h₁ v p, ← ix1_eq_ofFin, hv]
  exact toInt_ofNat_small a ha

/-- A gather of rows at a row whose index is in range reads that row. -/
private theorem gather_rows_at {α : Type} {N n M : Nat} (d : GatherDims ⟨2, ![N, M]⟩ ⟨2, ![n, 1]⟩ ⟨2, ![n, M]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, M]⟩ : Shape).Idx → α) (idx : IVec ⟨2, ![n, 1]⟩ 32) (p : Fin n) (q : Fin M) (j : Fin N)
    (hj : (idx (ixP p)).toInt = (j.val : ℤ)) :
    Host.gather d x idx (ix2 p q) = x (ix2 j q) := by
  have hjlt := j.isLt
  rw [gather_rows d hoff hcoll hob hsb hsim hivd x idx p q (by omega)]
  have e : ∀ hlt, (⟨min (idx (ixP p)).toInt.toNat (N - 1), hlt⟩ : Fin N) = j := fun hlt => by
    apply Fin.ext
    show min (idx (ixP p)).toInt.toNat (N - 1) = j.val
    rw [hj, Int.toNat_natCast]
    omega
  rw [e]

/-- The padded slot of sorted row `r`, as a position of the padded table. -/
private def slot (h : SymOk m c) (r : Fin 32768) : Fin 36864 :=
  ⟨target (symF m c) (perm m c) r, target_lt (symF m c) (perm m c) (perm_bijective m c) (perm_mono m c h) r⟩

private theorem slot_injective (h : SymOk m c) : Function.Injective (slot m c h) := fun a b hab =>
  target_injective (symF m c) (perm m c) (perm_bijective m c) (perm_mono m c h) (congrArg Fin.val hab)

private theorem slot_small (h : SymOk m c) (r : Fin 32768) : (slot m c h r).val < 2 ^ 31 := by
  have := (slot m c h r).isLt; omega

private theorem perm_small (r : Fin 32768) : (perm m c r).val < 2 ^ 31 := by
  have := (perm m c r).isLt; omega

/-- The normalised slot of a sorted row is the slot. -/
private theorem v54_apply (h : SymOk m c) (r : Fin 32768) :
    V m c main_v54 (ix1 r) = BitVec.ofNat 32 (slot m c h r).val := by
  rw [V_v54]
  exact select_slt_zero _ _ _ _ _ (slot_small m c h r) (v48_apply m c h r) rfl

/-- The padded table of atoms holds, at the slot of sorted row `r`, the atom at that row. -/
private theorem v56_apply (h : SymOk m c) (r : Fin 32768) :
    V m c main_v56 (ix1 (slot m c h r)) = BitVec.ofNat 32 (perm m c r).val := by
  rw [V_v56]
  exact (scatter_set_hit scatter_S36864_S32768x1_S32768_n_0_0_1 rfl rfl rfl rfl _ _ _ (slot m c h)
    (fun k => col_toInt _ _ k _ (slot_small m c h k) (v54_apply m c h k)) (slot_injective m c h) r).trans
    (v1_apply m c h r)

/-- So do the gather indices. -/
private theorem v59_apply (h : SymOk m c) (r : Fin 32768) :
    V m c main_v59 (ix1 (slot m c h r)) = BitVec.ofNat 32 (perm m c r).val := by
  rw [V_v59, V_v58]
  exact select_sge_zero _ _ _ _ _ (perm_small m c r) (v56_apply m c h r) rfl

private theorem v64_apply (h : SymOk m c) (r : Fin 32768) :
    V m c main_v64 (ix1 (slot m c h r)) = BitVec.ofNat 32 (perm m c r).val := by
  rw [V_v64]
  exact select_slt_zero _ _ _ _ _ (perm_small m c r) (v59_apply m c h r) rfl

open Cert.Moe.Route in
theorem v67_apply (h : SymOk m c) (r : Fin 32768) (k : Fin 1024) (s : Fin 36864)
    (hs : s.val = target (symF m c) (perm m c) r) :
    (V m c main_v67 : S36864x1024.Idx → EReal) (ix2 s k)
      = (m ((c : Thread nD τ).loc main_arg0) : S32768x1024.Idx → EReal) (ix2 (perm m c r) k) := by
  have hsl : s = slot m c h r := Fin.ext hs
  subst hsl
  rw [V_v67, V_main_arg0]
  exact gather_rows_at gather_S32768x1024_S36864x1_S36864x1024_1_0_n_n_0_1_11024 rfl rfl rfl rfl rfl rfl _ _ _ k (perm m c r)
    (col_toInt _ _ _ _ (perm_small m c r) (v64_apply m c h r))

theorem v132_eq : (V m c main_v132 : S4x1024x512.Idx → EReal) = m ((c : Thread nD τ).loc main_arg2) := by
  rw [V_v132, V_main_arg2]; rfl
theorem v133_eq : (V m c main_v133 : S4x512x128.Idx → EReal) = m ((c : Thread nD τ).loc main_arg4) := by
  rw [V_v133, V_main_arg4]; rfl
theorem v134_eq : (V m c main_v134 : S4x128x512.Idx → EReal) = m ((c : Thread nD τ).loc main_arg6) := by
  rw [V_v134, V_main_arg6]; rfl
theorem v135_eq : (V m c main_v135 : S4x512x1024.Idx → EReal) = m ((c : Thread nD τ).loc main_arg8) := by
  rw [V_v135, V_main_arg8]; rfl

end Cert.KernelIdeal.Gen

end
-- ==== Proof.TblRange.lean ====
/-
  The table of block owners the kernel reads holds, whatever the inputs, only the numbers
  0, 1, 2, 3: it is built from a vector of zeros by four selections, each between a constant among
  0, 1, 2, 3 and the previous table.  That is the side condition the kernel body assumes of the
  table word it reads (the word indexes the leading axis, of extent 4, of each stacked weight array).
-/
import proofs.«407739_j36696200577712_3_alg».proof.Proof.KSteps

noncomputable section

namespace Cert.KernelIdeal.Gen

open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ) (c : Dev nD)

/-- Four selections, each between a constant among 0, 1, 2, 3 and the previous table, over a table of zeros:
    every entry is below 4, whatever the four conditions are. -/
private theorem sel4_lt (c1 c2 c3 c4 : IVec S36 1) (b : Fin 36) :
    ((select c4 (broadcastInDim S36 ![] bcast_S_S36 (constantI S_ 32 3#32))
      (select c3 (broadcastInDim S36 ![] bcast_S_S36 (constantI S_ 32 2#32))
        (select c2 (broadcastInDim S36 ![] bcast_S_S36 (constantI S_ 32 1#32))
          (select c1 (broadcastInDim S36 ![] bcast_S_S36 (constantI S_ 32 0#32))
            (broadcastInDim S36 ![] bcast_S_S36 (constantI S_ 32 0#32))))) : S36.Idx → BitVec 32) (ix1 b)).toNat < 4 := by
  -- a selection is pointwise, a broadcast scalar reads the scalar everywhere
  simp only [select, Scalar.select, broadcastInDim, constantI]
  -- so the entry is one of the literals 0, 1, 2, 3
  split_ifs <;> decide

set_option maxHeartbeats 2000000 in
/-- Every entry of the table names one of the four experts (no precondition needed). -/
theorem v131_lt (b : Fin 36) : ((V m c main_v131 : S36.Idx → BitVec 32) (ix1 b)).toNat < 4 := by
  -- the table as the composite of the operations that write it: four selections over a table of zeros
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results_simp
  try simp only [TRef.ofBuf, TRef.toBuf, cast_eq]
  -- the four conditions play no part
  exact sel4_lt _ _ _ _ b

/-- The check the body assumes of the table word it reads holds of any word below 4: the word is the offset along
    the leading axis, of extent 4, of a block of extent 1 there and full extent elsewhere. -/
private theorem k0_chk1_of_lt (w : BitVec 32) (hw : w.toNat < 4) : k0_chk1 w := by
  have e : (Scalar.indexCast w).toNat = w.toNat := rfl
  unfold k0_chk1 k0_off2 k0_off3 k0_off4 k0_off5 k0_off6 k0_off7 k0_off8
  refine ⟨?_, ?_, ?_, ?_, ?_, ?_, ?_⟩ <;> intro a <;> fin_cases a <;> simp [e] <;> omega

/-- The side condition the kernel body assumes of the table word it reads. -/
theorem hyps_of_tbl (hO : Ok m) : Hyps m hO := by
  refine Hyps.of (fun c t => ?_)
  -- whatever index the body reads the table at, the word there is an entry of the table, hence below 4
  have key : ∀ j : S36.Idx, k0_chk1 ((V m (0 : Dev nD) main_v131 : S36.Idx → BitVec 32) j) := fun j => by
    rw [eq_ix1 j]; exact k0_chk1_of_lt _ (v131_lt m 0 _)
  -- the read through the whole table is the table's contents at the rectangle's index
  exact key _

end Cert.KernelIdeal.Gen

end
-- ==== Proof.GlueTbl.lean ====
/-
  The table of block owners the kernel reads: entry `b` is the group whose padded range contains
  block `b`'s first slot (the last of the four range tests that holds decides; none gives 0).
-/
import proofs.«407739_j36696200577712_3_alg».proof.Proof.GluePCount
import proofs.«407739_j36696200577712_3_alg».proof.Proof.TblRange
import Idealize.ShloMosaic.Lib.StableHlo.Predicate

noncomputable section

namespace Cert.KernelIdeal.Gen

open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ) (c : Dev nD)

/-- A table entry cut out as a one-element piece and read as a scalar. -/
private theorem T_scalar_read (P : S4.Idx → BitVec 32) (off : Fin S4.rank → Nat) (hs : S4.Slices off S1)
    (e : Fin 4) (he : off 0 = e.val) (j : S_.Idx) :
    shapeCast S_ (extractStridedSlice S1 off P hs) shapeCasts_S1_S_ j = P (ix1 e) := by
  unfold shapeCast extractStridedSlice
  refine congrArg P (funext fun a => ?_)
  match a with
  | ⟨0, _⟩ =>
    apply Fin.ext
    have h0 : ((Shape.reshapeEquiv shapeCasts_S1_S_ j) 0).val < 1 := ((Shape.reshapeEquiv shapeCasts_S1_S_ j) 0).isLt
    show off 0 + ((Shape.reshapeEquiv shapeCasts_S1_S_ j) 0).val = e.val
    omega

/-- Two one-bit words and to one exactly when both are one. -/
private theorem T_and_one (x y : BitVec 1) : IntOp.andi x y = 1#1 ↔ x = 1#1 ∧ y = 1#1 := by
  revert x y; decide

/-- One range test and selection read at an entry: the new number where the block start lies in the range, the
    previous table's entry elsewhere. -/
private theorem T_group_read (s prev : S36.Idx → BitVec 32) (P Q : S4.Idx → BitVec 32) (k : BitVec 32)
    (off : Fin S4.rank → Nat) (hs : S4.Slices off S1) (e : Fin 4) (he : off 0 = e.val) (i : S36.Idx)
    (po pc bs : ℕ) (hP : P (ix1 e) = BitVec.ofNat 32 po) (hQ : Q (ix1 e) = BitVec.ofNat 32 pc)
    (hS : s i = BitVec.ofNat 32 bs) (hpq : po + pc < 2 ^ 31) (hbs : bs < 2 ^ 31) :
    select (andi (cmpi .sge s (broadcastInDim S36 ![] bcast_S_S36 (shapeCast S_ (extractStridedSlice S1 off P hs) shapeCasts_S1_S_)))
        (cmpi .slt s (broadcastInDim S36 ![] bcast_S_S36 (addi (shapeCast S_ (extractStridedSlice S1 off P hs) shapeCasts_S1_S_)
          (shapeCast S_ (extractStridedSlice S1 off Q hs) shapeCasts_S1_S_)))))
      (broadcastInDim S36 ![] bcast_S_S36 (constantI S_ 32 k)) prev i
    = if po ≤ bs ∧ bs < po + pc then k else prev i := by
  have h0 : 0 < S_.numel := by decide
  simp only [select, andi, cmpi, addi, Predicate.bcast_scalar bcast_S_S36 h0, T_scalar_read _ off hs e he, constantI, hP, hQ, hS]
  have hadd : IntOp.addi (BitVec.ofNat 32 po) (BitVec.ofNat 32 pc) = BitVec.ofNat 32 (po + pc) := by
    unfold IntOp.addi; exact (BitVec.ofNat_add po pc).symm
  rw [hadd]
  have hA : IntOp.cmpi CmpIPredicate.sge (BitVec.ofNat 32 bs) (BitVec.ofNat 32 po) = 1#1 ↔ po ≤ bs := by
    rw [Predicate.sge_iff_toNat (by simp only [BitVec.toNat_ofNat]; omega) (by simp only [BitVec.toNat_ofNat]; omega)]
    simp only [BitVec.toNat_ofNat]; omega
  have hB : IntOp.cmpi CmpIPredicate.slt (BitVec.ofNat 32 bs) (BitVec.ofNat 32 (po + pc)) = 1#1 ↔ bs < po + pc := by
    rw [Predicate.slt_iff_toNat (by simp only [BitVec.toNat_ofNat]; omega) (by simp only [BitVec.toNat_ofNat]; omega)]
    simp only [BitVec.toNat_ofNat]; omega
  unfold Scalar.select
  exact if_congr ((T_and_one _ _).trans (and_congr hA hB)) rfl rfl

/-- Four tests tried from the last to the first, as a word and as a number (whichever way the tests are decided). -/
private theorem T_pick (p3 p2 p1 p0 : Prop) {d3 d3' : Decidable p3} {d2 d2' : Decidable p2} {d1 d1' : Decidable p1}
    {d0 : Decidable p0} :
    (@ite _ p3 d3 3#32 (@ite _ p2 d2 2#32 (@ite _ p1 d1 1#32 (@ite _ p0 d0 0#32 0#32))))
      = BitVec.ofNat 32 (@ite _ p3 d3' 3 (@ite _ p2 d2' 2 (@ite _ p1 d1' 1 0))) := by
  by_cases h3 : p3
  · rw [if_pos h3, if_pos h3]
  · rw [if_neg h3, if_neg h3]
    by_cases h2 : p2
    · rw [if_pos h2, if_pos h2]
    · rw [if_neg h2, if_neg h2]
      by_cases h1 : p1
      · rw [if_pos h1, if_pos h1]
      · rw [if_neg h1, if_neg h1]
        by_cases h0 : p0
        · rw [if_pos h0]
        · rw [if_neg h0]

/-! ### The operations, as equations between buffer contents -/

private theorem T_v78 : V m c main_v78 = muli (iotaInDim S36 32 0) (broadcastInDim S36 ![] bcast_S_S36 (constantI S_ 32 1024#32)) := by vstep
private theorem T_v79 : V m c main_v79 = broadcastInDim S36 ![] bcast_S_S36 (constantI S_ 32 0#32) := by vstep
set_option maxHeartbeats 2000000 in
private theorem T_v92 : V m c main_v92 = select (andi (cmpi .sge (V m c main_v78) (broadcastInDim S36 ![] bcast_S_S36 (shapeCast S_ (extractStridedSlice S1 ![0] (V m c main_v31) slices_S4_S1_0) shapeCasts_S1_S_))) (cmpi .slt (V m c main_v78) (broadcastInDim S36 ![] bcast_S_S36 (addi (shapeCast S_ (extractStridedSlice S1 ![0] (V m c main_v31) slices_S4_S1_0) shapeCasts_S1_S_) (shapeCast S_ (extractStridedSlice S1 ![0] (V m c main_v27) slices_S4_S1_0) shapeCasts_S1_S_))))) (broadcastInDim S36 ![] bcast_S_S36 (constantI S_ 32 0#32)) (V m c main_v79) := by vstep
set_option maxHeartbeats 2000000 in
private theorem T_v105 : V m c main_v105 = select (andi (cmpi .sge (V m c main_v78) (broadcastInDim S36 ![] bcast_S_S36 (shapeCast S_ (extractStridedSlice S1 ![1] (V m c main_v31) slices_S4_S1_1) shapeCasts_S1_S_))) (cmpi .slt (V m c main_v78) (broadcastInDim S36 ![] bcast_S_S36 (addi (shapeCast S_ (extractStridedSlice S1 ![1] (V m c main_v31) slices_S4_S1_1) shapeCasts_S1_S_) (shapeCast S_ (extractStridedSlice S1 ![1] (V m c main_v27) slices_S4_S1_1) shapeCasts_S1_S_))))) (broadcastInDim S36 ![] bcast_S_S36 (constantI S_ 32 1#32)) (V m c main_v92) := by vstep
set_option maxHeartbeats 2000000 in
private theorem T_v118 : V m c main_v118 = select (andi (cmpi .sge (V m c main_v78) (broadcastInDim S36 ![] bcast_S_S36 (shapeCast S_ (extractStridedSlice S1 ![2] (V m c main_v31) slices_S4_S1_2) shapeCasts_S1_S_))) (cmpi .slt (V m c main_v78) (broadcastInDim S36 ![] bcast_S_S36 (addi (shapeCast S_ (extractStridedSlice S1 ![2] (V m c main_v31) slices_S4_S1_2) shapeCasts_S1_S_) (shapeCast S_ (extractStridedSlice S1 ![2] (V m c main_v27) slices_S4_S1_2) shapeCasts_S1_S_))))) (broadcastInDim S36 ![] bcast_S_S36 (constantI S_ 32 2#32)) (V m c main_v105) := by vstep
set_option maxHeartbeats 2000000 in
private theorem T_v131 : V m c main_v131 = select (andi (cmpi .sge (V m c main_v78) (broadcastInDim S36 ![] bcast_S_S36 (shapeCast S_ (extractStridedSlice S1 ![3] (V m c main_v31) slices_S4_S1_3) shapeCasts_S1_S_))) (cmpi .slt (V m c main_v78) (broadcastInDim S36 ![] bcast_S_S36 (addi (shapeCast S_ (extractStridedSlice S1 ![3] (V m c main_v31) slices_S4_S1_3) shapeCasts_S1_S_) (shapeCast S_ (extractStridedSlice S1 ![3] (V m c main_v27) slices_S4_S1_3) shapeCasts_S1_S_))))) (broadcastInDim S36 ![] bcast_S_S36 (constantI S_ 32 3#32)) (V m c main_v118) := by vstep

/-- Block `b`'s first slot: the position times 1024. -/
private theorem T_start (b : Fin 36) : V m c main_v78 (ix1 b) = BitVec.ofNat 32 (b.val * 1024) := by
  rw [T_v78]
  have h0 : 0 < S_.numel := by decide
  simp only [muli, Predicate.bcast_scalar bcast_S_S36 h0, constantI, iotaInDim]
  unfold IntOp.muli
  exact (BitVec.ofNat_mul b.val 1024).symm

/-- The table starts as zeros. -/
private theorem T_base (b : Fin 36) : V m c main_v79 (ix1 b) = 0#32 := by
  rw [T_v79]
  have h0 : 0 < S_.numel := by decide
  simp only [Predicate.bcast_scalar bcast_S_S36 h0, constantI]

open Cert.Moe.Route in
theorem v131_apply (h : SymOk m c) (b : Fin 36) :
    (V m c main_v131 : S36.Idx → BitVec 32) (ix1 b) = BitVec.ofNat 32 (owner (symF m c) b.val) := by
  have hb : b.val * 1024 < 2 ^ 31 := by have := b.isLt; omega
  have hle : ∀ e : Fin 4, poff (symF m c) e + pcnt (symF m c) e < 2 ^ 31 := fun e => by
    have := poff_add_pcnt_le (symF m c) e; omega
  rw [T_v131, T_group_read (V m c main_v78) (V m c main_v118) (V m c main_v31) (V m c main_v27) 3#32 ![3] slices_S4_S1_3 3 rfl
    (ix1 b) _ _ _ (v31_apply m c h 3) (v27_apply m c h 3) (T_start m c b) (hle 3) hb]
  rw [T_v118, T_group_read (V m c main_v78) (V m c main_v105) (V m c main_v31) (V m c main_v27) 2#32 ![2] slices_S4_S1_2 2 rfl
    (ix1 b) _ _ _ (v31_apply m c h 2) (v27_apply m c h 2) (T_start m c b) (hle 2) hb]
  rw [T_v105, T_group_read (V m c main_v78) (V m c main_v92) (V m c main_v31) (V m c main_v27) 1#32 ![1] slices_S4_S1_1 1 rfl
    (ix1 b) _ _ _ (v31_apply m c h 1) (v27_apply m c h 1) (T_start m c b) (hle 1) hb]
  rw [T_v92, T_group_read (V m c main_v78) (V m c main_v79) (V m c main_v31) (V m c main_v27) 0#32 ![0] slices_S4_S1_0 0 rfl
    (ix1 b) _ _ _ (v31_apply m c h 0) (v27_apply m c h 0) (T_start m c b) (hle 0) hb]
  rw [T_base]
  unfold owner
  exact T_pick (inGroup (symF m c) 3 b.val) (inGroup (symF m c) 2 b.val) (inGroup (symF m c) 1 b.val)
    (inGroup (symF m c) 0 b.val)

end Cert.KernelIdeal.Gen

end
-- ==== Proof.Tail.lean ====
/-
  After the kernel: the result is the padded output read back through the inverse table — row `n`
  of the result is the padded row that holds atom `n`.  With the routing facts this makes the
  kernel program's result the specification: row `perm r` is the expert of that atom's symbol
  applied to that atom's feature row.
-/
import proofs.«407739_j36696200577712_3_alg».proof.Proof.TailRead
import proofs.«407739_j36696200577712_3_alg».proof.Proof.GluePad
import proofs.«407739_j36696200577712_3_alg».proof.Proof.GlueTbl

noncomputable section

namespace Cert.KernelIdeal.Gen

open Idealize.ShloMosaic Idealize.ShloMosaic.TcCoe Idealize.SL.Sem Idealize.ShloMosaic.StableHlo Idealize.ShloMosaic.ValueIdx

variable (m : (ℓ : Loc nD τ sig) → Buf (Elt Ideal) ℓ)

private theorem eidOf_ofNat_val (e : Fin 4) : Cert.Moe.eidOf (BitVec.ofNat 32 e.val) = e := by
  apply Fin.ext
  have h4 : e.val < 4 := e.isLt
  show (BitVec.ofNat 32 e.val).toNat % 4 = e.val
  rw [BitVec.toNat_ofNat]
  omega

open Cert.Moe.Route in
/-- The kernel program's result is the specification. -/
theorem KOut_eq (hO : Ok m) (hH : Hyps m hO) (c : Dev nD) (h : SymOk m c) :
    KOut m hO hH c = Cert.Moe.G (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) := by
  funext j
  -- the row is some atom's: the one at sorted place `r`
  obtain ⟨p, q, rfl⟩ : ∃ (p : Fin 32768) (q : Fin 1024), j = ix2 p q := ⟨j 0, j 1, eq_ix2 j⟩
  obtain ⟨r, rfl⟩ := (perm_bijective m c).2 p
  have hlt : target (symF m c) (perm m c) r < 36864 :=
    target_lt (symF m c) (perm m c) (perm_bijective m c) (perm_mono m c h) r
  have hown := owner_target (symF m c) (perm m c) (perm_bijective m c) (perm_mono m c h) r
  generalize hs : target (symF m c) (perm m c) r = s at hlt hown
  rw [tail_apply m hO hH c h r q ⟨s, hlt⟩ hs.symm, Opad_apply m hO hH c ⟨s, hlt⟩ q]
  -- the features of the padded row are the atom's
  have hx : (fun i : Fin 1024 => (V m c main_v67 : S36864x1024.Idx → EReal) (ix2 (⟨s, hlt⟩ : Fin 36864) i))
      = fun i => (m ((c : Thread nD τ).loc main_arg0) : S32768x1024.Idx → EReal) (ix2 (perm m c r) i) :=
    funext fun i => v67_apply m c h r i ⟨s, hlt⟩ hs.symm
  -- the block's expert is the atom's
  have he : Cert.Moe.eidOf ((V m c main_v131 : S36.Idx → BitVec 32) (ix1 ⟨s / 1024, by omega⟩))
      = Cert.Moe.eidOf (symW m c (ix1 (perm m c r))) := by
    rw [v131_apply m c h ⟨s / 1024, by omega⟩]
    show Cert.Moe.eidOf (BitVec.ofNat 32 (owner (symF m c) (s / 1024))) = symF m c (perm m c r)
    rw [hown]
    exact eidOf_ofNat_val _
  rw [hx, he, v132_eq, v133_eq, v134_eq, v135_eq, V_main_arg3, V_main_arg5, V_main_arg7, V_main_arg9]
  rfl

/-- The kernel program's run with its result named: the frame run read at the result buffer and at the arguments. -/
theorem run_named (ρ : Dev nD → PrngReg) (hO : Ok m) (hH : Hyps m hO) :
    θ_run defs (onTc (τ := τ) (main (F := Ideal))) ⟨m, fun _ => 0, ρ⟩ (fun r => ∀ c : Dev nD,
      r.2.mem ((c.tc : Thread nD τ).loc main_v143) = KOut m hO hH c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).2 main_v143 (by decide : main_v143 ∈ Pipeline.restRefs sig spec0),
      (((h c).2 main_arg0 (by decide : main_arg0 ∈ Pipeline.restRefs sig spec0)).trans (W_main_arg0 m hO (dats m hO hH) c)),
      (((h c).2 main_arg1 (by decide : main_arg1 ∈ Pipeline.restRefs sig spec0)).trans (W_main_arg1 m hO (dats m hO hH) c)),
      (((h c).2 main_arg2 (by decide : main_arg2 ∈ Pipeline.restRefs sig spec0)).trans (W_main_arg2 m hO (dats m hO hH) c)),
      ((h c).1 2).trans (((dats m hO hH 0 c).arrAt_in 2 rfl _).trans ((A_eq m hO hH c 2).trans (V_main_arg3 m c))),
      (((h c).2 main_arg4 (by decide : main_arg4 ∈ Pipeline.restRefs sig spec0)).trans (W_main_arg4 m hO (dats m hO hH) c)),
      ((h c).1 4).trans (((dats m hO hH 0 c).arrAt_in 4 rfl _).trans ((A_eq m hO hH c 4).trans (V_main_arg5 m c))),
      (((h c).2 main_arg6 (by decide : main_arg6 ∈ Pipeline.restRefs sig spec0)).trans (W_main_arg6 m hO (dats m hO hH) c)),
      ((h c).1 6).trans (((dats m hO hH 0 c).arrAt_in 6 rfl _).trans ((A_eq m hO hH c 6).trans (V_main_arg7 m c))),
      (((h c).2 main_arg8 (by decide : main_arg8 ∈ Pipeline.restRefs sig spec0)).trans (W_main_arg8 m hO (dats m hO hH) c)),
      ((h c).1 8).trans (((dats m hO hH 0 c).arrAt_in 8 rfl _).trans ((A_eq m hO hH c 8).trans (V_main_arg9 m c)))⟩)
    (run_main m ρ hO hH)

end Cert.KernelIdeal.Gen

end
-- ==== Proof.KStepsBits.lean ====
/-
  Reading the routing program that runs before the kernel, one operation at a time.

  `V m c b` is what buffer `b` holds when the kernel region is entered.  The tactic `vstep` proves an
  equation `V m c y = f (V m c a) (V m c b)` for the operation that writes `y` from `a` and `b`:
  both sides are the same composite of the program's operations applied to the launch memory.
  Also here: the names the routing facts are stated with — the symbol words, each atom's expert
  number, the sorting permutation — and the precondition's range fact as a proposition.
-/
import proofs.«407739_j36696200577712_3_alg».proof.Proof.Gen.Kernel.Frame.Runs
import proofs.«407739_j36696200577712_3_alg».proof.Proof.Spec
import proofs.«407739_j36696200577712_3_alg».proof.Proof.Route
import proofs.«407739_j36696200577712_3_alg».proof.Proof.LibSort
import Idealize.ShloMosaic.Lib.StableHlo.Run

noncomputable section

namespace Cert.Kernel.Gen

open Idealize.ShloMosaic Idealize.ShloMosaic.TcCoe Idealize.SL.Sem Idealize.ShloMosaic.StableHlo Idealize.ShloMosaic.ValueIdx

/-- One operation of the routing program: the buffer it writes holds its function of the buffers it reads. -/
macro "vstep" : tactic => `(tactic| (
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results_simp
  try simp only [TRef.ofBuf, TRef.toBuf, cast_eq]
  try rfl))

variable {F : FTy → Type} [FloatOps F]
variable (m : (ℓ : Loc nD τ sig) → Buf (Elt F) ℓ) (c : Dev nD)

/-- The symbol words of the launch memory. -/
abbrev symW : S32768.Idx → BitVec 32 := m ((c : Thread nD τ).loc main_arg1)
/-- Atom `n`'s expert number. -/
def symF (n : Fin 32768) : Fin 4 := Cert.Moe.eidOf (symW m c (ix1 n))
/-- The atoms in nondecreasing order of symbol (a stable sort). -/
def perm : Fin 32768 → Fin 32768 := Cert.Moe.argsort fun k => symW m c (ix1 k)
/-- Every symbol word is one of 0, 1, 2, 3. -/
def SymOk : Prop := ∀ n : Fin 32768, (symW m c (ix1 n)).toNat < 4

end Cert.Kernel.Gen

end
-- ==== Proof.TblRangeBits.lean ====
/-
  The table of block owners the kernel reads holds, whatever the inputs, only the numbers
  0, 1, 2, 3: it is built from a vector of zeros by four selections, each between a constant among
  0, 1, 2, 3 and the previous table.  That is the side condition the kernel body assumes of the
  table word it reads (the word indexes the leading axis, of extent 4, of each stacked weight array).
-/
import proofs.«407739_j36696200577712_3_alg».proof.Proof.KStepsBits

noncomputable section

namespace Cert.Kernel.Gen

open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ) (c : Dev nD)

/-- Four selections, each between a constant among 0, 1, 2, 3 and the previous table, over a table of zeros:
    every entry is below 4, whatever the four conditions are. -/
private theorem sel4_lt (c1 c2 c3 c4 : IVec S36 1) (b : Fin 36) :
    ((select c4 (broadcastInDim S36 ![] bcast_S_S36 (constantI S_ 32 3#32))
      (select c3 (broadcastInDim S36 ![] bcast_S_S36 (constantI S_ 32 2#32))
        (select c2 (broadcastInDim S36 ![] bcast_S_S36 (constantI S_ 32 1#32))
          (select c1 (broadcastInDim S36 ![] bcast_S_S36 (constantI S_ 32 0#32))
            (broadcastInDim S36 ![] bcast_S_S36 (constantI S_ 32 0#32))))) : S36.Idx → BitVec 32) (ix1 b)).toNat < 4 := by
  -- a selection is pointwise, a broadcast scalar reads the scalar everywhere
  simp only [select, Scalar.select, broadcastInDim, constantI]
  -- so the entry is one of the literals 0, 1, 2, 3
  split_ifs <;> decide

set_option maxHeartbeats 2000000 in
/-- Every entry of the table names one of the four experts (no precondition needed). -/
theorem v131_lt (b : Fin 36) : ((V m c main_v131 : S36.Idx → BitVec 32) (ix1 b)).toNat < 4 := by
  -- the table as the composite of the operations that write it: four selections over a table of zeros
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results_simp
  try simp only [TRef.ofBuf, TRef.toBuf, cast_eq]
  -- the four conditions play no part
  exact sel4_lt _ _ _ _ b

/-- The check the body assumes of the table word it reads holds of any word below 4: the word is the offset along
    the leading axis, of extent 4, of a block of extent 1 there and full extent elsewhere. -/
private theorem k0_chk1_of_lt (w : BitVec 32) (hw : w.toNat < 4) : k0_chk1 w := by
  have e : (Scalar.indexCast w).toNat = w.toNat := rfl
  unfold k0_chk1 k0_off2 k0_off3 k0_off4 k0_off5 k0_off6 k0_off7 k0_off8
  refine ⟨?_, ?_, ?_, ?_, ?_, ?_, ?_⟩ <;> intro a <;> fin_cases a <;> simp [e] <;> omega

/-- The side condition the kernel body assumes of the table word it reads. -/
theorem hyps_of_tbl (hO : Ok m) : Hyps m hO := by
  refine Hyps.of (fun c t => ?_)
  -- whatever index the body reads the table at, the word there is an entry of the table, hence below 4
  have key : ∀ j : S36.Idx, k0_chk1 ((V m (0 : Dev nD) main_v131 : S36.Idx → BitVec 32) j) := fun j => by
    rw [eq_ix1 j]; exact k0_chk1_of_lt _ (v131_lt m 0 _)
  -- the read through the whole table is the table's contents at the rectangle's index
  exact key _

end Cert.Kernel.Gen

end
-- ==== Proof.RefRun.lean ====
/-
  The reference program's run: @main is a straight line of host operations, so every weakly fair
  execution terminates with the result buffer at the operations' composed value of the launch
  arguments — stated here through the stage functions `val_…` — and the arguments unchanged.
-/
import proofs.«407739_j36696200577712_3_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 41 of the program, in order. -/
private def opsA : List (HloOp τ sig (Elt F)) :=
  [ unary main_arg2 main_v0 ((extractStridedSlice S1x1024x512 ![0, 0, 0] · slices_S4x1024x512_S1x1024x512_0_0_0) : (⟨S4x1024x512, .f32⟩ : BufTy).Contents (Elt F) → (⟨S1x1024x512, .f32⟩ : BufTy).Contents (Elt F)),
    reshape main_v0 main_v1 rfl shapeCasts_S1x1024x512_S1024x512,
    binary main_arg0 main_v1 main_v2 ((fun l r => Host.dotGeneral dot_S32768x1024_S1024x512_S32768x512_1_0_0_1_n_n none l r) : (⟨S32768x1024, .f32⟩ : BufTy).Contents (Elt F) → (⟨S1024x512, .f32⟩ : BufTy).Contents (Elt F) → (⟨S32768x512, .f32⟩ : BufTy).Contents (Elt F)),
    unary main_arg3 main_v3 ((extractStridedSlice S1x512 ![0, 0] · slices_S4x512_S1x512_0_0) : (⟨S4x512, .f32⟩ : BufTy).Contents (Elt F) → (⟨S1x512, .f32⟩ : BufTy).Contents (Elt F)),
    reshape main_v3 main_v4 rfl shapeCasts_S1x512_S512,
    unary main_v4 main_v5 (broadcastInDim S1x512 ![1] bcast_S512_S1x512_1 : (⟨S512, .f32⟩ : BufTy).Contents (Elt F) → (⟨S1x512, .f32⟩ : BufTy).Contents (Elt F)),
    unary main_v5 main_v6 (broadcastInDim S32768x512 ![0, 1] bcast_S1x512_S32768x512_0_1 : (⟨S1x512, .f32⟩ : BufTy).Contents (Elt F) → (⟨S32768x512, .f32⟩ : BufTy).Contents (Elt F)),
    binary main_v2 main_v6 main_v7 (addf : (⟨S32768x512, .f32⟩ : BufTy).Contents (Elt F) → (⟨S32768x512, .f32⟩ : BufTy).Contents (Elt F) → (⟨S32768x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S32768x512, .f32⟩) main_call0_v0) (broadcastInDim S32768x512 ![] bcast_S_S32768x512),
    TRef.binary (TRef.of (T := ⟨S32768x512, .f32⟩) main_v7) (TRef.of (T := ⟨S32768x512, .f32⟩) main_call0_v0) (TRef.of (T := ⟨S32768x512, .f32⟩) main_v8) maximumf,
    unary main_arg4 main_v9 ((extractStridedSlice S1x512x128 ![0, 0, 0] · slices_S4x512x128_S1x512x128_0_0_0) : (⟨S4x512x128, .f32⟩ : BufTy).Contents (Elt F) → (⟨S1x512x128, .f32⟩ : BufTy).Contents (Elt F)),
    reshape main_v9 main_v10 rfl shapeCasts_S1x512x128_S512x128,
    binary main_v8 main_v10 main_v11 ((fun l r => Host.dotGeneral dot_S32768x512_S512x128_S32768x128_1_0_0_1_n_n none l r) : (⟨S32768x512, .f32⟩ : BufTy).Contents (Elt F) → (⟨S512x128, .f32⟩ : BufTy).Contents (Elt F) → (⟨S32768x128, .f32⟩ : BufTy).Contents (Elt F)),
    unary main_arg5 main_v12 ((extractStridedSlice S1x128 ![0, 0] · slices_S4x128_S1x128_0_0) : (⟨S4x128, .f32⟩ : BufTy).Contents (Elt F) → (⟨S1x128, .f32⟩ : BufTy).Contents (Elt F)),
    reshape main_v12 main_v13 rfl shapeCasts_S1x128_S128,
    unary main_v13 main_v14 (broadcastInDim S1x128 ![1] bcast_S128_S1x128_1 : (⟨S128, .f32⟩ : BufTy).Contents (Elt F) → (⟨S1x128, .f32⟩ : BufTy).Contents (Elt F)),
    unary main_v14 main_v15 (broadcastInDim S32768x128 ![0, 1] bcast_S1x128_S32768x128_0_1 : (⟨S1x128, .f32⟩ : BufTy).Contents (Elt F) → (⟨S32768x128, .f32⟩ : BufTy).Contents (Elt F)),
    binary main_v11 main_v15 main_v16 (addf : (⟨S32768x128, .f32⟩ : BufTy).Contents (Elt F) → (⟨S32768x128, .f32⟩ : BufTy).Contents (Elt F) → (⟨S32768x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S32768x128, .f32⟩) main_call1_v0) (broadcastInDim S32768x128 ![] bcast_S_S32768x128),
    TRef.binary (TRef.of (T := ⟨S32768x128, .f32⟩) main_v16) (TRef.of (T := ⟨S32768x128, .f32⟩) main_call1_v0) (TRef.of (T := ⟨S32768x128, .f32⟩) main_v17) maximumf,
    unary main_arg6 main_v18 ((extractStridedSlice S1x128x512 ![0, 0, 0] · slices_S4x128x512_S1x128x512_0_0_0) : (⟨S4x128x512, .f32⟩ : BufTy).Contents (Elt F) → (⟨S1x128x512, .f32⟩ : BufTy).Contents (Elt F)),
    reshape main_v18 main_v19 rfl shapeCasts_S1x128x512_S128x512,
    binary main_v17 main_v19 main_v20 ((fun l r => Host.dotGeneral dot_S32768x128_S128x512_S32768x512_1_0_0_1_n_n none l r) : (⟨S32768x128, .f32⟩ : BufTy).Contents (Elt F) → (⟨S128x512, .f32⟩ : BufTy).Contents (Elt F) → (⟨S32768x512, .f32⟩ : BufTy).Contents (Elt F)),
    unary main_arg7 main_v21 ((extractStridedSlice S1x512 ![0, 0] · slices_S4x512_S1x512_0_0) : (⟨S4x512, .f32⟩ : BufTy).Contents (Elt F) → (⟨S1x512, .f32⟩ : BufTy).Contents (Elt F)),
    reshape main_v21 main_v22 rfl shapeCasts_S1x512_S512,
    unary main_v22 main_v23 (broadcastInDim S1x512 ![1] bcast_S512_S1x512_1 : (⟨S512, .f32⟩ : BufTy).Contents (Elt F) → (⟨S1x512, .f32⟩ : BufTy).Contents (Elt F)),
    unary main_v23 main_v24 (broadcastInDim S32768x512 ![0, 1] bcast_S1x512_S32768x512_0_1 : (⟨S1x512, .f32⟩ : BufTy).Contents (Elt F) → (⟨S32768x512, .f32⟩ : BufTy).Contents (Elt F)),
    binary main_v20 main_v24 main_v25 (addf : (⟨S32768x512, .f32⟩ : BufTy).Contents (Elt F) → (⟨S32768x512, .f32⟩ : BufTy).Contents (Elt F) → (⟨S32768x512, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S32768x512, .f32⟩) main_call2_v0) (broadcastInDim S32768x512 ![] bcast_S_S32768x512),
    TRef.binary (TRef.of (T := ⟨S32768x512, .f32⟩) main_v25) (TRef.of (T := ⟨S32768x512, .f32⟩) main_call2_v0) (TRef.of (T := ⟨S32768x512, .f32⟩) main_v26) maximumf,
    unary main_arg8 main_v27 ((extractStridedSlice S1x512x1024 ![0, 0, 0] · slices_S4x512x1024_S1x512x1024_0_0_0) : (⟨S4x512x1024, .f32⟩ : BufTy).Contents (Elt F) → (⟨S1x512x1024, .f32⟩ : BufTy).Contents (Elt F)),
    reshape main_v27 main_v28 rfl shapeCasts_S1x512x1024_S512x1024,
    binary main_v26 main_v28 main_v29 ((fun l r => Host.dotGeneral dot_S32768x512_S512x1024_S32768x1024_1_0_0_1_n_n none l r) : (⟨S32768x512, .f32⟩ : BufTy).Contents (Elt F) → (⟨S512x1024, .f32⟩ : BufTy).Contents (Elt F) → (⟨S32768x1024, .f32⟩ : BufTy).Contents (Elt F)),
    unary main_arg9 main_v30 ((extractStridedSlice S1x1024 ![0, 0] · slices_S4x1024_S1x1024_0_0) : (⟨S4x1024, .f32⟩ : BufTy).Contents (Elt F) → (⟨S1x1024, .f32⟩ : BufTy).Contents (Elt F)),
    reshape main_v30 main_v31 rfl shapeCasts_S1x1024_S1024,
    unary main_v31 main_v32 (broadcastInDim S1x1024 ![1] bcast_S1024_S1x1024_1 : (⟨S1024, .f32⟩ : BufTy).Contents (Elt F) → (⟨S1x1024, .f32⟩ : BufTy).Contents (Elt F)),
    unary main_v32 main_v33 (broadcastInDim S32768x1024 ![0, 1] bcast_S1x1024_S32768x1024_0_1 : (⟨S1x1024, .f32⟩ : BufTy).Contents (Elt F) → (⟨S32768x1024, .f32⟩ : BufTy).Contents (Elt F)),
    binary main_v29 main_v33 main_v34 (addf : (⟨S32768x1024, .f32⟩ : BufTy).Contents (Elt F) → (⟨S32768x1024, .f32⟩ : BufTy).Contents (Elt F) → (⟨S32768x1024, .f32⟩ : BufTy).Contents (Elt F)) ]

private theorem opsA_sub : (opsA : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
private theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers these operations write. -/
private abbrev opsA_W : List (Ref sig .tc) := [main_v0, main_v1, main_v2, main_v3, main_v4, main_v5, main_v6, main_v7, main_call0_cst, main_call0_v0, main_v8, main_v9, main_v10, main_v11, main_v12, main_v13, main_v14, main_v15, main_v16, main_call1_cst, main_call1_v0, main_v17, main_v18, main_v19, main_v20, main_v21, main_v22, main_v23, main_v24, main_v25, main_call2_cst, main_call2_v0, main_v26, main_v27, main_v28, main_v29, main_v30, main_v31, main_v32, main_v33, main_v34]
private theorem opsA_writes : (opsA : List (HloOp τ sig (Elt F))).Forall fun op => op.writes ⊆ (opsA_W.map (Proc.devRef (τ := τ) .tc)).toFinset := by
  unfold opsA; simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer these operations do not write keeps its contents through them. -/
private theorem opsA_keep (V : Valuation τ sig (Elt F)) (r : Ref sig .tc) (h : r ∉ opsA_W) :
    after opsA V (Proc.devRef .tc r) = V (Proc.devRef .tc r) :=
  after_of_writes_sub opsA V opsA_writes h

set_option maxRecDepth 8192 in
/-- What these operations leave at `main_v34`, from contents holding the stage values they read. -/
private theorem opsA_main_v34 (V : Valuation τ sig (Elt F)) (x0 : (⟨S32768x1024, .f32⟩ : BufTy).Contents (Elt F)) (x2 : (⟨S4x1024x512, .f32⟩ : BufTy).Contents (Elt F)) (x3 : (⟨S4x512, .f32⟩ : BufTy).Contents (Elt F)) (x4 : (⟨S4x512x128, .f32⟩ : BufTy).Contents (Elt F)) (x5 : (⟨S4x128, .f32⟩ : BufTy).Contents (Elt F)) (x6 : (⟨S4x128x512, .f32⟩ : BufTy).Contents (Elt F)) (x7 : (⟨S4x512, .f32⟩ : BufTy).Contents (Elt F)) (x8 : (⟨S4x512x1024, .f32⟩ : BufTy).Contents (Elt F)) (x9 : (⟨S4x1024, .f32⟩ : BufTy).Contents (Elt F))
    (h0 : V (Proc.devRef .tc main_arg0) = x0) (h2 : V (Proc.devRef .tc main_arg2) = x2) (h3 : V (Proc.devRef .tc main_arg3) = x3) (h4 : V (Proc.devRef .tc main_arg4) = x4) (h5 : V (Proc.devRef .tc main_arg5) = x5) (h6 : V (Proc.devRef .tc main_arg6) = x6) (h7 : V (Proc.devRef .tc main_arg7) = x7) (h8 : V (Proc.devRef .tc main_arg8) = x8) (h9 : V (Proc.devRef .tc main_arg9) = x9) :
    after opsA V (Proc.devRef .tc main_v34) = RefRead.val_main_v34 (F := F) x0 x2 x3 x4 x5 x6 x7 x8 x9 := by
  unfold opsA
  after_results_simp
  simp only [h0, h2, h3, h4, h5, h6, h7, h8, h9]
  rfl

/-- Operations 42 … 70 of the program, in order. -/
private def opsB1 : List (HloOp τ sig (Elt F)) :=
  [ unary main_arg2 main_v35 ((extractStridedSlice S1x1024x512 ![1, 0, 0] · slices_S4x1024x512_S1x1024x512_1_0_0) : (⟨S4x1024x512, .f32⟩ : BufTy).Contents (Elt F) → (⟨S1x1024x512, .f32⟩ : BufTy).Contents (Elt F)),
    reshape main_v35 main_v36 rfl shapeCasts_S1x1024x512_S1024x512,
    binary main_arg0 main_v36 main_v37 ((fun l r => Host.dotGeneral dot_S32768x1024_S1024x512_S32768x512_1_0_0_1_n_n none l r) : (⟨S32768x1024, .f32⟩ : BufTy).Contents (Elt F) → (⟨S1024x512, .f32⟩ : BufTy).Contents (Elt F) → (⟨S32768x512, .f32⟩ : BufTy).Contents (Elt F)),
    unary main_arg3 main_v38 ((extractStridedSlice S1x512 ![1, 0] · slices_S4x512_S1x512_1_0) : (⟨S4x512, .f32⟩ : BufTy).Contents (Elt F) → (⟨S1x512, .f32⟩ : BufTy).Contents (Elt F)),
    reshape main_v38 main_v39 rfl shapeCasts_S1x512_S512,
    unary main_v39 main_v40 (broadcastInDim S1x512 ![1] bcast_S512_S1x512_1 : (⟨S512, .f32⟩ : BufTy).Contents (Elt F) → (⟨S1x512, .f32⟩ : BufTy).Contents (Elt F)),
    unary main_v40 main_v41 (broadcastInDim S32768x512 ![0, 1] bcast_S1x512_S32768x512_0_1 : (⟨S1x512, .f32⟩ : BufTy).Contents (Elt F) → (⟨S32768x512, .f32⟩ : BufTy).Contents (Elt F)),
    binary main_v37 main_v41 main_v42 (addf : (⟨S32768x512, .f32⟩ : BufTy).Contents (Elt F) → (⟨S32768x512, .f32⟩ : BufTy).Contents (Elt F) → (⟨S32768x512, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S32768x512, .f32⟩) main_call3_v0) (broadcastInDim S32768x512 ![] bcast_S_S32768x512),
    TRef.binary (TRef.of (T := ⟨S32768x512, .f32⟩) main_v42) (TRef.of (T := ⟨S32768x512, .f32⟩) main_call3_v0) (TRef.of (T := ⟨S32768x512, .f32⟩) main_v43) maximumf,
    unary main_arg4 main_v44 ((extractStridedSlice S1x512x128 ![1, 0, 0] · slices_S4x512x128_S1x512x128_1_0_0) : (⟨S4x512x128, .f32⟩ : BufTy).Contents (Elt F) → (⟨S1x512x128, .f32⟩ : BufTy).Contents (Elt F)),
    reshape main_v44 main_v45 rfl shapeCasts_S1x512x128_S512x128,
    binary main_v43 main_v45 main_v46 ((fun l r => Host.dotGeneral dot_S32768x512_S512x128_S32768x128_1_0_0_1_n_n none l r) : (⟨S32768x512, .f32⟩ : BufTy).Contents (Elt F) → (⟨S512x128, .f32⟩ : BufTy).Contents (Elt F) → (⟨S32768x128, .f32⟩ : BufTy).Contents (Elt F)),
    unary main_arg5 main_v47 ((extractStridedSlice S1x128 ![1, 0] · slices_S4x128_S1x128_1_0) : (⟨S4x128, .f32⟩ : BufTy).Contents (Elt F) → (⟨S1x128, .f32⟩ : BufTy).Contents (Elt F)),
    reshape main_v47 main_v48 rfl shapeCasts_S1x128_S128,
    unary main_v48 main_v49 (broadcastInDim S1x128 ![1] bcast_S128_S1x128_1 : (⟨S128, .f32⟩ : BufTy).Contents (Elt F) → (⟨S1x128, .f32⟩ : BufTy).Contents (Elt F)),
    unary main_v49 main_v50 (broadcastInDim S32768x128 ![0, 1] bcast_S1x128_S32768x128_0_1 : (⟨S1x128, .f32⟩ : BufTy).Contents (Elt F) → (⟨S32768x128, .f32⟩ : BufTy).Contents (Elt F)),
    binary main_v46 main_v50 main_v51 (addf : (⟨S32768x128, .f32⟩ : BufTy).Contents (Elt F) → (⟨S32768x128, .f32⟩ : BufTy).Contents (Elt F) → (⟨S32768x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S32768x128, .f32⟩) main_call4_v0) (broadcastInDim S32768x128 ![] bcast_S_S32768x128),
    TRef.binary (TRef.of (T := ⟨S32768x128, .f32⟩) main_v51) (TRef.of (T := ⟨S32768x128, .f32⟩) main_call4_v0) (TRef.of (T := ⟨S32768x128, .f32⟩) main_v52) maximumf,
    unary main_arg6 main_v53 ((extractStridedSlice S1x128x512 ![1, 0, 0] · slices_S4x128x512_S1x128x512_1_0_0) : (⟨S4x128x512, .f32⟩ : BufTy).Contents (Elt F) → (⟨S1x128x512, .f32⟩ : BufTy).Contents (Elt F)),
    reshape main_v53 main_v54 rfl shapeCasts_S1x128x512_S128x512,
    binary main_v52 main_v54 main_v55 ((fun l r => Host.dotGeneral dot_S32768x128_S128x512_S32768x512_1_0_0_1_n_n none l r) : (⟨S32768x128, .f32⟩ : BufTy).Contents (Elt F) → (⟨S128x512, .f32⟩ : BufTy).Contents (Elt F) → (⟨S32768x512, .f32⟩ : BufTy).Contents (Elt F)),
    unary main_arg7 main_v56 ((extractStridedSlice S1x512 ![1, 0] · slices_S4x512_S1x512_1_0) : (⟨S4x512, .f32⟩ : BufTy).Contents (Elt F) → (⟨S1x512, .f32⟩ : BufTy).Contents (Elt F)),
    reshape main_v56 main_v57 rfl shapeCasts_S1x512_S512,
    unary main_v57 main_v58 (broadcastInDim S1x512 ![1] bcast_S512_S1x512_1 : (⟨S512, .f32⟩ : BufTy).Contents (Elt F) → (⟨S1x512, .f32⟩ : BufTy).Contents (Elt F)),
    unary main_v58 main_v59 (broadcastInDim S32768x512 ![0, 1] bcast_S1x512_S32768x512_0_1 : (⟨S1x512, .f32⟩ : BufTy).Contents (Elt F) → (⟨S32768x512, .f32⟩ : BufTy).Contents (Elt F)) ]

private theorem opsB1_sub : (opsB1 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub ..⟩
private theorem opsB1_fresh : (opsB1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers these operations write. -/
private abbrev opsB1_W : List (Ref sig .tc) := [main_v35, main_v36, main_v37, main_v38, main_v39, main_v40, main_v41, main_v42, main_call3_cst, main_call3_v0, main_v43, main_v44, main_v45, main_v46, main_v47, main_v48, main_v49, main_v50, main_v51, main_call4_cst, main_call4_v0, main_v52, main_v53, main_v54, main_v55, main_v56, main_v57, main_v58, main_v59]
private theorem opsB1_writes : (opsB1 : List (HloOp τ sig (Elt F))).Forall fun op => op.writes ⊆ (opsB1_W.map (Proc.devRef (τ := τ) .tc)).toFinset := by
  unfold opsB1; simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer these operations do not write keeps its contents through them. -/
private theorem opsB1_keep (V : Valuation τ sig (Elt F)) (r : Ref sig .tc) (h : r ∉ opsB1_W) :
    after opsB1 V (Proc.devRef .tc r) = V (Proc.devRef .tc r) :=
  after_of_writes_sub opsB1 V opsB1_writes h

set_option maxRecDepth 8192 in
/-- What these operations leave at `main_v55`, from contents holding the stage values they read. -/
private theorem opsB1_main_v55 (V : Valuation τ sig (Elt F)) (x0 : (⟨S32768x1024, .f32⟩ : BufTy).Contents (Elt F)) (x2 : (⟨S4x1024x512, .f32⟩ : BufTy).Contents (Elt F)) (x3 : (⟨S4x512, .f32⟩ : BufTy).Contents (Elt F)) (x4 : (⟨S4x512x128, .f32⟩ : BufTy).Contents (Elt F)) (x5 : (⟨S4x128, .f32⟩ : BufTy).Contents (Elt F)) (x6 : (⟨S4x128x512, .f32⟩ : BufTy).Contents (Elt F))
    (h0 : V (Proc.devRef .tc main_arg0) = x0) (h2 : V (Proc.devRef .tc main_arg2) = x2) (h3 : V (Proc.devRef .tc main_arg3) = x3) (h4 : V (Proc.devRef .tc main_arg4) = x4) (h5 : V (Proc.devRef .tc main_arg5) = x5) (h6 : V (Proc.devRef .tc main_arg6) = x6) :
    after opsB1 V (Proc.devRef .tc main_v55) = RefRead.val_main_v55 (F := F) x0 x2 x3 x4 x5 x6 := by
  unfold opsB1
  after_results_simp
  simp only [h0, h2, h3, h4, h5, h6]
  rfl

set_option maxRecDepth 8192 in
/-- What these operations leave at `main_v59`, from contents holding the stage values they read. -/
private theorem opsB1_main_v59 (V : Valuation τ sig (Elt F)) (x7 : (⟨S4x512, .f32⟩ : BufTy).Contents (Elt F))
    (h7 : V (Proc.devRef .tc main_arg7) = x7) :
    after opsB1 V (Proc.devRef .tc main_v59) = RefRead.val_main_v59 (F := F) x7 := by
  unfold opsB1
  after_results_simp
  simp only [h7]
  rfl

/-- Operations 71 … 82 of the program, in order. -/
private def opsB2 : List (HloOp τ sig (Elt F)) :=
  [ binary main_v55 main_v59 main_v60 (addf : (⟨S32768x512, .f32⟩ : BufTy).Contents (Elt F) → (⟨S32768x512, .f32⟩ : BufTy).Contents (Elt F) → (⟨S32768x512, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S32768x512, .f32⟩) main_call5_v0) (broadcastInDim S32768x512 ![] bcast_S_S32768x512),
    TRef.binary (TRef.of (T := ⟨S32768x512, .f32⟩) main_v60) (TRef.of (T := ⟨S32768x512, .f32⟩) main_call5_v0) (TRef.of (T := ⟨S32768x512, .f32⟩) main_v61) maximumf,
    unary main_arg8 main_v62 ((extractStridedSlice S1x512x1024 ![1, 0, 0] · slices_S4x512x1024_S1x512x1024_1_0_0) : (⟨S4x512x1024, .f32⟩ : BufTy).Contents (Elt F) → (⟨S1x512x1024, .f32⟩ : BufTy).Contents (Elt F)),
    reshape main_v62 main_v63 rfl shapeCasts_S1x512x1024_S512x1024,
    binary main_v61 main_v63 main_v64 ((fun l r => Host.dotGeneral dot_S32768x512_S512x1024_S32768x1024_1_0_0_1_n_n none l r) : (⟨S32768x512, .f32⟩ : BufTy).Contents (Elt F) → (⟨S512x1024, .f32⟩ : BufTy).Contents (Elt F) → (⟨S32768x1024, .f32⟩ : BufTy).Contents (Elt F)),
    unary main_arg9 main_v65 ((extractStridedSlice S1x1024 ![1, 0] · slices_S4x1024_S1x1024_1_0) : (⟨S4x1024, .f32⟩ : BufTy).Contents (Elt F) → (⟨S1x1024, .f32⟩ : BufTy).Contents (Elt F)),
    reshape main_v65 main_v66 rfl shapeCasts_S1x1024_S1024,
    unary main_v66 main_v67 (broadcastInDim S1x1024 ![1] bcast_S1024_S1x1024_1 : (⟨S1024, .f32⟩ : BufTy).Contents (Elt F) → (⟨S1x1024, .f32⟩ : BufTy).Contents (Elt F)),
    unary main_v67 main_v68 (broadcastInDim S32768x1024 ![0, 1] bcast_S1x1024_S32768x1024_0_1 : (⟨S1x1024, .f32⟩ : BufTy).Contents (Elt F) → (⟨S32768x1024, .f32⟩ : BufTy).Contents (Elt F)),
    binary main_v64 main_v68 main_v69 (addf : (⟨S32768x1024, .f32⟩ : BufTy).Contents (Elt F) → (⟨S32768x1024, .f32⟩ : BufTy).Contents (Elt F) → (⟨S32768x1024, .f32⟩ : BufTy).Contents (Elt F)) ]

private theorem opsB2_sub : (opsB2 : List (HloOp τ sig (Elt F))).Forall fun op => op.bufs ⊆ tcRefs τ sig :=
  ⟨binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
private theorem opsB2_fresh : (opsB2 : List (HloOp τ sig (Elt F))).Forall fun op => op.fresh = ∅ :=
  ⟨rfl, rfl, rfl, rfl, rfl, rfl, rfl, rfl, rfl, rfl, rfl, rfl⟩
/-- The buffers these operations write. -/
private abbrev opsB2_W : List (Ref sig .tc) := [main_v60, main_call5_cst, main_call5_v0, main_v61, main_v62, main_v63, main_v64, main_v65, main_v66, main_v67, main_v68, main_v69]
private theorem opsB2_writes : (opsB2 : List (HloOp τ sig (Elt F))).Forall fun op => op.writes ⊆ (opsB2_W.map (Proc.devRef (τ := τ) .tc)).toFinset := by
  unfold opsB2; simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer these operations do not write keeps its contents through them. -/
private theorem opsB2_keep (V : Valuation τ sig (Elt F)) (r : Ref sig .tc) (h : r ∉ opsB2_W) :
    after opsB2 V (Proc.devRef .tc r) = V (Proc.devRef .tc r) :=
  after_of_writes_sub opsB2 V opsB2_writes h

set_option maxRecDepth 8192 in
/-- What these operations leave at `main_v69`, from contents holding the stage values they read. -/
private theorem opsB2_main_v69 (V : Valuation τ sig (Elt F)) (x0 : (⟨S32768x1024, .f32⟩ : BufTy).Contents (Elt F)) (x2 : (⟨S4x1024x512, .f32⟩ : BufTy).Contents (Elt F)) (x3 : (⟨S4x512, .f32⟩ : BufTy).Contents (Elt F)) (x4 : (⟨S4x512x128, .f32⟩ : BufTy).Contents (Elt F)) (x5 : (⟨S4x128, .f32⟩ : BufTy).Contents (Elt F)) (x6 : (⟨S4x128x512, .f32⟩ : BufTy).Contents (Elt F)) (x7 : (⟨S4x512, .f32⟩ : BufTy).Contents (Elt F)) (x8 : (⟨S4x512x1024, .f32⟩ : BufTy).Contents (Elt F)) (x9 : (⟨S4x1024, .f32⟩ : BufTy).Contents (Elt F))
    (h8 : V (Proc.devRef .tc main_arg8) = x8) (h9 : V (Proc.devRef .tc main_arg9) = x9) (h_v55 : V (Proc.devRef .tc main_v55) = RefRead.val_main_v55 (F := F) x0 x2 x3 x4 x5 x6) (h_v59 : V (Proc.devRef .tc main_v59) = RefRead.val_main_v59 (F := F) x7) :
    after opsB2 V (Proc.devRef .tc main_v69) = RefRead.val_main_v69 (F := F) x0 x2 x3 x4 x5 x6 x7 x8 x9 := by
  unfold opsB2
  after_results_simp
  simp only [h8, h9, h_v55, h_v59]
  rfl

/-- Operations 83 … 123 of the program, in order. -/
private def opsC : List (HloOp τ sig (Elt F)) :=
  [ unary main_arg2 main_v70 ((extractStridedSlice S1x1024x512 ![2, 0, 0] · slices_S4x1024x512_S1x1024x512_2_0_0) : (⟨S4x1024x512, .f32⟩ : BufTy).Contents (Elt F) → (⟨S1x1024x512, .f32⟩ : BufTy).Contents (Elt F)),
    reshape main_v70 main_v71 rfl shapeCasts_S1x1024x512_S1024x512,
    binary main_arg0 main_v71 main_v72 ((fun l r => Host.dotGeneral dot_S32768x1024_S1024x512_S32768x512_1_0_0_1_n_n none l r) : (⟨S32768x1024, .f32⟩ : BufTy).Contents (Elt F) → (⟨S1024x512, .f32⟩ : BufTy).Contents (Elt F) → (⟨S32768x512, .f32⟩ : BufTy).Contents (Elt F)),
    unary main_arg3 main_v73 ((extractStridedSlice S1x512 ![2, 0] · slices_S4x512_S1x512_2_0) : (⟨S4x512, .f32⟩ : BufTy).Contents (Elt F) → (⟨S1x512, .f32⟩ : BufTy).Contents (Elt F)),
    reshape main_v73 main_v74 rfl shapeCasts_S1x512_S512,
    unary main_v74 main_v75 (broadcastInDim S1x512 ![1] bcast_S512_S1x512_1 : (⟨S512, .f32⟩ : BufTy).Contents (Elt F) → (⟨S1x512, .f32⟩ : BufTy).Contents (Elt F)),
    unary main_v75 main_v76 (broadcastInDim S32768x512 ![0, 1] bcast_S1x512_S32768x512_0_1 : (⟨S1x512, .f32⟩ : BufTy).Contents (Elt F) → (⟨S32768x512, .f32⟩ : BufTy).Contents (Elt F)),
    binary main_v72 main_v76 main_v77 (addf : (⟨S32768x512, .f32⟩ : BufTy).Contents (Elt F) → (⟨S32768x512, .f32⟩ : BufTy).Contents (Elt F) → (⟨S32768x512, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S32768x512, .f32⟩) main_call6_v0) (broadcastInDim S32768x512 ![] bcast_S_S32768x512),
    TRef.binary (TRef.of (T := ⟨S32768x512, .f32⟩) main_v77) (TRef.of (T := ⟨S32768x512, .f32⟩) main_call6_v0) (TRef.of (T := ⟨S32768x512, .f32⟩) main_v78) maximumf,
    unary main_arg4 main_v79 ((extractStridedSlice S1x512x128 ![2, 0, 0] · slices_S4x512x128_S1x512x128_2_0_0) : (⟨S4x512x128, .f32⟩ : BufTy).Contents (Elt F) → (⟨S1x512x128, .f32⟩ : BufTy).Contents (Elt F)),
    reshape main_v79 main_v80 rfl shapeCasts_S1x512x128_S512x128,
    binary main_v78 main_v80 main_v81 ((fun l r => Host.dotGeneral dot_S32768x512_S512x128_S32768x128_1_0_0_1_n_n none l r) : (⟨S32768x512, .f32⟩ : BufTy).Contents (Elt F) → (⟨S512x128, .f32⟩ : BufTy).Contents (Elt F) → (⟨S32768x128, .f32⟩ : BufTy).Contents (Elt F)),
    unary main_arg5 main_v82 ((extractStridedSlice S1x128 ![2, 0] · slices_S4x128_S1x128_2_0) : (⟨S4x128, .f32⟩ : BufTy).Contents (Elt F) → (⟨S1x128, .f32⟩ : BufTy).Contents (Elt F)),
    reshape main_v82 main_v83 rfl shapeCasts_S1x128_S128,
    unary main_v83 main_v84 (broadcastInDim S1x128 ![1] bcast_S128_S1x128_1 : (⟨S128, .f32⟩ : BufTy).Contents (Elt F) → (⟨S1x128, .f32⟩ : BufTy).Contents (Elt F)),
    unary main_v84 main_v85 (broadcastInDim S32768x128 ![0, 1] bcast_S1x128_S32768x128_0_1 : (⟨S1x128, .f32⟩ : BufTy).Contents (Elt F) → (⟨S32768x128, .f32⟩ : BufTy).Contents (Elt F)),
    binary main_v81 main_v85 main_v86 (addf : (⟨S32768x128, .f32⟩ : BufTy).Contents (Elt F) → (⟨S32768x128, .f32⟩ : BufTy).Contents (Elt F) → (⟨S32768x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S32768x128, .f32⟩) main_call7_v0) (broadcastInDim S32768x128 ![] bcast_S_S32768x128),
    TRef.binary (TRef.of (T := ⟨S32768x128, .f32⟩) main_v86) (TRef.of (T := ⟨S32768x128, .f32⟩) main_call7_v0) (TRef.of (T := ⟨S32768x128, .f32⟩) main_v87) maximumf,
    unary main_arg6 main_v88 ((extractStridedSlice S1x128x512 ![2, 0, 0] · slices_S4x128x512_S1x128x512_2_0_0) : (⟨S4x128x512, .f32⟩ : BufTy).Contents (Elt F) → (⟨S1x128x512, .f32⟩ : BufTy).Contents (Elt F)),
    reshape main_v88 main_v89 rfl shapeCasts_S1x128x512_S128x512,
    binary main_v87 main_v89 main_v90 ((fun l r => Host.dotGeneral dot_S32768x128_S128x512_S32768x512_1_0_0_1_n_n none l r) : (⟨S32768x128, .f32⟩ : BufTy).Contents (Elt F) → (⟨S128x512, .f32⟩ : BufTy).Contents (Elt F) → (⟨S32768x512, .f32⟩ : BufTy).Contents (Elt F)),
    unary main_arg7 main_v91 ((extractStridedSlice S1x512 ![2, 0] · slices_S4x512_S1x512_2_0) : (⟨S4x512, .f32⟩ : BufTy).Contents (Elt F) → (⟨S1x512, .f32⟩ : BufTy).Contents (Elt F)),
    reshape main_v91 main_v92 rfl shapeCasts_S1x512_S512,
    unary main_v92 main_v93 (broadcastInDim S1x512 ![1] bcast_S512_S1x512_1 : (⟨S512, .f32⟩ : BufTy).Contents (Elt F) → (⟨S1x512, .f32⟩ : BufTy).Contents (Elt F)),
    unary main_v93 main_v94 (broadcastInDim S32768x512 ![0, 1] bcast_S1x512_S32768x512_0_1 : (⟨S1x512, .f32⟩ : BufTy).Contents (Elt F) → (⟨S32768x512, .f32⟩ : BufTy).Contents (Elt F)),
    binary main_v90 main_v94 main_v95 (addf : (⟨S32768x512, .f32⟩ : BufTy).Contents (Elt F) → (⟨S32768x512, .f32⟩ : BufTy).Contents (Elt F) → (⟨S32768x512, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S32768x512, .f32⟩) main_call8_v0) (broadcastInDim S32768x512 ![] bcast_S_S32768x512),
    TRef.binary (TRef.of (T := ⟨S32768x512, .f32⟩) main_v95) (TRef.of (T := ⟨S32768x512, .f32⟩) main_call8_v0) (TRef.of (T := ⟨S32768x512, .f32⟩) main_v96) maximumf,
    unary main_arg8 main_v97 ((extractStridedSlice S1x512x1024 ![2, 0, 0] · slices_S4x512x1024_S1x512x1024_2_0_0) : (⟨S4x512x1024, .f32⟩ : BufTy).Contents (Elt F) → (⟨S1x512x1024, .f32⟩ : BufTy).Contents (Elt F)),
    reshape main_v97 main_v98 rfl shapeCasts_S1x512x1024_S512x1024,
    binary main_v96 main_v98 main_v99 ((fun l r => Host.dotGeneral dot_S32768x512_S512x1024_S32768x1024_1_0_0_1_n_n none l r) : (⟨S32768x512, .f32⟩ : BufTy).Contents (Elt F) → (⟨S512x1024, .f32⟩ : BufTy).Contents (Elt F) → (⟨S32768x1024, .f32⟩ : BufTy).Contents (Elt F)),
    unary main_arg9 main_v100 ((extractStridedSlice S1x1024 ![2, 0] · slices_S4x1024_S1x1024_2_0) : (⟨S4x1024, .f32⟩ : BufTy).Contents (Elt F) → (⟨S1x1024, .f32⟩ : BufTy).Contents (Elt F)),
    reshape main_v100 main_v101 rfl shapeCasts_S1x1024_S1024,
    unary main_v101 main_v102 (broadcastInDim S1x1024 ![1] bcast_S1024_S1x1024_1 : (⟨S1024, .f32⟩ : BufTy).Contents (Elt F) → (⟨S1x1024, .f32⟩ : BufTy).Contents (Elt F)),
    unary main_v102 main_v103 (broadcastInDim S32768x1024 ![0, 1] bcast_S1x1024_S32768x1024_0_1 : (⟨S1x1024, .f32⟩ : BufTy).Contents (Elt F) → (⟨S32768x1024, .f32⟩ : BufTy).Contents (Elt F)),
    binary main_v99 main_v103 main_v104 (addf : (⟨S32768x1024, .f32⟩ : BufTy).Contents (Elt F) → (⟨S32768x1024, .f32⟩ : BufTy).Contents (Elt F) → (⟨S32768x1024, .f32⟩ : BufTy).Contents (Elt F)) ]

private theorem opsC_sub : (opsC : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
private theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers these operations write. -/
private abbrev opsC_W : List (Ref sig .tc) := [main_v70, main_v71, main_v72, main_v73, main_v74, main_v75, main_v76, main_v77, main_call6_cst, main_call6_v0, main_v78, main_v79, main_v80, main_v81, main_v82, main_v83, main_v84, main_v85, main_v86, main_call7_cst, main_call7_v0, main_v87, main_v88, main_v89, main_v90, main_v91, main_v92, main_v93, main_v94, main_v95, main_call8_cst, main_call8_v0, main_v96, main_v97, main_v98, main_v99, main_v100, main_v101, main_v102, main_v103, main_v104]
private theorem opsC_writes : (opsC : List (HloOp τ sig (Elt F))).Forall fun op => op.writes ⊆ (opsC_W.map (Proc.devRef (τ := τ) .tc)).toFinset := by
  unfold opsC; simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer these operations do not write keeps its contents through them. -/
private theorem opsC_keep (V : Valuation τ sig (Elt F)) (r : Ref sig .tc) (h : r ∉ opsC_W) :
    after opsC V (Proc.devRef .tc r) = V (Proc.devRef .tc r) :=
  after_of_writes_sub opsC V opsC_writes h

set_option maxRecDepth 8192 in
/-- What these operations leave at `main_v104`, from contents holding the stage values they read. -/
private theorem opsC_main_v104 (V : Valuation τ sig (Elt F)) (x0 : (⟨S32768x1024, .f32⟩ : BufTy).Contents (Elt F)) (x2 : (⟨S4x1024x512, .f32⟩ : BufTy).Contents (Elt F)) (x3 : (⟨S4x512, .f32⟩ : BufTy).Contents (Elt F)) (x4 : (⟨S4x512x128, .f32⟩ : BufTy).Contents (Elt F)) (x5 : (⟨S4x128, .f32⟩ : BufTy).Contents (Elt F)) (x6 : (⟨S4x128x512, .f32⟩ : BufTy).Contents (Elt F)) (x7 : (⟨S4x512, .f32⟩ : BufTy).Contents (Elt F)) (x8 : (⟨S4x512x1024, .f32⟩ : BufTy).Contents (Elt F)) (x9 : (⟨S4x1024, .f32⟩ : BufTy).Contents (Elt F))
    (h0 : V (Proc.devRef .tc main_arg0) = x0) (h2 : V (Proc.devRef .tc main_arg2) = x2) (h3 : V (Proc.devRef .tc main_arg3) = x3) (h4 : V (Proc.devRef .tc main_arg4) = x4) (h5 : V (Proc.devRef .tc main_arg5) = x5) (h6 : V (Proc.devRef .tc main_arg6) = x6) (h7 : V (Proc.devRef .tc main_arg7) = x7) (h8 : V (Proc.devRef .tc main_arg8) = x8) (h9 : V (Proc.devRef .tc main_arg9) = x9) :
    after opsC V (Proc.devRef .tc main_v104) = RefRead.val_main_v104 (F := F) x0 x2 x3 x4 x5 x6 x7 x8 x9 := by
  unfold opsC
  after_results_simp
  simp only [h0, h2, h3, h4, h5, h6, h7, h8, h9]
  rfl

/-- Operations 124 … 140 of the program, in order. -/
private def opsD1 : List (HloOp τ sig (Elt F)) :=
  [ unary main_arg2 main_v105 ((extractStridedSlice S1x1024x512 ![3, 0, 0] · slices_S4x1024x512_S1x1024x512_3_0_0) : (⟨S4x1024x512, .f32⟩ : BufTy).Contents (Elt F) → (⟨S1x1024x512, .f32⟩ : BufTy).Contents (Elt F)),
    reshape main_v105 main_v106 rfl shapeCasts_S1x1024x512_S1024x512,
    binary main_arg0 main_v106 main_v107 ((fun l r => Host.dotGeneral dot_S32768x1024_S1024x512_S32768x512_1_0_0_1_n_n none l r) : (⟨S32768x1024, .f32⟩ : BufTy).Contents (Elt F) → (⟨S1024x512, .f32⟩ : BufTy).Contents (Elt F) → (⟨S32768x512, .f32⟩ : BufTy).Contents (Elt F)),
    unary main_arg3 main_v108 ((extractStridedSlice S1x512 ![3, 0] · slices_S4x512_S1x512_3_0) : (⟨S4x512, .f32⟩ : BufTy).Contents (Elt F) → (⟨S1x512, .f32⟩ : BufTy).Contents (Elt F)),
    reshape main_v108 main_v109 rfl shapeCasts_S1x512_S512,
    unary main_v109 main_v110 (broadcastInDim S1x512 ![1] bcast_S512_S1x512_1 : (⟨S512, .f32⟩ : BufTy).Contents (Elt F) → (⟨S1x512, .f32⟩ : BufTy).Contents (Elt F)),
    unary main_v110 main_v111 (broadcastInDim S32768x512 ![0, 1] bcast_S1x512_S32768x512_0_1 : (⟨S1x512, .f32⟩ : BufTy).Contents (Elt F) → (⟨S32768x512, .f32⟩ : BufTy).Contents (Elt F)),
    binary main_v107 main_v111 main_v112 (addf : (⟨S32768x512, .f32⟩ : BufTy).Contents (Elt F) → (⟨S32768x512, .f32⟩ : BufTy).Contents (Elt F) → (⟨S32768x512, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S32768x512, .f32⟩) main_call9_v0) (broadcastInDim S32768x512 ![] bcast_S_S32768x512),
    TRef.binary (TRef.of (T := ⟨S32768x512, .f32⟩) main_v112) (TRef.of (T := ⟨S32768x512, .f32⟩) main_call9_v0) (TRef.of (T := ⟨S32768x512, .f32⟩) main_v113) maximumf,
    unary main_arg4 main_v114 ((extractStridedSlice S1x512x128 ![3, 0, 0] · slices_S4x512x128_S1x512x128_3_0_0) : (⟨S4x512x128, .f32⟩ : BufTy).Contents (Elt F) → (⟨S1x512x128, .f32⟩ : BufTy).Contents (Elt F)),
    reshape main_v114 main_v115 rfl shapeCasts_S1x512x128_S512x128,
    binary main_v113 main_v115 main_v116 ((fun l r => Host.dotGeneral dot_S32768x512_S512x128_S32768x128_1_0_0_1_n_n none l r) : (⟨S32768x512, .f32⟩ : BufTy).Contents (Elt F) → (⟨S512x128, .f32⟩ : BufTy).Contents (Elt F) → (⟨S32768x128, .f32⟩ : BufTy).Contents (Elt F)),
    unary main_arg5 main_v117 ((extractStridedSlice S1x128 ![3, 0] · slices_S4x128_S1x128_3_0) : (⟨S4x128, .f32⟩ : BufTy).Contents (Elt F) → (⟨S1x128, .f32⟩ : BufTy).Contents (Elt F)),
    reshape main_v117 main_v118 rfl shapeCasts_S1x128_S128,
    unary main_v118 main_v119 (broadcastInDim S1x128 ![1] bcast_S128_S1x128_1 : (⟨S128, .f32⟩ : BufTy).Contents (Elt F) → (⟨S1x128, .f32⟩ : BufTy).Contents (Elt F)) ]

private theorem opsD1_sub : (opsD1 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub ..⟩
private theorem opsD1_fresh : (opsD1 : List (HloOp τ sig (Elt F))).Forall fun op => op.fresh = ∅ :=
  ⟨rfl, rfl, rfl, rfl, rfl, rfl, rfl, rfl, rfl, rfl, rfl, rfl, rfl, rfl, rfl, rfl, rfl⟩
/-- The buffers these operations write. -/
private abbrev opsD1_W : List (Ref sig .tc) := [main_v105, main_v106, main_v107, main_v108, main_v109, main_v110, main_v111, main_v112, main_call9_cst, main_call9_v0, main_v113, main_v114, main_v115, main_v116, main_v117, main_v118, main_v119]
private theorem opsD1_writes : (opsD1 : List (HloOp τ sig (Elt F))).Forall fun op => op.writes ⊆ (opsD1_W.map (Proc.devRef (τ := τ) .tc)).toFinset := by
  unfold opsD1; simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer these operations do not write keeps its contents through them. -/
private theorem opsD1_keep (V : Valuation τ sig (Elt F)) (r : Ref sig .tc) (h : r ∉ opsD1_W) :
    after opsD1 V (Proc.devRef .tc r) = V (Proc.devRef .tc r) :=
  after_of_writes_sub opsD1 V opsD1_writes h

set_option maxRecDepth 8192 in
/-- What these operations leave at `main_v116`, from contents holding the stage values they read. -/
private theorem opsD1_main_v116 (V : Valuation τ sig (Elt F)) (x0 : (⟨S32768x1024, .f32⟩ : BufTy).Contents (Elt F)) (x2 : (⟨S4x1024x512, .f32⟩ : BufTy).Contents (Elt F)) (x3 : (⟨S4x512, .f32⟩ : BufTy).Contents (Elt F)) (x4 : (⟨S4x512x128, .f32⟩ : BufTy).Contents (Elt F))
    (h0 : V (Proc.devRef .tc main_arg0) = x0) (h2 : V (Proc.devRef .tc main_arg2) = x2) (h3 : V (Proc.devRef .tc main_arg3) = x3) (h4 : V (Proc.devRef .tc main_arg4) = x4) :
    after opsD1 V (Proc.devRef .tc main_v116) = RefRead.val_main_v116 (F := F) x0 x2 x3 x4 := by
  unfold opsD1
  after_results_simp
  simp only [h0, h2, h3, h4]
  rfl

set_option maxRecDepth 8192 in
/-- What these operations leave at `main_v119`, from contents holding the stage values they read. -/
private theorem opsD1_main_v119 (V : Valuation τ sig (Elt F)) (x5 : (⟨S4x128, .f32⟩ : BufTy).Contents (Elt F))
    (h5 : V (Proc.devRef .tc main_arg5) = x5) :
    after opsD1 V (Proc.devRef .tc main_v119) = RefRead.val_main_v119 (F := F) x5 := by
  unfold opsD1
  after_results_simp
  simp only [h5]
  rfl

/-- Operations 141 … 164 of the program, in order. -/
private def opsD2 : List (HloOp τ sig (Elt F)) :=
  [ unary main_v119 main_v120 (broadcastInDim S32768x128 ![0, 1] bcast_S1x128_S32768x128_0_1 : (⟨S1x128, .f32⟩ : BufTy).Contents (Elt F) → (⟨S32768x128, .f32⟩ : BufTy).Contents (Elt F)),
    binary main_v116 main_v120 main_v121 (addf : (⟨S32768x128, .f32⟩ : BufTy).Contents (Elt F) → (⟨S32768x128, .f32⟩ : BufTy).Contents (Elt F) → (⟨S32768x128, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S32768x128, .f32⟩) main_call10_v0) (broadcastInDim S32768x128 ![] bcast_S_S32768x128),
    TRef.binary (TRef.of (T := ⟨S32768x128, .f32⟩) main_v121) (TRef.of (T := ⟨S32768x128, .f32⟩) main_call10_v0) (TRef.of (T := ⟨S32768x128, .f32⟩) main_v122) maximumf,
    unary main_arg6 main_v123 ((extractStridedSlice S1x128x512 ![3, 0, 0] · slices_S4x128x512_S1x128x512_3_0_0) : (⟨S4x128x512, .f32⟩ : BufTy).Contents (Elt F) → (⟨S1x128x512, .f32⟩ : BufTy).Contents (Elt F)),
    reshape main_v123 main_v124 rfl shapeCasts_S1x128x512_S128x512,
    binary main_v122 main_v124 main_v125 ((fun l r => Host.dotGeneral dot_S32768x128_S128x512_S32768x512_1_0_0_1_n_n none l r) : (⟨S32768x128, .f32⟩ : BufTy).Contents (Elt F) → (⟨S128x512, .f32⟩ : BufTy).Contents (Elt F) → (⟨S32768x512, .f32⟩ : BufTy).Contents (Elt F)),
    unary main_arg7 main_v126 ((extractStridedSlice S1x512 ![3, 0] · slices_S4x512_S1x512_3_0) : (⟨S4x512, .f32⟩ : BufTy).Contents (Elt F) → (⟨S1x512, .f32⟩ : BufTy).Contents (Elt F)),
    reshape main_v126 main_v127 rfl shapeCasts_S1x512_S512,
    unary main_v127 main_v128 (broadcastInDim S1x512 ![1] bcast_S512_S1x512_1 : (⟨S512, .f32⟩ : BufTy).Contents (Elt F) → (⟨S1x512, .f32⟩ : BufTy).Contents (Elt F)),
    unary main_v128 main_v129 (broadcastInDim S32768x512 ![0, 1] bcast_S1x512_S32768x512_0_1 : (⟨S1x512, .f32⟩ : BufTy).Contents (Elt F) → (⟨S32768x512, .f32⟩ : BufTy).Contents (Elt F)),
    binary main_v125 main_v129 main_v130 (addf : (⟨S32768x512, .f32⟩ : BufTy).Contents (Elt F) → (⟨S32768x512, .f32⟩ : BufTy).Contents (Elt F) → (⟨S32768x512, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S32768x512, .f32⟩) main_call11_v0) (broadcastInDim S32768x512 ![] bcast_S_S32768x512),
    TRef.binary (TRef.of (T := ⟨S32768x512, .f32⟩) main_v130) (TRef.of (T := ⟨S32768x512, .f32⟩) main_call11_v0) (TRef.of (T := ⟨S32768x512, .f32⟩) main_v131) maximumf,
    unary main_arg8 main_v132 ((extractStridedSlice S1x512x1024 ![3, 0, 0] · slices_S4x512x1024_S1x512x1024_3_0_0) : (⟨S4x512x1024, .f32⟩ : BufTy).Contents (Elt F) → (⟨S1x512x1024, .f32⟩ : BufTy).Contents (Elt F)),
    reshape main_v132 main_v133 rfl shapeCasts_S1x512x1024_S512x1024,
    binary main_v131 main_v133 main_v134 ((fun l r => Host.dotGeneral dot_S32768x512_S512x1024_S32768x1024_1_0_0_1_n_n none l r) : (⟨S32768x512, .f32⟩ : BufTy).Contents (Elt F) → (⟨S512x1024, .f32⟩ : BufTy).Contents (Elt F) → (⟨S32768x1024, .f32⟩ : BufTy).Contents (Elt F)),
    unary main_arg9 main_v135 ((extractStridedSlice S1x1024 ![3, 0] · slices_S4x1024_S1x1024_3_0) : (⟨S4x1024, .f32⟩ : BufTy).Contents (Elt F) → (⟨S1x1024, .f32⟩ : BufTy).Contents (Elt F)),
    reshape main_v135 main_v136 rfl shapeCasts_S1x1024_S1024,
    unary main_v136 main_v137 (broadcastInDim S1x1024 ![1] bcast_S1024_S1x1024_1 : (⟨S1024, .f32⟩ : BufTy).Contents (Elt F) → (⟨S1x1024, .f32⟩ : BufTy).Contents (Elt F)),
    unary main_v137 main_v138 (broadcastInDim S32768x1024 ![0, 1] bcast_S1x1024_S32768x1024_0_1 : (⟨S1x1024, .f32⟩ : BufTy).Contents (Elt F) → (⟨S32768x1024, .f32⟩ : BufTy).Contents (Elt F)),
    binary main_v134 main_v138 main_v139 (addf : (⟨S32768x1024, .f32⟩ : BufTy).Contents (Elt F) → (⟨S32768x1024, .f32⟩ : BufTy).Contents (Elt F) → (⟨S32768x1024, .f32⟩ : BufTy).Contents (Elt F)) ]

private theorem opsD2_sub : (opsD2 : List (HloOp τ sig (Elt F))).Forall fun op => op.bufs ⊆ tcRefs τ sig :=
  ⟨unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
private theorem opsD2_fresh : (opsD2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
/-- The buffers these operations write. -/
private abbrev opsD2_W : List (Ref sig .tc) := [main_v120, main_v121, main_call10_cst, main_call10_v0, main_v122, main_v123, main_v124, main_v125, main_v126, main_v127, main_v128, main_v129, main_v130, main_call11_cst, main_call11_v0, main_v131, main_v132, main_v133, main_v134, main_v135, main_v136, main_v137, main_v138, main_v139]
private theorem opsD2_writes : (opsD2 : List (HloOp τ sig (Elt F))).Forall fun op => op.writes ⊆ (opsD2_W.map (Proc.devRef (τ := τ) .tc)).toFinset := by
  unfold opsD2; simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer these operations do not write keeps its contents through them. -/
private theorem opsD2_keep (V : Valuation τ sig (Elt F)) (r : Ref sig .tc) (h : r ∉ opsD2_W) :
    after opsD2 V (Proc.devRef .tc r) = V (Proc.devRef .tc r) :=
  after_of_writes_sub opsD2 V opsD2_writes h

set_option maxRecDepth 8192 in
/-- What these operations leave at `main_v139`, from contents holding the stage values they read. -/
private theorem opsD2_main_v139 (V : Valuation τ sig (Elt F)) (x0 : (⟨S32768x1024, .f32⟩ : BufTy).Contents (Elt F)) (x2 : (⟨S4x1024x512, .f32⟩ : BufTy).Contents (Elt F)) (x3 : (⟨S4x512, .f32⟩ : BufTy).Contents (Elt F)) (x4 : (⟨S4x512x128, .f32⟩ : BufTy).Contents (Elt F)) (x5 : (⟨S4x128, .f32⟩ : BufTy).Contents (Elt F)) (x6 : (⟨S4x128x512, .f32⟩ : BufTy).Contents (Elt F)) (x7 : (⟨S4x512, .f32⟩ : BufTy).Contents (Elt F)) (x8 : (⟨S4x512x1024, .f32⟩ : BufTy).Contents (Elt F)) (x9 : (⟨S4x1024, .f32⟩ : BufTy).Contents (Elt F))
    (h6 : V (Proc.devRef .tc main_arg6) = x6) (h7 : V (Proc.devRef .tc main_arg7) = x7) (h8 : V (Proc.devRef .tc main_arg8) = x8) (h9 : V (Proc.devRef .tc main_arg9) = x9) (h_v116 : V (Proc.devRef .tc main_v116) = RefRead.val_main_v116 (F := F) x0 x2 x3 x4) (h_v119 : V (Proc.devRef .tc main_v119) = RefRead.val_main_v119 (F := F) x5) :
    after opsD2 V (Proc.devRef .tc main_v139) = RefRead.val_main_v139 (F := F) x0 x2 x3 x4 x5 x6 x7 x8 x9 := by
  unfold opsD2
  after_results_simp
  simp only [h6, h7, h8, h9, h_v116, h_v119]
  rfl

/-- Operations 165 … 169 of the program, in order. -/
private def opsE1 : List (HloOp τ sig (Elt F)) :=
  [ unary main_v34 main_v140 (broadcastInDim S1x32768x1024 ![1, 2] bcast_S32768x1024_S1x32768x1024_1_2 : (⟨S32768x1024, .f32⟩ : BufTy).Contents (Elt F) → (⟨S1x32768x1024, .f32⟩ : BufTy).Contents (Elt F)),
    unary main_v69 main_v141 (broadcastInDim S1x32768x1024 ![1, 2] bcast_S32768x1024_S1x32768x1024_1_2 : (⟨S32768x1024, .f32⟩ : BufTy).Contents (Elt F) → (⟨S1x32768x1024, .f32⟩ : BufTy).Contents (Elt F)),
    unary main_v104 main_v142 (broadcastInDim S1x32768x1024 ![1, 2] bcast_S32768x1024_S1x32768x1024_1_2 : (⟨S32768x1024, .f32⟩ : BufTy).Contents (Elt F) → (⟨S1x32768x1024, .f32⟩ : BufTy).Contents (Elt F)),
    unary main_v139 main_v143 (broadcastInDim S1x32768x1024 ![1, 2] bcast_S32768x1024_S1x32768x1024_1_2 : (⟨S32768x1024, .f32⟩ : BufTy).Contents (Elt F) → (⟨S1x32768x1024, .f32⟩ : BufTy).Contents (Elt F)),
    nary ![main_v140, main_v141, main_v142, main_v143] main_v144 (fun u => concatenate S4x32768x1024 0 [⟨S1x32768x1024, u 0⟩, ⟨S1x32768x1024, u 1⟩, ⟨S1x32768x1024, u 2⟩, ⟨S1x32768x1024, u 3⟩] concatenates_S1x32768x1024_S1x32768x1024_S1x32768x1024_S1x32768x1024_S4x32768x1024_d0) ]

private theorem opsE1_sub : (opsE1 : List (HloOp τ sig (Elt F))).Forall fun op => op.bufs ⊆ tcRefs τ sig :=
  ⟨unary_bufs_sub .., unary_bufs_sub .., unary_bufs_sub .., unary_bufs_sub .., nary_bufs_sub ..⟩
private theorem opsE1_fresh : (opsE1 : List (HloOp τ sig (Elt F))).Forall fun op => op.fresh = ∅ :=
  ⟨rfl, rfl, rfl, rfl, rfl⟩
/-- The buffers these operations write. -/
private abbrev opsE1_W : List (Ref sig .tc) := [main_v140, main_v141, main_v142, main_v143, main_v144]
private theorem opsE1_writes : (opsE1 : List (HloOp τ sig (Elt F))).Forall fun op => op.writes ⊆ (opsE1_W.map (Proc.devRef (τ := τ) .tc)).toFinset := by
  unfold opsE1; simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer these operations do not write keeps its contents through them. -/
private theorem opsE1_keep (V : Valuation τ sig (Elt F)) (r : Ref sig .tc) (h : r ∉ opsE1_W) :
    after opsE1 V (Proc.devRef .tc r) = V (Proc.devRef .tc r) :=
  after_of_writes_sub opsE1 V opsE1_writes h

set_option maxRecDepth 8192 in
/-- What these operations leave at `main_v144`, from contents holding the stage values they read. -/
private theorem opsE1_main_v144 (V : Valuation τ sig (Elt F)) (x0 : (⟨S32768x1024, .f32⟩ : BufTy).Contents (Elt F)) (x2 : (⟨S4x1024x512, .f32⟩ : BufTy).Contents (Elt F)) (x3 : (⟨S4x512, .f32⟩ : BufTy).Contents (Elt F)) (x4 : (⟨S4x512x128, .f32⟩ : BufTy).Contents (Elt F)) (x5 : (⟨S4x128, .f32⟩ : BufTy).Contents (Elt F)) (x6 : (⟨S4x128x512, .f32⟩ : BufTy).Contents (Elt F)) (x7 : (⟨S4x512, .f32⟩ : BufTy).Contents (Elt F)) (x8 : (⟨S4x512x1024, .f32⟩ : BufTy).Contents (Elt F)) (x9 : (⟨S4x1024, .f32⟩ : BufTy).Contents (Elt F))
    (h_v34 : V (Proc.devRef .tc main_v34) = RefRead.val_main_v34 (F := F) x0 x2 x3 x4 x5 x6 x7 x8 x9) (h_v69 : V (Proc.devRef .tc main_v69) = RefRead.val_main_v69 (F := F) x0 x2 x3 x4 x5 x6 x7 x8 x9) (h_v104 : V (Proc.devRef .tc main_v104) = RefRead.val_main_v104 (F := F) x0 x2 x3 x4 x5 x6 x7 x8 x9) (h_v139 : V (Proc.devRef .tc main_v139) = RefRead.val_main_v139 (F := F) x0 x2 x3 x4 x5 x6 x7 x8 x9) :
    after opsE1 V (Proc.devRef .tc main_v144) = RefRead.val_main_v144 (F := F) x0 x2 x3 x4 x5 x6 x7 x8 x9 := by
  unfold opsE1
  simp only [after_cons, after_nil]
  rw [nary4_result]
  repeat (first | rw [unary_result] | (rw [unary_result_ne]; rotate_left; decide))
  rw [h_v34, h_v69, h_v104, h_v139]
  rfl

/-- Operations 170 … 193 of the program, in order. -/
private def opsE2 : List (HloOp τ sig (Elt F)) :=
  [ unary main_arg1 main_v145 (broadcastInDim S1x32768x1 ![1] bcast_S32768_S1x32768x1_1 : (⟨S32768, .i32⟩ : BufTy).Contents (Elt F) → (⟨S1x32768x1, .i32⟩ : BufTy).Contents (Elt F)),
    TRef.nullary (TRef.of (T := ⟨S_, .i32⟩) main_call12_c) (constantI S_ 32 0#32),
    TRef.unary (TRef.of (T := ⟨S_, .i32⟩) main_call12_c) (TRef.of (T := ⟨S1x32768x1, .i32⟩) main_call12_v0) (broadcastInDim S1x32768x1 ![] bcast_S_S1x32768x1),
    TRef.binary (TRef.of (T := ⟨S1x32768x1, .i32⟩) main_v145) (TRef.of (T := ⟨S1x32768x1, .i32⟩) main_call12_v0) (TRef.of (T := ⟨S1x32768x1, .i1⟩) main_call12_v1) (cmpi .slt),
    TRef.nullary (TRef.of (T := ⟨S_, .i32⟩) main_call12_c_0) (constantI S_ 32 4#32),
    TRef.unary (TRef.of (T := ⟨S_, .i32⟩) main_call12_c_0) (TRef.of (T := ⟨S1x32768x1, .i32⟩) main_call12_v2) (broadcastInDim S1x32768x1 ![] bcast_S_S1x32768x1),
    TRef.binary (TRef.of (T := ⟨S1x32768x1, .i32⟩) main_v145) (TRef.of (T := ⟨S1x32768x1, .i32⟩) main_call12_v2) (TRef.of (T := ⟨S1x32768x1, .i32⟩) main_call12_v3) addi,
    TRef.ternary (TRef.of (T := ⟨S1x32768x1, .i1⟩) main_call12_v1) (TRef.of (T := ⟨S1x32768x1, .i32⟩) main_call12_v3) (TRef.of (T := ⟨S1x32768x1, .i32⟩) main_v145) (TRef.of (T := ⟨S1x32768x1, .i32⟩) main_call12_v4) select,
    TRef.nullary (TRef.of (T := ⟨S1, .i32⟩) main_call12_c_1) (constantI S1 32 3#32),
    TRef.nullary (TRef.of (T := ⟨S_, .i32⟩) main_call12_c_2) (constantI S_ 32 0#32),
    TRef.unary (TRef.of (T := ⟨S_, .i32⟩) main_call12_c_2) (TRef.of (T := ⟨S1x32768x1, .i32⟩) main_call12_v5) (broadcastInDim S1x32768x1 ![] bcast_S_S1x32768x1),
    TRef.binary (TRef.of (T := ⟨S1x32768x1, .i32⟩) main_call12_v4) (TRef.of (T := ⟨S1x32768x1, .i32⟩) main_call12_v5) (TRef.of (T := ⟨S1x32768x1, .i1⟩) main_call12_v6) (cmpi .sge),
    TRef.unary (TRef.of (T := ⟨S1, .i32⟩) main_call12_c_1) (TRef.of (T := ⟨S1x1x1, .i32⟩) main_call12_v7) (broadcastInDim S1x1x1 ![2] bcast_S1_S1x1x1_2),
    TRef.unary (TRef.of (T := ⟨S1x1x1, .i32⟩) main_call12_v7) (TRef.of (T := ⟨S1x32768x1, .i32⟩) main_call12_v8) (broadcastInDim S1x32768x1 ![0, 1, 2] bcast_S1x1x1_S1x32768x1_0_1_2),
    TRef.binary (TRef.of (T := ⟨S1x32768x1, .i32⟩) main_call12_v4) (TRef.of (T := ⟨S1x32768x1, .i32⟩) main_call12_v8) (TRef.of (T := ⟨S1x32768x1, .i1⟩) main_call12_v9) (cmpi .sle),
    TRef.binary (TRef.of (T := ⟨S1x32768x1, .i1⟩) main_call12_v6) (TRef.of (T := ⟨S1x32768x1, .i1⟩) main_call12_v9) (TRef.of (T := ⟨S1x32768x1, .i1⟩) main_call12_v10) andi,
    TRef.nullary (TRef.of (T := ⟨S_, .i1⟩) main_call12_c_3) (constantI S_ 1 1#1),
    TRef.binary (TRef.of (T := ⟨S1x32768x1, .i1⟩) main_call12_v10) (TRef.of (T := ⟨S_, .i1⟩) main_call12_c_3) (TRef.of (T := ⟨S1x32768, .i1⟩) main_call12_v11) (fun x v => Host.reduce IntOp.andi x v reducesTo_S1x32768x1_S1x32768_d2 h_S_),
    TRef.binary (TRef.of (T := ⟨S4x32768x1024, .f32⟩) main_v144) (TRef.of (T := ⟨S1x32768x1, .i32⟩) main_call12_v4) (TRef.of (T := ⟨S1x32768x1024, .f32⟩) main_call12_v12) (fun x i => Host.gather gather_S4x32768x1024_S1x32768x1_S1x32768x1024_2_0_1_1_0_2_111024 x i),
    TRef.unary (TRef.of (T := ⟨S1x32768, .i1⟩) main_call12_v11) (TRef.of (T := ⟨S1x32768x1024, .i1⟩) main_call12_v13) (broadcastInDim S1x32768x1024 ![0, 1] bcast_S1x32768_S1x32768x1024_0_1),
    TRef.nullary (TRef.of (T := ⟨S_, .f32⟩) main_call12_cst) (constant S_ .f32 0x7FC00000#32),
    TRef.unary (TRef.of (T := ⟨S_, .f32⟩) main_call12_cst) (TRef.of (T := ⟨S1x32768x1024, .f32⟩) main_call12_v14) (broadcastInDim S1x32768x1024 ![] bcast_S_S1x32768x1024),
    TRef.ternary (TRef.of (T := ⟨S1x32768x1024, .i1⟩) main_call12_v13) (TRef.of (T := ⟨S1x32768x1024, .f32⟩) main_call12_v12) (TRef.of (T := ⟨S1x32768x1024, .f32⟩) main_call12_v14) (TRef.of (T := ⟨S1x32768x1024, .f32⟩) main_v146) select,
    reshape main_v146 main_v147 rfl shapeCasts_S1x32768x1024_S32768x1024 ]

private theorem opsE2_sub : (opsE2 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub ..⟩
private theorem opsE2_fresh : (opsE2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
/-- The buffers these operations write. -/
private abbrev opsE2_W : List (Ref sig .tc) := [main_v145, main_call12_c, main_call12_v0, main_call12_v1, main_call12_c_0, main_call12_v2, main_call12_v3, main_call12_v4, main_call12_c_1, main_call12_c_2, main_call12_v5, main_call12_v6, main_call12_v7, main_call12_v8, main_call12_v9, main_call12_v10, main_call12_c_3, main_call12_v11, main_call12_v12, main_call12_v13, main_call12_cst, main_call12_v14, main_v146, main_v147]
private theorem opsE2_writes : (opsE2 : List (HloOp τ sig (Elt F))).Forall fun op => op.writes ⊆ (opsE2_W.map (Proc.devRef (τ := τ) .tc)).toFinset := by
  unfold opsE2; simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer these operations do not write keeps its contents through them. -/
private theorem opsE2_keep (V : Valuation τ sig (Elt F)) (r : Ref sig .tc) (h : r ∉ opsE2_W) :
    after opsE2 V (Proc.devRef .tc r) = V (Proc.devRef .tc r) :=
  after_of_writes_sub opsE2 V opsE2_writes h

set_option maxRecDepth 8192 in
/-- What these operations leave at `main_v147`, from contents holding the stage values they read. -/
private theorem opsE2_main_v147 (V : Valuation τ sig (Elt F)) (x0 : (⟨S32768x1024, .f32⟩ : BufTy).Contents (Elt F)) (x1 : (⟨S32768, .i32⟩ : BufTy).Contents (Elt F)) (x2 : (⟨S4x1024x512, .f32⟩ : BufTy).Contents (Elt F)) (x3 : (⟨S4x512, .f32⟩ : BufTy).Contents (Elt F)) (x4 : (⟨S4x512x128, .f32⟩ : BufTy).Contents (Elt F)) (x5 : (⟨S4x128, .f32⟩ : BufTy).Contents (Elt F)) (x6 : (⟨S4x128x512, .f32⟩ : BufTy).Contents (Elt F)) (x7 : (⟨S4x512, .f32⟩ : BufTy).Contents (Elt F)) (x8 : (⟨S4x512x1024, .f32⟩ : BufTy).Contents (Elt F)) (x9 : (⟨S4x1024, .f32⟩ : BufTy).Contents (Elt F))
    (h1 : V (Proc.devRef .tc main_arg1) = x1) (h_v144 : V (Proc.devRef .tc main_v144) = RefRead.val_main_v144 (F := F) x0 x2 x3 x4 x5 x6 x7 x8 x9) :
    after opsE2 V (Proc.devRef .tc main_v147) = RefRead.val_main_v147 (F := F) x0 x1 x2 x3 x4 x5 x6 x7 x8 x9 := by
  unfold opsE2
  after_results_simp
  simp only [h1, h_v144]
  simp only [TRef.ofBuf, TRef.toBuf, cast_eq]
  rfl

/-- A line run after another is their concatenation run as one. -/
private theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The operations of @main's first part, `main_part0`; `ops1` and `ops2` are those of `main_part1` and `main_part2`. -/
private def ops0 : List (HloOp τ sig (Elt F)) := opsA ++ (opsB1)
@[inherit_doc ops0] def ops1 : List (HloOp τ sig (Elt F)) := opsB2 ++ (opsC ++ (opsD1))
@[inherit_doc ops0] def ops2 : List (HloOp τ sig (Elt F)) := opsD2 ++ (opsE1 ++ (opsE2))
/-- @main's 193 operations, in order. -/
private def ops : List (HloOp τ sig (Elt F)) := ops0 ++ (ops1 ++ ops2)

set_option maxRecDepth 8192 in
set_option maxHeartbeats 4000000 in
private theorem main_part0_eq (c : Dev nD) : main_part0 (F := F) c = seq ops0 := rfl
set_option maxRecDepth 8192 in
set_option maxHeartbeats 4000000 in
private theorem main_part1_eq (c : Dev nD) : main_part1 (F := F) c = seq ops1 := rfl
set_option maxRecDepth 8192 in
set_option maxHeartbeats 4000000 in
private theorem main_part2_eq (c : Dev nD) : main_part2 (F := F) c = seq ops2 := rfl
private theorem main_eq (c : Dev nD) : main (F := F) c = seq ops := by
  rw [ops, seq_append, seq_append, ← main_part0_eq c, ← main_part1_eq c, ← main_part2_eq c]
  rfl
private theorem scopedRefs_eq : (Finset.univ.filter fun b : Ref sig .tc => b.isScoped) = ∅ := by decide
private theorem scopedSems_eq : (Finset.univ.filter fun sm : SemLoc sig => sm.isScoped .tc) = ∅ := by decide

/-- An operation of the line lies in one of its stretches. -/
private theorem mem_ops {op : HloOp τ sig (Elt F)} (h : op ∈ (ops : List (HloOp τ sig (Elt F)))) :
    op ∈ (opsA : List (HloOp τ sig (Elt F))) ∨ op ∈ (opsB1 : List (HloOp τ sig (Elt F))) ∨ op ∈ (opsB2 : List (HloOp τ sig (Elt F))) ∨ op ∈ (opsC : List (HloOp τ sig (Elt F))) ∨ op ∈ (opsD1 : List (HloOp τ sig (Elt F))) ∨ op ∈ (opsD2 : List (HloOp τ sig (Elt F))) ∨ op ∈ (opsE1 : List (HloOp τ sig (Elt F))) ∨ op ∈ (opsE2 : List (HloOp τ sig (Elt F))) := by
  simp only [ops, ops0, ops1, ops2, List.mem_append] at h
  rcases h with (h | h) | ((h | h | h) | (h | h | h))
  · exact .inl h
  · exact .inr (.inl h)
  · exact .inr (.inr (.inl h))
  · exact .inr (.inr (.inr (.inl h)))
  · exact .inr (.inr (.inr (.inr (.inl h))))
  · exact .inr (.inr (.inr (.inr (.inr (.inl h)))))
  · exact .inr (.inr (.inr (.inr (.inr (.inr (.inl h))))))
  · exact .inr (.inr (.inr (.inr (.inr (.inr (.inr (h)))))))

private theorem ops_sub : (ops : List (HloOp τ sig (Elt F))).Forall fun op => op.bufs ⊆ tcRefs τ sig :=
  List.forall_iff_forall_mem.mpr fun op h => by
    rcases mem_ops h with h | h | h | h | h | h | h | h
    exacts [List.forall_iff_forall_mem.mp opsA_sub op h,
      List.forall_iff_forall_mem.mp opsB1_sub op h,
      List.forall_iff_forall_mem.mp opsB2_sub op h,
      List.forall_iff_forall_mem.mp opsC_sub op h,
      List.forall_iff_forall_mem.mp opsD1_sub op h,
      List.forall_iff_forall_mem.mp opsD2_sub op h,
      List.forall_iff_forall_mem.mp opsE1_sub op h,
      List.forall_iff_forall_mem.mp opsE2_sub op h]

private theorem ops_fresh : ∀ op ∈ (ops : List (HloOp τ sig (Elt F))), op.fresh = ∅ := fun op h => by
  rcases mem_ops h with h | h | h | h | h | h | h | h
  exacts [List.forall_iff_forall_mem.mp opsA_fresh op h,
    List.forall_iff_forall_mem.mp opsB1_fresh op h,
    List.forall_iff_forall_mem.mp opsB2_fresh op h,
    List.forall_iff_forall_mem.mp opsC_fresh op h,
    List.forall_iff_forall_mem.mp opsD1_fresh op h,
    List.forall_iff_forall_mem.mp opsD2_fresh op h,
    List.forall_iff_forall_mem.mp opsE1_fresh op h,
    List.forall_iff_forall_mem.mp opsE2_fresh op h]

/-- The whole line's contents, stretch by stretch. -/
private theorem after_ops (V : Valuation τ sig (Elt F)) : after ops V = after opsE2 (after opsE1 (after opsD2 (after opsD1 (after opsC (after opsB2 (after opsB1 (after opsA V))))))) := by
  simp only [ops, ops0, ops1, ops2, after_app]

/-- A buffer no operation writes keeps its contents through the whole line. -/
private theorem ops_keep (V : Valuation τ sig (Elt F)) (r : Ref sig .tc) (hA : r ∉ opsA_W) (hB1 : r ∉ opsB1_W) (hB2 : r ∉ opsB2_W) (hC : r ∉ opsC_W) (hD1 : r ∉ opsD1_W) (hD2 : r ∉ opsD2_W) (hE1 : r ∉ opsE1_W) (hE2 : r ∉ opsE2_W) :
    after ops V (Proc.devRef .tc r) = V (Proc.devRef .tc r) := by
  rw [after_ops, opsE2_keep _ r hE2, opsE1_keep _ r hE1, opsD2_keep _ r hD2, opsD1_keep _ r hD1, opsC_keep _ r hC, opsB2_keep _ r hB2, opsB1_keep _ r hB1, opsA_keep _ r hA]

/-- The whole line leaves the last stage value at the result buffer. -/
private theorem ops_main_v147 (V : Valuation τ sig (Elt F)) (x0 : (⟨S32768x1024, .f32⟩ : BufTy).Contents (Elt F)) (x1 : (⟨S32768, .i32⟩ : BufTy).Contents (Elt F)) (x2 : (⟨S4x1024x512, .f32⟩ : BufTy).Contents (Elt F)) (x3 : (⟨S4x512, .f32⟩ : BufTy).Contents (Elt F)) (x4 : (⟨S4x512x128, .f32⟩ : BufTy).Contents (Elt F)) (x5 : (⟨S4x128, .f32⟩ : BufTy).Contents (Elt F)) (x6 : (⟨S4x128x512, .f32⟩ : BufTy).Contents (Elt F)) (x7 : (⟨S4x512, .f32⟩ : BufTy).Contents (Elt F)) (x8 : (⟨S4x512x1024, .f32⟩ : BufTy).Contents (Elt F)) (x9 : (⟨S4x1024, .f32⟩ : BufTy).Contents (Elt F))
    (h0 : V (Proc.devRef .tc main_arg0) = x0) (h1 : V (Proc.devRef .tc main_arg1) = x1) (h2 : V (Proc.devRef .tc main_arg2) = x2) (h3 : V (Proc.devRef .tc main_arg3) = x3) (h4 : V (Proc.devRef .tc main_arg4) = x4) (h5 : V (Proc.devRef .tc main_arg5) = x5) (h6 : V (Proc.devRef .tc main_arg6) = x6) (h7 : V (Proc.devRef .tc main_arg7) = x7) (h8 : V (Proc.devRef .tc main_arg8) = x8) (h9 : V (Proc.devRef .tc main_arg9) = x9) :
    after ops V (Proc.devRef .tc main_v147) = RefRead.val_main_v147 (F := F) x0 x1 x2 x3 x4 x5 x6 x7 x8 x9 := by
  rw [after_ops]
  have f1_arg0 := (opsA_keep V main_arg0 (by decide)).trans h0
  have f1_arg1 := (opsA_keep V main_arg1 (by decide)).trans h1
  have f1_arg2 := (opsA_keep V main_arg2 (by decide)).trans h2
  have f1_arg3 := (opsA_keep V main_arg3 (by decide)).trans h3
  have f1_arg4 := (opsA_keep V main_arg4 (by decide)).trans h4
  have f1_arg5 := (opsA_keep V main_arg5 (by decide)).trans h5
  have f1_arg6 := (opsA_keep V main_arg6 (by decide)).trans h6
  have f1_arg7 := (opsA_keep V main_arg7 (by decide)).trans h7
  have f1_arg8 := (opsA_keep V main_arg8 (by decide)).trans h8
  have f1_arg9 := (opsA_keep V main_arg9 (by decide)).trans h9
  have f1_v34 := opsA_main_v34 V x0 x2 x3 x4 x5 x6 x7 x8 x9 h0 h2 h3 h4 h5 h6 h7 h8 h9
  have f2_arg0 := (opsB1_keep (after opsA V) main_arg0 (by decide)).trans f1_arg0
  have f2_arg1 := (opsB1_keep (after opsA V) main_arg1 (by decide)).trans f1_arg1
  have f2_arg2 := (opsB1_keep (after opsA V) main_arg2 (by decide)).trans f1_arg2
  have f2_arg3 := (opsB1_keep (after opsA V) main_arg3 (by decide)).trans f1_arg3
  have f2_arg4 := (opsB1_keep (after opsA V) main_arg4 (by decide)).trans f1_arg4
  have f2_arg5 := (opsB1_keep (after opsA V) main_arg5 (by decide)).trans f1_arg5
  have f2_arg6 := (opsB1_keep (after opsA V) main_arg6 (by decide)).trans f1_arg6
  have f2_arg7 := (opsB1_keep (after opsA V) main_arg7 (by decide)).trans f1_arg7
  have f2_arg8 := (opsB1_keep (after opsA V) main_arg8 (by decide)).trans f1_arg8
  have f2_arg9 := (opsB1_keep (after opsA V) main_arg9 (by decide)).trans f1_arg9
  have f2_v34 := (opsB1_keep (after opsA V) main_v34 (by decide)).trans f1_v34
  have f2_v55 := opsB1_main_v55 (after opsA V) x0 x2 x3 x4 x5 x6 f1_arg0 f1_arg2 f1_arg3 f1_arg4 f1_arg5 f1_arg6
  have f2_v59 := opsB1_main_v59 (after opsA V) x7 f1_arg7
  have f3_arg0 := (opsB2_keep (after opsB1 (after opsA V)) main_arg0 (by decide)).trans f2_arg0
  have f3_arg1 := (opsB2_keep (after opsB1 (after opsA V)) main_arg1 (by decide)).trans f2_arg1
  have f3_arg2 := (opsB2_keep (after opsB1 (after opsA V)) main_arg2 (by decide)).trans f2_arg2
  have f3_arg3 := (opsB2_keep (after opsB1 (after opsA V)) main_arg3 (by decide)).trans f2_arg3
  have f3_arg4 := (opsB2_keep (after opsB1 (after opsA V)) main_arg4 (by decide)).trans f2_arg4
  have f3_arg5 := (opsB2_keep (after opsB1 (after opsA V)) main_arg5 (by decide)).trans f2_arg5
  have f3_arg6 := (opsB2_keep (after opsB1 (after opsA V)) main_arg6 (by decide)).trans f2_arg6
  have f3_arg7 := (opsB2_keep (after opsB1 (after opsA V)) main_arg7 (by decide)).trans f2_arg7
  have f3_arg8 := (opsB2_keep (after opsB1 (after opsA V)) main_arg8 (by decide)).trans f2_arg8
  have f3_arg9 := (opsB2_keep (after opsB1 (after opsA V)) main_arg9 (by decide)).trans f2_arg9
  have f3_v34 := (opsB2_keep (after opsB1 (after opsA V)) main_v34 (by decide)).trans f2_v34
  have f3_v69 := opsB2_main_v69 (after opsB1 (after opsA V)) x0 x2 x3 x4 x5 x6 x7 x8 x9 f2_arg8 f2_arg9 f2_v55 f2_v59
  have f4_arg0 := (opsC_keep (after opsB2 (after opsB1 (after opsA V))) main_arg0 (by decide)).trans f3_arg0
  have f4_arg1 := (opsC_keep (after opsB2 (after opsB1 (after opsA V))) main_arg1 (by decide)).trans f3_arg1
  have f4_arg2 := (opsC_keep (after opsB2 (after opsB1 (after opsA V))) main_arg2 (by decide)).trans f3_arg2
  have f4_arg3 := (opsC_keep (after opsB2 (after opsB1 (after opsA V))) main_arg3 (by decide)).trans f3_arg3
  have f4_arg4 := (opsC_keep (after opsB2 (after opsB1 (after opsA V))) main_arg4 (by decide)).trans f3_arg4
  have f4_arg5 := (opsC_keep (after opsB2 (after opsB1 (after opsA V))) main_arg5 (by decide)).trans f3_arg5
  have f4_arg6 := (opsC_keep (after opsB2 (after opsB1 (after opsA V))) main_arg6 (by decide)).trans f3_arg6
  have f4_arg7 := (opsC_keep (after opsB2 (after opsB1 (after opsA V))) main_arg7 (by decide)).trans f3_arg7
  have f4_arg8 := (opsC_keep (after opsB2 (after opsB1 (after opsA V))) main_arg8 (by decide)).trans f3_arg8
  have f4_arg9 := (opsC_keep (after opsB2 (after opsB1 (after opsA V))) main_arg9 (by decide)).trans f3_arg9
  have f4_v34 := (opsC_keep (after opsB2 (after opsB1 (after opsA V))) main_v34 (by decide)).trans f3_v34
  have f4_v69 := (opsC_keep (after opsB2 (after opsB1 (after opsA V))) main_v69 (by decide)).trans f3_v69
  have f4_v104 := opsC_main_v104 (after opsB2 (after opsB1 (after opsA V))) x0 x2 x3 x4 x5 x6 x7 x8 x9 f3_arg0 f3_arg2 f3_arg3 f3_arg4 f3_arg5 f3_arg6 f3_arg7 f3_arg8 f3_arg9
  have f5_arg1 := (opsD1_keep (after opsC (after opsB2 (after opsB1 (after opsA V)))) main_arg1 (by decide)).trans f4_arg1
  have f5_arg6 := (opsD1_keep (after opsC (after opsB2 (after opsB1 (after opsA V)))) main_arg6 (by decide)).trans f4_arg6
  have f5_arg7 := (opsD1_keep (after opsC (after opsB2 (after opsB1 (after opsA V)))) main_arg7 (by decide)).trans f4_arg7
  have f5_arg8 := (opsD1_keep (after opsC (after opsB2 (after opsB1 (after opsA V)))) main_arg8 (by decide)).trans f4_arg8
  have f5_arg9 := (opsD1_keep (after opsC (after opsB2 (after opsB1 (after opsA V)))) main_arg9 (by decide)).trans f4_arg9
  have f5_v34 := (opsD1_keep (after opsC (after opsB2 (after opsB1 (after opsA V)))) main_v34 (by decide)).trans f4_v34
  have f5_v69 := (opsD1_keep (after opsC (after opsB2 (after opsB1 (after opsA V)))) main_v69 (by decide)).trans f4_v69
  have f5_v104 := (opsD1_keep (after opsC (after opsB2 (after opsB1 (after opsA V)))) main_v104 (by decide)).trans f4_v104
  have f5_v116 := opsD1_main_v116 (after opsC (after opsB2 (after opsB1 (after opsA V)))) x0 x2 x3 x4 f4_arg0 f4_arg2 f4_arg3 f4_arg4
  have f5_v119 := opsD1_main_v119 (after opsC (after opsB2 (after opsB1 (after opsA V)))) x5 f4_arg5
  have f6_arg1 := (opsD2_keep (after opsD1 (after opsC (after opsB2 (after opsB1 (after opsA V))))) main_arg1 (by decide)).trans f5_arg1
  have f6_v34 := (opsD2_keep (after opsD1 (after opsC (after opsB2 (after opsB1 (after opsA V))))) main_v34 (by decide)).trans f5_v34
  have f6_v69 := (opsD2_keep (after opsD1 (after opsC (after opsB2 (after opsB1 (after opsA V))))) main_v69 (by decide)).trans f5_v69
  have f6_v104 := (opsD2_keep (after opsD1 (after opsC (after opsB2 (after opsB1 (after opsA V))))) main_v104 (by decide)).trans f5_v104
  have f6_v139 := opsD2_main_v139 (after opsD1 (after opsC (after opsB2 (after opsB1 (after opsA V))))) x0 x2 x3 x4 x5 x6 x7 x8 x9 f5_arg6 f5_arg7 f5_arg8 f5_arg9 f5_v116 f5_v119
  have f7_arg1 := (opsE1_keep (after opsD2 (after opsD1 (after opsC (after opsB2 (after opsB1 (after opsA V)))))) main_arg1 (by decide)).trans f6_arg1
  have f7_v144 := opsE1_main_v144 (after opsD2 (after opsD1 (after opsC (after opsB2 (after opsB1 (after opsA V)))))) x0 x2 x3 x4 x5 x6 x7 x8 x9 f6_v34 f6_v69 f6_v104 f6_v139
  exact opsE2_main_v147 (after opsE1 (after opsD2 (after opsD1 (after opsC (after opsB2 (after opsB1 (after opsA V))))))) x0 x1 x2 x3 x4 x5 x6 x7 x8 x9 f7_arg1 f7_v144

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v147)
        = Cert.ReferenceIdeal.RefRead.val_main_v147 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v147).trans (ops_main_v147 (launchContents m c) _ _ _ _ _ _ _ _ _ _ rfl rfl rfl rfl rfl rfl rfl rfl rfl rfl),
      (h c main_arg0).trans (ops_keep (launchContents m c) main_arg0 (by decide) (by decide) (by decide) (by decide) (by decide) (by decide) (by decide) (by decide)),
      (h c main_arg1).trans (ops_keep (launchContents m c) main_arg1 (by decide) (by decide) (by decide) (by decide) (by decide) (by decide) (by decide) (by decide)),
      (h c main_arg2).trans (ops_keep (launchContents m c) main_arg2 (by decide) (by decide) (by decide) (by decide) (by decide) (by decide) (by decide) (by decide)),
      (h c main_arg3).trans (ops_keep (launchContents m c) main_arg3 (by decide) (by decide) (by decide) (by decide) (by decide) (by decide) (by decide) (by decide)),
      (h c main_arg4).trans (ops_keep (launchContents m c) main_arg4 (by decide) (by decide) (by decide) (by decide) (by decide) (by decide) (by decide) (by decide)),
      (h c main_arg5).trans (ops_keep (launchContents m c) main_arg5 (by decide) (by decide) (by decide) (by decide) (by decide) (by decide) (by decide) (by decide)),
      (h c main_arg6).trans (ops_keep (launchContents m c) main_arg6 (by decide) (by decide) (by decide) (by decide) (by decide) (by decide) (by decide) (by decide)),
      (h c main_arg7).trans (ops_keep (launchContents m c) main_arg7 (by decide) (by decide) (by decide) (by decide) (by decide) (by decide) (by decide) (by decide)),
      (h c main_arg8).trans (ops_keep (launchContents m c) main_arg8 (by decide) (by decide) (by decide) (by decide) (by decide) (by decide) (by decide) (by decide)),
      (h c main_arg9).trans (ops_keep (launchContents m c) main_arg9 (by decide) (by decide) (by decide) (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.RefVal.lean ====
/-
  The reference's result as a function of its arguments is the specification: the reference runs
  each of the four experts on every row, stacks the four results, and picks for row `n` the one its
  symbol names (a symbol in range is neither wrapped nor replaced by the fill value).
-/
import proofs.«407739_j36696200577712_3_alg».proof.Proof.RefRead
import proofs.«407739_j36696200577712_3_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx
open Cert.ReferenceIdeal.RefRead Cert.Moe

local macro "ix_two" : tactic => `(tactic| (funext a; match a with | ⟨0, _⟩ => rfl | ⟨1, _⟩ => rfl))

/-! ### Expert 0: its slices of the stacked weights, and its four layers read at a row and a column -/

private theorem w1_0 (x2 : (⟨S4x1024x512, .f32⟩ : BufTy).Contents (Elt Ideal)) (k : Fin 1024) (j : Fin 512) :
    val_main_v1 (F := Ideal) x2 (ix2 k j) = x2 (ix3 0 k j) := by
  rw [val_main_v1_apply, val_main_v0_apply]
  congr 1
  funext a; apply Fin.ext
  have hk := k.isLt; have hj := j.isLt
  match a with
  | ⟨0, _⟩ => rfl
  | ⟨1, _⟩ => show (k.val * 512 + j.val) / 512 % 1024 = k.val; omega
  | ⟨2, _⟩ => show (k.val * 512 + j.val) % 512 = j.val; omega

private theorem b1_0 (x3 : (⟨S4x512, .f32⟩ : BufTy).Contents (Elt Ideal)) (n : Fin 32768) (j : Fin 512) :
    val_main_v6 (F := Ideal) x3 (ix2 n j) = x3 (ix2 0 j) := by
  rw [val_main_v6_apply, val_main_v5_apply, val_main_v4_apply, val_main_v3_apply]
  congr 1
  funext a; apply Fin.ext
  have hj := j.isLt
  match a with
  | ⟨0, _⟩ => rfl
  | ⟨1, _⟩ => show j.val % 512 = j.val; omega

private theorem z1_0 (i : S32768x512.Idx) : val_main_call0_v0 (F := Ideal) i = (0 : EReal) := by
  rw [val_main_call0_v0_apply, val_main_call0_cst_apply, Ideal.ofBits_def, Ideal.ofBits_zero_f32]

private theorem w2_0 (x4 : (⟨S4x512x128, .f32⟩ : BufTy).Contents (Elt Ideal)) (k : Fin 512) (j : Fin 128) :
    val_main_v10 (F := Ideal) x4 (ix2 k j) = x4 (ix3 0 k j) := by
  rw [val_main_v10_apply, val_main_v9_apply]
  congr 1
  funext a; apply Fin.ext
  have hk := k.isLt; have hj := j.isLt
  match a with
  | ⟨0, _⟩ => rfl
  | ⟨1, _⟩ => show (k.val * 128 + j.val) / 128 % 512 = k.val; omega
  | ⟨2, _⟩ => show (k.val * 128 + j.val) % 128 = j.val; omega

private theorem b2_0 (x5 : (⟨S4x128, .f32⟩ : BufTy).Contents (Elt Ideal)) (n : Fin 32768) (j : Fin 128) :
    val_main_v15 (F := Ideal) x5 (ix2 n j) = x5 (ix2 0 j) := by
  rw [val_main_v15_apply, val_main_v14_apply, val_main_v13_apply, val_main_v12_apply]
  congr 1
  funext a; apply Fin.ext
  have hj := j.isLt
  match a with
  | ⟨0, _⟩ => rfl
  | ⟨1, _⟩ => show j.val % 128 = j.val; omega

private theorem z2_0 (i : S32768x128.Idx) : val_main_call1_v0 (F := Ideal) i = (0 : EReal) := by
  rw [val_main_call1_v0_apply, val_main_call1_cst_apply, Ideal.ofBits_def, Ideal.ofBits_zero_f32]

private theorem w3_0 (x6 : (⟨S4x128x512, .f32⟩ : BufTy).Contents (Elt Ideal)) (k : Fin 128) (j : Fin 512) :
    val_main_v19 (F := Ideal) x6 (ix2 k j) = x6 (ix3 0 k j) := by
  rw [val_main_v19_apply, val_main_v18_apply]
  congr 1
  funext a; apply Fin.ext
  have hk := k.isLt; have hj := j.isLt
  match a with
  | ⟨0, _⟩ => rfl
  | ⟨1, _⟩ => show (k.val * 512 + j.val) / 512 % 128 = k.val; omega
  | ⟨2, _⟩ => show (k.val * 512 + j.val) % 512 = j.val; omega

private theorem b3_0 (x7 : (⟨S4x512, .f32⟩ : BufTy).Contents (Elt Ideal)) (n : Fin 32768) (j : Fin 512) :
    val_main_v24 (F := Ideal) x7 (ix2 n j) = x7 (ix2 0 j) := by
  rw [val_main_v24_apply, val_main_v23_apply, val_main_v22_apply, val_main_v21_apply]
  congr 1
  funext a; apply Fin.ext
  have hj := j.isLt
  match a with
  | ⟨0, _⟩ => rfl
  | ⟨1, _⟩ => show j.val % 512 = j.val; omega

private theorem z3_0 (i : S32768x512.Idx) : val_main_call2_v0 (F := Ideal) i = (0 : EReal) := by
  rw [val_main_call2_v0_apply, val_main_call2_cst_apply, Ideal.ofBits_def, Ideal.ofBits_zero_f32]

private theorem w4_0 (x8 : (⟨S4x512x1024, .f32⟩ : BufTy).Contents (Elt Ideal)) (k : Fin 512) (j : Fin 1024) :
    val_main_v28 (F := Ideal) x8 (ix2 k j) = x8 (ix3 0 k j) := by
  rw [val_main_v28_apply, val_main_v27_apply]
  congr 1
  funext a; apply Fin.ext
  have hk := k.isLt; have hj := j.isLt
  match a with
  | ⟨0, _⟩ => rfl
  | ⟨1, _⟩ => show (k.val * 1024 + j.val) / 1024 % 512 = k.val; omega
  | ⟨2, _⟩ => show (k.val * 1024 + j.val) % 1024 = j.val; omega

private theorem b4_0 (x9 : (⟨S4x1024, .f32⟩ : BufTy).Contents (Elt Ideal)) (n : Fin 32768) (j : Fin 1024) :
    val_main_v33 (F := Ideal) x9 (ix2 n j) = x9 (ix2 0 j) := by
  rw [val_main_v33_apply, val_main_v32_apply, val_main_v31_apply, val_main_v30_apply]
  congr 1
  funext a; apply Fin.ext
  have hj := j.isLt
  match a with
  | ⟨0, _⟩ => rfl
  | ⟨1, _⟩ => show j.val % 1024 = j.val; omega

private theorem l1_0 (x0 : (⟨S32768x1024, .f32⟩ : BufTy).Contents (Elt Ideal)) (x2 : (⟨S4x1024x512, .f32⟩ : BufTy).Contents (Elt Ideal)) (x3 : (⟨S4x512, .f32⟩ : BufTy).Contents (Elt Ideal)) (n : Fin 32768) (j : Fin 512) :
    val_main_v8 (F := Ideal) x0 x2 x3 (ix2 n j)
      = relu (lin (fun i k => x2 (ix3 0 i k)) (fun k => x3 (ix2 0 k)) (fun i => x0 (ix2 n i)) j) := by
  rw [val_main_v8_apply, val_main_v7_apply, val_main_v2_apply, b1_0, z1_0, Ideal.maximumf_def, Ideal.addf_def]
  unfold relu lin
  congr 2
  refine Finset.sum_congr rfl fun k _ => ?_
  rw [show lidx_main_v2 (ix2 n j) k = ix2 n k by ix_two, show ridx_main_v2 (ix2 n j) k = ix2 k j by ix_two, w1_0]

private theorem l2_0 (x0 : (⟨S32768x1024, .f32⟩ : BufTy).Contents (Elt Ideal)) (x2 : (⟨S4x1024x512, .f32⟩ : BufTy).Contents (Elt Ideal)) (x3 : (⟨S4x512, .f32⟩ : BufTy).Contents (Elt Ideal)) (x4 : (⟨S4x512x128, .f32⟩ : BufTy).Contents (Elt Ideal)) (x5 : (⟨S4x128, .f32⟩ : BufTy).Contents (Elt Ideal)) (n : Fin 32768) (j : Fin 128) :
    val_main_v17 (F := Ideal) x0 x2 x3 x4 x5 (ix2 n j)
      = relu (lin (fun i k => x4 (ix3 0 i k)) (fun k => x5 (ix2 0 k)) (fun k1 => relu (lin (fun i k => x2 (ix3 0 i k)) (fun k => x3 (ix2 0 k)) (fun i => x0 (ix2 n i)) k1)) j) := by
  rw [val_main_v17_apply, val_main_v16_apply, val_main_v11_apply, b2_0, z2_0, Ideal.maximumf_def, Ideal.addf_def]
  unfold relu lin
  congr 2
  refine Finset.sum_congr rfl fun k _ => ?_
  rw [show lidx_main_v11 (ix2 n j) k = ix2 n k by ix_two, show ridx_main_v11 (ix2 n j) k = ix2 k j by ix_two, w2_0, l1_0]
  rfl

private theorem l3_0 (x0 : (⟨S32768x1024, .f32⟩ : BufTy).Contents (Elt Ideal)) (x2 : (⟨S4x1024x512, .f32⟩ : BufTy).Contents (Elt Ideal)) (x3 : (⟨S4x512, .f32⟩ : BufTy).Contents (Elt Ideal)) (x4 : (⟨S4x512x128, .f32⟩ : BufTy).Contents (Elt Ideal)) (x5 : (⟨S4x128, .f32⟩ : BufTy).Contents (Elt Ideal)) (x6 : (⟨S4x128x512, .f32⟩ : BufTy).Contents (Elt Ideal)) (x7 : (⟨S4x512, .f32⟩ : BufTy).Contents (Elt Ideal)) (n : Fin 32768) (j : Fin 512) :
    val_main_v26 (F := Ideal) x0 x2 x3 x4 x5 x6 x7 (ix2 n j)
      = relu (lin (fun i k => x6 (ix3 0 i k)) (fun k => x7 (ix2 0 k)) (fun k2 => relu (lin (fun i k => x4 (ix3 0 i k)) (fun k => x5 (ix2 0 k)) (fun k1 => relu (lin (fun i k => x2 (ix3 0 i k)) (fun k => x3 (ix2 0 k)) (fun i => x0 (ix2 n i)) k1)) k2)) j) := by
  rw [val_main_v26_apply, val_main_v25_apply, val_main_v20_apply, b3_0, z3_0, Ideal.maximumf_def, Ideal.addf_def]
  unfold relu lin
  congr 2
  refine Finset.sum_congr rfl fun k _ => ?_
  rw [show lidx_main_v20 (ix2 n j) k = ix2 n k by ix_two, show ridx_main_v20 (ix2 n j) k = ix2 k j by ix_two, w3_0, l2_0]
  rfl

private theorem l4_0 (x0 : (⟨S32768x1024, .f32⟩ : BufTy).Contents (Elt Ideal)) (x2 : (⟨S4x1024x512, .f32⟩ : BufTy).Contents (Elt Ideal)) (x3 : (⟨S4x512, .f32⟩ : BufTy).Contents (Elt Ideal)) (x4 : (⟨S4x512x128, .f32⟩ : BufTy).Contents (Elt Ideal)) (x5 : (⟨S4x128, .f32⟩ : BufTy).Contents (Elt Ideal)) (x6 : (⟨S4x128x512, .f32⟩ : BufTy).Contents (Elt Ideal)) (x7 : (⟨S4x512, .f32⟩ : BufTy).Contents (Elt Ideal)) (x8 : (⟨S4x512x1024, .f32⟩ : BufTy).Contents (Elt Ideal)) (x9 : (⟨S4x1024, .f32⟩ : BufTy).Contents (Elt Ideal)) (n : Fin 32768) (j : Fin 1024) :
    val_main_v34 (F := Ideal) x0 x2 x3 x4 x5 x6 x7 x8 x9 (ix2 n j)
      = lin (fun i k => x8 (ix3 0 i k)) (fun k => x9 (ix2 0 k)) (fun k3 => relu (lin (fun i k => x6 (ix3 0 i k)) (fun k => x7 (ix2 0 k)) (fun k2 => relu (lin (fun i k => x4 (ix3 0 i k)) (fun k => x5 (ix2 0 k)) (fun k1 => relu (lin (fun i k => x2 (ix3 0 i k)) (fun k => x3 (ix2 0 k)) (fun i => x0 (ix2 n i)) k1)) k2)) k3)) j := by
  rw [val_main_v34_apply, val_main_v29_apply, b4_0, Ideal.addf_def]
  unfold lin
  congr 1
  refine Finset.sum_congr rfl fun k _ => ?_
  rw [show lidx_main_v29 (ix2 n j) k = ix2 n k by ix_two, show ridx_main_v29 (ix2 n j) k = ix2 k j by ix_two, w4_0, l3_0]
  rfl

/-- The reference's result of expert 0 at row `n`, column `j` is the specification's expert 0 on row `n` of the features. -/
private theorem expert_0 (x0 : (⟨S32768x1024, .f32⟩ : BufTy).Contents (Elt Ideal)) (x2 : (⟨S4x1024x512, .f32⟩ : BufTy).Contents (Elt Ideal)) (x3 : (⟨S4x512, .f32⟩ : BufTy).Contents (Elt Ideal)) (x4 : (⟨S4x512x128, .f32⟩ : BufTy).Contents (Elt Ideal)) (x5 : (⟨S4x128, .f32⟩ : BufTy).Contents (Elt Ideal)) (x6 : (⟨S4x128x512, .f32⟩ : BufTy).Contents (Elt Ideal)) (x7 : (⟨S4x512, .f32⟩ : BufTy).Contents (Elt Ideal)) (x8 : (⟨S4x512x1024, .f32⟩ : BufTy).Contents (Elt Ideal)) (x9 : (⟨S4x1024, .f32⟩ : BufTy).Contents (Elt Ideal)) (n : Fin 32768) (j : Fin 1024) :
    val_main_v34 (F := Ideal) x0 x2 x3 x4 x5 x6 x7 x8 x9 (ix2 n j)
      = expert x2 x3 x4 x5 x6 x7 x8 x9 0 (fun i => x0 (ix2 n i)) j := by
  rw [l4_0]
  rfl

/-! ### Expert 1: its slices of the stacked weights, and its four layers read at a row and a column -/

private theorem w1_1 (x2 : (⟨S4x1024x512, .f32⟩ : BufTy).Contents (Elt Ideal)) (k : Fin 1024) (j : Fin 512) :
    val_main_v36 (F := Ideal) x2 (ix2 k j) = x2 (ix3 1 k j) := by
  rw [val_main_v36_apply, val_main_v35_apply]
  congr 1
  funext a; apply Fin.ext
  have hk := k.isLt; have hj := j.isLt
  match a with
  | ⟨0, _⟩ => rfl
  | ⟨1, _⟩ => show (k.val * 512 + j.val) / 512 % 1024 = k.val; omega
  | ⟨2, _⟩ => show (k.val * 512 + j.val) % 512 = j.val; omega

private theorem b1_1 (x3 : (⟨S4x512, .f32⟩ : BufTy).Contents (Elt Ideal)) (n : Fin 32768) (j : Fin 512) :
    val_main_v41 (F := Ideal) x3 (ix2 n j) = x3 (ix2 1 j) := by
  rw [val_main_v41_apply, val_main_v40_apply, val_main_v39_apply, val_main_v38_apply]
  congr 1
  funext a; apply Fin.ext
  have hj := j.isLt
  match a with
  | ⟨0, _⟩ => rfl
  | ⟨1, _⟩ => show j.val % 512 = j.val; omega

private theorem z1_1 (i : S32768x512.Idx) : val_main_call3_v0 (F := Ideal) i = (0 : EReal) := by
  rw [val_main_call3_v0_apply, val_main_call3_cst_apply, Ideal.ofBits_def, Ideal.ofBits_zero_f32]

private theorem w2_1 (x4 : (⟨S4x512x128, .f32⟩ : BufTy).Contents (Elt Ideal)) (k : Fin 512) (j : Fin 128) :
    val_main_v45 (F := Ideal) x4 (ix2 k j) = x4 (ix3 1 k j) := by
  rw [val_main_v45_apply, val_main_v44_apply]
  congr 1
  funext a; apply Fin.ext
  have hk := k.isLt; have hj := j.isLt
  match a with
  | ⟨0, _⟩ => rfl
  | ⟨1, _⟩ => show (k.val * 128 + j.val) / 128 % 512 = k.val; omega
  | ⟨2, _⟩ => show (k.val * 128 + j.val) % 128 = j.val; omega

private theorem b2_1 (x5 : (⟨S4x128, .f32⟩ : BufTy).Contents (Elt Ideal)) (n : Fin 32768) (j : Fin 128) :
    val_main_v50 (F := Ideal) x5 (ix2 n j) = x5 (ix2 1 j) := by
  rw [val_main_v50_apply, val_main_v49_apply, val_main_v48_apply, val_main_v47_apply]
  congr 1
  funext a; apply Fin.ext
  have hj := j.isLt
  match a with
  | ⟨0, _⟩ => rfl
  | ⟨1, _⟩ => show j.val % 128 = j.val; omega

private theorem z2_1 (i : S32768x128.Idx) : val_main_call4_v0 (F := Ideal) i = (0 : EReal) := by
  rw [val_main_call4_v0_apply, val_main_call4_cst_apply, Ideal.ofBits_def, Ideal.ofBits_zero_f32]

private theorem w3_1 (x6 : (⟨S4x128x512, .f32⟩ : BufTy).Contents (Elt Ideal)) (k : Fin 128) (j : Fin 512) :
    val_main_v54 (F := Ideal) x6 (ix2 k j) = x6 (ix3 1 k j) := by
  rw [val_main_v54_apply, val_main_v53_apply]
  congr 1
  funext a; apply Fin.ext
  have hk := k.isLt; have hj := j.isLt
  match a with
  | ⟨0, _⟩ => rfl
  | ⟨1, _⟩ => show (k.val * 512 + j.val) / 512 % 128 = k.val; omega
  | ⟨2, _⟩ => show (k.val * 512 + j.val) % 512 = j.val; omega

private theorem b3_1 (x7 : (⟨S4x512, .f32⟩ : BufTy).Contents (Elt Ideal)) (n : Fin 32768) (j : Fin 512) :
    val_main_v59 (F := Ideal) x7 (ix2 n j) = x7 (ix2 1 j) := by
  rw [val_main_v59_apply, val_main_v58_apply, val_main_v57_apply, val_main_v56_apply]
  congr 1
  funext a; apply Fin.ext
  have hj := j.isLt
  match a with
  | ⟨0, _⟩ => rfl
  | ⟨1, _⟩ => show j.val % 512 = j.val; omega

private theorem z3_1 (i : S32768x512.Idx) : val_main_call5_v0 (F := Ideal) i = (0 : EReal) := by
  rw [val_main_call5_v0_apply, val_main_call5_cst_apply, Ideal.ofBits_def, Ideal.ofBits_zero_f32]

private theorem w4_1 (x8 : (⟨S4x512x1024, .f32⟩ : BufTy).Contents (Elt Ideal)) (k : Fin 512) (j : Fin 1024) :
    val_main_v63 (F := Ideal) x8 (ix2 k j) = x8 (ix3 1 k j) := by
  rw [val_main_v63_apply, val_main_v62_apply]
  congr 1
  funext a; apply Fin.ext
  have hk := k.isLt; have hj := j.isLt
  match a with
  | ⟨0, _⟩ => rfl
  | ⟨1, _⟩ => show (k.val * 1024 + j.val) / 1024 % 512 = k.val; omega
  | ⟨2, _⟩ => show (k.val * 1024 + j.val) % 1024 = j.val; omega

private theorem b4_1 (x9 : (⟨S4x1024, .f32⟩ : BufTy).Contents (Elt Ideal)) (n : Fin 32768) (j : Fin 1024) :
    val_main_v68 (F := Ideal) x9 (ix2 n j) = x9 (ix2 1 j) := by
  rw [val_main_v68_apply, val_main_v67_apply, val_main_v66_apply, val_main_v65_apply]
  congr 1
  funext a; apply Fin.ext
  have hj := j.isLt
  match a with
  | ⟨0, _⟩ => rfl
  | ⟨1, _⟩ => show j.val % 1024 = j.val; omega

private theorem l1_1 (x0 : (⟨S32768x1024, .f32⟩ : BufTy).Contents (Elt Ideal)) (x2 : (⟨S4x1024x512, .f32⟩ : BufTy).Contents (Elt Ideal)) (x3 : (⟨S4x512, .f32⟩ : BufTy).Contents (Elt Ideal)) (n : Fin 32768) (j : Fin 512) :
    val_main_v43 (F := Ideal) x0 x2 x3 (ix2 n j)
      = relu (lin (fun i k => x2 (ix3 1 i k)) (fun k => x3 (ix2 1 k)) (fun i => x0 (ix2 n i)) j) := by
  rw [val_main_v43_apply, val_main_v42_apply, val_main_v37_apply, b1_1, z1_1, Ideal.maximumf_def, Ideal.addf_def]
  unfold relu lin
  congr 2
  refine Finset.sum_congr rfl fun k _ => ?_
  rw [show lidx_main_v37 (ix2 n j) k = ix2 n k by ix_two, show ridx_main_v37 (ix2 n j) k = ix2 k j by ix_two, w1_1]

private theorem l2_1 (x0 : (⟨S32768x1024, .f32⟩ : BufTy).Contents (Elt Ideal)) (x2 : (⟨S4x1024x512, .f32⟩ : BufTy).Contents (Elt Ideal)) (x3 : (⟨S4x512, .f32⟩ : BufTy).Contents (Elt Ideal)) (x4 : (⟨S4x512x128, .f32⟩ : BufTy).Contents (Elt Ideal)) (x5 : (⟨S4x128, .f32⟩ : BufTy).Contents (Elt Ideal)) (n : Fin 32768) (j : Fin 128) :
    val_main_v52 (F := Ideal) x0 x2 x3 x4 x5 (ix2 n j)
      = relu (lin (fun i k => x4 (ix3 1 i k)) (fun k => x5 (ix2 1 k)) (fun k1 => relu (lin (fun i k => x2 (ix3 1 i k)) (fun k => x3 (ix2 1 k)) (fun i => x0 (ix2 n i)) k1)) j) := by
  rw [val_main_v52_apply, val_main_v51_apply, val_main_v46_apply, b2_1, z2_1, Ideal.maximumf_def, Ideal.addf_def]
  unfold relu lin
  congr 2
  refine Finset.sum_congr rfl fun k _ => ?_
  rw [show lidx_main_v46 (ix2 n j) k = ix2 n k by ix_two, show ridx_main_v46 (ix2 n j) k = ix2 k j by ix_two, w2_1, l1_1]
  rfl

private theorem l3_1 (x0 : (⟨S32768x1024, .f32⟩ : BufTy).Contents (Elt Ideal)) (x2 : (⟨S4x1024x512, .f32⟩ : BufTy).Contents (Elt Ideal)) (x3 : (⟨S4x512, .f32⟩ : BufTy).Contents (Elt Ideal)) (x4 : (⟨S4x512x128, .f32⟩ : BufTy).Contents (Elt Ideal)) (x5 : (⟨S4x128, .f32⟩ : BufTy).Contents (Elt Ideal)) (x6 : (⟨S4x128x512, .f32⟩ : BufTy).Contents (Elt Ideal)) (x7 : (⟨S4x512, .f32⟩ : BufTy).Contents (Elt Ideal)) (n : Fin 32768) (j : Fin 512) :
    val_main_v61 (F := Ideal) x0 x2 x3 x4 x5 x6 x7 (ix2 n j)
      = relu (lin (fun i k => x6 (ix3 1 i k)) (fun k => x7 (ix2 1 k)) (fun k2 => relu (lin (fun i k => x4 (ix3 1 i k)) (fun k => x5 (ix2 1 k)) (fun k1 => relu (lin (fun i k => x2 (ix3 1 i k)) (fun k => x3 (ix2 1 k)) (fun i => x0 (ix2 n i)) k1)) k2)) j) := by
  rw [val_main_v61_apply, val_main_v60_apply, val_main_v55_apply, b3_1, z3_1, Ideal.maximumf_def, Ideal.addf_def]
  unfold relu lin
  congr 2
  refine Finset.sum_congr rfl fun k _ => ?_
  rw [show lidx_main_v55 (ix2 n j) k = ix2 n k by ix_two, show ridx_main_v55 (ix2 n j) k = ix2 k j by ix_two, w3_1, l2_1]
  rfl

private theorem l4_1 (x0 : (⟨S32768x1024, .f32⟩ : BufTy).Contents (Elt Ideal)) (x2 : (⟨S4x1024x512, .f32⟩ : BufTy).Contents (Elt Ideal)) (x3 : (⟨S4x512, .f32⟩ : BufTy).Contents (Elt Ideal)) (x4 : (⟨S4x512x128, .f32⟩ : BufTy).Contents (Elt Ideal)) (x5 : (⟨S4x128, .f32⟩ : BufTy).Contents (Elt Ideal)) (x6 : (⟨S4x128x512, .f32⟩ : BufTy).Contents (Elt Ideal)) (x7 : (⟨S4x512, .f32⟩ : BufTy).Contents (Elt Ideal)) (x8 : (⟨S4x512x1024, .f32⟩ : BufTy).Contents (Elt Ideal)) (x9 : (⟨S4x1024, .f32⟩ : BufTy).Contents (Elt Ideal)) (n : Fin 32768) (j : Fin 1024) :
    val_main_v69 (F := Ideal) x0 x2 x3 x4 x5 x6 x7 x8 x9 (ix2 n j)
      = lin (fun i k => x8 (ix3 1 i k)) (fun k => x9 (ix2 1 k)) (fun k3 => relu (lin (fun i k => x6 (ix3 1 i k)) (fun k => x7 (ix2 1 k)) (fun k2 => relu (lin (fun i k => x4 (ix3 1 i k)) (fun k => x5 (ix2 1 k)) (fun k1 => relu (lin (fun i k => x2 (ix3 1 i k)) (fun k => x3 (ix2 1 k)) (fun i => x0 (ix2 n i)) k1)) k2)) k3)) j := by
  rw [val_main_v69_apply, val_main_v64_apply, b4_1, Ideal.addf_def]
  unfold lin
  congr 1
  refine Finset.sum_congr rfl fun k _ => ?_
  rw [show lidx_main_v64 (ix2 n j) k = ix2 n k by ix_two, show ridx_main_v64 (ix2 n j) k = ix2 k j by ix_two, w4_1, l3_1]
  rfl

/-- The reference's result of expert 1 at row `n`, column `j` is the specification's expert 1 on row `n` of the features. -/
private theorem expert_1 (x0 : (⟨S32768x1024, .f32⟩ : BufTy).Contents (Elt Ideal)) (x2 : (⟨S4x1024x512, .f32⟩ : BufTy).Contents (Elt Ideal)) (x3 : (⟨S4x512, .f32⟩ : BufTy).Contents (Elt Ideal)) (x4 : (⟨S4x512x128, .f32⟩ : BufTy).Contents (Elt Ideal)) (x5 : (⟨S4x128, .f32⟩ : BufTy).Contents (Elt Ideal)) (x6 : (⟨S4x128x512, .f32⟩ : BufTy).Contents (Elt Ideal)) (x7 : (⟨S4x512, .f32⟩ : BufTy).Contents (Elt Ideal)) (x8 : (⟨S4x512x1024, .f32⟩ : BufTy).Contents (Elt Ideal)) (x9 : (⟨S4x1024, .f32⟩ : BufTy).Contents (Elt Ideal)) (n : Fin 32768) (j : Fin 1024) :
    val_main_v69 (F := Ideal) x0 x2 x3 x4 x5 x6 x7 x8 x9 (ix2 n j)
      = expert x2 x3 x4 x5 x6 x7 x8 x9 1 (fun i => x0 (ix2 n i)) j := by
  rw [l4_1]
  rfl

/-! ### Expert 2: its slices of the stacked weights, and its four layers read at a row and a column -/

private theorem w1_2 (x2 : (⟨S4x1024x512, .f32⟩ : BufTy).Contents (Elt Ideal)) (k : Fin 1024) (j : Fin 512) :
    val_main_v71 (F := Ideal) x2 (ix2 k j) = x2 (ix3 2 k j) := by
  rw [val_main_v71_apply, val_main_v70_apply]
  congr 1
  funext a; apply Fin.ext
  have hk := k.isLt; have hj := j.isLt
  match a with
  | ⟨0, _⟩ => rfl
  | ⟨1, _⟩ => show (k.val * 512 + j.val) / 512 % 1024 = k.val; omega
  | ⟨2, _⟩ => show (k.val * 512 + j.val) % 512 = j.val; omega

private theorem b1_2 (x3 : (⟨S4x512, .f32⟩ : BufTy).Contents (Elt Ideal)) (n : Fin 32768) (j : Fin 512) :
    val_main_v76 (F := Ideal) x3 (ix2 n j) = x3 (ix2 2 j) := by
  rw [val_main_v76_apply, val_main_v75_apply, val_main_v74_apply, val_main_v73_apply]
  congr 1
  funext a; apply Fin.ext
  have hj := j.isLt
  match a with
  | ⟨0, _⟩ => rfl
  | ⟨1, _⟩ => show j.val % 512 = j.val; omega

private theorem z1_2 (i : S32768x512.Idx) : val_main_call6_v0 (F := Ideal) i = (0 : EReal) := by
  rw [val_main_call6_v0_apply, val_main_call6_cst_apply, Ideal.ofBits_def, Ideal.ofBits_zero_f32]

private theorem w2_2 (x4 : (⟨S4x512x128, .f32⟩ : BufTy).Contents (Elt Ideal)) (k : Fin 512) (j : Fin 128) :
    val_main_v80 (F := Ideal) x4 (ix2 k j) = x4 (ix3 2 k j) := by
  rw [val_main_v80_apply, val_main_v79_apply]
  congr 1
  funext a; apply Fin.ext
  have hk := k.isLt; have hj := j.isLt
  match a with
  | ⟨0, _⟩ => rfl
  | ⟨1, _⟩ => show (k.val * 128 + j.val) / 128 % 512 = k.val; omega
  | ⟨2, _⟩ => show (k.val * 128 + j.val) % 128 = j.val; omega

private theorem b2_2 (x5 : (⟨S4x128, .f32⟩ : BufTy).Contents (Elt Ideal)) (n : Fin 32768) (j : Fin 128) :
    val_main_v85 (F := Ideal) x5 (ix2 n j) = x5 (ix2 2 j) := by
  rw [val_main_v85_apply, val_main_v84_apply, val_main_v83_apply, val_main_v82_apply]
  congr 1
  funext a; apply Fin.ext
  have hj := j.isLt
  match a with
  | ⟨0, _⟩ => rfl
  | ⟨1, _⟩ => show j.val % 128 = j.val; omega

private theorem z2_2 (i : S32768x128.Idx) : val_main_call7_v0 (F := Ideal) i = (0 : EReal) := by
  rw [val_main_call7_v0_apply, val_main_call7_cst_apply, Ideal.ofBits_def, Ideal.ofBits_zero_f32]

private theorem w3_2 (x6 : (⟨S4x128x512, .f32⟩ : BufTy).Contents (Elt Ideal)) (k : Fin 128) (j : Fin 512) :
    val_main_v89 (F := Ideal) x6 (ix2 k j) = x6 (ix3 2 k j) := by
  rw [val_main_v89_apply, val_main_v88_apply]
  congr 1
  funext a; apply Fin.ext
  have hk := k.isLt; have hj := j.isLt
  match a with
  | ⟨0, _⟩ => rfl
  | ⟨1, _⟩ => show (k.val * 512 + j.val) / 512 % 128 = k.val; omega
  | ⟨2, _⟩ => show (k.val * 512 + j.val) % 512 = j.val; omega

private theorem b3_2 (x7 : (⟨S4x512, .f32⟩ : BufTy).Contents (Elt Ideal)) (n : Fin 32768) (j : Fin 512) :
    val_main_v94 (F := Ideal) x7 (ix2 n j) = x7 (ix2 2 j) := by
  rw [val_main_v94_apply, val_main_v93_apply, val_main_v92_apply, val_main_v91_apply]
  congr 1
  funext a; apply Fin.ext
  have hj := j.isLt
  match a with
  | ⟨0, _⟩ => rfl
  | ⟨1, _⟩ => show j.val % 512 = j.val; omega

private theorem z3_2 (i : S32768x512.Idx) : val_main_call8_v0 (F := Ideal) i = (0 : EReal) := by
  rw [val_main_call8_v0_apply, val_main_call8_cst_apply, Ideal.ofBits_def, Ideal.ofBits_zero_f32]

private theorem w4_2 (x8 : (⟨S4x512x1024, .f32⟩ : BufTy).Contents (Elt Ideal)) (k : Fin 512) (j : Fin 1024) :
    val_main_v98 (F := Ideal) x8 (ix2 k j) = x8 (ix3 2 k j) := by
  rw [val_main_v98_apply, val_main_v97_apply]
  congr 1
  funext a; apply Fin.ext
  have hk := k.isLt; have hj := j.isLt
  match a with
  | ⟨0, _⟩ => rfl
  | ⟨1, _⟩ => show (k.val * 1024 + j.val) / 1024 % 512 = k.val; omega
  | ⟨2, _⟩ => show (k.val * 1024 + j.val) % 1024 = j.val; omega

private theorem b4_2 (x9 : (⟨S4x1024, .f32⟩ : BufTy).Contents (Elt Ideal)) (n : Fin 32768) (j : Fin 1024) :
    val_main_v103 (F := Ideal) x9 (ix2 n j) = x9 (ix2 2 j) := by
  rw [val_main_v103_apply, val_main_v102_apply, val_main_v101_apply, val_main_v100_apply]
  congr 1
  funext a; apply Fin.ext
  have hj := j.isLt
  match a with
  | ⟨0, _⟩ => rfl
  | ⟨1, _⟩ => show j.val % 1024 = j.val; omega

private theorem l1_2 (x0 : (⟨S32768x1024, .f32⟩ : BufTy).Contents (Elt Ideal)) (x2 : (⟨S4x1024x512, .f32⟩ : BufTy).Contents (Elt Ideal)) (x3 : (⟨S4x512, .f32⟩ : BufTy).Contents (Elt Ideal)) (n : Fin 32768) (j : Fin 512) :
    val_main_v78 (F := Ideal) x0 x2 x3 (ix2 n j)
      = relu (lin (fun i k => x2 (ix3 2 i k)) (fun k => x3 (ix2 2 k)) (fun i => x0 (ix2 n i)) j) := by
  rw [val_main_v78_apply, val_main_v77_apply, val_main_v72_apply, b1_2, z1_2, Ideal.maximumf_def, Ideal.addf_def]
  unfold relu lin
  congr 2
  refine Finset.sum_congr rfl fun k _ => ?_
  rw [show lidx_main_v72 (ix2 n j) k = ix2 n k by ix_two, show ridx_main_v72 (ix2 n j) k = ix2 k j by ix_two, w1_2]

private theorem l2_2 (x0 : (⟨S32768x1024, .f32⟩ : BufTy).Contents (Elt Ideal)) (x2 : (⟨S4x1024x512, .f32⟩ : BufTy).Contents (Elt Ideal)) (x3 : (⟨S4x512, .f32⟩ : BufTy).Contents (Elt Ideal)) (x4 : (⟨S4x512x128, .f32⟩ : BufTy).Contents (Elt Ideal)) (x5 : (⟨S4x128, .f32⟩ : BufTy).Contents (Elt Ideal)) (n : Fin 32768) (j : Fin 128) :
    val_main_v87 (F := Ideal) x0 x2 x3 x4 x5 (ix2 n j)
      = relu (lin (fun i k => x4 (ix3 2 i k)) (fun k => x5 (ix2 2 k)) (fun k1 => relu (lin (fun i k => x2 (ix3 2 i k)) (fun k => x3 (ix2 2 k)) (fun i => x0 (ix2 n i)) k1)) j) := by
  rw [val_main_v87_apply, val_main_v86_apply, val_main_v81_apply, b2_2, z2_2, Ideal.maximumf_def, Ideal.addf_def]
  unfold relu lin
  congr 2
  refine Finset.sum_congr rfl fun k _ => ?_
  rw [show lidx_main_v81 (ix2 n j) k = ix2 n k by ix_two, show ridx_main_v81 (ix2 n j) k = ix2 k j by ix_two, w2_2, l1_2]
  rfl

private theorem l3_2 (x0 : (⟨S32768x1024, .f32⟩ : BufTy).Contents (Elt Ideal)) (x2 : (⟨S4x1024x512, .f32⟩ : BufTy).Contents (Elt Ideal)) (x3 : (⟨S4x512, .f32⟩ : BufTy).Contents (Elt Ideal)) (x4 : (⟨S4x512x128, .f32⟩ : BufTy).Contents (Elt Ideal)) (x5 : (⟨S4x128, .f32⟩ : BufTy).Contents (Elt Ideal)) (x6 : (⟨S4x128x512, .f32⟩ : BufTy).Contents (Elt Ideal)) (x7 : (⟨S4x512, .f32⟩ : BufTy).Contents (Elt Ideal)) (n : Fin 32768) (j : Fin 512) :
    val_main_v96 (F := Ideal) x0 x2 x3 x4 x5 x6 x7 (ix2 n j)
      = relu (lin (fun i k => x6 (ix3 2 i k)) (fun k => x7 (ix2 2 k)) (fun k2 => relu (lin (fun i k => x4 (ix3 2 i k)) (fun k => x5 (ix2 2 k)) (fun k1 => relu (lin (fun i k => x2 (ix3 2 i k)) (fun k => x3 (ix2 2 k)) (fun i => x0 (ix2 n i)) k1)) k2)) j) := by
  rw [val_main_v96_apply, val_main_v95_apply, val_main_v90_apply, b3_2, z3_2, Ideal.maximumf_def, Ideal.addf_def]
  unfold relu lin
  congr 2
  refine Finset.sum_congr rfl fun k _ => ?_
  rw [show lidx_main_v90 (ix2 n j) k = ix2 n k by ix_two, show ridx_main_v90 (ix2 n j) k = ix2 k j by ix_two, w3_2, l2_2]
  rfl

private theorem l4_2 (x0 : (⟨S32768x1024, .f32⟩ : BufTy).Contents (Elt Ideal)) (x2 : (⟨S4x1024x512, .f32⟩ : BufTy).Contents (Elt Ideal)) (x3 : (⟨S4x512, .f32⟩ : BufTy).Contents (Elt Ideal)) (x4 : (⟨S4x512x128, .f32⟩ : BufTy).Contents (Elt Ideal)) (x5 : (⟨S4x128, .f32⟩ : BufTy).Contents (Elt Ideal)) (x6 : (⟨S4x128x512, .f32⟩ : BufTy).Contents (Elt Ideal)) (x7 : (⟨S4x512, .f32⟩ : BufTy).Contents (Elt Ideal)) (x8 : (⟨S4x512x1024, .f32⟩ : BufTy).Contents (Elt Ideal)) (x9 : (⟨S4x1024, .f32⟩ : BufTy).Contents (Elt Ideal)) (n : Fin 32768) (j : Fin 1024) :
    val_main_v104 (F := Ideal) x0 x2 x3 x4 x5 x6 x7 x8 x9 (ix2 n j)
      = lin (fun i k => x8 (ix3 2 i k)) (fun k => x9 (ix2 2 k)) (fun k3 => relu (lin (fun i k => x6 (ix3 2 i k)) (fun k => x7 (ix2 2 k)) (fun k2 => relu (lin (fun i k => x4 (ix3 2 i k)) (fun k => x5 (ix2 2 k)) (fun k1 => relu (lin (fun i k => x2 (ix3 2 i k)) (fun k => x3 (ix2 2 k)) (fun i => x0 (ix2 n i)) k1)) k2)) k3)) j := by
  rw [val_main_v104_apply, val_main_v99_apply, b4_2, Ideal.addf_def]
  unfold lin
  congr 1
  refine Finset.sum_congr rfl fun k _ => ?_
  rw [show lidx_main_v99 (ix2 n j) k = ix2 n k by ix_two, show ridx_main_v99 (ix2 n j) k = ix2 k j by ix_two, w4_2, l3_2]
  rfl

/-- The reference's result of expert 2 at row `n`, column `j` is the specification's expert 2 on row `n` of the features. -/
private theorem expert_2 (x0 : (⟨S32768x1024, .f32⟩ : BufTy).Contents (Elt Ideal)) (x2 : (⟨S4x1024x512, .f32⟩ : BufTy).Contents (Elt Ideal)) (x3 : (⟨S4x512, .f32⟩ : BufTy).Contents (Elt Ideal)) (x4 : (⟨S4x512x128, .f32⟩ : BufTy).Contents (Elt Ideal)) (x5 : (⟨S4x128, .f32⟩ : BufTy).Contents (Elt Ideal)) (x6 : (⟨S4x128x512, .f32⟩ : BufTy).Contents (Elt Ideal)) (x7 : (⟨S4x512, .f32⟩ : BufTy).Contents (Elt Ideal)) (x8 : (⟨S4x512x1024, .f32⟩ : BufTy).Contents (Elt Ideal)) (x9 : (⟨S4x1024, .f32⟩ : BufTy).Contents (Elt Ideal)) (n : Fin 32768) (j : Fin 1024) :
    val_main_v104 (F := Ideal) x0 x2 x3 x4 x5 x6 x7 x8 x9 (ix2 n j)
      = expert x2 x3 x4 x5 x6 x7 x8 x9 2 (fun i => x0 (ix2 n i)) j := by
  rw [l4_2]
  rfl

/-! ### Expert 3: its slices of the stacked weights, and its four layers read at a row and a column -/

private theorem w1_3 (x2 : (⟨S4x1024x512, .f32⟩ : BufTy).Contents (Elt Ideal)) (k : Fin 1024) (j : Fin 512) :
    val_main_v106 (F := Ideal) x2 (ix2 k j) = x2 (ix3 3 k j) := by
  rw [val_main_v106_apply, val_main_v105_apply]
  congr 1
  funext a; apply Fin.ext
  have hk := k.isLt; have hj := j.isLt
  match a with
  | ⟨0, _⟩ => rfl
  | ⟨1, _⟩ => show (k.val * 512 + j.val) / 512 % 1024 = k.val; omega
  | ⟨2, _⟩ => show (k.val * 512 + j.val) % 512 = j.val; omega

private theorem b1_3 (x3 : (⟨S4x512, .f32⟩ : BufTy).Contents (Elt Ideal)) (n : Fin 32768) (j : Fin 512) :
    val_main_v111 (F := Ideal) x3 (ix2 n j) = x3 (ix2 3 j) := by
  rw [val_main_v111_apply, val_main_v110_apply, val_main_v109_apply, val_main_v108_apply]
  congr 1
  funext a; apply Fin.ext
  have hj := j.isLt
  match a with
  | ⟨0, _⟩ => rfl
  | ⟨1, _⟩ => show j.val % 512 = j.val; omega

private theorem z1_3 (i : S32768x512.Idx) : val_main_call9_v0 (F := Ideal) i = (0 : EReal) := by
  rw [val_main_call9_v0_apply, val_main_call9_cst_apply, Ideal.ofBits_def, Ideal.ofBits_zero_f32]

private theorem w2_3 (x4 : (⟨S4x512x128, .f32⟩ : BufTy).Contents (Elt Ideal)) (k : Fin 512) (j : Fin 128) :
    val_main_v115 (F := Ideal) x4 (ix2 k j) = x4 (ix3 3 k j) := by
  rw [val_main_v115_apply, val_main_v114_apply]
  congr 1
  funext a; apply Fin.ext
  have hk := k.isLt; have hj := j.isLt
  match a with
  | ⟨0, _⟩ => rfl
  | ⟨1, _⟩ => show (k.val * 128 + j.val) / 128 % 512 = k.val; omega
  | ⟨2, _⟩ => show (k.val * 128 + j.val) % 128 = j.val; omega

private theorem b2_3 (x5 : (⟨S4x128, .f32⟩ : BufTy).Contents (Elt Ideal)) (n : Fin 32768) (j : Fin 128) :
    val_main_v120 (F := Ideal) x5 (ix2 n j) = x5 (ix2 3 j) := by
  rw [val_main_v120_apply, val_main_v119_apply, val_main_v118_apply, val_main_v117_apply]
  congr 1
  funext a; apply Fin.ext
  have hj := j.isLt
  match a with
  | ⟨0, _⟩ => rfl
  | ⟨1, _⟩ => show j.val % 128 = j.val; omega

private theorem z2_3 (i : S32768x128.Idx) : val_main_call10_v0 (F := Ideal) i = (0 : EReal) := by
  rw [val_main_call10_v0_apply, val_main_call10_cst_apply, Ideal.ofBits_def, Ideal.ofBits_zero_f32]

private theorem w3_3 (x6 : (⟨S4x128x512, .f32⟩ : BufTy).Contents (Elt Ideal)) (k : Fin 128) (j : Fin 512) :
    val_main_v124 (F := Ideal) x6 (ix2 k j) = x6 (ix3 3 k j) := by
  rw [val_main_v124_apply, val_main_v123_apply]
  congr 1
  funext a; apply Fin.ext
  have hk := k.isLt; have hj := j.isLt
  match a with
  | ⟨0, _⟩ => rfl
  | ⟨1, _⟩ => show (k.val * 512 + j.val) / 512 % 128 = k.val; omega
  | ⟨2, _⟩ => show (k.val * 512 + j.val) % 512 = j.val; omega

private theorem b3_3 (x7 : (⟨S4x512, .f32⟩ : BufTy).Contents (Elt Ideal)) (n : Fin 32768) (j : Fin 512) :
    val_main_v129 (F := Ideal) x7 (ix2 n j) = x7 (ix2 3 j) := by
  rw [val_main_v129_apply, val_main_v128_apply, val_main_v127_apply, val_main_v126_apply]
  congr 1
  funext a; apply Fin.ext
  have hj := j.isLt
  match a with
  | ⟨0, _⟩ => rfl
  | ⟨1, _⟩ => show j.val % 512 = j.val; omega

private theorem z3_3 (i : S32768x512.Idx) : val_main_call11_v0 (F := Ideal) i = (0 : EReal) := by
  rw [val_main_call11_v0_apply, val_main_call11_cst_apply, Ideal.ofBits_def, Ideal.ofBits_zero_f32]

private theorem w4_3 (x8 : (⟨S4x512x1024, .f32⟩ : BufTy).Contents (Elt Ideal)) (k : Fin 512) (j : Fin 1024) :
    val_main_v133 (F := Ideal) x8 (ix2 k j) = x8 (ix3 3 k j) := by
  rw [val_main_v133_apply, val_main_v132_apply]
  congr 1
  funext a; apply Fin.ext
  have hk := k.isLt; have hj := j.isLt
  match a with
  | ⟨0, _⟩ => rfl
  | ⟨1, _⟩ => show (k.val * 1024 + j.val) / 1024 % 512 = k.val; omega
  | ⟨2, _⟩ => show (k.val * 1024 + j.val) % 1024 = j.val; omega

private theorem b4_3 (x9 : (⟨S4x1024, .f32⟩ : BufTy).Contents (Elt Ideal)) (n : Fin 32768) (j : Fin 1024) :
    val_main_v138 (F := Ideal) x9 (ix2 n j) = x9 (ix2 3 j) := by
  rw [val_main_v138_apply, val_main_v137_apply, val_main_v136_apply, val_main_v135_apply]
  congr 1
  funext a; apply Fin.ext
  have hj := j.isLt
  match a with
  | ⟨0, _⟩ => rfl
  | ⟨1, _⟩ => show j.val % 1024 = j.val; omega

private theorem l1_3 (x0 : (⟨S32768x1024, .f32⟩ : BufTy).Contents (Elt Ideal)) (x2 : (⟨S4x1024x512, .f32⟩ : BufTy).Contents (Elt Ideal)) (x3 : (⟨S4x512, .f32⟩ : BufTy).Contents (Elt Ideal)) (n : Fin 32768) (j : Fin 512) :
    val_main_v113 (F := Ideal) x0 x2 x3 (ix2 n j)
      = relu (lin (fun i k => x2 (ix3 3 i k)) (fun k => x3 (ix2 3 k)) (fun i => x0 (ix2 n i)) j) := by
  rw [val_main_v113_apply, val_main_v112_apply, val_main_v107_apply, b1_3, z1_3, Ideal.maximumf_def, Ideal.addf_def]
  unfold relu lin
  congr 2
  refine Finset.sum_congr rfl fun k _ => ?_
  rw [show lidx_main_v107 (ix2 n j) k = ix2 n k by ix_two, show ridx_main_v107 (ix2 n j) k = ix2 k j by ix_two, w1_3]

private theorem l2_3 (x0 : (⟨S32768x1024, .f32⟩ : BufTy).Contents (Elt Ideal)) (x2 : (⟨S4x1024x512, .f32⟩ : BufTy).Contents (Elt Ideal)) (x3 : (⟨S4x512, .f32⟩ : BufTy).Contents (Elt Ideal)) (x4 : (⟨S4x512x128, .f32⟩ : BufTy).Contents (Elt Ideal)) (x5 : (⟨S4x128, .f32⟩ : BufTy).Contents (Elt Ideal)) (n : Fin 32768) (j : Fin 128) :
    val_main_v122 (F := Ideal) x0 x2 x3 x4 x5 (ix2 n j)
      = relu (lin (fun i k => x4 (ix3 3 i k)) (fun k => x5 (ix2 3 k)) (fun k1 => relu (lin (fun i k => x2 (ix3 3 i k)) (fun k => x3 (ix2 3 k)) (fun i => x0 (ix2 n i)) k1)) j) := by
  rw [val_main_v122_apply, val_main_v121_apply, val_main_v116_apply, b2_3, z2_3, Ideal.maximumf_def, Ideal.addf_def]
  unfold relu lin
  congr 2
  refine Finset.sum_congr rfl fun k _ => ?_
  rw [show lidx_main_v116 (ix2 n j) k = ix2 n k by ix_two, show ridx_main_v116 (ix2 n j) k = ix2 k j by ix_two, w2_3, l1_3]
  rfl

private theorem l3_3 (x0 : (⟨S32768x1024, .f32⟩ : BufTy).Contents (Elt Ideal)) (x2 : (⟨S4x1024x512, .f32⟩ : BufTy).Contents (Elt Ideal)) (x3 : (⟨S4x512, .f32⟩ : BufTy).Contents (Elt Ideal)) (x4 : (⟨S4x512x128, .f32⟩ : BufTy).Contents (Elt Ideal)) (x5 : (⟨S4x128, .f32⟩ : BufTy).Contents (Elt Ideal)) (x6 : (⟨S4x128x512, .f32⟩ : BufTy).Contents (Elt Ideal)) (x7 : (⟨S4x512, .f32⟩ : BufTy).Contents (Elt Ideal)) (n : Fin 32768) (j : Fin 512) :
    val_main_v131 (F := Ideal) x0 x2 x3 x4 x5 x6 x7 (ix2 n j)
      = relu (lin (fun i k => x6 (ix3 3 i k)) (fun k => x7 (ix2 3 k)) (fun k2 => relu (lin (fun i k => x4 (ix3 3 i k)) (fun k => x5 (ix2 3 k)) (fun k1 => relu (lin (fun i k => x2 (ix3 3 i k)) (fun k => x3 (ix2 3 k)) (fun i => x0 (ix2 n i)) k1)) k2)) j) := by
  rw [val_main_v131_apply, val_main_v130_apply, val_main_v125_apply, b3_3, z3_3, Ideal.maximumf_def, Ideal.addf_def]
  unfold relu lin
  congr 2
  refine Finset.sum_congr rfl fun k _ => ?_
  rw [show lidx_main_v125 (ix2 n j) k = ix2 n k by ix_two, show ridx_main_v125 (ix2 n j) k = ix2 k j by ix_two, w3_3, l2_3]
  rfl

private theorem l4_3 (x0 : (⟨S32768x1024, .f32⟩ : BufTy).Contents (Elt Ideal)) (x2 : (⟨S4x1024x512, .f32⟩ : BufTy).Contents (Elt Ideal)) (x3 : (⟨S4x512, .f32⟩ : BufTy).Contents (Elt Ideal)) (x4 : (⟨S4x512x128, .f32⟩ : BufTy).Contents (Elt Ideal)) (x5 : (⟨S4x128, .f32⟩ : BufTy).Contents (Elt Ideal)) (x6 : (⟨S4x128x512, .f32⟩ : BufTy).Contents (Elt Ideal)) (x7 : (⟨S4x512, .f32⟩ : BufTy).Contents (Elt Ideal)) (x8 : (⟨S4x512x1024, .f32⟩ : BufTy).Contents (Elt Ideal)) (x9 : (⟨S4x1024, .f32⟩ : BufTy).Contents (Elt Ideal)) (n : Fin 32768) (j : Fin 1024) :
    val_main_v139 (F := Ideal) x0 x2 x3 x4 x5 x6 x7 x8 x9 (ix2 n j)
      = lin (fun i k => x8 (ix3 3 i k)) (fun k => x9 (ix2 3 k)) (fun k3 => relu (lin (fun i k => x6 (ix3 3 i k)) (fun k => x7 (ix2 3 k)) (fun k2 => relu (lin (fun i k => x4 (ix3 3 i k)) (fun k => x5 (ix2 3 k)) (fun k1 => relu (lin (fun i k => x2 (ix3 3 i k)) (fun k => x3 (ix2 3 k)) (fun i => x0 (ix2 n i)) k1)) k2)) k3)) j := by
  rw [val_main_v139_apply, val_main_v134_apply, b4_3, Ideal.addf_def]
  unfold lin
  congr 1
  refine Finset.sum_congr rfl fun k _ => ?_
  rw [show lidx_main_v134 (ix2 n j) k = ix2 n k by ix_two, show ridx_main_v134 (ix2 n j) k = ix2 k j by ix_two, w4_3, l3_3]
  rfl

/-- The reference's result of expert 3 at row `n`, column `j` is the specification's expert 3 on row `n` of the features. -/
private theorem expert_3 (x0 : (⟨S32768x1024, .f32⟩ : BufTy).Contents (Elt Ideal)) (x2 : (⟨S4x1024x512, .f32⟩ : BufTy).Contents (Elt Ideal)) (x3 : (⟨S4x512, .f32⟩ : BufTy).Contents (Elt Ideal)) (x4 : (⟨S4x512x128, .f32⟩ : BufTy).Contents (Elt Ideal)) (x5 : (⟨S4x128, .f32⟩ : BufTy).Contents (Elt Ideal)) (x6 : (⟨S4x128x512, .f32⟩ : BufTy).Contents (Elt Ideal)) (x7 : (⟨S4x512, .f32⟩ : BufTy).Contents (Elt Ideal)) (x8 : (⟨S4x512x1024, .f32⟩ : BufTy).Contents (Elt Ideal)) (x9 : (⟨S4x1024, .f32⟩ : BufTy).Contents (Elt Ideal)) (n : Fin 32768) (j : Fin 1024) :
    val_main_v139 (F := Ideal) x0 x2 x3 x4 x5 x6 x7 x8 x9 (ix2 n j)
      = expert x2 x3 x4 x5 x6 x7 x8 x9 3 (fun i => x0 (ix2 n i)) j := by
  rw [l4_3]
  rfl

/-! ### The routing: a symbol in range is neither wrapped nor masked, and the gather reads the stacked results at it -/

private theorem sym_cases (w : BitVec 32) (h : w.toNat < 4) : w = 0#32 ∨ w = 1#32 ∨ w = 2#32 ∨ w = 3#32 := by
  have h' : w.toNat = 0 ∨ w.toNat = 1 ∨ w.toNat = 2 ∨ w.toNat = 3 := by omega
  rcases h' with h' | h' | h' | h'
  · exact Or.inl (BitVec.eq_of_toNat_eq h')
  · exact Or.inr (Or.inl (BitVec.eq_of_toNat_eq h'))
  · exact Or.inr (Or.inr (Or.inl (BitVec.eq_of_toNat_eq h')))
  · exact Or.inr (Or.inr (Or.inr (BitVec.eq_of_toNat_eq h')))

/-- A word below 4 is not negative, so "add 4 when negative" leaves it alone. -/
private theorem norm_eq (w : BitVec 32) (h : w.toNat < 4) :
    Scalar.select (IntOp.cmpi .slt w 0#32) (IntOp.addi w 4#32) w = w := by
  rcases sym_cases w h with rfl | rfl | rfl | rfl <;> rfl

/-- A word below 4 passes the test `0 ≤ w ≤ 3`. -/
private theorem inb_eq (w : BitVec 32) (h : w.toNat < 4) :
    IntOp.andi (IntOp.cmpi .sge w 0#32) (IntOp.cmpi .sle w 3#32) = 1#1 := by
  rcases sym_cases w h with rfl | rfl | rfl | rfl <;> rfl

/-- The normalised index at `(0, n, 0)` is the symbol of row `n` itself. -/
private theorem v4_at (x1 : (⟨S32768, .i32⟩ : BufTy).Contents (Elt Ideal)) (hsym : ∀ n : Fin 32768, ((x1 : S32768.Idx → BitVec 32) (ix1 n)).toNat < 4) (i : S1x32768x1.Idx) :
    val_main_call12_v4 (F := Ideal) x1 i = x1 (ix1 (i 1)) := by
  rw [val_main_call12_v4_apply, val_main_call12_v1_apply, val_main_call12_v3_apply, val_main_v145_apply,
    val_main_call12_v0_apply, val_main_call12_c_apply, val_main_call12_v2_apply, val_main_call12_c_0_apply]
  rw [show idx_main_v145 i = ix1 (i 1) from funext fun a => by match a with | ⟨0, _⟩ => rfl]
  exact norm_eq _ (hsym (i 1))

/-- The in-bounds mask is set everywhere. -/
private theorem v10_one (x1 : (⟨S32768, .i32⟩ : BufTy).Contents (Elt Ideal)) (hsym : ∀ n : Fin 32768, ((x1 : S32768.Idx → BitVec 32) (ix1 n)).toNat < 4) (i : S1x32768x1.Idx) :
    val_main_call12_v10 (F := Ideal) x1 i = 1#1 := by
  rw [val_main_call12_v10_apply, val_main_call12_v6_apply, val_main_call12_v9_apply, v4_at x1 hsym,
    val_main_call12_v5_apply, val_main_call12_c_2_apply, val_main_call12_v8_apply, val_main_call12_v7_apply,
    val_main_call12_c_1_apply]
  exact inb_eq _ (hsym (i 1))

private theorem foldl_andi_ones {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a List.mem_cons_self]
    exact ih (fun n hn => h n (List.mem_cons_of_mem _ hn))

/-- The and-reduction of the mask over its last axis is set everywhere. -/
private theorem mask_one (x1 : (⟨S32768, .i32⟩ : BufTy).Contents (Elt Ideal)) (hsym : ∀ n : Fin 32768, ((x1 : S32768.Idx → BitVec 32) (ix1 n)).toNat < 4) (jj : S1x32768.Idx) :
    val_main_call12_v11 (F := Ideal) x1 jj = 1#1 := by
  unfold val_main_call12_v11
  rw [Host.reduce_eq_foldl, val_main_call12_c_3_apply]
  exact foldl_andi_ones _ _ (fun i _ => v10_one x1 hsym i)

/-- The gather of take-along-axis-0 at `(0, n, j)`: the operand at `(e, n, j)`, `e` the start index at `(0, n, 0)` read
    signed and clamped into `[0, 3]`. -/
private theorem gather_at {α : Type} (x : S4x32768x1024.Idx → α) (idx : IVec S1x32768x1 32) (n : Fin 32768) (j : Fin 1024)
    (e : Fin 4) (he : e.val = min (idx (ix3 (0 : Fin 1) n (0 : Fin 1))).toInt.toNat 3) :
    Host.gather gather_S4x32768x1024_S1x32768x1_S1x32768x1024_2_0_1_1_0_2_111024 x idx (ix3 (0 : Fin 1) n j) = x (ix3 e n j) := by
  unfold Host.gather
  congr 1
  funext a; apply Fin.ext
  match a with
  | ⟨0, _⟩ =>
    have hm : (0 : Fin 3) ∈ gather_S4x32768x1024_S1x32768x1_S1x32768x1024_2_0_1_1_0_2_111024.startIndexMap := by decide
    show gather_S4x32768x1024_S1x32768x1_S1x32768x1024_2_0_1_1_0_2_111024.start (ix3 (0 : Fin 1) n j) idx 0 + gather_S4x32768x1024_S1x32768x1_S1x32768x1024_2_0_1_1_0_2_111024.batchCoord (ix3 (0 : Fin 1) n j) 0
      + gather_S4x32768x1024_S1x32768x1_S1x32768x1024_2_0_1_1_0_2_111024.offCoord (ix3 (0 : Fin 1) n j) 0 = e.val
    rw [GatherDims.batchCoord_eq_zero _ _ _ (by decide), GatherDims.offCoord_eq_zero _ _ _ (by decide), he]
    unfold GatherDims.start
    rw [dif_pos hm]
    have hsi : gather_S4x32768x1024_S1x32768x1_S1x32768x1024_2_0_1_1_0_2_111024.siIdx (ix3 (0 : Fin 1) n j) ⟨List.idxOf (0 : Fin 3) gather_S4x32768x1024_S1x32768x1_S1x32768x1024_2_0_1_1_0_2_111024.startIndexMap, List.idxOf_lt_length_iff.2 hm⟩
        = ix3 (0 : Fin 1) n (0 : Fin 1) := by
      funext b; apply Fin.ext
      match b with
      | ⟨0, _⟩ => rfl
      | ⟨1, _⟩ => rfl
      | ⟨2, _⟩ => rfl
    rw [hsi]
    rfl
  | ⟨1, _⟩ =>
    show gather_S4x32768x1024_S1x32768x1_S1x32768x1024_2_0_1_1_0_2_111024.start (ix3 (0 : Fin 1) n j) idx 1 + gather_S4x32768x1024_S1x32768x1_S1x32768x1024_2_0_1_1_0_2_111024.batchCoord (ix3 (0 : Fin 1) n j) 1
      + gather_S4x32768x1024_S1x32768x1_S1x32768x1024_2_0_1_1_0_2_111024.offCoord (ix3 (0 : Fin 1) n j) 1 = n.val
    rw [GatherDims.start_batching _ _ _ _ (by decide), GatherDims.offCoord_eq_zero _ _ _ (by decide), Nat.zero_add, Nat.add_zero]
    rfl
  | ⟨2, _⟩ =>
    show gather_S4x32768x1024_S1x32768x1_S1x32768x1024_2_0_1_1_0_2_111024.start (ix3 (0 : Fin 1) n j) idx 2 + gather_S4x32768x1024_S1x32768x1_S1x32768x1024_2_0_1_1_0_2_111024.batchCoord (ix3 (0 : Fin 1) n j) 2
      + gather_S4x32768x1024_S1x32768x1_S1x32768x1024_2_0_1_1_0_2_111024.offCoord (ix3 (0 : Fin 1) n j) 2 = j.val
    rw [GatherDims.batchCoord_eq_zero _ _ _ (by decide), Nat.add_zero]
    unfold GatherDims.start
    rw [dif_neg (by decide), Nat.zero_add]
    rfl

/-- The stack of the four results at leading coordinate 0 is result 0. -/
private theorem cat_0 {α : Type} (y0 y1 y2 y3 : S1x32768x1024.Idx → α) (n : Fin 32768) (j : Fin 1024) :
    concatenate S4x32768x1024 0 [⟨S1x32768x1024, y0⟩, ⟨S1x32768x1024, y1⟩, ⟨S1x32768x1024, y2⟩, ⟨S1x32768x1024, y3⟩]
        concatenates_S1x32768x1024_S1x32768x1024_S1x32768x1024_S1x32768x1024_S4x32768x1024_d0 (ix3 (0 : Fin 4) n j) = y0 (ix3 (0 : Fin 1) n j) :=
  concatenate_apply_piece (t := S4x32768x1024) 0
    [⟨S1x32768x1024, y0⟩, ⟨S1x32768x1024, y1⟩, ⟨S1x32768x1024, y2⟩, ⟨S1x32768x1024, y3⟩]
    concatenates_S1x32768x1024_S1x32768x1024_S1x32768x1024_S1x32768x1024_S4x32768x1024_d0 (ix3 (0 : Fin 4) n j) 0 (by show 0 < 4; decide) S1x32768x1024 y0 rfl rfl 0 rfl (ix3 (0 : Fin 1) n j)
    (fun b hb => by
      match b with
      | ⟨0, _⟩ => exact absurd rfl hb
      | ⟨1, _⟩ => rfl
      | ⟨2, _⟩ => rfl)
    rfl

/-- The stack of the four results at leading coordinate 1 is result 1. -/
private theorem cat_1 {α : Type} (y0 y1 y2 y3 : S1x32768x1024.Idx → α) (n : Fin 32768) (j : Fin 1024) :
    concatenate S4x32768x1024 0 [⟨S1x32768x1024, y0⟩, ⟨S1x32768x1024, y1⟩, ⟨S1x32768x1024, y2⟩, ⟨S1x32768x1024, y3⟩]
        concatenates_S1x32768x1024_S1x32768x1024_S1x32768x1024_S1x32768x1024_S4x32768x1024_d0 (ix3 (1 : Fin 4) n j) = y1 (ix3 (0 : Fin 1) n j) :=
  concatenate_apply_piece (t := S4x32768x1024) 0
    [⟨S1x32768x1024, y0⟩, ⟨S1x32768x1024, y1⟩, ⟨S1x32768x1024, y2⟩, ⟨S1x32768x1024, y3⟩]
    concatenates_S1x32768x1024_S1x32768x1024_S1x32768x1024_S1x32768x1024_S4x32768x1024_d0 (ix3 (1 : Fin 4) n j) 1 (by show 1 < 4; decide) S1x32768x1024 y1 rfl rfl 1 rfl (ix3 (0 : Fin 1) n j)
    (fun b hb => by
      match b with
      | ⟨0, _⟩ => exact absurd rfl hb
      | ⟨1, _⟩ => rfl
      | ⟨2, _⟩ => rfl)
    rfl

/-- The stack of the four results at leading coordinate 2 is result 2. -/
private theorem cat_2 {α : Type} (y0 y1 y2 y3 : S1x32768x1024.Idx → α) (n : Fin 32768) (j : Fin 1024) :
    concatenate S4x32768x1024 0 [⟨S1x32768x1024, y0⟩, ⟨S1x32768x1024, y1⟩, ⟨S1x32768x1024, y2⟩, ⟨S1x32768x1024, y3⟩]
        concatenates_S1x32768x1024_S1x32768x1024_S1x32768x1024_S1x32768x1024_S4x32768x1024_d0 (ix3 (2 : Fin 4) n j) = y2 (ix3 (0 : Fin 1) n j) :=
  concatenate_apply_piece (t := S4x32768x1024) 0
    [⟨S1x32768x1024, y0⟩, ⟨S1x32768x1024, y1⟩, ⟨S1x32768x1024, y2⟩, ⟨S1x32768x1024, y3⟩]
    concatenates_S1x32768x1024_S1x32768x1024_S1x32768x1024_S1x32768x1024_S4x32768x1024_d0 (ix3 (2 : Fin 4) n j) 2 (by show 2 < 4; decide) S1x32768x1024 y2 rfl rfl 2 rfl (ix3 (0 : Fin 1) n j)
    (fun b hb => by
      match b with
      | ⟨0, _⟩ => exact absurd rfl hb
      | ⟨1, _⟩ => rfl
      | ⟨2, _⟩ => rfl)
    rfl

/-- The stack of the four results at leading coordinate 3 is result 3. -/
private theorem cat_3 {α : Type} (y0 y1 y2 y3 : S1x32768x1024.Idx → α) (n : Fin 32768) (j : Fin 1024) :
    concatenate S4x32768x1024 0 [⟨S1x32768x1024, y0⟩, ⟨S1x32768x1024, y1⟩, ⟨S1x32768x1024, y2⟩, ⟨S1x32768x1024, y3⟩]
        concatenates_S1x32768x1024_S1x32768x1024_S1x32768x1024_S1x32768x1024_S4x32768x1024_d0 (ix3 (3 : Fin 4) n j) = y3 (ix3 (0 : Fin 1) n j) :=
  concatenate_apply_piece (t := S4x32768x1024) 0
    [⟨S1x32768x1024, y0⟩, ⟨S1x32768x1024, y1⟩, ⟨S1x32768x1024, y2⟩, ⟨S1x32768x1024, y3⟩]
    concatenates_S1x32768x1024_S1x32768x1024_S1x32768x1024_S1x32768x1024_S4x32768x1024_d0 (ix3 (3 : Fin 4) n j) 3 (by show 3 < 4; decide) S1x32768x1024 y3 rfl rfl 3 rfl (ix3 (0 : Fin 1) n j)
    (fun b hb => by
      match b with
      | ⟨0, _⟩ => exact absurd rfl hb
      | ⟨1, _⟩ => rfl
      | ⟨2, _⟩ => rfl)
    rfl

/-! ### The reference's result is the specification -/

theorem val_eq_G (x0 : (⟨S32768x1024, .f32⟩ : BufTy).Contents (Elt Ideal)) (x1 : (⟨S32768, .i32⟩ : BufTy).Contents (Elt Ideal))
    (x2 : (⟨S4x1024x512, .f32⟩ : BufTy).Contents (Elt Ideal)) (x3 : (⟨S4x512, .f32⟩ : BufTy).Contents (Elt Ideal))
    (x4 : (⟨S4x512x128, .f32⟩ : BufTy).Contents (Elt Ideal)) (x5 : (⟨S4x128, .f32⟩ : BufTy).Contents (Elt Ideal))
    (x6 : (⟨S4x128x512, .f32⟩ : BufTy).Contents (Elt Ideal)) (x7 : (⟨S4x512, .f32⟩ : BufTy).Contents (Elt Ideal))
    (x8 : (⟨S4x512x1024, .f32⟩ : BufTy).Contents (Elt Ideal)) (x9 : (⟨S4x1024, .f32⟩ : BufTy).Contents (Elt Ideal))
    (hsym : ∀ n : Fin 32768, ((x1 : S32768.Idx → BitVec 32) (ix1 n)).toNat < 4) :
    (Cert.ReferenceIdeal.RefRead.val_main_v147 (F := Ideal) x0 x1 x2 x3 x4 x5 x6 x7 x8 x9 : S32768x1024.Idx → EReal)
      = Cert.Moe.G x0 x1 x2 x3 x4 x5 x6 x7 x8 x9 := by
  funext i
  obtain ⟨n, j, rfl⟩ : ∃ (n : Fin 32768) (j : Fin 1024), i = ix2 n j := ⟨i 0, i 1, eq_ix2 i⟩
  rw [val_main_v147_apply, val_main_v146_apply]
  have hi : idx_main_v147 (ix2 n j) = ix3 (0 : Fin 1) n j := by
    funext a; apply Fin.ext
    have hn := n.isLt; have hj := j.isLt
    match a with
    | ⟨0, _⟩ => rfl
    | ⟨1, _⟩ => show (n.val * 1024 + j.val) / 1024 % 32768 = n.val; omega
    | ⟨2, _⟩ => show (n.val * 1024 + j.val) % 1024 = j.val; omega
  rw [hi, val_main_call12_v13_apply, mask_one x1 hsym, select_one]
  unfold val_main_call12_v12
  have hw : val_main_call12_v4 (F := Ideal) x1 (ix3 (0 : Fin 1) n (0 : Fin 1)) = x1 (ix1 n) :=
    v4_at x1 hsym (ix3 (0 : Fin 1) n (0 : Fin 1))
  show _ = expert x2 x3 x4 x5 x6 x7 x8 x9 (eidOf (x1 (ix1 n))) (fun i => x0 (ix2 n i)) j
  rcases sym_cases _ (hsym n) with h | h | h | h
  · have hidx : val_main_call12_v4 (F := Ideal) x1 (ix3 (0 : Fin 1) n (0 : Fin 1)) = 0#32 := hw.trans h
    have he : eidOf (x1 (ix1 n)) = (0 : Fin 4) := (congrArg eidOf h).trans rfl
    rw [gather_at _ (val_main_call12_v4 (F := Ideal) x1) n j 0 (by rw [hidx]; rfl)]
    unfold val_main_v144
    rw [cat_0, val_main_v140_apply, show idx_main_v140 (ix3 (0 : Fin 1) n j) = ix2 n j by ix_two, expert_0, he]
  · have hidx : val_main_call12_v4 (F := Ideal) x1 (ix3 (0 : Fin 1) n (0 : Fin 1)) = 1#32 := hw.trans h
    have he : eidOf (x1 (ix1 n)) = (1 : Fin 4) := (congrArg eidOf h).trans rfl
    rw [gather_at _ (val_main_call12_v4 (F := Ideal) x1) n j 1 (by rw [hidx]; rfl)]
    unfold val_main_v144
    rw [cat_1, val_main_v141_apply, show idx_main_v141 (ix3 (0 : Fin 1) n j) = ix2 n j by ix_two, expert_1, he]
  · have hidx : val_main_call12_v4 (F := Ideal) x1 (ix3 (0 : Fin 1) n (0 : Fin 1)) = 2#32 := hw.trans h
    have he : eidOf (x1 (ix1 n)) = (2 : Fin 4) := (congrArg eidOf h).trans rfl
    rw [gather_at _ (val_main_call12_v4 (F := Ideal) x1) n j 2 (by rw [hidx]; rfl)]
    unfold val_main_v144
    rw [cat_2, val_main_v142_apply, show idx_main_v142 (ix3 (0 : Fin 1) n j) = ix2 n j by ix_two, expert_2, he]
  · have hidx : val_main_call12_v4 (F := Ideal) x1 (ix3 (0 : Fin 1) n (0 : Fin 1)) = 3#32 := hw.trans h
    have he : eidOf (x1 (ix1 n)) = (3 : Fin 4) := (congrArg eidOf h).trans rfl
    rw [gather_at _ (val_main_call12_v4 (F := Ideal) x1) n j 3 (by rw [hidx]; rfl)]
    unfold val_main_v144
    rw [cat_3, val_main_v143_apply, show idx_main_v143 (ix3 (0 : Fin 1) n j) = ix2 n j by ix_two, expert_3, he]

end Cert.ReferenceIdeal.RefValue

end
-- ==== Proof.PreFacts.lean ====
/-
  What the precondition says about the symbol words: its last conjunct is
  "every symbol id is ≥ 0 and < 4" (signed), so every word, read unsigned, is below 4.
-/
import proofs.«407739_j36696200577712_3_alg».proof.Pre_finite_inputs
import Idealize.ShloMosaic.Lib.ReduceAll
import Idealize.ShloMosaic.Lib.StableHlo.Predicate
import Idealize.ShloMosaic.Lib.ValueIdx

noncomputable section

namespace Cert.Pre_finite_inputs

open Idealize.ShloMosaic Idealize.ShloMosaic.ValueIdx

variable {F : FTy → Type} [FloatOps F] [Facts]

/-- The rank-0 shape has exactly one index. -/
private theorem subsingleton_S_ : Subsingleton S_.Idx := ⟨fun a b => funext fun d => d.elim0⟩

theorem sym_lt_of_pre (x0 : FVec F S32768x1024 .f32) (x1 : IVec S32768 32) (x2 : FVec F S4x1024x512 .f32) (x3 : FVec F S4x512 .f32)
    (x4 : FVec F S4x512x128 .f32) (x5 : FVec F S4x128 .f32) (x6 : FVec F S4x128x512 .f32) (x7 : FVec F S4x512 .f32)
    (x8 : FVec F S4x512x1024 .f32) (x9 : FVec F S4x1024 .f32)
    (h : fn (F := F) x0 x1 x2 x3 x4 x5 x6 x7 x8 x9 = fun _ => 1#1) (n : Fin 32768) :
    (x1 (ix1 n)).toNat < 4 := by
  -- the predicate at its one index, as the chain of conjunctions
  have h0 := congrFun h ValueIdx.ix0
  dsimp only [fn, fn_part1, fn_part2] at h0
  -- its last conjunct: the "all" over the symbol axis
  have h1 := (IntOp.andi_eq_one.1 h0).2
  haveI := subsingleton_S_
  -- hence the element test at position n, itself a conjunction of two signed comparisons
  have h2 := Host.reduce_andi_all _ _ _ _ _ h1 (ix1 n)
  obtain ⟨h4, h5⟩ := IntOp.andi_eq_one.1 h2
  have h4' := IntOp.cmpi_sge.1 h4
  have h5' := IntOp.cmpi_slt.1 h5
  -- the broadcast scalars read 0 and 4 everywhere
  change (0#32 : BitVec 32).toInt ≤ _ at h4'
  change _ < (4#32 : BitVec 32).toInt at h5'
  rw [show (0#32 : BitVec 32).toInt = 0 from by decide] at h4'
  rw [show (4#32 : BitVec 32).toInt = 4 from by decide] at h5'
  -- a word whose signed reading lies in [0, 4) reads the same unsigned
  have hlt := (x1 (ix1 n)).isLt
  rw [BitVec.toInt_eq_toNat_cond] at h4' h5'
  split at h4' <;> omega

end Cert.Pre_finite_inputs

end
-- ==== Proof.lean ====
/-
  The certificate's five claims.

  The kernel program sorts the atoms by symbol, pads each symbol's group to whole blocks of 1024
  rows, runs one expert's four-layer perceptron on each block, and reads the rows back in the
  atoms' order; the reference runs all four experts on every row and picks each atom's own.  Under
  the precondition (every symbol id is 0, 1, 2 or 3) both results are, row by row, the atom's
  expert applied to the atom's feature row: `Cert.Moe.G`.  No algebraic law beyond the finite sums
  themselves joins the two sides, so finiteness of the float inputs is never used.

  The frames of the two kernel programs hold under a side condition on the table of block owners
  (each entry below 4), which holds for every input; the reference's frame is its run with the
  result dropped; the idealization rewrote nothing.
-/
import proofs.«407739_j36696200577712_3_alg».proof.Defs
import proofs.«407739_j36696200577712_3_alg».proof.Proof.Gen.Kernel
import proofs.«407739_j36696200577712_3_alg».proof.Proof.Gen.Kernel.Skeleton
import proofs.«407739_j36696200577712_3_alg».proof.Proof.Gen.Kernel.Launch
import proofs.«407739_j36696200577712_3_alg».proof.Proof.Gen.Kernel.Points
import proofs.«407739_j36696200577712_3_alg».proof.Proof.Gen.Kernel.Frame
import proofs.«407739_j36696200577712_3_alg».proof.Proof.Gen.KernelIdeal
import proofs.«407739_j36696200577712_3_alg».proof.Proof.Gen.KernelIdeal.Skeleton
import proofs.«407739_j36696200577712_3_alg».proof.Proof.Gen.KernelIdeal.Launch
import proofs.«407739_j36696200577712_3_alg».proof.Proof.Gen.KernelIdeal.Points
import proofs.«407739_j36696200577712_3_alg».proof.Proof.Gen.KernelIdeal.Frame
import proofs.«407739_j36696200577712_3_alg».proof.Proof.Gen.ReferenceIdeal
import proofs.«407739_j36696200577712_3_alg».proof.Proof.Gen.Pre_finite_inputs
import proofs.«407739_j36696200577712_3_alg».proof.Proof.Tail
import proofs.«407739_j36696200577712_3_alg».proof.Proof.TblRangeBits
import proofs.«407739_j36696200577712_3_alg».proof.Proof.RefRun
import proofs.«407739_j36696200577712_3_alg».proof.Proof.RefVal
import proofs.«407739_j36696200577712_3_alg».proof.Proof.PreFacts
import Idealize.ShloMosaic.Adequacy
import Idealize.ShloMosaic.Init

noncomputable section

namespace Cert.Proof

open Idealize.ShloMosaic Idealize.SL.Sem Idealize.ShloMosaic.ValueIdx

/-- The word-level kernel program's frame: its side conditions hold for every input. -/
theorem frame_k : Cert.frame_Kernel (hKernel := Cert.Kernel.Gen.facts) (hPre_finite_inputs := Cert.Pre_finite_inputs.Gen.facts) :=
  fun m ρ _ => Cert.Kernel.Gen.frame m ρ True.intro (Cert.Kernel.Gen.hyps_of_tbl m True.intro)

/-- The idealized kernel program's frame, alike. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ True.intro (Cert.KernelIdeal.Gen.hyps_of_tbl m True.intro)

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- Both programs end at the specification of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  -- the precondition's range fact, on every device
  have hsym : ∀ c : Dev Cert.KernelIdeal.nD, Cert.KernelIdeal.Gen.SymOk m c := fun c n =>
    @Cert.Pre_finite_inputs.sym_lt_of_pre Ideal _ Cert.Pre_finite_inputs.Gen.facts _ _ _ _ _ _ _ _ _ _ (hpre c) n
  have hO : Cert.KernelIdeal.Gen.Ok m := True.intro
  have hH : Cert.KernelIdeal.Gen.Hyps m hO := Cert.KernelIdeal.Gen.hyps_of_tbl m hO
  refine ⟨fun c => Cert.KernelIdeal.Gen.KOut m hO hH c, Cert.KernelIdeal.Gen.run_named m ρ hO hH, ?_⟩
  refine (θ_run Cert.ReferenceIdeal.defs _ _).mono (fun _ h c => ⟨(h c).1.trans ?_, (h c).2⟩)
    (Cert.ReferenceIdeal.RefRun.run (F := Ideal) m' ρ')
  show _ = Cert.KernelIdeal.Gen.KOut m hO hH c
  rw [Cert.KernelIdeal.Gen.KOut_eq m hO hH c (hsym c)]
  obtain ⟨e0, e1, e2, e3, e4, e5, e6, e7, e8, e9⟩ := hagree c
  rw [e0, e1, e2, e3, e4, e5, e6, e7, e8, e9]
  exact Cert.ReferenceIdeal.RefValue.val_eq_G _ _ _ _ _ _ _ _ _ _ (hsym c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
